-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S32x32x512 : Shape := ⟨3, ![32, 32, 512]⟩
abbrev S32 : Shape := ⟨1, ![32]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S32x32x512, .f32⟩
  | .local _ .vmem, ⟨3, _⟩ => ⟨S32x32x512, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v11 : BitVec 32 := Scalar.muli v5 c1024_i32
  let v27 : BitVec 32 := Scalar.addi v11 c0_i32_16
  let c0_i32_26 : BitVec 32 := 0#32
  ![v27.toNat, 0]
def k0_dev3 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v28 : BitVec 32 := Scalar.muli v9 c8_i32_20
  let v29 : BitVec 32 := Scalar.addi c0_i32_21 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v30 : BitVec 32 := Scalar.muli v5 c4_i32_22
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v32 : BitVec 32 := Scalar.muli v8 c1_i32_23
  let v33 : BitVec 32 := Scalar.addi v31 v32
  v33.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v42 : BitVec 32 := Scalar.muli v9 c8_i32_30
  let v43 : BitVec 32 := Scalar.addi c0_i32_31 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v44 : BitVec 32 := Scalar.muli v5 c4_i32_32
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v46 : BitVec 32 := Scalar.muli v8 c1_i32_33
  let v47 : BitVec 32 := Scalar.addi v45 v46
  v47.toNat
def k0_dev5 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v56 : BitVec 32 := Scalar.muli v9 c8_i32_40
  let v57 : BitVec 32 := Scalar.addi c0_i32_41 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v58 : BitVec 32 := Scalar.muli v5 c4_i32_42
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v60 : BitVec 32 := Scalar.muli v8 c1_i32_43
  let v61 : BitVec 32 := Scalar.addi v59 v60
  v61.toNat
def k0_dev6 (d0 : Dev nD) : Nat :=
  let c0_i32_50 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_49 : BitVec 32 := 8#32
  let v70 : BitVec 32 := Scalar.muli v9 c8_i32_49
  let v71 : BitVec 32 := Scalar.addi c0_i32_50 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v72 : BitVec 32 := Scalar.muli v5 c4_i32_51
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v74 : BitVec 32 := Scalar.muli v8 c1_i32_52
  let v75 : BitVec 32 := Scalar.addi v73 v74
  v75.toNat
def k0_dev7 (d0 : Dev nD) : Nat :=
  let c0_i32_60 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_59 : BitVec 32 := 8#32
  let v84 : BitVec 32 := Scalar.muli v9 c8_i32_59
  let v85 : BitVec 32 := Scalar.addi c0_i32_60 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v86 : BitVec 32 := Scalar.muli v5 c4_i32_61
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v88 : BitVec 32 := Scalar.muli v8 c1_i32_62
  let v89 : BitVec 32 := Scalar.addi v87 v88
  v89.toNat
def k0_dev8 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v98 : BitVec 32 := Scalar.muli v9 c8_i32_68
  let v99 : BitVec 32 := Scalar.addi c0_i32_69 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v100 : BitVec 32 := Scalar.muli v5 c4_i32_70
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v102 : BitVec 32 := Scalar.muli v8 c1_i32_71
  let v103 : BitVec 32 := Scalar.addi v101 v102
  v103.toNat
def k0_dev9 (d0 : Dev nD) : Nat :=
  let c0_i32_78 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_77 : BitVec 32 := 8#32
  let v112 : BitVec 32 := Scalar.muli v9 c8_i32_77
  let v113 : BitVec 32 := Scalar.addi c0_i32_78 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v114 : BitVec 32 := Scalar.muli v5 c4_i32_79
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v116 : BitVec 32 := Scalar.muli v8 c1_i32_80
  let v117 : BitVec 32 := Scalar.addi v115 v116
  v117.toNat
def k0_dev10 (d0 : Dev nD) : Nat :=
  let c0_i32_87 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_86 : BitVec 32 := 8#32
  let v126 : BitVec 32 := Scalar.muli v9 c8_i32_86
  let v127 : BitVec 32 := Scalar.addi c0_i32_87 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v128 : BitVec 32 := Scalar.muli v5 c4_i32_88
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v130 : BitVec 32 := Scalar.muli v8 c1_i32_89
  let v131 : BitVec 32 := Scalar.addi v129 v130
  v131.toNat
def k0_dev11 (d0 : Dev nD) : Nat :=
  let c0_i32_97 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_96 : BitVec 32 := 8#32
  let v140 : BitVec 32 := Scalar.muli v9 c8_i32_96
  let v141 : BitVec 32 := Scalar.addi c0_i32_97 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v142 : BitVec 32 := Scalar.muli v5 c4_i32_98
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v144 : BitVec 32 := Scalar.muli v8 c1_i32_99
  let v145 : BitVec 32 := Scalar.addi v143 v144
  v145.toNat
def k0_dev12 (d0 : Dev nD) : Nat :=
  let c0_i32_106 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_105 : BitVec 32 := 8#32
  let v154 : BitVec 32 := Scalar.muli v9 c8_i32_105
  let v155 : BitVec 32 := Scalar.addi c0_i32_106 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v156 : BitVec 32 := Scalar.muli v5 c4_i32_107
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v158 : BitVec 32 := Scalar.muli v8 c1_i32_108
  let v159 : BitVec 32 := Scalar.addi v157 v158
  v159.toNat
def k0_dev13 (d0 : Dev nD) : Nat :=
  let c0_i32_115 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_114 : BitVec 32 := 8#32
  let v168 : BitVec 32 := Scalar.muli v9 c8_i32_114
  let v169 : BitVec 32 := Scalar.addi c0_i32_115 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v170 : BitVec 32 := Scalar.muli v5 c4_i32_116
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v172 : BitVec 32 := Scalar.muli v8 c1_i32_117
  let v173 : BitVec 32 := Scalar.addi v171 v172
  v173.toNat
def k0_dev14 (d0 : Dev nD) : Nat :=
  let c0_i32_124 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_123 : BitVec 32 := 8#32
  let v182 : BitVec 32 := Scalar.muli v9 c8_i32_123
  let v183 : BitVec 32 := Scalar.addi c0_i32_124 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v184 : BitVec 32 := Scalar.muli v5 c4_i32_125
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v186 : BitVec 32 := Scalar.muli v8 c1_i32_126
  let v187 : BitVec 32 := Scalar.addi v185 v186
  v187.toNat
def k0_dev15 (d0 : Dev nD) : Nat :=
  let c0_i32_133 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_132 : BitVec 32 := 8#32
  let v196 : BitVec 32 := Scalar.muli v9 c8_i32_132
  let v197 : BitVec 32 := Scalar.addi c0_i32_133 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v198 : BitVec 32 := Scalar.muli v5 c4_i32_134
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v200 : BitVec 32 := Scalar.muli v8 c1_i32_135
  let v201 : BitVec 32 := Scalar.addi v199 v200
  v201.toNat
def k0_dev16 (d0 : Dev nD) : Nat :=
  let c0_i32_142 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_141 : BitVec 32 := 8#32
  let v210 : BitVec 32 := Scalar.muli v9 c8_i32_141
  let v211 : BitVec 32 := Scalar.addi c0_i32_142 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v212 : BitVec 32 := Scalar.muli v5 c4_i32_143
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v214 : BitVec 32 := Scalar.muli v8 c1_i32_144
  let v215 : BitVec 32 := Scalar.addi v213 v214
  v215.toNat
def k0_dev17 (d0 : Dev nD) : Nat :=
  let c0_i32_151 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_150 : BitVec 32 := 8#32
  let v224 : BitVec 32 := Scalar.muli v9 c8_i32_150
  let v225 : BitVec 32 := Scalar.addi c0_i32_151 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_152 : BitVec 32 := 4#32
  let v226 : BitVec 32 := Scalar.muli v5 c4_i32_152
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v228 : BitVec 32 := Scalar.muli v8 c1_i32_153
  let v229 : BitVec 32 := Scalar.addi v227 v228
  v229.toNat
def k0_dev18 (d0 : Dev nD) : Nat :=
  let c0_i32_160 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_159 : BitVec 32 := 8#32
  let v238 : BitVec 32 := Scalar.muli v9 c8_i32_159
  let v239 : BitVec 32 := Scalar.addi c0_i32_160 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_161 : BitVec 32 := 4#32
  let v240 : BitVec 32 := Scalar.muli v5 c4_i32_161
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v242 : BitVec 32 := Scalar.muli v8 c1_i32_162
  let v243 : BitVec 32 := Scalar.addi v241 v242
  v243.toNat
def k0_dev19 (d0 : Dev nD) : Nat :=
  let c0_i32_169 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_168 : BitVec 32 := 8#32
  let v252 : BitVec 32 := Scalar.muli v9 c8_i32_168
  let v253 : BitVec 32 := Scalar.addi c0_i32_169 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v254 : BitVec 32 := Scalar.muli v5 c4_i32_170
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v256 : BitVec 32 := Scalar.muli v8 c1_i32_171
  let v257 : BitVec 32 := Scalar.addi v255 v256
  v257.toNat
def k0_dev20 (d0 : Dev nD) : Nat :=
  let c0_i32_178 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_177 : BitVec 32 := 8#32
  let v266 : BitVec 32 := Scalar.muli v9 c8_i32_177
  let v267 : BitVec 32 := Scalar.addi c0_i32_178 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v268 : BitVec 32 := Scalar.muli v5 c4_i32_179
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v270 : BitVec 32 := Scalar.muli v8 c1_i32_180
  let v271 : BitVec 32 := Scalar.addi v269 v270
  v271.toNat
def k0_dev21 (d0 : Dev nD) : Nat :=
  let c0_i32_187 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_186 : BitVec 32 := 8#32
  let v280 : BitVec 32 := Scalar.muli v9 c8_i32_186
  let v281 : BitVec 32 := Scalar.addi c0_i32_187 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v282 : BitVec 32 := Scalar.muli v5 c4_i32_188
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v284 : BitVec 32 := Scalar.muli v8 c1_i32_189
  let v285 : BitVec 32 := Scalar.addi v283 v284
  v285.toNat
def k0_dev22 (d0 : Dev nD) : Nat :=
  let c0_i32_196 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_195 : BitVec 32 := 8#32
  let v294 : BitVec 32 := Scalar.muli v9 c8_i32_195
  let v295 : BitVec 32 := Scalar.addi c0_i32_196 v294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_197 : BitVec 32 := 4#32
  let v296 : BitVec 32 := Scalar.muli v5 c4_i32_197
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v298 : BitVec 32 := Scalar.muli v8 c1_i32_198
  let v299 : BitVec 32 := Scalar.addi v297 v298
  v299.toNat
def k0_dev23 (d0 : Dev nD) : Nat :=
  let c0_i32_205 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_204 : BitVec 32 := 8#32
  let v308 : BitVec 32 := Scalar.muli v9 c8_i32_204
  let v309 : BitVec 32 := Scalar.addi c0_i32_205 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v310 : BitVec 32 := Scalar.muli v5 c4_i32_206
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v312 : BitVec 32 := Scalar.muli v8 c1_i32_207
  let v313 : BitVec 32 := Scalar.addi v311 v312
  v313.toNat
def k0_dev24 (d0 : Dev nD) : Nat :=
  let c0_i32_214 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_213 : BitVec 32 := 8#32
  let v322 : BitVec 32 := Scalar.muli v9 c8_i32_213
  let v323 : BitVec 32 := Scalar.addi c0_i32_214 v322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_215 : BitVec 32 := 4#32
  let v324 : BitVec 32 := Scalar.muli v5 c4_i32_215
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v326 : BitVec 32 := Scalar.muli v8 c1_i32_216
  let v327 : BitVec 32 := Scalar.addi v325 v326
  v327.toNat
def k0_dev25 (d0 : Dev nD) : Nat :=
  let c0_i32_223 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_222 : BitVec 32 := 8#32
  let v336 : BitVec 32 := Scalar.muli v9 c8_i32_222
  let v337 : BitVec 32 := Scalar.addi c0_i32_223 v336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_224 : BitVec 32 := 4#32
  let v338 : BitVec 32 := Scalar.muli v5 c4_i32_224
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v340 : BitVec 32 := Scalar.muli v8 c1_i32_225
  let v341 : BitVec 32 := Scalar.addi v339 v340
  v341.toNat
def k0_dev26 (d0 : Dev nD) : Nat :=
  let c0_i32_232 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_231 : BitVec 32 := 8#32
  let v350 : BitVec 32 := Scalar.muli v9 c8_i32_231
  let v351 : BitVec 32 := Scalar.addi c0_i32_232 v350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v352 : BitVec 32 := Scalar.muli v5 c4_i32_233
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v354 : BitVec 32 := Scalar.muli v8 c1_i32_234
  let v355 : BitVec 32 := Scalar.addi v353 v354
  v355.toNat
def k0_dev27 (d0 : Dev nD) : Nat :=
  let c0_i32_241 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_240 : BitVec 32 := 8#32
  let v364 : BitVec 32 := Scalar.muli v9 c8_i32_240
  let v365 : BitVec 32 := Scalar.addi c0_i32_241 v364
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v366 : BitVec 32 := Scalar.muli v5 c4_i32_242
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v368 : BitVec 32 := Scalar.muli v8 c1_i32_243
  let v369 : BitVec 32 := Scalar.addi v367 v368
  v369.toNat
def k0_dev28 (d0 : Dev nD) : Nat :=
  let c0_i32_250 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_249 : BitVec 32 := 8#32
  let v378 : BitVec 32 := Scalar.muli v9 c8_i32_249
  let v379 : BitVec 32 := Scalar.addi c0_i32_250 v378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v380 : BitVec 32 := Scalar.muli v5 c4_i32_251
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v382 : BitVec 32 := Scalar.muli v8 c1_i32_252
  let v383 : BitVec 32 := Scalar.addi v381 v382
  v383.toNat
def k0_dev29 (d0 : Dev nD) : Nat :=
  let c0_i32_259 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_258 : BitVec 32 := 8#32
  let v392 : BitVec 32 := Scalar.muli v9 c8_i32_258
  let v393 : BitVec 32 := Scalar.addi c0_i32_259 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v394 : BitVec 32 := Scalar.muli v5 c4_i32_260
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v396 : BitVec 32 := Scalar.muli v8 c1_i32_261
  let v397 : BitVec 32 := Scalar.addi v395 v396
  v397.toNat
def k0_dev30 (d0 : Dev nD) : Nat :=
  let c0_i32_268 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_267 : BitVec 32 := 8#32
  let v406 : BitVec 32 := Scalar.muli v9 c8_i32_267
  let v407 : BitVec 32 := Scalar.addi c0_i32_268 v406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_269 : BitVec 32 := 4#32
  let v408 : BitVec 32 := Scalar.muli v5 c4_i32_269
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v410 : BitVec 32 := Scalar.muli v8 c1_i32_270
  let v411 : BitVec 32 := Scalar.addi v409 v410
  v411.toNat
def k0_dev31 (d0 : Dev nD) : Nat :=
  let c0_i32_277 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_276 : BitVec 32 := 8#32
  let v420 : BitVec 32 := Scalar.muli v9 c8_i32_276
  let v421 : BitVec 32 := Scalar.addi c0_i32_277 v420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v422 : BitVec 32 := Scalar.muli v5 c4_i32_278
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v424 : BitVec 32 := Scalar.muli v8 c1_i32_279
  let v425 : BitVec 32 := Scalar.addi v423 v424
  v425.toNat
def k0_dev32 (d0 : Dev nD) : Nat :=
  let c0_i32_286 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_285 : BitVec 32 := 8#32
  let v434 : BitVec 32 := Scalar.muli v9 c8_i32_285
  let v435 : BitVec 32 := Scalar.addi c0_i32_286 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_287 : BitVec 32 := 4#32
  let v436 : BitVec 32 := Scalar.muli v5 c4_i32_287
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v438 : BitVec 32 := Scalar.muli v8 c1_i32_288
  let v439 : BitVec 32 := Scalar.addi v437 v438
  v439.toNat
def k0_dev33 (d0 : Dev nD) : Nat :=
  let c0_i32_295 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_294 : BitVec 32 := 8#32
  let v448 : BitVec 32 := Scalar.muli v9 c8_i32_294
  let v449 : BitVec 32 := Scalar.addi c0_i32_295 v448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v450 : BitVec 32 := Scalar.muli v5 c4_i32_296
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v452 : BitVec 32 := Scalar.muli v8 c1_i32_297
  let v453 : BitVec 32 := Scalar.addi v451 v452
  v453.toNat
def k0_dev34 (d0 : Dev nD) : Nat :=
  let c0_i32_304 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_303 : BitVec 32 := 8#32
  let v462 : BitVec 32 := Scalar.muli v9 c8_i32_303
  let v463 : BitVec 32 := Scalar.addi c0_i32_304 v462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v464 : BitVec 32 := Scalar.muli v5 c4_i32_305
  let v465 : BitVec 32 := Scalar.addi v463 v464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v466 : BitVec 32 := Scalar.muli v8 c1_i32_306
  let v467 : BitVec 32 := Scalar.addi v465 v466
  v467.toNat
def k0_dev35 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v486 : BitVec 32 := Scalar.muli v2 c8_i32_324
  let v487 : BitVec 32 := Scalar.addi c0_i32_325 v486
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_326 : BitVec 32 := 4#32
  let v488 : BitVec 32 := Scalar.muli v10 c4_i32_326
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v490 : BitVec 32 := Scalar.muli v8 c1_i32_327
  let v491 : BitVec 32 := Scalar.addi v489 v490
  v491.toNat
def k0_off2 (d0 : Dev nD) (c0_i32_332 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v11 : BitVec 32 := Scalar.muli v5 c1024_i32
  let v500 : BitVec 32 := Scalar.addi v11 c0_i32_332
  let v501 : Index := Scalar.indexCast v500
  let c0 : Index := 0#32
  ![v501.toNat, 0]
def k0_dev36 (d0 : Dev nD) : Nat :=
  let c0_i32_352 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_351 : BitVec 32 := 8#32
  let v520 : BitVec 32 := Scalar.muli v2 c8_i32_351
  let v521 : BitVec 32 := Scalar.addi c0_i32_352 v520
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_353 : BitVec 32 := 4#32
  let v522 : BitVec 32 := Scalar.muli v10 c4_i32_353
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v524 : BitVec 32 := Scalar.muli v8 c1_i32_354
  let v525 : BitVec 32 := Scalar.addi v523 v524
  v525.toNat
def k0_dev37 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v554 : BitVec 32 := Scalar.muli v2 c8_i32_378
  let v555 : BitVec 32 := Scalar.addi c0_i32_379 v554
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_380 : BitVec 32 := 4#32
  let v556 : BitVec 32 := Scalar.muli v10 c4_i32_380
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v558 : BitVec 32 := Scalar.muli v8 c1_i32_381
  let v559 : BitVec 32 := Scalar.addi v557 v558
  v559.toNat
def k0_dev38 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v588 : BitVec 32 := Scalar.muli v2 c8_i32_405
  let v589 : BitVec 32 := Scalar.addi c0_i32_406 v588
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_407 : BitVec 32 := 4#32
  let v590 : BitVec 32 := Scalar.muli v10 c4_i32_407
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v592 : BitVec 32 := Scalar.muli v8 c1_i32_408
  let v593 : BitVec 32 := Scalar.addi v591 v592
  v593.toNat
def k0_dev39 (d0 : Dev nD) : Nat :=
  let c0_i32_433 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_432 : BitVec 32 := 8#32
  let v622 : BitVec 32 := Scalar.muli v2 c8_i32_432
  let v623 : BitVec 32 := Scalar.addi c0_i32_433 v622
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_434 : BitVec 32 := 4#32
  let v624 : BitVec 32 := Scalar.muli v10 c4_i32_434
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v626 : BitVec 32 := Scalar.muli v8 c1_i32_435
  let v627 : BitVec 32 := Scalar.addi v625 v626
  v627.toNat
def k0_dev40 (d0 : Dev nD) : Nat :=
  let c0_i32_460 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_459 : BitVec 32 := 8#32
  let v656 : BitVec 32 := Scalar.muli v2 c8_i32_459
  let v657 : BitVec 32 := Scalar.addi c0_i32_460 v656
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_461 : BitVec 32 := 4#32
  let v658 : BitVec 32 := Scalar.muli v10 c4_i32_461
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v660 : BitVec 32 := Scalar.muli v8 c1_i32_462
  let v661 : BitVec 32 := Scalar.addi v659 v660
  v661.toNat
def k0_dev41 (d0 : Dev nD) : Nat :=
  let c0_i32_487 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_486 : BitVec 32 := 8#32
  let v690 : BitVec 32 := Scalar.muli v2 c8_i32_486
  let v691 : BitVec 32 := Scalar.addi c0_i32_487 v690
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_488 : BitVec 32 := 4#32
  let v692 : BitVec 32 := Scalar.muli v10 c4_i32_488
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_489 : BitVec 32 := 1#32
  let v694 : BitVec 32 := Scalar.muli v8 c1_i32_489
  let v695 : BitVec 32 := Scalar.addi v693 v694
  v695.toNat
def k0_dev42 (d0 : Dev nD) : Nat :=
  let c0_i32_514 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_513 : BitVec 32 := 8#32
  let v724 : BitVec 32 := Scalar.muli v2 c8_i32_513
  let v725 : BitVec 32 := Scalar.addi c0_i32_514 v724
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_515 : BitVec 32 := 4#32
  let v726 : BitVec 32 := Scalar.muli v10 c4_i32_515
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v728 : BitVec 32 := Scalar.muli v8 c1_i32_516
  let v729 : BitVec 32 := Scalar.addi v727 v728
  v729.toNat
def k0_dev43 (d0 : Dev nD) : Nat :=
  let c0_i32_541 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_540 : BitVec 32 := 8#32
  let v758 : BitVec 32 := Scalar.muli v2 c8_i32_540
  let v759 : BitVec 32 := Scalar.addi c0_i32_541 v758
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_542 : BitVec 32 := 4#32
  let v760 : BitVec 32 := Scalar.muli v10 c4_i32_542
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_543 : BitVec 32 := 1#32
  let v762 : BitVec 32 := Scalar.muli v8 c1_i32_543
  let v763 : BitVec 32 := Scalar.addi v761 v762
  v763.toNat
def k0_dev44 (d0 : Dev nD) : Nat :=
  let c0_i32_568 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_567 : BitVec 32 := 8#32
  let v792 : BitVec 32 := Scalar.muli v2 c8_i32_567
  let v793 : BitVec 32 := Scalar.addi c0_i32_568 v792
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_569 : BitVec 32 := 4#32
  let v794 : BitVec 32 := Scalar.muli v10 c4_i32_569
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v796 : BitVec 32 := Scalar.muli v8 c1_i32_570
  let v797 : BitVec 32 := Scalar.addi v795 v796
  v797.toNat
def k0_dev45 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v826 : BitVec 32 := Scalar.muli v2 c8_i32_594
  let v827 : BitVec 32 := Scalar.addi c0_i32_595 v826
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_596 : BitVec 32 := 4#32
  let v828 : BitVec 32 := Scalar.muli v10 c4_i32_596
  let v829 : BitVec 32 := Scalar.addi v827 v828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v830 : BitVec 32 := Scalar.muli v8 c1_i32_597
  let v831 : BitVec 32 := Scalar.addi v829 v830
  v831.toNat
def k0_dev46 (d0 : Dev nD) : Nat :=
  let c0_i32_622 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_621 : BitVec 32 := 8#32
  let v860 : BitVec 32 := Scalar.muli v2 c8_i32_621
  let v861 : BitVec 32 := Scalar.addi c0_i32_622 v860
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_623 : BitVec 32 := 4#32
  let v862 : BitVec 32 := Scalar.muli v10 c4_i32_623
  let v863 : BitVec 32 := Scalar.addi v861 v862
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_624 : BitVec 32 := 1#32
  let v864 : BitVec 32 := Scalar.muli v8 c1_i32_624
  let v865 : BitVec 32 := Scalar.addi v863 v864
  v865.toNat
def k0_dev47 (d0 : Dev nD) : Nat :=
  let c0_i32_649 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_648 : BitVec 32 := 8#32
  let v894 : BitVec 32 := Scalar.muli v2 c8_i32_648
  let v895 : BitVec 32 := Scalar.addi c0_i32_649 v894
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_650 : BitVec 32 := 4#32
  let v896 : BitVec 32 := Scalar.muli v10 c4_i32_650
  let v897 : BitVec 32 := Scalar.addi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v898 : BitVec 32 := Scalar.muli v8 c1_i32_651
  let v899 : BitVec 32 := Scalar.addi v897 v898
  v899.toNat
def k0_dev48 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v928 : BitVec 32 := Scalar.muli v2 c8_i32_675
  let v929 : BitVec 32 := Scalar.addi c0_i32_676 v928
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_677 : BitVec 32 := 4#32
  let v930 : BitVec 32 := Scalar.muli v10 c4_i32_677
  let v931 : BitVec 32 := Scalar.addi v929 v930
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_678 : BitVec 32 := 1#32
  let v932 : BitVec 32 := Scalar.muli v8 c1_i32_678
  let v933 : BitVec 32 := Scalar.addi v931 v932
  v933.toNat
def k0_dev49 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_702 : BitVec 32 := 8#32
  let v962 : BitVec 32 := Scalar.muli v2 c8_i32_702
  let v963 : BitVec 32 := Scalar.addi c0_i32_703 v962
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_704 : BitVec 32 := 4#32
  let v964 : BitVec 32 := Scalar.muli v10 c4_i32_704
  let v965 : BitVec 32 := Scalar.addi v963 v964
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v966 : BitVec 32 := Scalar.muli v8 c1_i32_705
  let v967 : BitVec 32 := Scalar.addi v965 v966
  v967.toNat
def k0_dev50 (d0 : Dev nD) : Nat :=
  let c0_i32_730 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_729 : BitVec 32 := 8#32
  let v996 : BitVec 32 := Scalar.muli v2 c8_i32_729
  let v997 : BitVec 32 := Scalar.addi c0_i32_730 v996
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_731 : BitVec 32 := 4#32
  let v998 : BitVec 32 := Scalar.muli v10 c4_i32_731
  let v999 : BitVec 32 := Scalar.addi v997 v998
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v1000 : BitVec 32 := Scalar.muli v8 c1_i32_732
  let v1001 : BitVec 32 := Scalar.addi v999 v1000
  v1001.toNat
def k0_dev51 (d0 : Dev nD) : Nat :=
  let c0_i32_757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_756 : BitVec 32 := 8#32
  let v1030 : BitVec 32 := Scalar.muli v2 c8_i32_756
  let v1031 : BitVec 32 := Scalar.addi c0_i32_757 v1030
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_758 : BitVec 32 := 4#32
  let v1032 : BitVec 32 := Scalar.muli v10 c4_i32_758
  let v1033 : BitVec 32 := Scalar.addi v1031 v1032
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v1034 : BitVec 32 := Scalar.muli v8 c1_i32_759
  let v1035 : BitVec 32 := Scalar.addi v1033 v1034
  v1035.toNat
def k0_dev52 (d0 : Dev nD) : Nat :=
  let c0_i32_784 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_783 : BitVec 32 := 8#32
  let v1064 : BitVec 32 := Scalar.muli v2 c8_i32_783
  let v1065 : BitVec 32 := Scalar.addi c0_i32_784 v1064
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_785 : BitVec 32 := 4#32
  let v1066 : BitVec 32 := Scalar.muli v10 c4_i32_785
  let v1067 : BitVec 32 := Scalar.addi v1065 v1066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1068 : BitVec 32 := Scalar.muli v8 c1_i32_786
  let v1069 : BitVec 32 := Scalar.addi v1067 v1068
  v1069.toNat
def k0_dev53 (d0 : Dev nD) : Nat :=
  let c0_i32_811 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_810 : BitVec 32 := 8#32
  let v1098 : BitVec 32 := Scalar.muli v2 c8_i32_810
  let v1099 : BitVec 32 := Scalar.addi c0_i32_811 v1098
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_812 : BitVec 32 := 4#32
  let v1100 : BitVec 32 := Scalar.muli v10 c4_i32_812
  let v1101 : BitVec 32 := Scalar.addi v1099 v1100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_813 : BitVec 32 := 1#32
  let v1102 : BitVec 32 := Scalar.muli v8 c1_i32_813
  let v1103 : BitVec 32 := Scalar.addi v1101 v1102
  v1103.toNat
def k0_dev54 (d0 : Dev nD) : Nat :=
  let c0_i32_838 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_837 : BitVec 32 := 8#32
  let v1132 : BitVec 32 := Scalar.muli v2 c8_i32_837
  let v1133 : BitVec 32 := Scalar.addi c0_i32_838 v1132
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_839 : BitVec 32 := 4#32
  let v1134 : BitVec 32 := Scalar.muli v10 c4_i32_839
  let v1135 : BitVec 32 := Scalar.addi v1133 v1134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_840 : BitVec 32 := 1#32
  let v1136 : BitVec 32 := Scalar.muli v8 c1_i32_840
  let v1137 : BitVec 32 := Scalar.addi v1135 v1136
  v1137.toNat
def k0_dev55 (d0 : Dev nD) : Nat :=
  let c0_i32_865 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_864 : BitVec 32 := 8#32
  let v1166 : BitVec 32 := Scalar.muli v2 c8_i32_864
  let v1167 : BitVec 32 := Scalar.addi c0_i32_865 v1166
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_866 : BitVec 32 := 4#32
  let v1168 : BitVec 32 := Scalar.muli v10 c4_i32_866
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_867 : BitVec 32 := 1#32
  let v1170 : BitVec 32 := Scalar.muli v8 c1_i32_867
  let v1171 : BitVec 32 := Scalar.addi v1169 v1170
  v1171.toNat
def k0_dev56 (d0 : Dev nD) : Nat :=
  let c0_i32_892 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_891 : BitVec 32 := 8#32
  let v1200 : BitVec 32 := Scalar.muli v2 c8_i32_891
  let v1201 : BitVec 32 := Scalar.addi c0_i32_892 v1200
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_893 : BitVec 32 := 4#32
  let v1202 : BitVec 32 := Scalar.muli v10 c4_i32_893
  let v1203 : BitVec 32 := Scalar.addi v1201 v1202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_894 : BitVec 32 := 1#32
  let v1204 : BitVec 32 := Scalar.muli v8 c1_i32_894
  let v1205 : BitVec 32 := Scalar.addi v1203 v1204
  v1205.toNat
def k0_dev57 (d0 : Dev nD) : Nat :=
  let c0_i32_919 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_918 : BitVec 32 := 8#32
  let v1234 : BitVec 32 := Scalar.muli v2 c8_i32_918
  let v1235 : BitVec 32 := Scalar.addi c0_i32_919 v1234
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_920 : BitVec 32 := 4#32
  let v1236 : BitVec 32 := Scalar.muli v10 c4_i32_920
  let v1237 : BitVec 32 := Scalar.addi v1235 v1236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_921 : BitVec 32 := 1#32
  let v1238 : BitVec 32 := Scalar.muli v8 c1_i32_921
  let v1239 : BitVec 32 := Scalar.addi v1237 v1238
  v1239.toNat
def k0_dev58 (d0 : Dev nD) : Nat :=
  let c0_i32_946 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_945 : BitVec 32 := 8#32
  let v1268 : BitVec 32 := Scalar.muli v2 c8_i32_945
  let v1269 : BitVec 32 := Scalar.addi c0_i32_946 v1268
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_947 : BitVec 32 := 4#32
  let v1270 : BitVec 32 := Scalar.muli v10 c4_i32_947
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_948 : BitVec 32 := 1#32
  let v1272 : BitVec 32 := Scalar.muli v8 c1_i32_948
  let v1273 : BitVec 32 := Scalar.addi v1271 v1272
  v1273.toNat
def k0_dev59 (d0 : Dev nD) : Nat :=
  let c0_i32_973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_972 : BitVec 32 := 8#32
  let v1302 : BitVec 32 := Scalar.muli v2 c8_i32_972
  let v1303 : BitVec 32 := Scalar.addi c0_i32_973 v1302
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_974 : BitVec 32 := 4#32
  let v1304 : BitVec 32 := Scalar.muli v10 c4_i32_974
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_975 : BitVec 32 := 1#32
  let v1306 : BitVec 32 := Scalar.muli v8 c1_i32_975
  let v1307 : BitVec 32 := Scalar.addi v1305 v1306
  v1307.toNat
def k0_dev60 (d0 : Dev nD) : Nat :=
  let c0_i32_1000 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_999 : BitVec 32 := 8#32
  let v1336 : BitVec 32 := Scalar.muli v2 c8_i32_999
  let v1337 : BitVec 32 := Scalar.addi c0_i32_1000 v1336
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1001 : BitVec 32 := 4#32
  let v1338 : BitVec 32 := Scalar.muli v10 c4_i32_1001
  let v1339 : BitVec 32 := Scalar.addi v1337 v1338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1002 : BitVec 32 := 1#32
  let v1340 : BitVec 32 := Scalar.muli v8 c1_i32_1002
  let v1341 : BitVec 32 := Scalar.addi v1339 v1340
  v1341.toNat
def k0_dev61 (d0 : Dev nD) : Nat :=
  let c0_i32_1027 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1026 : BitVec 32 := 8#32
  let v1370 : BitVec 32 := Scalar.muli v2 c8_i32_1026
  let v1371 : BitVec 32 := Scalar.addi c0_i32_1027 v1370
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1028 : BitVec 32 := 4#32
  let v1372 : BitVec 32 := Scalar.muli v10 c4_i32_1028
  let v1373 : BitVec 32 := Scalar.addi v1371 v1372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1029 : BitVec 32 := 1#32
  let v1374 : BitVec 32 := Scalar.muli v8 c1_i32_1029
  let v1375 : BitVec 32 := Scalar.addi v1373 v1374
  v1375.toNat
def k0_dev62 (d0 : Dev nD) : Nat :=
  let c0_i32_1054 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1053 : BitVec 32 := 8#32
  let v1404 : BitVec 32 := Scalar.muli v2 c8_i32_1053
  let v1405 : BitVec 32 := Scalar.addi c0_i32_1054 v1404
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1055 : BitVec 32 := 4#32
  let v1406 : BitVec 32 := Scalar.muli v10 c4_i32_1055
  let v1407 : BitVec 32 := Scalar.addi v1405 v1406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1056 : BitVec 32 := 1#32
  let v1408 : BitVec 32 := Scalar.muli v8 c1_i32_1056
  let v1409 : BitVec 32 := Scalar.addi v1407 v1408
  v1409.toNat
def k0_dev63 (d0 : Dev nD) : Nat :=
  let c0_i32_1081 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1080 : BitVec 32 := 8#32
  let v1438 : BitVec 32 := Scalar.muli v2 c8_i32_1080
  let v1439 : BitVec 32 := Scalar.addi c0_i32_1081 v1438
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1082 : BitVec 32 := 4#32
  let v1440 : BitVec 32 := Scalar.muli v10 c4_i32_1082
  let v1441 : BitVec 32 := Scalar.addi v1439 v1440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1083 : BitVec 32 := 1#32
  let v1442 : BitVec 32 := Scalar.muli v8 c1_i32_1083
  let v1443 : BitVec 32 := Scalar.addi v1441 v1442
  v1443.toNat
def k0_dev64 (d0 : Dev nD) : Nat :=
  let c0_i32_1108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1107 : BitVec 32 := 8#32
  let v1472 : BitVec 32 := Scalar.muli v2 c8_i32_1107
  let v1473 : BitVec 32 := Scalar.addi c0_i32_1108 v1472
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1109 : BitVec 32 := 4#32
  let v1474 : BitVec 32 := Scalar.muli v10 c4_i32_1109
  let v1475 : BitVec 32 := Scalar.addi v1473 v1474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1110 : BitVec 32 := 1#32
  let v1476 : BitVec 32 := Scalar.muli v8 c1_i32_1110
  let v1477 : BitVec 32 := Scalar.addi v1475 v1476
  v1477.toNat
def k0_dev65 (d0 : Dev nD) : Nat :=
  let c0_i32_1135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1134 : BitVec 32 := 8#32
  let v1506 : BitVec 32 := Scalar.muli v2 c8_i32_1134
  let v1507 : BitVec 32 := Scalar.addi c0_i32_1135 v1506
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1136 : BitVec 32 := 4#32
  let v1508 : BitVec 32 := Scalar.muli v10 c4_i32_1136
  let v1509 : BitVec 32 := Scalar.addi v1507 v1508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1137 : BitVec 32 := 1#32
  let v1510 : BitVec 32 := Scalar.muli v8 c1_i32_1137
  let v1511 : BitVec 32 := Scalar.addi v1509 v1510
  v1511.toNat
def k0_dev66 (d0 : Dev nD) : Nat :=
  let c0_i32_1162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1161 : BitVec 32 := 8#32
  let v1540 : BitVec 32 := Scalar.muli v2 c8_i32_1161
  let v1541 : BitVec 32 := Scalar.addi c0_i32_1162 v1540
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1163 : BitVec 32 := 4#32
  let v1542 : BitVec 32 := Scalar.muli v10 c4_i32_1163
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1164 : BitVec 32 := 1#32
  let v1544 : BitVec 32 := Scalar.muli v8 c1_i32_1164
  let v1545 : BitVec 32 := Scalar.addi v1543 v1544
  v1545.toNat
def k0_off3 (d0 : Dev nD) (c0_i32_1186 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c1024_i32_5 : BitVec 32 := 1024#32
  let v13 : BitVec 32 := Scalar.muli v12 c1024_i32_5
  let v1575 : BitVec 32 := Scalar.addi v13 c0_i32_1186
  let v1576 : Index := Scalar.indexCast v1575
  let c0_1187 : Index := 0#32
  ![v1576.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32x32x512_S1x32x512_0_0_0 : ∀ a, (![0, 0, 0] : Fin 3 → Nat) a + S1x32x512.size a ≤ S32x32x512.size a
  squeezes_S1x32x512_S32x512 : S1x32x512.Squeezes S32x512
  inb_S32_S1_1 : ∀ a, (![1] : Fin 1 → Nat) a + S1.size a ≤ S32.size a
  inb_S32x32x512_S1x32x512_1_0_0 : ∀ a, (![1, 0, 0] : Fin 3 → Nat) a + S1x32x512.size a ≤ S32x32x512.size a
  inb_S32_S1_2 : ∀ a, (![2] : Fin 1 → Nat) a + S1.size a ≤ S32.size a
  inb_S32x32x512_S1x32x512_2_0_0 : ∀ a, (![2, 0, 0] : Fin 3 → Nat) a + S1x32x512.size a ≤ S32x32x512.size a
  inb_S32_S1_3 : ∀ a, (![3] : Fin 1 → Nat) a + S1.size a ≤ S32.size a
  inb_S32x32x512_S1x32x512_3_0_0 : ∀ a, (![3, 0, 0] : Fin 3 → Nat) a + S1x32x512.size a ≤ S32x32x512.size a
  inb_S32_S1_4 : ∀ a, (![4] : Fin 1 → Nat) a + S1.size a ≤ S32.size a
  inb_S32x32x512_S1x32x512_4_0_0 : ∀ a, (![4, 0, 0] : Fin 3 → Nat) a + S1x32x512.size a ≤ S32x32x512.size a
  inb_S32_S1_5 : ∀ a, (![5] : Fin 1 → Nat) a + S1.size a ≤ S32.size a
  inb_S32x32x512_S1x32x512_5_0_0 : ∀ a, (![5, 0, 0] : Fin 3 → Nat) a + S1x32x512.size a ≤ S32x32x512.size a
  inb_S32_S1_6 : ∀ a, (![6] : Fin 1 → Nat) a + S1.size a ≤ S32.size a
  inb_S32x32x512_S1x32x512_6_0_0 : ∀ a, (![6, 0, 0] : Fin 3 → Nat) a + S1x32x512.size a ≤ S32x32x512.size a
  inb_S32_S1_7 : ∀ a, (![7] : Fin 1 → Nat) a + S1.size a ≤ S32.size a
  inb_S32x32x512_S1x32x512_7_0_0 : ∀ a, (![7, 0, 0] : Fin 3 → Nat) a + S1x32x512.size a ≤ S32x32x512.size a
  inb_S32_S1_8 : ∀ a, (![8] : Fin 1 → Nat) a + S1.size a ≤ S32.size a
  inb_S32x32x512_S1x32x512_8_0_0 : ∀ a, (![8, 0, 0] : Fin 3 → Nat) a + S1x32x512.size a ≤ S32x32x512.size a
  inb_S32_S1_9 : ∀ a, (![9] : Fin 1 → Nat) a + S1.size a ≤ S32.size a
  inb_S32x32x512_S1x32x512_9_0_0 : ∀ a, (![9, 0, 0] : Fin 3 → Nat) a + S1x32x512.size a ≤ S32x32x512.size a
  inb_S32_S1_10 : ∀ a, (![10] : Fin 1 → Nat) a + S1.size a ≤ S32.size a
  inb_S32x32x512_S1x32x512_10_0_0 : ∀ a, (![10, 0, 0] : Fin 3 → Nat) a + S1x32x512.size a ≤ S32x32x512.size a
  inb_S32_S1_11 : ∀ a, (![11] : Fin 1 → Nat) a + S1.size a ≤ S32.size a
  inb_S32x32x512_S1x32x512_11_0_0 : ∀ a, (![11, 0, 0] : Fin 3 → Nat) a + S1x32x512.size a ≤ S32x32x512.size a
  inb_S32_S1_12 : ∀ a, (![12] : Fin 1 → Nat) a + S1.size a ≤ S32.size a
  inb_S32x32x512_S1x32x512_12_0_0 : ∀ a, (![12, 0, 0] : Fin 3 → Nat) a + S1x32x512.size a ≤ S32x32x512.size a
  inb_S32_S1_13 : ∀ a, (![13] : Fin 1 → Nat) a + S1.size a ≤ S32.size a
  inb_S32x32x512_S1x32x512_13_0_0 : ∀ a, (![13, 0, 0] : Fin 3 → Nat) a + S1x32x512.size a ≤ S32x32x512.size a
  inb_S32_S1_14 : ∀ a, (![14] : Fin 1 → Nat) a + S1.size a ≤ S32.size a
  inb_S32x32x512_S1x32x512_14_0_0 : ∀ a, (![14, 0, 0] : Fin 3 → Nat) a + S1x32x512.size a ≤ S32x32x512.size a
  inb_S32_S1_15 : ∀ a, (![15] : Fin 1 → Nat) a + S1.size a ≤ S32.size a
  inb_S32x32x512_S1x32x512_15_0_0 : ∀ a, (![15, 0, 0] : Fin 3 → Nat) a + S1x32x512.size a ≤ S32x32x512.size a
  inb_S32_S1_16 : ∀ a, (![16] : Fin 1 → Nat) a + S1.size a ≤ S32.size a
  inb_S32x32x512_S1x32x512_16_0_0 : ∀ a, (![16, 0, 0] : Fin 3 → Nat) a + S1x32x512.size a ≤ S32x32x512.size a
  inb_S32_S1_17 : ∀ a, (![17] : Fin 1 → Nat) a + S1.size a ≤ S32.size a
  inb_S32x32x512_S1x32x512_17_0_0 : ∀ a, (![17, 0, 0] : Fin 3 → Nat) a + S1x32x512.size a ≤ S32x32x512.size a
  inb_S32_S1_18 : ∀ a, (![18] : Fin 1 → Nat) a + S1.size a ≤ S32.size a
  inb_S32x32x512_S1x32x512_18_0_0 : ∀ a, (![18, 0, 0] : Fin 3 → Nat) a + S1x32x512.size a ≤ S32x32x512.size a
  inb_S32_S1_19 : ∀ a, (![19] : Fin 1 → Nat) a + S1.size a ≤ S32.size a
  inb_S32x32x512_S1x32x512_19_0_0 : ∀ a, (![19, 0, 0] : Fin 3 → Nat) a + S1x32x512.size a ≤ S32x32x512.size a
  inb_S32_S1_20 : ∀ a, (![20] : Fin 1 → Nat) a + S1.size a ≤ S32.size a
  inb_S32x32x512_S1x32x512_20_0_0 : ∀ a, (![20, 0, 0] : Fin 3 → Nat) a + S1x32x512.size a ≤ S32x32x512.size a
  inb_S32_S1_21 : ∀ a, (![21] : Fin 1 → Nat) a + S1.size a ≤ S32.size a
  inb_S32x32x512_S1x32x512_21_0_0 : ∀ a, (![21, 0, 0] : Fin 3 → Nat) a + S1x32x512.size a ≤ S32x32x512.size a
  inb_S32_S1_22 : ∀ a, (![22] : Fin 1 → Nat) a + S1.size a ≤ S32.size a
  inb_S32x32x512_S1x32x512_22_0_0 : ∀ a, (![22, 0, 0] : Fin 3 → Nat) a + S1x32x512.size a ≤ S32x32x512.size a
  inb_S32_S1_23 : ∀ a, (![23] : Fin 1 → Nat) a + S1.size a ≤ S32.size a
  inb_S32x32x512_S1x32x512_23_0_0 : ∀ a, (![23, 0, 0] : Fin 3 → Nat) a + S1x32x512.size a ≤ S32x32x512.size a
  inb_S32_S1_24 : ∀ a, (![24] : Fin 1 → Nat) a + S1.size a ≤ S32.size a
  inb_S32x32x512_S1x32x512_24_0_0 : ∀ a, (![24, 0, 0] : Fin 3 → Nat) a + S1x32x512.size a ≤ S32x32x512.size a
  inb_S32_S1_25 : ∀ a, (![25] : Fin 1 → Nat) a + S1.size a ≤ S32.size a
  inb_S32x32x512_S1x32x512_25_0_0 : ∀ a, (![25, 0, 0] : Fin 3 → Nat) a + S1x32x512.size a ≤ S32x32x512.size a
  inb_S32_S1_26 : ∀ a, (![26] : Fin 1 → Nat) a + S1.size a ≤ S32.size a
  inb_S32x32x512_S1x32x512_26_0_0 : ∀ a, (![26, 0, 0] : Fin 3 → Nat) a + S1x32x512.size a ≤ S32x32x512.size a
  inb_S32_S1_27 : ∀ a, (![27] : Fin 1 → Nat) a + S1.size a ≤ S32.size a
  inb_S32x32x512_S1x32x512_27_0_0 : ∀ a, (![27, 0, 0] : Fin 3 → Nat) a + S1x32x512.size a ≤ S32x32x512.size a
  inb_S32_S1_28 : ∀ a, (![28] : Fin 1 → Nat) a + S1.size a ≤ S32.size a
  inb_S32x32x512_S1x32x512_28_0_0 : ∀ a, (![28, 0, 0] : Fin 3 → Nat) a + S1x32x512.size a ≤ S32x32x512.size a
  inb_S32_S1_29 : ∀ a, (![29] : Fin 1 → Nat) a + S1.size a ≤ S32.size a
  inb_S32x32x512_S1x32x512_29_0_0 : ∀ a, (![29, 0, 0] : Fin 3 → Nat) a + S1x32x512.size a ≤ S32x32x512.size a
  inb_S32_S1_30 : ∀ a, (![30] : Fin 1 → Nat) a + S1.size a ≤ S32.size a
  inb_S32x32x512_S1x32x512_30_0_0 : ∀ a, (![30, 0, 0] : Fin 3 → Nat) a + S1x32x512.size a ≤ S32x32x512.size a
  inb_S32_S1_31 : ∀ a, (![31] : Fin 1 → Nat) a + S1.size a ≤ S32.size a
  inb_S32x32x512_S1x32x512_31_0_0 : ∀ a, (![31, 0, 0] : Fin 3 → Nat) a + S1x32x512.size a ≤ S32x32x512.size a
  h_S32x512 : 0 < S32x512.numel
  shapeCasts_S32x512_S32x512 : S32x512.ShapeCasts S32x512
  h_S1x32x512 : 0 < S1x32x512.numel
  shapeCasts_S1x32x512_S32x512 : S1x32x512.ShapeCasts S32x512
  hcc0_scratch2 : 2 + S32.numel ≤ 130
  hcc0_scratch3 : 34 + S32.numel ≤ 130
  hcc0_scratch4 : 66 + S32.numel ≤ 130
  hcc0_scratch5 : 98 + S32.numel ≤ 130
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (32 * r.val))) a + S32x512.size a ≤ S2048x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off2_inb : ∀ d0 : Dev nD, ∀ (r : Fin 32), ∀ a, (k0_off2 d0 (BitVec.ofNat 32 (32 * r.val))) a + S32x512.size a ≤ S2048x512.size a
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 32), ∀ a, (k0_off3 d0 (BitVec.ofNat 32 (32 * r.val))) a + S32x512.size a ≤ S2048x512.size a
  hstage0_0 : ∀ j, (stage0_0 j).IsWhole
  hstage0_1 : ∀ j, (stage0_1 j).IsWhole

variable [Facts₀]

abbrev cc0_scratch2 : DmaSems sig S32 := SemArray.consecutive 2 S32 hcc0_scratch2
abbrev cc0_scratch3 : DmaSems sig S32 := SemArray.consecutive 34 S32 hcc0_scratch3
abbrev cc0_scratch4 : DmaSems sig S32 := SemArray.consecutive 66 S32 hcc0_scratch4
abbrev cc0_scratch5 : DmaSems sig S32 := SemArray.consecutive 98 S32 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S2x2048x512 : S4096x512.ShapeCasts S2x2048x512
  reducesTo_S2x2048x512_S2048x512_d0 : S2x2048x512.ReducesTo [0] S2048x512
  h_S_ : 0 < S_.numel

variable [Facts₀]

class Facts : Prop extends Facts₀ where

variable [Facts]
-- ==== Proof.Mesh.lean ====
/-
  The mesh of this kernel: sixteen devices, the linear id of the device at coordinates (x, y, z) of the 2 × 2 × 4 mesh
  being 8·x + 4·y + z. Two involutions on it: the x-partner (same y and z, the other x) and the y-partner (same x and z,
  the other y). The input is cut along the mesh's x axis only, so a device's block is decided by its x coordinate; the
  row half a device handles first is decided by its y coordinate.
-/
import Idealize.ShloMosaic.Lib.Layout

namespace Cert.Mesh

/-- The device with the other x coordinate. -/
def xp (c : Fin 16) : Fin 16 := ⟨(c.val + 8) % 16, Nat.mod_lt _ (by decide)⟩
/-- The device with the other y coordinate. -/
def yp (c : Fin 16) : Fin 16 := ⟨8 * (c.val / 8) + 4 * ((c.val / 4 + 1) % 2) + c.val % 4, by omega⟩
/-- The x coordinate (which block of the input the device holds). -/
def xc (c : Fin 16) : Nat := c.val / 8
/-- The y coordinate (which half of the rows the device sums first). -/
def yc (c : Fin 16) : Nat := (c.val / 4) % 2

theorem xp_xp (c : Fin 16) : xp (xp c) = c := by revert c; decide
theorem yp_yp (c : Fin 16) : yp (yp c) = c := by revert c; decide
theorem xp_yp (c : Fin 16) : xp (yp c) = yp (xp c) := by revert c; decide
theorem xp_ne (c : Fin 16) : xp c ≠ c := by revert c; decide
theorem yp_ne (c : Fin 16) : yp c ≠ c := by revert c; decide
theorem xp_ne_yp (c : Fin 16) : xp c ≠ yp c := by revert c; decide
theorem xc_lt (c : Fin 16) : xc c < 2 := by revert c; decide
theorem yc_lt (c : Fin 16) : yc c < 2 := by revert c; decide
theorem xc_xp (c : Fin 16) : xc (xp c) = 1 - xc c := by revert c; decide
theorem xc_yp (c : Fin 16) : xc (yp c) = xc c := by revert c; decide
theorem yc_xp (c : Fin 16) : yc (xp c) = yc c := by revert c; decide
theorem yc_yp (c : Fin 16) : yc (yp c) = 1 - yc c := by revert c; decide
/-- The closed form the printed device chains of the x-partner reduce to. -/
theorem xp_val (c : Fin 16) : (xp c).val = (4 * ((c.val / 4) % 2) + (c.val % 4) + 8) - 8 * (c.val / 8) := by revert c; decide
/-- The closed form the printed device chains of the y-partner reduce to. -/
theorem yp_val (c : Fin 16) : (yp c).val = (8 * (c.val / 8) + (c.val % 4) + 4) - 4 * ((c.val / 4) % 2) := by revert c; decide

def xpEquiv : Fin 16 ≃ Fin 16 := ⟨xp, xp, xp_xp, xp_xp⟩
def ypEquiv : Fin 16 ≃ Fin 16 := ⟨yp, yp, yp_yp, yp_yp⟩

end Cert.Mesh
-- ==== Proof.DevTable.lean ====
import proofs.«900707_g7700000000000708_dist_ar_v7x_xyz2x2x4_x_m2048_n512_f32_1_alg».proof.Proof.Gen.KernelIdeal
import proofs.«900707_g7700000000000708_dist_ar_v7x_xyz2x2x4_x_m2048_n512_f32_1_alg».proof.Proof.Mesh
import Idealize.ShloMosaic.Lib.Tactic

namespace Cert.KernelIdealProof

open Cert.KernelIdeal Cert.KernelIdeal.Gen Cert.Mesh Idealize.ShloMosaic Idealize.ShloMosaic.Tactic

@[sl_canon] theorem dev1_eq (c : Dev nD) : (⟨k0_dev1 c, k0_dev1_lt c⟩ : Dev nD) = xp c := Fin.ext ((k0_dev1_eq c).trans (xp_val c).symm)
@[sl_canon] theorem dev3_eq (c : Dev nD) : (⟨k0_dev3 c, k0_dev3_lt c⟩ : Dev nD) = xp c := Fin.ext ((k0_dev3_eq c).trans (xp_val c).symm)
@[sl_canon] theorem dev4_eq (c : Dev nD) : (⟨k0_dev4 c, k0_dev4_lt c⟩ : Dev nD) = xp c := Fin.ext ((k0_dev4_eq c).trans (xp_val c).symm)
@[sl_canon] theorem dev5_eq (c : Dev nD) : (⟨k0_dev5 c, k0_dev5_lt c⟩ : Dev nD) = xp c := Fin.ext ((k0_dev5_eq c).trans (xp_val c).symm)
@[sl_canon] theorem dev6_eq (c : Dev nD) : (⟨k0_dev6 c, k0_dev6_lt c⟩ : Dev nD) = xp c := Fin.ext ((k0_dev6_eq c).trans (xp_val c).symm)
@[sl_canon] theorem dev7_eq (c : Dev nD) : (⟨k0_dev7 c, k0_dev7_lt c⟩ : Dev nD) = xp c := Fin.ext ((k0_dev7_eq c).trans (xp_val c).symm)
@[sl_canon] theorem dev8_eq (c : Dev nD) : (⟨k0_dev8 c, k0_dev8_lt c⟩ : Dev nD) = xp c := Fin.ext ((k0_dev8_eq c).trans (xp_val c).symm)
@[sl_canon] theorem dev9_eq (c : Dev nD) : (⟨k0_dev9 c, k0_dev9_lt c⟩ : Dev nD) = xp c := Fin.ext ((k0_dev9_eq c).trans (xp_val c).symm)
@[sl_canon] theorem dev10_eq (c : Dev nD) : (⟨k0_dev10 c, k0_dev10_lt c⟩ : Dev nD) = xp c := Fin.ext ((k0_dev10_eq c).trans (xp_val c).symm)
@[sl_canon] theorem dev11_eq (c : Dev nD) : (⟨k0_dev11 c, k0_dev11_lt c⟩ : Dev nD) = xp c := Fin.ext ((k0_dev11_eq c).trans (xp_val c).symm)
@[sl_canon] theorem dev12_eq (c : Dev nD) : (⟨k0_dev12 c, k0_dev12_lt c⟩ : Dev nD) = xp c := Fin.ext ((k0_dev12_eq c).trans (xp_val c).symm)
@[sl_canon] theorem dev13_eq (c : Dev nD) : (⟨k0_dev13 c, k0_dev13_lt c⟩ : Dev nD) = xp c := Fin.ext ((k0_dev13_eq c).trans (xp_val c).symm)
@[sl_canon] theorem dev14_eq (c : Dev nD) : (⟨k0_dev14 c, k0_dev14_lt c⟩ : Dev nD) = xp c := Fin.ext ((k0_dev14_eq c).trans (xp_val c).symm)
@[sl_canon] theorem dev15_eq (c : Dev nD) : (⟨k0_dev15 c, k0_dev15_lt c⟩ : Dev nD) = xp c := Fin.ext ((k0_dev15_eq c).trans (xp_val c).symm)
@[sl_canon] theorem dev16_eq (c : Dev nD) : (⟨k0_dev16 c, k0_dev16_lt c⟩ : Dev nD) = xp c := Fin.ext ((k0_dev16_eq c).trans (xp_val c).symm)
@[sl_canon] theorem dev17_eq (c : Dev nD) : (⟨k0_dev17 c, k0_dev17_lt c⟩ : Dev nD) = xp c := Fin.ext ((k0_dev17_eq c).trans (xp_val c).symm)
@[sl_canon] theorem dev18_eq (c : Dev nD) : (⟨k0_dev18 c, k0_dev18_lt c⟩ : Dev nD) = xp c := Fin.ext ((k0_dev18_eq c).trans (xp_val c).symm)
@[sl_canon] theorem dev19_eq (c : Dev nD) : (⟨k0_dev19 c, k0_dev19_lt c⟩ : Dev nD) = xp c := Fin.ext ((k0_dev19_eq c).trans (xp_val c).symm)
@[sl_canon] theorem dev20_eq (c : Dev nD) : (⟨k0_dev20 c, k0_dev20_lt c⟩ : Dev nD) = xp c := Fin.ext ((k0_dev20_eq c).trans (xp_val c).symm)
@[sl_canon] theorem dev21_eq (c : Dev nD) : (⟨k0_dev21 c, k0_dev21_lt c⟩ : Dev nD) = xp c := Fin.ext ((k0_dev21_eq c).trans (xp_val c).symm)
@[sl_canon] theorem dev22_eq (c : Dev nD) : (⟨k0_dev22 c, k0_dev22_lt c⟩ : Dev nD) = xp c := Fin.ext ((k0_dev22_eq c).trans (xp_val c).symm)
@[sl_canon] theorem dev23_eq (c : Dev nD) : (⟨k0_dev23 c, k0_dev23_lt c⟩ : Dev nD) = xp c := Fin.ext ((k0_dev23_eq c).trans (xp_val c).symm)
@[sl_canon] theorem dev24_eq (c : Dev nD) : (⟨k0_dev24 c, k0_dev24_lt c⟩ : Dev nD) = xp c := Fin.ext ((k0_dev24_eq c).trans (xp_val c).symm)
@[sl_canon] theorem dev25_eq (c : Dev nD) : (⟨k0_dev25 c, k0_dev25_lt c⟩ : Dev nD) = xp c := Fin.ext ((k0_dev25_eq c).trans (xp_val c).symm)
@[sl_canon] theorem dev26_eq (c : Dev nD) : (⟨k0_dev26 c, k0_dev26_lt c⟩ : Dev nD) = xp c := Fin.ext ((k0_dev26_eq c).trans (xp_val c).symm)
@[sl_canon] theorem dev27_eq (c : Dev nD) : (⟨k0_dev27 c, k0_dev27_lt c⟩ : Dev nD) = xp c := Fin.ext ((k0_dev27_eq c).trans (xp_val c).symm)
@[sl_canon] theorem dev28_eq (c : Dev nD) : (⟨k0_dev28 c, k0_dev28_lt c⟩ : Dev nD) = xp c := Fin.ext ((k0_dev28_eq c).trans (xp_val c).symm)
@[sl_canon] theorem dev29_eq (c : Dev nD) : (⟨k0_dev29 c, k0_dev29_lt c⟩ : Dev nD) = xp c := Fin.ext ((k0_dev29_eq c).trans (xp_val c).symm)
@[sl_canon] theorem dev30_eq (c : Dev nD) : (⟨k0_dev30 c, k0_dev30_lt c⟩ : Dev nD) = xp c := Fin.ext ((k0_dev30_eq c).trans (xp_val c).symm)
@[sl_canon] theorem dev31_eq (c : Dev nD) : (⟨k0_dev31 c, k0_dev31_lt c⟩ : Dev nD) = xp c := Fin.ext ((k0_dev31_eq c).trans (xp_val c).symm)
@[sl_canon] theorem dev32_eq (c : Dev nD) : (⟨k0_dev32 c, k0_dev32_lt c⟩ : Dev nD) = xp c := Fin.ext ((k0_dev32_eq c).trans (xp_val c).symm)
@[sl_canon] theorem dev33_eq (c : Dev nD) : (⟨k0_dev33 c, k0_dev33_lt c⟩ : Dev nD) = xp c := Fin.ext ((k0_dev33_eq c).trans (xp_val c).symm)
@[sl_canon] theorem dev34_eq (c : Dev nD) : (⟨k0_dev34 c, k0_dev34_lt c⟩ : Dev nD) = xp c := Fin.ext ((k0_dev34_eq c).trans (xp_val c).symm)
@[sl_canon] theorem dev2_eq (c : Dev nD) : (⟨k0_dev2 c, k0_dev2_lt c⟩ : Dev nD) = yp c := Fin.ext ((k0_dev2_eq c).trans (yp_val c).symm)
@[sl_canon] theorem dev35_eq (c : Dev nD) : (⟨k0_dev35 c, k0_dev35_lt c⟩ : Dev nD) = yp c := Fin.ext ((k0_dev35_eq c).trans (yp_val c).symm)
@[sl_canon] theorem dev36_eq (c : Dev nD) : (⟨k0_dev36 c, k0_dev36_lt c⟩ : Dev nD) = yp c := Fin.ext ((k0_dev36_eq c).trans (yp_val c).symm)
@[sl_canon] theorem dev37_eq (c : Dev nD) : (⟨k0_dev37 c, k0_dev37_lt c⟩ : Dev nD) = yp c := Fin.ext ((k0_dev37_eq c).trans (yp_val c).symm)
@[sl_canon] theorem dev38_eq (c : Dev nD) : (⟨k0_dev38 c, k0_dev38_lt c⟩ : Dev nD) = yp c := Fin.ext ((k0_dev38_eq c).trans (yp_val c).symm)
@[sl_canon] theorem dev39_eq (c : Dev nD) : (⟨k0_dev39 c, k0_dev39_lt c⟩ : Dev nD) = yp c := Fin.ext ((k0_dev39_eq c).trans (yp_val c).symm)
@[sl_canon] theorem dev40_eq (c : Dev nD) : (⟨k0_dev40 c, k0_dev40_lt c⟩ : Dev nD) = yp c := Fin.ext ((k0_dev40_eq c).trans (yp_val c).symm)
@[sl_canon] theorem dev41_eq (c : Dev nD) : (⟨k0_dev41 c, k0_dev41_lt c⟩ : Dev nD) = yp c := Fin.ext ((k0_dev41_eq c).trans (yp_val c).symm)
@[sl_canon] theorem dev42_eq (c : Dev nD) : (⟨k0_dev42 c, k0_dev42_lt c⟩ : Dev nD) = yp c := Fin.ext ((k0_dev42_eq c).trans (yp_val c).symm)
@[sl_canon] theorem dev43_eq (c : Dev nD) : (⟨k0_dev43 c, k0_dev43_lt c⟩ : Dev nD) = yp c := Fin.ext ((k0_dev43_eq c).trans (yp_val c).symm)
@[sl_canon] theorem dev44_eq (c : Dev nD) : (⟨k0_dev44 c, k0_dev44_lt c⟩ : Dev nD) = yp c := Fin.ext ((k0_dev44_eq c).trans (yp_val c).symm)
@[sl_canon] theorem dev45_eq (c : Dev nD) : (⟨k0_dev45 c, k0_dev45_lt c⟩ : Dev nD) = yp c := Fin.ext ((k0_dev45_eq c).trans (yp_val c).symm)
@[sl_canon] theorem dev46_eq (c : Dev nD) : (⟨k0_dev46 c, k0_dev46_lt c⟩ : Dev nD) = yp c := Fin.ext ((k0_dev46_eq c).trans (yp_val c).symm)
@[sl_canon] theorem dev47_eq (c : Dev nD) : (⟨k0_dev47 c, k0_dev47_lt c⟩ : Dev nD) = yp c := Fin.ext ((k0_dev47_eq c).trans (yp_val c).symm)
@[sl_canon] theorem dev48_eq (c : Dev nD) : (⟨k0_dev48 c, k0_dev48_lt c⟩ : Dev nD) = yp c := Fin.ext ((k0_dev48_eq c).trans (yp_val c).symm)
@[sl_canon] theorem dev49_eq (c : Dev nD) : (⟨k0_dev49 c, k0_dev49_lt c⟩ : Dev nD) = yp c := Fin.ext ((k0_dev49_eq c).trans (yp_val c).symm)
@[sl_canon] theorem dev50_eq (c : Dev nD) : (⟨k0_dev50 c, k0_dev50_lt c⟩ : Dev nD) = yp c := Fin.ext ((k0_dev50_eq c).trans (yp_val c).symm)
@[sl_canon] theorem dev51_eq (c : Dev nD) : (⟨k0_dev51 c, k0_dev51_lt c⟩ : Dev nD) = yp c := Fin.ext ((k0_dev51_eq c).trans (yp_val c).symm)
@[sl_canon] theorem dev52_eq (c : Dev nD) : (⟨k0_dev52 c, k0_dev52_lt c⟩ : Dev nD) = yp c := Fin.ext ((k0_dev52_eq c).trans (yp_val c).symm)
@[sl_canon] theorem dev53_eq (c : Dev nD) : (⟨k0_dev53 c, k0_dev53_lt c⟩ : Dev nD) = yp c := Fin.ext ((k0_dev53_eq c).trans (yp_val c).symm)
@[sl_canon] theorem dev54_eq (c : Dev nD) : (⟨k0_dev54 c, k0_dev54_lt c⟩ : Dev nD) = yp c := Fin.ext ((k0_dev54_eq c).trans (yp_val c).symm)
@[sl_canon] theorem dev55_eq (c : Dev nD) : (⟨k0_dev55 c, k0_dev55_lt c⟩ : Dev nD) = yp c := Fin.ext ((k0_dev55_eq c).trans (yp_val c).symm)
@[sl_canon] theorem dev56_eq (c : Dev nD) : (⟨k0_dev56 c, k0_dev56_lt c⟩ : Dev nD) = yp c := Fin.ext ((k0_dev56_eq c).trans (yp_val c).symm)
@[sl_canon] theorem dev57_eq (c : Dev nD) : (⟨k0_dev57 c, k0_dev57_lt c⟩ : Dev nD) = yp c := Fin.ext ((k0_dev57_eq c).trans (yp_val c).symm)
@[sl_canon] theorem dev58_eq (c : Dev nD) : (⟨k0_dev58 c, k0_dev58_lt c⟩ : Dev nD) = yp c := Fin.ext ((k0_dev58_eq c).trans (yp_val c).symm)
@[sl_canon] theorem dev59_eq (c : Dev nD) : (⟨k0_dev59 c, k0_dev59_lt c⟩ : Dev nD) = yp c := Fin.ext ((k0_dev59_eq c).trans (yp_val c).symm)
@[sl_canon] theorem dev60_eq (c : Dev nD) : (⟨k0_dev60 c, k0_dev60_lt c⟩ : Dev nD) = yp c := Fin.ext ((k0_dev60_eq c).trans (yp_val c).symm)
@[sl_canon] theorem dev61_eq (c : Dev nD) : (⟨k0_dev61 c, k0_dev61_lt c⟩ : Dev nD) = yp c := Fin.ext ((k0_dev61_eq c).trans (yp_val c).symm)
@[sl_canon] theorem dev62_eq (c : Dev nD) : (⟨k0_dev62 c, k0_dev62_lt c⟩ : Dev nD) = yp c := Fin.ext ((k0_dev62_eq c).trans (yp_val c).symm)
@[sl_canon] theorem dev63_eq (c : Dev nD) : (⟨k0_dev63 c, k0_dev63_lt c⟩ : Dev nD) = yp c := Fin.ext ((k0_dev63_eq c).trans (yp_val c).symm)
@[sl_canon] theorem dev64_eq (c : Dev nD) : (⟨k0_dev64 c, k0_dev64_lt c⟩ : Dev nD) = yp c := Fin.ext ((k0_dev64_eq c).trans (yp_val c).symm)
@[sl_canon] theorem dev65_eq (c : Dev nD) : (⟨k0_dev65 c, k0_dev65_lt c⟩ : Dev nD) = yp c := Fin.ext ((k0_dev65_eq c).trans (yp_val c).symm)
@[sl_canon] theorem dev66_eq (c : Dev nD) : (⟨k0_dev66 c, k0_dev66_lt c⟩ : Dev nD) = yp c := Fin.ext ((k0_dev66_eq c).trans (yp_val c).symm)

end Cert.KernelIdealProof
-- ==== Proof.Proto.lean ====
/-
  The protocol of the two-step all-reduce, as the rounds discipline sees it.

  Device c at mesh coordinates (x, y, z) holds block x of the input (2048 rows). Its x-partner xp c holds the OTHER
  block, its y-partner yp c the same block. In 32 chunks of 32 rows: it sends the rows of its y-th half to the
  x-partner's first landing buffer, sums what lands in its own with its rows (the y-th half of the result), forwards
  each landed chunk to the y-partner's second landing buffer, and sums what lands in its own second buffer with the
  rows of the other half. Before any transfer the two partners are signalled and two units awaited on the entry
  semaphore: both devices a device writes into have then entered.

  Cells of device c: the entry cell (two duties of one unit: false paid by xp c, true paid by yp c) and, per chunk k,
  four transfer cells of one duty each: x-send, x-receive, y-send, y-receive. One round.
  What a duty hands the cell's owner:
    entry, false : the x-partner's first landing buffer, whole, at any contents;
    entry, true  : the y-partner's second landing buffer, whole, at any contents;
    x-receive k  : chunk k of the own first landing buffer, at some contents overwritten by rows (1024·y + 32·k ..+32) of the
                   x-partner's block;
    y-receive k  : chunk k of the own second landing buffer, at some contents overwritten by what the y-partner's first buffer
                   holds there, that is rows (1024·(1-y) + 32·k ..+32) of the other block;
    x-send k     : the lent half share of the rows sent; y-send k : the lent half share of the forwarded chunk.
-/
import proofs.«900707_g7700000000000708_dist_ar_v7x_xyz2x2x4_x_m2048_n512_f32_1_alg».proof.Proof.Gen.KernelIdeal
import proofs.«900707_g7700000000000708_dist_ar_v7x_xyz2x2x4_x_m2048_n512_f32_1_alg».proof.Proof.Gen.KernelIdeal.Launch
import proofs.«900707_g7700000000000708_dist_ar_v7x_xyz2x2x4_x_m2048_n512_f32_1_alg».proof.Proof.Mesh
import proofs.«900707_g7700000000000708_dist_ar_v7x_xyz2x2x4_x_m2048_n512_f32_1_alg».proof.Proof.DevTable
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

/-! ## The resource algebra: the pipeline library's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The partners: every device id the body computes is one of the two -/

-- (the table of the 66 printed device chains is its own module)

/-! ## Buffers, chunks and cells -/

abbrev xM : Memref sig .tc .vmem S2048x512 .f32 := Memref.whole cc0_stg0_0
abbrev oM : Memref sig .tc .vmem S2048x512 .f32 := Memref.whole cc0_stg1_0
abbrev aM : Memref sig .tc .vmem S32x32x512 .f32 := Memref.whole cc0_scratch0
abbrev bM : Memref sig .tc .vmem S32x32x512 .f32 := Memref.whole cc0_scratch1

theorem inbS (k : Fin 32) : ∀ a, (![k.val] : Fin 1 → Nat) a + S1.size a ≤ S32.size a := by
  intro a; have := k.isLt; fin_cases a; show k.val + 1 ≤ 32; omega
theorem inbA (k : Fin 32) : ∀ a, (![k.val, 0, 0] : Fin 3 → Nat) a + S1x32x512.size a ≤ S32x32x512.size a := by
  intro a; have := k.isLt; fin_cases a
  · show k.val + 1 ≤ 32; omega
  · show 0 + 32 ≤ 32; omega
  · show 0 + 512 ≤ 512; omega

/-- Semaphore k of a 32-semaphore array, as the body spells it. -/
abbrev semAt (A : DmaSems sig S32) (k : Fin 32) : DmaSem sig :=
  ((A.slice (Rect.unit (s := S32) ![k.val] S1.size (inbS k))).squeeze S_ squeezes_S1_S_).sem
/-- Chunk k of a landing buffer, as the body spells it. -/
abbrev chunkOf (M : Memref sig .tc .vmem S32x32x512 .f32) (k : Fin 32) : Memref sig .tc .vmem S32x512 .f32 :=
  (M.slice (Rect.unit (s := S32x32x512) ![k.val, 0, 0] S1x32x512.size (inbA k)) (fun _ => rfl)).squeeze S32x512 squeezes_S1x32x512_S32x512
/-- The 32 rows the x-transfer of chunk k reads on device c, as the body spells them. -/
abbrev rowsX (c : Dev nD) (k : Fin 32) : Memref sig .tc .vmem S32x512 .f32 :=
  xM.slice (Rect.unit (s := S2048x512) (k0_off1 c (BitVec.ofNat 32 (32 * k.val))) S32x512.size (k0_off1_inb c k)) (fun _ => rfl)

abbrev barS : Sem sig := (SemArray.scalar (sig.barrier 0 rfl) : Sems sig S_).sem

/-- The four semaphore arrays: x-send, x-receive, y-send, y-receive. -/
abbrev semArr : Fin 4 → DmaSems sig S32 := fun | 0 => cc0_scratch2 | 1 => cc0_scratch3 | 2 => cc0_scratch4 | 3 => cc0_scratch5

/-- A device's cells: none is the entry cell, some (j, k) the k-th semaphore of array j. -/
abbrev CIx : Type := Option (Fin 4 × Fin 32)
abbrev csem : CIx → SemLoc sig := fun | none => .reg barS | some (j, k) => .dma (semAt (semArr j) k)
abbrev kcell (ck : Dev nD × CIx) : GSem nD τ sig := ((ck.1 : Thread nD τ), csem ck.2)

abbrev barCell (c : Dev nD) : GSem nD τ sig := kcell (c, none)
abbrev xsCell (c : Dev nD) (k : Fin 32) : GSem nD τ sig := kcell (c, some (0, k))
abbrev xrCell (c : Dev nD) (k : Fin 32) : GSem nD τ sig := kcell (c, some (1, k))
abbrev ysCell (c : Dev nD) (k : Fin 32) : GSem nD τ sig := kcell (c, some (2, k))
abbrev yrCell (c : Dev nD) (k : Fin 32) : GSem nD τ sig := kcell (c, some (3, k))

theorem csem_injective : Function.Injective csem := by decide

/-- Which cell a semaphore is, if any. -/
def cellIx (s : SemLoc sig) : Option CIx := if h : ∃ q, csem q = s then some h.choose else none
theorem cellIx_csem (q : CIx) : cellIx (csem q) = some q := by
  unfold cellIx
  have h : ∃ q', csem q' = csem q := ⟨q, rfl⟩
  rw [dif_pos h]; exact congrArg some (csem_injective h.choose_spec)

/-- A chunk transfer's credit. -/
abbrev Nc : ℕ := (chunkOf aM 0).view.dmaCredit
theorem Nc_pos : 0 < Nc := View.dmaCredit_pos _ (by decide)

/-! ## Contents -/

/-- The device's block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Row (1024·h + 32·k + r), column j of a [2048, 512] array, for h < 2. -/
def rowIx (h : ℕ) (hh : h < 2) (i : S32x32x512.Idx) : S2048x512.Idx :=
  ValueIdx.ix2 (⟨1024 * h + 32 * (i 0).val + (i 1).val, by have h0 : (i 0).val < 32 := (i 0).isLt; have h1 : (i 1).val < 32 := (i 1).isLt; show _ < 2048; omega⟩ : Fin 2048) (⟨(i 2).val, (i 2).isLt⟩ : Fin 512)

/-- What device d's first landing buffer holds once all 32 chunks have landed: rows of its y-th half of the x-partner's block. -/
def xcommFull (d : Dev nD) : (cc0_scratch0 : Ref sig .tc).ty.Contents (Elt F) :=
  fun i => xstg m ρ (xp d) (rowIx (yc d) (yc_lt d) i)
/-- What device d's second landing buffer holds once all have landed: the y-partner's first landing buffer. -/
def ycommFull (d : Dev nD) : (cc0_scratch1 : Ref sig .tc).ty.Contents (Elt F) :=
  fun i => xstg m ρ (xp (yp d)) (rowIx (yc (yp d)) (yc_lt (yp d)) i)

abbrev half : PosShare TreeShare := fullShare.left

/-- Buffers through their views. -/
def aWhole (c : Dev nD) (f : Buf (Elt F) (aM.view.loc (c : Thread nD τ))) : sProp 𝕄 :=
  aM.view.loc (c : Thread nD τ) ↦[aM.view.set]{fullShare} f
def bWhole (c : Dev nD) (f : Buf (Elt F) (bM.view.loc (c : Thread nD τ))) : sProp 𝕄 :=
  bM.view.loc (c : Thread nD τ) ↦[bM.view.set]{fullShare} f
def aChunk (c : Dev nD) (k : Fin 32) (q : PosShare TreeShare) (f : Buf (Elt F) ((chunkOf aM k).view.loc (c : Thread nD τ))) : sProp 𝕄 :=
  (chunkOf aM k).view.loc (c : Thread nD τ) ↦[(chunkOf aM k).view.set]{q} f
def bChunk (c : Dev nD) (k : Fin 32) (q : PosShare TreeShare) (f : Buf (Elt F) ((chunkOf bM k).view.loc (c : Thread nD τ))) : sProp 𝕄 :=
  (chunkOf bM k).view.loc (c : Thread nD τ) ↦[(chunkOf bM k).view.set]{q} f
def xRows (c : Dev nD) (k : Fin 32) (q : PosShare TreeShare) : sProp 𝕄 :=
  (rowsX c k).view.loc (c : Thread nD τ) ↦[(rowsX c k).view.set]{q} xstg m ρ c

/-! ## The schedule -/

def barPay (g : Dev nD) (d : Bool) : sProp 𝕄 :=
  if d then iprop(∃ f, bWhole (yp g) f) else iprop(∃ f, aWhole (xp g) f)

def xferPay (g : Dev nD) (j : Fin 4) (k : Fin 32) : sProp 𝕄 :=
  match j with
  | 0 => xRows m ρ g k half
  | 1 => iprop(∃ fd : Buf (Elt F) ((chunkOf aM k).view.loc (g : Thread nD τ)),
      (chunkOf aM k).view.loc (g : Thread nD τ) ↦[(chunkOf aM k).view.set]{fullShare}
        (chunkOf aM k).view.write (Elt F) fd ((rowsX (xp g) k).view.read (Elt F) (xstg m ρ (xp g))) Finset.univ)
  | 2 => aChunk g k half (xcommFull m ρ g)
  | 3 => iprop(∃ fd : Buf (Elt F) ((chunkOf bM k).view.loc (g : Thread nD τ)),
      (chunkOf bM k).view.loc (g : Thread nD τ) ↦[(chunkOf bM k).view.set]{fullShare}
        (chunkOf bM k).view.write (Elt F) fd ((chunkOf aM k).view.read (Elt F) (xcommFull m ρ (yp g))) Finset.univ)

/-- One round. An entry cell has the two duties of one unit each; a transfer cell the duty false of a chunk's credit. -/
def sched : Rounds.Schedule (GSem nD τ sig) Bool 𝕄 where
  duties g r := if r = 0 ∧ g.1.2 = .tc then (match cellIx g.2 with | some none => Finset.univ | some (some _) => {false} | none => ∅) else ∅
  unitless _ := False
  amount g _ _ := if g.2 = .reg barS then 1 else Nc
  payload g _ d := match cellIx g.2 with
    | some none => barPay g.1.1 d
    | some (some (j, k)) => xferPay m ρ g.1.1 j k
    | none => iprop(emp)
  amount_pos g _ _ _ := by
    by_cases h : g.2 = .reg barS
    · rw [if_pos h]; exact Nat.one_pos
    · rw [if_neg h]; exact Nc_pos

section Tables
variable (c : Dev nD) (j : Fin 4) (k : Fin 32)

omit [FloatOps F] in
theorem duties_bar : (sched (F := F) m ρ).duties (barCell c) 0 = Finset.univ := by
  dsimp only [sched]; rw [if_pos ⟨rfl, rfl⟩, cellIx_csem]
omit [FloatOps F] in
theorem duties_xfer : (sched (F := F) m ρ).duties (kcell (c, some (j, k))) 0 = {false} := by
  dsimp only [sched]; rw [if_pos ⟨rfl, rfl⟩, cellIx_csem]
omit [FloatOps F] in
theorem duties_later (g : GSem nD τ sig) : ∀ r, 1 ≤ r → (sched (F := F) m ρ).duties g r = ∅ :=
  fun r hr => by dsimp only [sched]; rw [if_neg fun h => by omega]
omit [FloatOps F] in
theorem amount_bar (d : Bool) : (sched (F := F) m ρ).amount (barCell c) 0 d = 1 := by dsimp only [sched]; exact if_pos rfl
omit [FloatOps F] in
theorem amount_xfer (d : Bool) : (sched (F := F) m ρ).amount (kcell (c, some (j, k))) 0 d = Nc := by
  dsimp only [sched]; exact if_neg (fun h => by cases h)
omit [FloatOps F] in
theorem payload_bar (d : Bool) : (sched (F := F) m ρ).payload (barCell c) 0 d = barPay c d := by
  dsimp only [sched]; rw [cellIx_csem]
omit [FloatOps F] in
theorem payload_xfer (d : Bool) : (sched (F := F) m ρ).payload (kcell (c, some (j, k))) 0 d = xferPay m ρ c j k := by
  dsimp only [sched]; rw [cellIx_csem]
omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_xfer : (sched (F := F) m ρ).expect (kcell (c, some (j, k))) 0 = Nc := by
  unfold Schedule.expect Schedule.amountOf; rw [duties_xfer, Finset.sum_singleton, amount_xfer]

end Tables

/-! ## What each device owes at launch; the levels -/

/-- The chunk credits device c owes: per chunk, the x-partner's x-receive cell and the y-partner's y-receive cell. -/
def owedXfer (c : Dev nD) : CellTallies nD τ sig Unit :=
  ∑ k : Fin 32, (tallyAt (xrCell (xp c) k) () Nc + tallyAt (yrCell (yp c) k) () Nc)
/-- Beside them one unit to each partner's entry cell, summed so that the first signal (to the x-partner) peels the last summand. -/
def O₁ (c : Dev nD) : CellTallies nD τ sig Unit := owedXfer c + tallyAt (barCell (yp c)) () 1
def O₀ (c : Dev nD) : CellTallies nD τ sig Unit := O₁ c + tallyAt (barCell (xp c)) () 1

def L (g : GSem nD τ sig) : Finset Unit := if g.1.2 = .tc then {()} else ∅
/-- Entry cells at 1, x-receive cells at 2, y-receive cells at 3, everything else (staging, send) at 0: every wait is strictly below
    everything the waiter still owes (the entry wait owes receive credits; an x-receive wait owes y-receive credits only). -/
def lv (g : GSem nD τ sig) (_ : Unit) : ℕ :=
  match cellIx g.2 with
  | some none => 1
  | some (some (j, _)) => if j = 1 then 2 else if j = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from, and the pipeline's proof data -/

/-- Every cell's invariant under the names the launch allocated, and that every cell has reached round 0: persistent, dealt to all. -/
def records (K : Dev nD × CIx → ℕ) : sProp 𝕄 :=
  iprop((bigSep Finset.univ fun ck : Dev nD × CIx => cellInv ER (sched m ρ) (K ck) (kcell ck))
    ∗ bigSep Finset.univ fun ck : Dev nD × CIx => reached ER (kcell ck) 0)

instance records_persistent (K : Dev nD × CIx → ℕ) : BI.Persistent (records m ρ K) := by unfold records; infer_instance

/-- The tokens of the duties device c pays: the partners' entry duties, and per chunk the two ends of its two transfers. -/
def payToks (c : Dev nD) : sProp 𝕄 :=
  iprop(dutyTok ER (barCell (xp c)) 0 false ∗ dutyTok ER (barCell (yp c)) 0 true
    ∗ bigSep Finset.univ fun k : Fin 32 =>
        iprop(dutyTok ER (xsCell c k) 0 false ∗ dutyTok ER (xrCell (xp c) k) 0 false ∗ dutyTok ER (ysCell c k) 0 false ∗ dutyTok ER (yrCell (yp c) k) 0 false))
/-- What stays with device c: its positions in its own cells, and those tokens. -/
def linear (c : Dev nD) : sProp 𝕄 :=
  iprop((bigSep Finset.univ fun q : CIx => atPos ER (kcell (c, q)) 0 ∅ 0) ∗ payToks c)

def ghost (K : Dev nD × CIx → ℕ) (c : Dev nD) : sProp 𝕄 := iprop(records m ρ K ∗ linear c)

/-- The launch credit of the cells other devices pay: the entry cell's two units, each receive cell's chunk credit. -/
def creds (c : Dev nD) : sProp 𝕄 :=
  iprop(cred (tallyAt (barCell c) () 2) ∗ bigSep Finset.univ fun k : Fin 32 => iprop(cred (tallyAt (xrCell c k) () Nc) ∗ cred (tallyAt (yrCell c k) () Nc)))

/-- What a device's body starts from, beside its buffers. -/
def start (c : Dev nD) : sProp 𝕄 := iprop((∃ K, ghost m ρ K c) ∗ creds c ∗ levAts L lv)

def Φ₀ (c : Dev nD) : sProp 𝕄 := iprop(start m ρ c ∗ (∃ f, aWhole c f) ∗ (∃ f, bWhole c f))
/-- After the point: both landing buffers whole again, the 128 own transfer cells closed at zero. -/
def Φ₁ (c : Dev nD) : sProp 𝕄 :=
  iprop((∃ f, aWhole c f) ∗ (∃ f, bWhole c f) ∗ bigSep Finset.univ fun jk : Fin 4 × Fin 32 => semVal (kcell (c, some jk)) 0)

/-- The other block's rows as they reach device c: its own half's through the x-partner, the other half's through the
    y-partner's x-partner. -/
def otherRows (c : Dev nD) : (cc0_stg1_0 : Ref sig .tc).ty.Contents (Elt F) :=
  fun i => if (i 0).val / 1024 = yc c then xstg m ρ (xp c) i else xstg m ρ (xp (yp c)) i
/-- The kernel's result on device c: its block plus the other block's rows, row by row. -/
def outAt (c : Dev nD) : (cc0_stg1_0 : Ref sig .tc).ty.Contents (Elt F) := addf (xstg m ρ c) (otherRows m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- What the launch's global step hands device c: the ghost state at some names. -/
def G' (c : Dev nD) : sProp 𝕄 := iprop(∃ K, ghost m ρ K c)

/-- The kernel's own (scoped) semaphores as the launch theorem indexes them: the four arrays of 32, in order. -/
abbrev osem : Fin 128 → SemLoc sig := fun i =>
  .dma (semAt (semArr ⟨i.val / 32, by have := i.isLt; omega⟩) ⟨i.val % 32, Nat.mod_lt _ (by decide)⟩)

end Cert.KernelIdealProof

end
-- ==== Proof.Launch.lean ====
/-
  The launch of the two-step all-reduce: the side conditions of the launch theorem for cores that owe units at launch
  and handshake on an unscoped entry semaphore, and its application with the body obligation and the two ghost-state
  steps as hypotheses.

  The credit. Device d owes, per chunk, the x-receive cell of xp d and the y-receive cell of yp d one chunk's credit, and
  the entry cells of yp d and xp d one unit each. xp and yp being involutions, the units owed to device c's cells, summed
  over the devices, are: two on its entry cell (one from each partner), one chunk's credit on each of its 64 receive cells.

  The levels. Entry cells at 1, x-receive cells at 2, y-receive cells at 3, every other semaphore at 0. Everything owed at
  launch is owed to a cell at level 1 or above, so a wait on a staging semaphore (level 0) is below all of it; the body's
  own waits present the level of the cell waited on and that what is still owed lies strictly above.

  The ends. The launch hands the two landing buffers whole at arbitrary contents; the last invariant returns them and the
  128 own semaphores at zero, indexed by (array, chunk) in the proof and by 32·array + chunk in the launch theorem.
-/
import proofs.«900707_g7700000000000708_dist_ar_v7x_xyz2x2x4_x_m2048_n512_f32_1_alg».proof.Proof.Proto

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The layout facts the launch asks of the semaphores and shares -/

theorem ownSemFacts : Pipeline.OwnSemFacts cfg0.spec osem := by decide

theorem share_eq (c : Dev nD) (w : Fin cfg0.W) : (dats m ρ 0 c).share w = fullShare := by unfold Dat.share; split <;> rfl

/-! ## The levels -/

omit [FloatOps F] in
theorem lv_bar (c : Dev nD) : lv (barCell c) () = 1 := by dsimp only [lv]; rw [cellIx_csem]
omit [FloatOps F] in
theorem lv_xr (c : Dev nD) (k : Fin 32) : lv (xrCell c k) () = 2 := by dsimp only [lv]; rw [cellIx_csem]; rfl
omit [FloatOps F] in
theorem lv_yr (c : Dev nD) (k : Fin 32) : lv (yrCell c k) () = 3 := by dsimp only [lv]; rw [cellIx_csem]; rfl
omit [FloatOps F] in
theorem lv_xs (c : Dev nD) (k : Fin 32) : lv (xsCell c k) () = 0 := by dsimp only [lv]; rw [cellIx_csem]; rfl
omit [FloatOps F] in
theorem lv_ys (c : Dev nD) (k : Fin 32) : lv (ysCell c k) () = 0 := by dsimp only [lv]; rw [cellIx_csem]; rfl
/-- A semaphore that is no cell of the protocol sits at level 0. -/
theorem lv_none (c : Dev nD) (s : SemLoc sig) (h : cellIx s = none) : lv ((c : Thread nD τ), s) () = 0 := by dsimp only [lv]; rw [h]

/-- A semaphore no cell index names is no cell. -/
theorem cellIx_none_of {s : SemLoc sig} (h : ∀ q, csem q ≠ s) : cellIx s = none := by
  unfold cellIx; rw [dif_neg (fun ⟨q, hq⟩ => h q hq)]

/-- Where a device owes at launch: the partners' receive cells, chunk by chunk, and the partners' entry cells. -/
theorem O₀_pos {c : Dev nD} {g : GSem nD τ sig} {u : Unit} (h : 0 < O₀ c g u) :
    (∃ k, g = xrCell (xp c) k) ∨ (∃ k, g = yrCell (yp c) k) ∨ g = barCell (yp c) ∨ g = barCell (xp c) := by
  unfold O₀ O₁ owedXfer at h
  rcases Pipeline.add_pos_cases h with h | h
  · rcases Pipeline.add_pos_cases h with h | h
    · obtain ⟨k, -, hk⟩ := Pipeline.sum_pos_exists h
      rcases Pipeline.add_pos_cases hk with hk | hk
      · exact .inl ⟨k, (Pipeline.tallyAt_pos hk).1⟩
      · exact .inr (.inl ⟨k, (Pipeline.tallyAt_pos hk).1⟩)
    · exact .inr (.inr (.inl (Pipeline.tallyAt_pos h).1))
  · exact .inr (.inr (.inr (Pipeline.tallyAt_pos h).1))

/-- Everything owed at launch is owed to a TensorCore's cell at level 1 or above. -/
theorem O₀_above {c : Dev nD} {g : GSem nD τ sig} {u : Unit} (h : 0 < O₀ c g u) : g.1.2 = .tc ∧ 0 < lv g u := by
  rcases O₀_pos h with ⟨k, rfl⟩ | ⟨k, rfl⟩ | rfl | rfl
  · exact ⟨rfl, by rw [lv_xr]; decide⟩
  · exact ⟨rfl, by rw [lv_yr]; decide⟩
  · exact ⟨rfl, by rw [lv_bar]; decide⟩
  · exact ⟨rfl, by rw [lv_bar]; decide⟩

omit [FloatOps F] in
/-- A wait on a cell at level n, everything owed being owed to TensorCore cells strictly above n. -/
theorem mayWait_of_above (c : Dev nD) (s : SemLoc sig) (n : ℕ) (hs : lv ((c : Thread nD τ), s) () = n)
    (O : CellTallies nD τ sig Unit) (hO : ∀ g u, 0 < O g u → g.1.2 = .tc ∧ n < lv g u) :
    (levAts L lv : sProp 𝕄) ⊢ MayWait (c : Thread nD τ) s () O :=
  Pipeline.mayWait_of_levAts (by rw [L_tc]; exact Finset.mem_singleton_self _) fun g u hg =>
    ⟨by unfold L; rw [if_pos (hO g u hg).1]; exact Finset.mem_singleton.mpr (Subsingleton.elim _ _), by rw [hs]; exact (hO g u hg).2⟩

omit [FloatOps F] in
/-- A staging semaphore is no cell of the protocol: it sits at level 0, below everything owed at launch. -/
theorem mayWait_stage (c : Dev nD) (q : DmaSem sig) (hq : cellIx (.dma q) = none) (O : CellTallies nD τ sig Unit) (hO : O = O₀ c ∨ O = 0) :
    (levAts L lv : sProp 𝕄) ⊢ MayWait (c : Thread nD τ) (.dma q) () O := by
  rcases hO with rfl | rfl
  · exact mayWait_of_above c (.dma q) 0 (lv_none c _ hq) _ fun g u hg => O₀_above hg
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (cellIx_none_of (by fin_cases w <;> fin_cases s <;> decide)) _ (by
      rcases t with ⟨_ | _, ht⟩
      · exact Or.inl rfl
      · exact Or.inr rfl)

/-! ## The launch credit -/

omit [FloatOps F] in
/-- The two entry units: every device owes one to each partner's entry cell, so each entry cell is owed one by each partner. -/
theorem creds_bar (c : Dev nD) :
    (Pipeline.launchCred (fun d => tallyAt (barCell (yp d)) () 1 + tallyAt (barCell (xp d)) () 1) c : sProp 𝕄) ⊢ cred (tallyAt (barCell c) () 2) := by
  rw [Pipeline.launchCred_add, ← tallyAt_add (barCell c) () 1 1]
  refine (BIClass.sep_mono ?_ ?_).trans (cred_add _ _).2
  · exact Pipeline.launchCred_tallyAt (.reg barS) yp yp yp_yp yp_yp () 1 c
  · exact Pipeline.launchCred_tallyAt (.reg barS) xp xp xp_xp xp_xp () 1 c

omit [FloatOps F] in
/-- Chunk k's two credits: the x-receive cell is owed by the x-partner, the y-receive cell by the y-partner. -/
theorem creds_xfer (c : Dev nD) (k : Fin 32) :
    (Pipeline.launchCred (fun d => tallyAt (xrCell (xp d) k) () Nc + tallyAt (yrCell (yp d) k) () Nc) c : sProp 𝕄)
      ⊢ iprop(cred (tallyAt (xrCell c k) () Nc) ∗ cred (tallyAt (yrCell c k) () Nc)) := by
  rw [Pipeline.launchCred_add]
  refine BIClass.sep_mono ?_ ?_
  · exact Pipeline.launchCred_tallyAt (csem (some (1, k))) xp xp xp_xp xp_xp () Nc c
  · exact Pipeline.launchCred_tallyAt (csem (some (3, k))) yp yp yp_yp yp_yp () Nc c

omit [FloatOps F] in
/-- What the launch deals a device for the units the others owe its cells. -/
theorem creds_intro (c : Dev nD) : (Pipeline.launchCred O₀ c : sProp 𝕄) ⊢ creds c := by
  have h : (O₀ : Dev nD → CellTallies nD τ sig Unit) = fun d => (∑ k : Fin 32, (tallyAt (xrCell (xp d) k) () Nc + tallyAt (yrCell (yp d) k) () Nc))
      + (tallyAt (barCell (yp d)) () 1 + tallyAt (barCell (xp d)) () 1) := funext fun d => by unfold O₀ O₁ owedXfer; rw [add_assoc]
  rw [h, Pipeline.launchCred_add, Pipeline.launchCred_sum]
  unfold creds
  refine (BIClass.sep_mono (bigSep_mono fun k _ => creds_xfer c k) (creds_bar c)).trans ?_
  iintro ⟨Hx, Hb⟩
  isplitl [Hb] <;> iassumption

/-! ## The ends: into the first invariant, out of the last -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

omit [FloatOps F] in
/-- The landing buffers through the whole-buffer view: the plain points-to. -/
theorem aWhole_eq (c : Dev nD) (f : Buf (Elt F) ((c : Thread nD τ).loc cc0_scratch0)) :
    aWhole c f = (((c : Thread nD τ).loc cc0_scratch0) ↦{fullShare} f : sProp 𝕄) := by unfold aWhole; rw [View.set_whole]
omit [FloatOps F] in
theorem bWhole_eq (c : Dev nD) (f : Buf (Elt F) ((c : Thread nD τ).loc cc0_scratch1)) :
    bWhole c f = (((c : Thread nD τ).loc cc0_scratch1) ↦{fullShare} f : sProp 𝕄) := by unfold bWhole; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Ha⟩, ⟨%g, Hb⟩⟩
  isplitl [Hs]; · iexact Hs
  isplitl [Ha]
  · iexists f; rw [aWhole_eq]; iexact Ha
  · iexists g; rw [bWhole_eq]; iexact Hb

/-- The 128 own semaphores, indexed by (array, chunk). -/
def e128 : Fin 4 × Fin 32 ≃ Fin 128 := finProdFinEquiv

omit [FloatOps F] in
theorem osem_eq (i : Fin 128) (j : Fin 4) (k : Fin 32) (hj : i.val / 32 = j.val) (hk : i.val % 32 = k.val) : osem i = csem (some (j, k)) := by
  have h1 : (⟨i.val / 32, by have := i.isLt; omega⟩ : Fin 4) = j := Fin.ext hj
  have h2 : (⟨i.val % 32, Nat.mod_lt _ (by decide)⟩ : Fin 32) = k := Fin.ext hk
  show SemLoc.dma (semAt (semArr ⟨i.val / 32, _⟩) ⟨i.val % 32, _⟩) = SemLoc.dma (semAt (semArr j) k)
  rw [h1, h2]

omit [FloatOps F] in
theorem osem_e128 (jk : Fin 4 × Fin 32) : osem (e128 jk) = csem (some jk) := by
  obtain ⟨j, k⟩ := jk
  have hv : (e128 (j, k)).val = k.val + 32 * j.val := rfl
  have := k.isLt
  exact osem_eq _ j k (by rw [hv]; omega) (by rw [hv]; omega)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 32 => semVal (kcell (c, some jk)) 0 := by
  unfold Pipeline.ownSems0
  rw [bigSep_univ_equiv e128]
  exact bigSep_congr fun jk _ => by rw [osem_e128]

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Ha⟩, ⟨%g, Hb⟩, Hz⟩
  isplitr; · iempintro
  isplitl [Hz]; · iexact Hz
  isplitl [Ha]
  · iexists f; rw [← aWhole_eq]; iexact Ha
  · iexists g; rw [← bWhole_eq]; iexact Hb

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given each device's
    body obligation and the two ghost-state steps of the launch, every weakly fair execution of @main terminates, and every
    final state has each device's windows' arrays at the contents the proof data names. -/
theorem run_main (hbody : ∀ c, BodyObligation (dats (F := F) m ρ 0 c) (defs₀ (F := F)) 𝒱₀ () Set.univ)
    (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m ρ)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.Alloc.lean ====
/-
  The launch's ghost state: the cells of the sixteen devices (per device the entry cell and the 128 transfer
  cells), the duty tokens minted for them, and how the launch element becomes, per device, the round states,
  positions and tokens of its own cells; then how, once every counter stands at zero, the cells' invariants are
  allocated for all devices at once and the tokens are dealt to the devices that pay them.
-/
import proofs.«900707_g7700000000000708_dist_ar_v7x_xyz2x2x4_x_m2048_n512_f32_1_alg».proof.Proof.Proto
import Idealize.SL.ProofMode.BigOp

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × CIx → GSem nD τ sig) := by
  rintro ⟨c, q⟩ ⟨c', q'⟩ h
  have h1 : c = c' := congrArg (fun g : GSem nD τ sig => g.1.1) h
  subst h1
  have h2 : csem q = csem q' := congrArg Prod.snd h
  rw [csem_injective h2]

/-- Every cell of the protocol: per device its entry cell and its 128 transfer cells. -/
def allCells : Finset (GSem nD τ sig) := Finset.univ.map ⟨kcell, kcell_injective⟩

/-- The duties minted at launch, per device: the entry cell's two, and each transfer cell's one. -/
abbrev TIx : Type := Bool ⊕ (Fin 4 × Fin 32)
abbrev tokOf (ct : Dev nD × TIx) : GSem nD τ sig × ℕ × Bool := match ct.2 with
  | .inl d => (barCell ct.1, 0, d)
  | .inr jk => (kcell (ct.1, some jk), 0, false)

theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    rcases t with d | jk <;> rcases t' with d' | jk' <;> exact this
  subst h1
  rcases t with d | jk <;> rcases t' with d' | jk'
  · have : d = d' := congrArg (fun x : GSem nD τ sig × ℕ × Bool => x.2.2) h
    rw [this]
  · have h2 : csem none = csem (some jk') := congrArg (fun x : GSem nD τ sig × ℕ × Bool => x.1.2) h
    exact absurd (csem_injective h2) (fun h' => by cases h')
  · have h2 : csem (some jk) = csem none := congrArg (fun x : GSem nD τ sig × ℕ × Bool => x.1.2) h
    exact absurd (csem_injective h2) (fun h' => by cases h')
  · have h2 : csem (some jk) = csem (some jk') := congrArg (fun x : GSem nD τ sig × ℕ × Bool => x.1.2) h
    rw [Option.some.inj (csem_injective h2)]

def allToks : Finset (GSem nD τ sig × ℕ × Bool) := Finset.univ.map ⟨tokOf, tokOf_injective⟩

/-- The launch element: the pipeline library's, and the protocol's cells and tokens. -/
def u₀ : UU :=
  (initOf (Pipeline.cells cfgs cellOf_inj) (Pipeline.launchToks cfgs cellOf_inj), initOf allCells allToks)

/-- The duty tokens of device c's own cells: the entry cell's two, each transfer cell's one. -/
def toks (c : Dev nD) : sProp 𝕄 :=
  iprop(dutyTok ER (barCell c) 0 false ∗ dutyTok ER (barCell c) 0 true
    ∗ bigSep Finset.univ fun jk : Fin 4 × Fin 32 => dutyTok ER (kcell (c, some jk)) 0 false)

/-- What the launch element deals device c: its cells' round states at counter zero, its positions in them, that each has
    reached round 0, and the tokens of its cells' duties. -/
def G (c : Dev nD) : sProp 𝕄 :=
  iprop((bigSep Finset.univ fun q : CIx => roundState ER (sched m ρ) (kcell (c, q)) 0)
    ∗ (bigSep Finset.univ fun q : CIx => iprop(atPos ER (kcell (c, q)) 0 ∅ 0 ∗ reached ER (kcell (c, q)) 0)) ∗ toks c)

omit [FloatOps F] in
theorem sep_comm_eq (P Q : sProp 𝕄) : iprop(P ∗ Q) = iprop(Q ∗ P) :=
  Idealize.SL.BI.equiv_iff.mp ⟨Idealize.SL.BI.sep_comm, Idealize.SL.BI.sep_comm⟩
omit [FloatOps F] in
theorem sep_assoc_eq (P Q R : sProp 𝕄) : iprop((P ∗ Q) ∗ R) = iprop(P ∗ Q ∗ R) :=
  Idealize.SL.BI.equiv_iff.mp ⟨Idealize.SL.BI.sep_assoc, Idealize.SL.BI.sep_assoc'⟩

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A sum over a device's cells is the entry cell's summand and the sum over its transfer cells. -/
theorem bigSep_cix (Φ : CIx → sProp 𝕄) : bigSep Finset.univ Φ = iprop(Φ none ∗ bigSep Finset.univ fun jk : Fin 4 × Fin 32 => Φ (some jk)) := by
  rw [bigSep_univ_equiv (Equiv.optionEquivSumPUnit.{0, 0} (Fin 4 × Fin 32)).symm Φ, bigSep_univ_sum, bigSep_univ_of_subsingleton PUnit.unit]
  exact sep_comm_eq _ _

omit [FloatOps F] in
theorem toks_eq (c : Dev nD) : (bigSep Finset.univ fun t : TIx => (dutyTok ER (tokOf (c, t)).1 (tokOf (c, t)).2.1 (tokOf (c, t)).2.2 : sProp 𝕄)) = toks c := by
  unfold toks; rw [bigSep_univ_sum, bigSep_bool]; exact sep_assoc_eq _ _ _

omit [FloatOps F] in
/-- The protocol's half of the launch element, dealt per device. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun q : CIx => Φ (kcell (c, q)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch element split between the pipeline library and the protocol, the protocol's half dealt per device. -/
theorem fund_all : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_cells m ρ) $$ HX with HG
  imodintro
  isplitl [HP] <;> iassumption

/-! ## The global step: every counter at zero, the cells' invariants allocated for all devices at once -/

omit [FloatOps F] in
instance sched_payload_storable (g : GSem nD τ sig) (r : ℕ) (d : Bool) :
    BI.Storable (upEmb : UEmb _ 𝕄) ((sched (F := F) m ρ).payload g r d) := by
  show BI.Storable upEmb (match cellIx g.2 with
    | some none => barPay g.1.1 d
    | some (some (j, k)) => xferPay m ρ g.1.1 j k
    | none => iprop(emp))
  split
  · unfold barPay aWhole bWhole; split <;> infer_instance
  · unfold xferPay xRows aChunk; split <;> infer_instance
  · infer_instance

/-- The 128 own semaphores in the order the launch lists them: semaphore k of array j stands at 32·j + k. -/
def jkEquiv : Fin 128 ≃ Fin 4 × Fin 32 where
  toFun i := (⟨i.val / 32, by have := i.isLt; omega⟩, ⟨i.val % 32, Nat.mod_lt _ (by decide)⟩)
  invFun jk := ⟨32 * jk.1.val + jk.2.val, by have := jk.1.isLt; have := jk.2.isLt; omega⟩
  left_inv i := Fin.ext (by show 32 * (i.val / 32) + i.val % 32 = i.val; omega)
  right_inv jk := by
    obtain ⟨j, k⟩ := jk
    have hj := j.isLt; have hk := k.isLt
    refine Prod.ext (Fin.ext ?_) (Fin.ext ?_)
    · show (32 * j.val + k.val) / 32 = j.val; omega
    · show (32 * j.val + k.val) % 32 = k.val; omega

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun q : CIx => semVal (kcell (c, q)) 0 : sProp 𝕄) := by
  rw [unscopedSems0_eq, bigSep_cix, bigSep_univ_equiv jkEquiv (fun jk : Fin 4 × Fin 32 => (semVal (kcell (c, some jk)) 0 : sProp 𝕄))]
  exact Idealize.SL.BI.sep_comm

omit [FloatOps F] in
/-- On one device: the 129 counters at zero and the round states at zero become the cells' invariants, each at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun q : CIx => iprop(∃ κ : ℕ, cellInv ER (sched m ρ) κ (kcell (c, q))))
          ∗ (bigSep Finset.univ fun q : CIx => iprop(atPos ER (kcell (c, q)) 0 ∅ 0 ∗ reached ER (kcell (c, q)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun q : CIx => semVal (kcell (c, q)) 0) ∗ bigSep Finset.univ fun q : CIx => roundState ER (sched m ρ) (kcell (c, q)) 0)
      ⊢ (|={Set.univ}=> bigSep Finset.univ fun q : CIx => iprop(∃ κ : ℕ, cellInv ER (sched m ρ) κ (kcell (c, q))) : sProp 𝕄) from by
        rw [← bigSep_sep']
        exact (bigSep_mono fun q _ => (Rounds.body_intro ER (sched m ρ) (kcell (c, q))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent assertion beside a sum serves every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × CIx → ℕ) (c : Dev nD) : iprop(records m ρ K ∗ linear c) ⊢ G' m ρ c := by
  unfold G' ghost
  iintro H
  iexists K
  iexact H

/-- The tokens of array j's 32 cells on device c. -/
def arrToks (j : Fin 4) (c : Dev nD) : sProp 𝕄 := bigSep Finset.univ fun k : Fin 32 => dutyTok ER (kcell (c, some (j, k))) 0 false

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem toks_split (c : Dev nD) : (toks c : sProp 𝕄)
    = iprop(dutyTok ER (barCell c) 0 false ∗ dutyTok ER (barCell c) 0 true ∗ arrToks 0 c ∗ arrToks 1 c ∗ arrToks 2 c ∗ arrToks 3 c) := by
  unfold toks arrToks
  rw [bigSep_univ_prod (fun jk : Fin 4 × Fin 32 => (dutyTok ER (kcell (c, some jk)) 0 false : sProp 𝕄)), bigSep_fin4]

omit [FloatOps F] in
theorem payToks_split (c : Dev nD) : (payToks c : sProp 𝕄)
    = iprop(dutyTok ER (barCell (xp c)) 0 false ∗ dutyTok ER (barCell (yp c)) 0 true ∗ arrToks 0 c ∗ arrToks 1 (xp c) ∗ arrToks 2 c ∗ arrToks 3 (yp c)) := by
  unfold payToks arrToks
  rw [bigSep_sep', bigSep_sep', bigSep_sep']

omit [FloatOps F] in
/-- The tokens dealt to the devices that pay them: an entry cell's token false goes to the x-partner, its token true to the
    y-partner; an x-receive cell's token to the x-partner, a y-receive cell's to the y-partner; the send cells' tokens stay. -/
theorem toks_around : (bigSep Finset.univ fun c : Dev nD => (toks c : sProp 𝕄)) ⊢ bigSep Finset.univ fun c : Dev nD => payToks c := by
  rw [bigSep_congr (s := Finset.univ) (fun (c : Dev nD) _ => toks_split (F := F) c), bigSep_congr (s := Finset.univ) (fun (c : Dev nD) _ => payToks_split (F := F) c)]
  rw [bigSep_sep', bigSep_sep', bigSep_sep', bigSep_sep', bigSep_sep', bigSep_sep', bigSep_sep', bigSep_sep', bigSep_sep', bigSep_sep',
    bigSep_univ_equiv xpEquiv (fun c : Dev nD => (dutyTok ER (barCell c) 0 false : sProp 𝕄)),
    bigSep_univ_equiv ypEquiv (fun c : Dev nD => (dutyTok ER (barCell c) 0 true : sProp 𝕄)),
    bigSep_univ_equiv xpEquiv (fun c : Dev nD => (arrToks 1 c : sProp 𝕄)),
    bigSep_univ_equiv ypEquiv (fun c : Dev nD => (arrToks 3 c : sProp 𝕄))]
  exact .refl

omit [FloatOps F] in
theorem regroup :
    (bigSep Finset.univ fun c : Dev nD => iprop((bigSep Finset.univ fun q : CIx => iprop(∃ κ : ℕ, cellInv ER (sched m ρ) κ (kcell (c, q))))
          ∗ (bigSep Finset.univ fun q : CIx => iprop(atPos ER (kcell (c, q)) 0 ∅ 0 ∗ reached ER (kcell (c, q)) 0)) ∗ toks c) : sProp 𝕄)
      ⊢ bigSep Finset.univ (G' m ρ) := by
  rw [bigSep_sep', bigSep_sep', ← bigSep_univ_prod (fun ck : Dev nD × CIx => iprop(∃ κ : ℕ, cellInv ER (sched m ρ) κ (kcell ck))),
    bigSep_congr (s := Finset.univ) (fun (c : Dev nD) _ => bigSep_sep' Finset.univ (fun q : CIx => (atPos ER (kcell (c, q)) 0 ∅ 0 : sProp 𝕄)) (fun q => reached ER (kcell (c, q)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun q : CIx => (atPos ER (kcell (c, q)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at zero, and what the launch element dealt, become
    every device's ghost state at one choice of names. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealProof.fund_all' depends on axioms: [propext, Classical.choice, Quot.sound] -/
#guard_msgs in #print axioms fund_all
/-- info: 'Cert.KernelIdealProof.glob' depends on axioms: [propext, Classical.choice, Quot.sound] -/
#guard_msgs in #print axioms glob

end Cert.KernelIdealProof

end
-- ==== Proof.Final.lean ====
/-
  From the pipeline's book-keeping to the run's result. The kernel has no grid: each of its two windows is the whole
  array at block index 0, so the staged block of the argument is the argument array itself, the argument array is never
  written back, and the result array after the one point is what the body left in the result's staging buffer. Given
  that each device's body meets its obligation, the launch runs the kernel to a state where each window's array holds
  what the proof data names; dropping the result leaves that every device's argument array is unchanged.
-/
import proofs.«900707_g7700000000000708_dist_ar_v7x_xyz2x2x4_x_m2048_n512_f32_1_alg».proof.Proof.Launch
import proofs.«900707_g7700000000000708_dist_ar_v7x_xyz2x2x4_x_m2048_n512_f32_1_alg».proof.Proof.Alloc
import proofs.«900707_g7700000000000708_dist_ar_v7x_xyz2x2x4_x_m2048_n512_f32_1_alg».proof.Proof.Gen.KernelIdeal.Points

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The staged block of the argument is the argument array: the window's one block is the whole array at offset 0. -/
theorem xstg_eq (c : Dev nD) : xstg m ρ c = m ((c : Thread nD τ).loc main_arg0) := by
  have hz : (fun a => (win0_0.index (0 : Fin 1)) a * main_arg0.ty.shape.size a) = fun _ => 0 :=
    funext fun a => Nat.zero_mul _
  exact Memref.read_access_unit_zero (Elt F) main_arg0 hz (fun a => by fin_cases a <;> decide) _

/-- The argument array after the run holds what it held at launch. -/
theorem finalA_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run holds what the body left in its staging buffer at the one point: the write-back
    there covers the whole array. -/
theorem finalA_out (c : Dev nD) : (dats m ρ 0 c).arrAt (1 : Fin 2) cfg0.N = outAt m ρ c := by
  have hz : (fun a => (win0_1.index (0 : Fin 1)) a * main_v1.ty.shape.size a) = fun _ => 0 :=
    funext fun a => Nat.zero_mul _
  rw [show cfg0.N = (⟨0, by decide⟩ : Fin cfg0.N).val + 1 from rfl,
    (dats (F := F) m ρ 0 c).arrAt_succ (1 : Fin 2) ⟨0, by decide⟩, flush0_1 ⟨0, by decide⟩, if_pos rfl]
  exact Memref.write_access_unit_zero_univ (Elt F) main_v1 hz (fun a => by fin_cases a <;> decide) _ _

/-- The run, from the body obligation alone: the launch's two ghost-state steps are the allocation's. -/
theorem run_all (hbody : ∀ c, BodyObligation (dats (F := F) m ρ 0 c) (defs₀ (F := F)) 𝒱₀ () Set.univ) :
    θ_run defs (onTc (τ := τ) (main (F := F))) (s₀ m ρ) (QC m ρ) :=
  run_main m ρ hbody (G := G m ρ) (u₀ := u₀) (hu₀ := fund_all m ρ) (hglob := glob m ρ)

/-- The kernel runs and leaves every device's argument array unchanged. -/
theorem frame_of_body (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m ρ c)) (run_all m ρ hbody)

/-- info: 'Cert.KernelIdealProof.finalA_out' depends on axioms: [propext, Classical.choice, Quot.sound] -/
#guard_msgs in #print axioms finalA_out
/-- info: 'Cert.KernelIdealProof.frame_of_body' depends on axioms: [propext, Classical.choice, Quot.sound] -/
#guard_msgs in #print axioms frame_of_body

end Cert.KernelIdealProof

end
-- ==== Proof.RefSide.lean ====
/-
  The reference's side of the certificate. The reference holds the whole array X : f32[4096, 512], views it as
  [2, 2048, 512] and sums over the leading axis from the initial value 0: its result at (r, j) is
  0 + (X[r, j] + X[2048 + r, j]). A device of the 2 × 2 × 4 mesh with x coordinate k holds the block of X whose
  row r is row k · 2048 + r of X. So the sum of the blocks of two devices with the two different x coordinates is
  the reference's result, index by index, in either order (addition of extended reals is commutative).
-/
import proofs.«900707_g7700000000000708_dist_ar_v7x_xyz2x2x4_x_m2048_n512_f32_1_alg».proof.Defs
import proofs.«900707_g7700000000000708_dist_ar_v7x_xyz2x2x4_x_m2048_n512_f32_1_alg».proof.Proof.Gen.ReferenceIdeal
import proofs.«900707_g7700000000000708_dist_ar_v7x_xyz2x2x4_x_m2048_n512_f32_1_alg».proof.Proof.Gen.Pre_finite_inputs_ReferenceIdeal
import proofs.«900707_g7700000000000708_dist_ar_v7x_xyz2x2x4_x_m2048_n512_f32_1_alg».proof.Proof.Gen.ReferenceIdeal.Run
import proofs.«900707_g7700000000000708_dist_ar_v7x_xyz2x2x4_x_m2048_n512_f32_1_alg».proof.Proof.Gen.ReferenceIdeal.Read
import proofs.«900707_g7700000000000708_dist_ar_v7x_xyz2x2x4_x_m2048_n512_f32_1_alg».proof.Proof.Mesh
import Idealize.ShloMosaic.Lib.Layout
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.TcCoe Idealize.SL.Sem Idealize.ShloMosaic.ValueIdx
open Cert.ReferenceIdeal (S4096x512 S2048x512 S2x2048x512 S_)

/-- The reference runs and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's result as a function of its whole argument array. -/
def refOut (X : (⟨S4096x512, .f32⟩ : BufTy).Contents (Elt Ideal)) : (⟨S2048x512, .f32⟩ : BufTy).Contents (Elt Ideal) :=
  Cert.ReferenceIdeal.Read.val_main_v1 (F := Ideal) X

/-- The reference's run ends with its result at `refOut` of its argument, the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq _), (h 0).2⟩)
    (Cert.ReferenceIdeal.Value.run (F := Ideal) m' g')

/-- Row `k · 2048 + r`, column `j` of the whole array, for the index `(r, j)` of a block and `k` below 2. -/
def rowAt (k : Nat) (hk : k < 2) (i : S2048x512.Idx) : S4096x512.Idx :=
  ix2 (⟨k * 2048 + (i 0).val, by have := idx2_lt0 i; omega⟩ : Fin 4096) (⟨(i 1).val, idx2_lt1 i⟩ : Fin 512)

/-- The block coordinate of device `c` along the rows is its x coordinate. -/
theorem meshBlock_rows (c : Fin 16) : ((Layout.meshBlock [2, 2, 4] ![[0], []] c) 0).val = Cert.Mesh.xc c := by
  revert c; decide

/-- A device's block read at an index: the whole array at the row its x coordinate shifts to. -/
theorem block_apply (c : Fin 16) (X : (⟨S4096x512, .f32⟩ : BufTy).Contents (Elt Ideal)) (i : S2048x512.Idx) :
    (Layout.blockN ⟨2, ![2048, 512]⟩ ⟨2, ![4096, 512]⟩ (Layout.meshBlock [2, 2, 4] ![[0], []] c) X) i
      = X (rowAt (Cert.Mesh.xc c) (Cert.Mesh.xc_lt c) i) := by
  rw [Layout.blockN_apply]
  refine congrArg X (funext fun a => Fin.ext ?_)
  rw [Layout.TilesN.idx_val]
  match a with
  | ⟨0, _⟩ => exact congrArg (· * 2048 + (i 0).val) (meshBlock_rows c)
  | ⟨1, _⟩ => exact Nat.zero_add _

/-- `rowAt` depends on its row block only through its value. -/
theorem rowAt_congr {k k' : Nat} (h : k = k') (hk : k < 2) (hk' : k' < 2) (i : S2048x512.Idx) :
    rowAt k hk i = rowAt k' hk' i := by subst h; rfl

/-- The view as [2, 2048, 512] and the sum over its leading axis, composed: term `k` of the sum at `(r, j)` reads the
    whole array at row `k · 2048 + r`, column `j`. -/
theorem idx_comp (i : S2048x512.Idx) (k : Fin 2) :
    Cert.ReferenceIdeal.Read.idx_main_v0 (Cert.ReferenceIdeal.Read.idx_main_v1 i k) = rowAt k.val k.isLt i := by
  have h0 := idx2_lt0 i
  have h1 := idx2_lt1 i
  have hk := k.isLt
  funext a
  refine Fin.ext ?_
  match a with
  | ⟨0, _⟩ =>
    show ((k.val * 2048 + (i 0).val) * 512 + (i 1).val) / 512 = k.val * 2048 + (i 0).val
    omega
  | ⟨1, _⟩ =>
    show ((k.val * 2048 + (i 0).val) * 512 + (i 1).val) % 512 = (i 1).val
    omega

/-- The reference's result at `(r, j)`: the whole array's rows `r` and `2048 + r` at column `j`, added (the initial
    value of the sum is the zero word, and `0 + s = s`). -/
theorem refOut_apply (X : (⟨S4096x512, .f32⟩ : BufTy).Contents (Elt Ideal)) (i : S2048x512.Idx) :
    refOut X i = (show EReal from X (rowAt 0 (by decide) i)) + (show EReal from X (rowAt 1 (by decide) i)) := by
  unfold refOut
  rw [Cert.ReferenceIdeal.Read.val_main_v1_apply, Cert.ReferenceIdeal.Read.val_main_cst_apply, Fin.sum_univ_two,
    Cert.ReferenceIdeal.Read.val_main_v0_apply, Cert.ReferenceIdeal.Read.val_main_v0_apply, idx_comp, idx_comp]
  show Ideal.ofBits .f32 0x00000000#32 + _ = _
  rw [Ideal.ofBits_zero_f32, zero_add]
  rfl

/-- THE BRIDGE. The blocks of two devices whose x coordinates are the two different ones add up, index by index, to the
    reference's result: one of them is rows `r`, the other rows `2048 + r`, and the sum does not depend on the order. -/
theorem block_add_block (c d : Fin 16) (hd : Cert.Mesh.xc d = 1 - Cert.Mesh.xc c)
    (X : (⟨S4096x512, .f32⟩ : BufTy).Contents (Elt Ideal)) (i : S2048x512.Idx) :
    (show EReal from (Layout.blockN ⟨2, ![2048, 512]⟩ ⟨2, ![4096, 512]⟩ (Layout.meshBlock [2, 2, 4] ![[0], []] c) X) i)
      + (show EReal from (Layout.blockN ⟨2, ![2048, 512]⟩ ⟨2, ![4096, 512]⟩ (Layout.meshBlock [2, 2, 4] ![[0], []] d) X) i)
      = refOut X i := by
  rw [block_apply, block_apply, refOut_apply]
  have hc := Cert.Mesh.xc_lt c
  rcases (show Cert.Mesh.xc c = 0 ∨ Cert.Mesh.xc c = 1 by omega) with h | h
  · have hd' : Cert.Mesh.xc d = 1 := by omega
    rw [rowAt_congr h _ (by decide), rowAt_congr hd' _ (by decide)]
  · have hd' : Cert.Mesh.xc d = 0 := by omega
    rw [rowAt_congr h _ (by decide), rowAt_congr hd' _ (by decide)]
    exact add_comm (G := EReal) _ _

/-- info: 'Cert.RefSide.block_add_block' depends on axioms: [propext, Classical.choice, Quot.sound] -/
#guard_msgs in #print axioms block_add_block
/-- info: 'Cert.RefSide.ref_run' depends on axioms: [propext, Classical.choice, Quot.sound] -/
#guard_msgs in #print axioms ref_run

end Cert.RefSide

end
-- ==== Proof.Claims.lean ====
/-
  The claims, from the body obligation. The run leaves on each device the argument array as it was at launch and in the
  result array the device's block plus the other block's rows. At the ideal instance, with each device's argument its
  block of the whole array, that is the reference's result: the frame drops the result, the algebraic claim names it.
-/
import proofs.«900707_g7700000000000708_dist_ar_v7x_xyz2x2x4_x_m2048_n512_f32_1_alg».proof.Proof.Final
import proofs.«900707_g7700000000000708_dist_ar_v7x_xyz2x2x4_x_m2048_n512_f32_1_alg».proof.Proof.RefSide
import proofs.«900707_g7700000000000708_dist_ar_v7x_xyz2x2x4_x_m2048_n512_f32_1_alg».proof.Proof.Gen.Pre_finite_inputs_Kernel

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

/-- AT THE IDEAL INSTANCE: where every device's argument array is its block of the whole array `X`, the kernel's result
    on device `c` is the reference's result of `X`. At an index, it is the device's block plus the block of a device
    with the other x coordinate (the x-partner, or the y-partner's x-partner), and two such blocks add up to the
    reference's result. -/
theorem outAt_eq_refOut (m : (ℓ : Loc nD τ sig) → Buf (Elt Ideal) ℓ) (ρ : Dev nD → PrngReg)
    (X : (⟨Cert.ReferenceIdeal.S4096x512, .f32⟩ : BufTy).Contents (Elt Ideal))
    (hagree : ∀ c : Dev nD, m ((c.tc : Thread nD τ).loc main_arg0)
      = Layout.blockN ⟨2, ![2048, 512]⟩ ⟨2, ![4096, 512]⟩ (Layout.meshBlock [2, 2, 4] ![[0], []] c) X)
    (c : Dev nD) : outAt (F := Ideal) m ρ c = Cert.RefSide.refOut X := by
  have hx : ∀ d : Dev nD, xstg (F := Ideal) m ρ d
      = Layout.blockN ⟨2, ![2048, 512]⟩ ⟨2, ![4096, 512]⟩ (Layout.meshBlock [2, 2, 4] ![[0], []] d) X :=
    fun d => (xstg_eq m ρ d).trans (hagree d)
  funext i
  unfold outAt otherRows
  rw [ValueIdx.addf_apply, hx c]
  split
  · rw [hx (xp c)]
    exact Cert.RefSide.block_add_block c (xp c) (xc_xp c) X i
  · rw [hx (xp (yp c))]
    exact Cert.RefSide.block_add_block c (xp (yp c)) ((xc_xp (yp c)).trans (congrArg (1 - ·) (xc_yp c))) X i

/-- The frame claim of the idealized kernel. -/
theorem frame_ki_of_body
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.frame_KernelIdeal := fun m ρ _ => frame_of_body m ρ (hbody m ρ)

/-- AT THE IDEAL INSTANCE: where every device's argument array is its block of the reference's whole argument array, the
    kernel leaves on every device the reference's result, and both leave their arguments unchanged. -/
theorem algebraic_of_body
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal := by
  intro m g m' g' _ hagree
  refine ⟨Cert.RefSide.refOut (m' (((0 : Dev Cert.ReferenceIdeal.nD).tc : Thread Cert.ReferenceIdeal.nD Cert.ReferenceIdeal.τ).loc Cert.ReferenceIdeal.main_arg0)),
    ?_, Cert.RefSide.ref_run m' g'⟩
  exact (θ_run defs _ _).mono
    (fun _ h c => ⟨((h c (1 : Fin 2)).trans (finalA_out m g c)).trans (outAt_eq_refOut m g _ hagree c),
      (h c (0 : Fin 2)).trans (finalA_x m g c)⟩)
    (run_all m g (hbody m g))

/-- info: 'Cert.KernelIdealProof.outAt_eq_refOut' depends on axioms: [propext, Classical.choice, Quot.sound] -/
#guard_msgs in #print axioms outAt_eq_refOut
/-- info: 'Cert.KernelIdealProof.algebraic_of_body' depends on axioms: [propext, Classical.choice, Quot.sound] -/
#guard_msgs in #print axioms algebraic_of_body
/-- info: 'Cert.KernelIdealProof.frame_ki_of_body' depends on axioms: [propext, Classical.choice, Quot.sound] -/
#guard_msgs in #print axioms frame_ki_of_body

end Cert.KernelIdealProof

end
-- ==== Proof.BodyDefs.lean ====
/-
  What one device's body starts from and what it leaves: the statement of the body's run.
-/
import proofs.«900707_g7700000000000708_dist_ar_v7x_xyz2x2x4_x_m2048_n512_f32_1_alg».proof.Proof.Proto
import proofs.«900707_g7700000000000708_dist_ar_v7x_xyz2x2x4_x_m2048_n512_f32_1_alg».proof.Proof.Gen.KernelIdeal.Points

noncomputable section

namespace Cert.KernelIdealProof

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × CIx → ℕ)

def bodyPre (c : Dev nD) : sProp 𝕄 :=
  iprop((ghost m ρ K c ∗ creds c ∗ levAts L lv ∗ (∃ f, aWhole c f) ∗ (∃ f, bWhole c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Body

end Cert.KernelIdealProof

end
-- ==== Proof.Oblig.lean ====
/-
  The body obligation of the launch theorem on one device, from the body's run taken as a hypothesis.

  The pipeline has one grid point. There the obligation's precondition is the first invariant (the ghost state at some
  allocation of names, the launch credit, the level facts, the two landing buffers whole), what the device owes, and the
  two staging buffers, each a whole buffer held through its plain points-to; the program is the kernel's body on those
  buffers; the postcondition is the last invariant, nothing owed, and the staging buffers at the contents the proof data
  names. The names being existentially bound in the invariant, the run is asked at every allocation of names.
-/
import proofs.«900707_g7700000000000708_dist_ar_v7x_xyz2x2x4_x_m2048_n512_f32_1_alg».proof.Proof.BodyDefs
import proofs.«900707_g7700000000000708_dist_ar_v7x_xyz2x2x4_x_m2048_n512_f32_1_alg».proof.Proof.Launch

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The body obligation of the launch theorem, from the body's run -/

omit [FloatOps F] in
/-- Holding a whole buffer at given contents: the plain points-to at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The program the pipeline runs at the one grid point: the kernel's body on the two whole staging buffers. -/
theorem body_at_point : defs₀ (F := F) .tc 0 (t₀, cfg0.slots t₀)
    = cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5 := rfl

set_option maxRecDepth 16384 in
/-- The library's body obligation on device c, given the body's run from `bodyPre` to `bodyPost` at every allocation of names. -/
theorem body_obligation_of
    (hsound : ∀ (K : Dev nD × CIx → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt)
    (c : Dev nD) : BodyObligation (dats (F := F) m ρ 0 c) (defs₀ (F := F)) 𝒱₀ () Set.univ := fun t => by
  rw [fin_N t]
  rw [bigSep_W0, bigSep_W0]
  simp only [owns_whole_eq]
  rw [body_at_point, show (dats m ρ 0 c).Φ t₀.castSucc = Φ₀ m ρ c from rfl]
  unfold Φ₀ start
  iintro ⟨⟨⟨⟨%K, Hg⟩, Hcr, Hlev⟩, Ha, Hb⟩, Ho, Hx, Hout⟩
  iapply (hsound K c _)
  unfold bodyPre
  isplitr []
  · isplitl [Hg Hcr Hlev Ha Hb]
    · isplitl [Hg]; · iexact Hg
      isplitl [Hcr]; · iexact Hcr
      isplitl [Hlev]; · iexact Hlev
      isplitl [Ha]; · iexact Ha
      iexact Hb
    isplitl [Ho]; · iexact Ho
    isplitl [Hx] <;> iassumption
  · unfold bodyPost; iintro H; iexact H

/-- info: 'Cert.KernelIdealProof.body_obligation_of' depends on axioms: [propext, Classical.choice, Quot.sound] -/
#guard_msgs in #print axioms body_obligation_of

end Cert.KernelIdealProof

end
-- ==== Proof.Chunks.lean ====
/-
  Two small tools for a body unrolled over 32 chunks: the literal list of the chunk indices, and a tactic that runs one
  tactic line once per chunk, the chunk's number k written in the line's text where it has a 'ζ' (and k + 3 where it has a 'ξ', k + 35
  where it has an 'η': the numbers of the printed device chains of chunk k's two transfers; 32·k where it has a 'ψ': its first row's word).
-/
import Lean

open Lean Elab Tactic Parser

namespace Cert.Chunks

/-- `[0, 1, …, 31] : List (Fin 32)`. -/
macro "fin32list%" : term => do
  let elems ← (List.range 32).toArray.mapM fun k => `(($(Syntax.mkNumLit (toString k)) : Fin 32))
  `([$elems,*])

/-- Parse one tactic from text, under the namespaces and scoped notations open where the tactic is used. -/
def parseTacticText (txt : String) : TacticM Syntax := do
  let env ← getEnv
  let ictx := mkInputContext txt "<for_chunks>"
  let pmctx : ParserModuleContext := { env, options := ← getOptions, currNamespace := ← getCurrNamespace, openDecls := ← getOpenDecls }
  let p := andthenFn whitespace (categoryParserFnImpl `tactic)
  let st := p.run ictx pmctx (getTokenTable env) (mkParserState txt)
  if !st.allErrors.isEmpty then throwError "for_chunks: cannot parse the line for a chunk:\n{txt}\n{st.toErrorMsg ictx}"
  else if !ictx.atEnd st.pos then throwError "for_chunks: text left over after the tactic:\n{txt}"
  else return st.stxStack.back

/-- `for_chunks "tac … ζ …"`: the tactic line with `ζ` replaced by 0, 1, …, 31, run in that order. -/
elab "for_chunks " s:str : tactic => do
  for k in [0:32] do
    let txt := (((s.getString.replace "ζ" (toString k)).replace "ξ" (toString (k + 3))).replace "η" (toString (k + 35))).replace "ψ" (toString (32 * k))
    evalTactic (← parseTacticText txt)

/-- The text with every segment `⟦ … ζ … ⟧` replaced by its 32 instances (ζ := 0, …, 31), space-separated. -/
def expandSegments (s : String) : String := Id.run do
  let parts := s.splitOn "⟦"
  let mut out := parts.head!
  for p in parts.tail! do
    match p.splitOn "⟧" with
    | seg :: rest =>
      let insts := (List.range 32).map fun k => seg.replace "ζ" (toString k)
      out := out ++ " ".intercalate insts ++ "⟧".intercalate rest
    | [] => out := out ++ p
  return out

/-- `with_chunk_lists "tac … [⟦Hζ Gζ⟧] …"`: ONE tactic, each bracketed segment written out for all 32 chunks
    (a list of hypotheses that runs over the chunks). -/
elab "with_chunk_lists " s:str : tactic => do
  evalTactic (← parseTacticText (expandSegments s.getString))

/-- `for_chunks_rev`: the same for 31, 30, …, 0. -/
elab "for_chunks_rev " s:str : tactic => do
  for k in [0:32] do
    evalTactic (← parseTacticText (s.getString.replace "ζ" (toString (31 - k))))

end Cert.Chunks
-- ==== Proof.Shapes.lean ====
/-
  A device's sums over its cells, reshaped for a run that goes chunk by chunk: the entry cell's summand, then a list
  over the 32 chunks, each chunk's four transfer cells (x-send, x-receive, y-send, y-receive) side by side.
-/
import proofs.«900707_g7700000000000708_dist_ar_v7x_xyz2x2x4_x_m2048_n512_f32_1_alg».proof.Proof.Alloc
import proofs.«900707_g7700000000000708_dist_ar_v7x_xyz2x2x4_x_m2048_n512_f32_1_alg».proof.Proof.Chunks

noncomputable section

namespace Cert.KernelIdealProof

open Cert.KernelIdeal Cert.KernelIdeal.Gen Cert.Mesh Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

omit [FloatOps F] in
/-- A sum over the 32 chunks as the list of its summands, in order. -/
theorem bigSep_fin32 (Φ : Fin 32 → sProp 𝕄) : bigSep Finset.univ Φ = bigSepL fin32list% Φ :=
  bigSep_univ_eq_bigSepL fin32list% (by decide) (by decide) Φ

omit [FloatOps F] in
/-- A sum over a device's 128 transfer cells, chunk by chunk: the chunk outside, its four cells inside. -/
theorem xfer_chunks (Ψ : Fin 4 × Fin 32 → sProp 𝕄) :
    bigSep Finset.univ Ψ = bigSepL fin32list% fun k : Fin 32 => iprop(Ψ (0, k) ∗ Ψ (1, k) ∗ Ψ (2, k) ∗ Ψ (3, k)) := by
  rw [bigSep_univ_prod, bigSep_univ_comm (fun (j : Fin 4) (k : Fin 32) => Ψ (j, k)),
    bigSep_congr (s := Finset.univ) (fun (k : Fin 32) _ => bigSep_fin4 (fun j : Fin 4 => Ψ (j, k))), bigSep_fin32]

omit [FloatOps F] in
/-- A sum over a device's 129 cells: the entry cell's summand, then chunk by chunk. -/
theorem cix_chunks (Φ : CIx → sProp 𝕄) :
    bigSep Finset.univ Φ
      = iprop(Φ none ∗ bigSepL fin32list% fun k : Fin 32 => iprop(Φ (some (0, k)) ∗ Φ (some (1, k)) ∗ Φ (some (2, k)) ∗ Φ (some (3, k)))) := by
  rw [bigSep_cix, xfer_chunks (fun jk : Fin 4 × Fin 32 => Φ (some jk))]

omit [FloatOps F] in
/-- A device's positions in its own cells at round R, none of the round's duties taken, nothing consumed. -/
theorem atPos_chunks (c : Dev nD) (R : ℕ) :
    (bigSep Finset.univ fun q : CIx => (atPos ER (kcell (c, q)) R ∅ 0 : sProp 𝕄))
      = iprop(atPos ER (barCell c) R ∅ 0 ∗ bigSepL fin32list% fun k : Fin 32 =>
          iprop(atPos ER (xsCell c k) R ∅ 0 ∗ atPos ER (xrCell c k) R ∅ 0 ∗ atPos ER (ysCell c k) R ∅ 0 ∗ atPos ER (yrCell c k) R ∅ 0)) :=
  cix_chunks fun q : CIx => (atPos ER (kcell (c, q)) R ∅ 0 : sProp 𝕄)

omit [FloatOps F] in
/-- The 128 transfer counters at zero, gathered back from the chunk-by-chunk list. -/
theorem semVal_chunks (c : Dev nD) :
    (bigSepL fin32list% fun k : Fin 32 => iprop(semVal (xsCell c k) 0 ∗ semVal (xrCell c k) 0 ∗ semVal (ysCell c k) 0 ∗ semVal (yrCell c k) 0) : sProp 𝕄)
      ⊢ bigSep Finset.univ fun jk : Fin 4 × Fin 32 => semVal (kcell (c, some jk)) 0 :=
  Entails.of_eq (xfer_chunks fun jk : Fin 4 × Fin 32 => (semVal (kcell (c, some jk)) 0 : sProp 𝕄)).symm

/-- info: 'Cert.KernelIdealProof.cix_chunks' depends on axioms: [propext, Classical.choice, Quot.sound] -/
#guard_msgs in #print axioms cix_chunks
/-- info: 'Cert.KernelIdealProof.semVal_chunks' depends on axioms: [propext, Classical.choice, Quot.sound] -/
#guard_msgs in #print axioms semVal_chunks

end Cert.KernelIdealProof

end
-- ==== Proof.Ledger.lean ====
/-
  The ledger of the two-step all-reduce: what a device still owes, read as a sum of receive-cell credits, lies above the
  level of the cell it waits on.

  A device's transfers owe, chunk by chunk, the x-partner's x-receive cell (level 2) and the y-partner's y-receive cell
  (level 3) one chunk's credit. The entry wait (level 1) happens while all of these are owed; the x-receive wait of a chunk
  (level 2) while only y-receive credits are owed. `Above n O` says that every cell O owes to is a TensorCore's and sits
  strictly above level n; it holds of 0, of a sum when it holds of the summands, and of a single credit by the cell's
  level. The evidence a wait presents follows from it. What a device owes in transfers is also written out as the explicit
  sum over the 32 chunks in ascending order, equal to the sum over `Fin 32`.
-/
import proofs.«900707_g7700000000000708_dist_ar_v7x_xyz2x2x4_x_m2048_n512_f32_1_alg».proof.Proof.Launch

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Everything owed lies above a level -/

/-- Everything O owes is owed to a TensorCore's cell strictly above level n. -/
def Above (n : ℕ) (O : CellTallies nD τ sig Unit) : Prop := ∀ g u, 0 < O g u → g.1.2 = .tc ∧ n < lv g u

theorem above_zero (n : ℕ) : Above n (0 : CellTallies nD τ sig Unit) := fun g u h => absurd h (Nat.lt_irrefl 0)
theorem above_add {n : ℕ} {O O' : CellTallies nD τ sig Unit} (h : Above n O) (h' : Above n O') : Above n (O + O') :=
  fun g u hg => (Pipeline.add_pos_cases hg).elim (h g u) (h' g u)
theorem above_tally {n : ℕ} (g : GSem nD τ sig) (k : ℕ) (hg : g.1.2 = .tc) (h : n < lv g ()) : Above n (tallyAt g () k) :=
  fun g' u hg' => by obtain ⟨rfl, rfl⟩ := Pipeline.tallyAt_pos hg'; exact ⟨hg, h⟩
theorem above_mono {n n' : ℕ} {O : CellTallies nD τ sig Unit} (hn : n' ≤ n) (h : Above n O) : Above n' O :=
  fun g u hg => ⟨(h g u hg).1, lt_of_le_of_lt hn (h g u hg).2⟩

theorem above_xr (c : Dev nD) (k : Fin 32) : Above 1 (tallyAt (xrCell c k) () Nc) := above_tally _ _ rfl (by rw [lv_xr]; decide)
theorem above_yr1 (c : Dev nD) (k : Fin 32) : Above 1 (tallyAt (yrCell c k) () Nc) := above_tally _ _ rfl (by rw [lv_yr]; decide)
theorem above_yr2 (c : Dev nD) (k : Fin 32) : Above 2 (tallyAt (yrCell c k) () Nc) := above_tally _ _ rfl (by rw [lv_yr]; decide)

/-- Closes `Above n O` for O a sum, in any association, of zeros and receive-cell credits. -/
syntax "above_tac" : tactic
macro_rules
  | `(tactic| above_tac) => `(tactic| first
      | with_reducible exact above_zero _
      | with_reducible exact above_xr _ _
      | with_reducible exact above_yr2 _ _
      | with_reducible exact above_yr1 _ _
      | (with_reducible refine above_add ?_ ?_) <;> above_tac
      | exact above_zero _
      | exact above_xr _ _
      | exact above_yr2 _ _
      | exact above_yr1 _ _)

/-! ## The ledger: the evidence a wait presents, from what is owed lying above the cell waited on -/

omit [FloatOps F] in
theorem mayWait_bar' (c : Dev nD) (O : CellTallies nD τ sig Unit) (hO : Above 1 O) :
    (levAts L lv : sProp 𝕄) ⊢ MayWait (c : Thread nD τ) (.reg barS) () O :=
  mayWait_of_above c (.reg barS) 1 (lv_bar c) O hO
omit [FloatOps F] in
theorem mayWait_xr' (c : Dev nD) (k : Fin 32) (O : CellTallies nD τ sig Unit) (hO : Above 2 O) :
    (levAts L lv : sProp 𝕄) ⊢ MayWait (c : Thread nD τ) (.dma (semAt cc0_scratch3 k)) () O :=
  mayWait_of_above c (.dma (semAt cc0_scratch3 k)) 2 (lv_xr c k) O hO
omit [FloatOps F] in
theorem mayWait_yr' (c : Dev nD) (k : Fin 32) (O : CellTallies nD τ sig Unit) (hO : Above 3 O) :
    (levAts L lv : sProp 𝕄) ⊢ MayWait (c : Thread nD τ) (.dma (semAt cc0_scratch5 k)) () O :=
  mayWait_of_above c (.dma (semAt cc0_scratch5 k)) 3 (lv_yr c k) O hO

/-! ## What a device owes in transfers, chunk by chunk, as an explicit sum -/

open Lean Elab Term Meta in
/-- `chainL32% f` is `f 0 + f 1 + … + f 31` over the 32 numerals of `Fin 32`, associated to the left, every application
    of `f` beta-reduced. -/
elab "chainL32% " f:term : term <= ty => do
  let mut acc ← `(($f) (0 : Fin 32))
  for i in [1:32] do
    let n := Syntax.mkNumLit (toString i)
    acc ← `($acc + ($f) ($n : Fin 32))
  let e ← elabTermEnsuringType acc ty
  synthesizeSyntheticMVarsNoPostponing
  Core.betaReduce (← instantiateMVars e)

open Lean Elab Term Meta in
/-- The same sum associated to the right. -/
elab "chainR32% " f:term : term <= ty => do
  let mut acc ← `(($f) (31 : Fin 32))
  for j in [1:32] do
    let n := Syntax.mkNumLit (toString (31 - j))
    acc ← `(($f) ($n : Fin 32) + $acc)
  let e ← elabTermEnsuringType acc ty
  synthesizeSyntheticMVarsNoPostponing
  Core.betaReduce (← instantiateMVars e)

/-- A sum over the 32 chunks, written out in ascending order. -/
theorem sum_fin32 {M : Type} [AddCommMonoid M] (f : Fin 32 → M) : ∑ k, f k = chainL32% f := by
  simp only [Fin.sum_univ_castSucc, Fin.sum_univ_zero, zero_add]
  rfl

/-- The chunk credits device c owes, chunk 0 first: per chunk the x-partner's x-receive cell, then the y-partner's y-receive cell. -/
def owedChain (c : Dev nD) : CellTallies nD τ sig Unit :=
  chainL32% fun k : Fin 32 => tallyAt (xrCell (xp c) k) () Nc + tallyAt (yrCell (yp c) k) () Nc

theorem owedXfer_chain (c : Dev nD) : owedXfer c = owedChain c := by
  unfold owedXfer owedChain
  exact sum_fin32 fun k : Fin 32 => tallyAt (xrCell (xp c) k) () Nc + tallyAt (yrCell (yp c) k) () Nc

/-- The same 64 summands associated to the right: a test of the tactic only. -/
def owedChainR (c : Dev nD) : CellTallies nD τ sig Unit :=
  chainR32% fun k : Fin 32 => tallyAt (xrCell (xp c) k) () Nc + tallyAt (yrCell (yp c) k) () Nc

/-! ## The tactic on 64 summands, in both associations, at the two levels -/

example (c : Dev nD) : Above 1 (owedChain c) := by unfold owedChain; above_tac
example (c : Dev nD) : Above 1 (owedChainR c) := by unfold owedChainR; above_tac
example (c : Dev nD) : Above 1 (owedChain c + 0 + (tallyAt (yrCell (yp c) 3) () Nc + owedChainR (xp c))) := by unfold owedChain owedChainR; above_tac
example (c : Dev nD) : Above 2 (chainL32% fun k : Fin 32 => tallyAt (yrCell (yp c) k) () Nc) := by above_tac
example (c : Dev nD) : Above 2 (chainR32% fun k : Fin 32 => (0 : CellTallies nD τ sig Unit) + tallyAt (yrCell (yp c) k) () Nc) := by above_tac

/-- info: 'Cert.KernelIdealProof.owedXfer_chain' depends on axioms: [propext, Classical.choice, Quot.sound] -/
#guard_msgs in #print axioms owedXfer_chain
/-- info: 'Cert.KernelIdealProof.mayWait_xr'' depends on axioms: [propext, Classical.choice, Quot.sound] -/
#guard_msgs in #print axioms mayWait_xr'

end Cert.KernelIdealProof

end
-- ==== Proof.Owed.lean ====
/-
  What a device owes at launch, written as one sum associated to the left whose summands stand in the reverse of the order
  in which the body pays them: paying always takes the last summand off.

  The body pays the unit to the x-partner's entry cell, then the unit to the y-partner's, then the x-receive credits of
  chunks 0 to 31, then the y-receive credits of chunks 0 to 31. So the sum reads: y-receive credits of chunks 31 down to 0,
  x-receive credits of chunks 31 down to 0, the y-partner's entry unit, the x-partner's entry unit. It equals what the
  protocol states as owed: the sum over the chunks splits into the two sums of credits, each is reindexed by the reversal
  of `Fin 32` and written out, and the second is joined to the first by associativity.
-/
import proofs.«900707_g7700000000000708_dist_ar_v7x_xyz2x2x4_x_m2048_n512_f32_1_alg».proof.Proof.Ledger

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Sums over the 32 chunks written out in descending order -/

open Lean Elab Term Meta in
/-- The sum `init + f i₀ + f i₁ + …` over the listed numerals of `Fin 32` (without `init` when there is none), associated
    to the left, every application of `f` beta-reduced. -/
def elabChain (init? : Option Syntax) (f : Syntax) (idx : List Nat) (ty? : Option Expr) : TermElabM Expr := do
  let f : Term := ⟨f⟩
  let mut acc? : Option Term := init?.map (⟨·⟩)
  for i in idx do
    let n := Syntax.mkNumLit (toString i)
    let t ← `(($f) ($n : Fin 32))
    acc? := some (← match acc? with | none => pure t | some a => `($a + $t))
  let e ← elabTerm acc?.get! ty?
  synthesizeSyntheticMVarsNoPostponing
  Core.betaReduce (← instantiateMVars e)

/-- `chainD32% f` is `f 31 + f 30 + … + f 0`, associated to the left. -/
syntax (name := chainD32) "chainD32% " term : term
/-- `chainD32From% a, f` is `a + f 31 + f 30 + … + f 0`, associated to the left. -/
syntax (name := chainD32From) "chainD32From% " term ", " term : term

open Lean Elab Term in
@[term_elab chainD32] def elabChainD32 : TermElab := fun stx ty? =>
  match stx with
  | `(chainD32% $f) => elabChain none f (List.range 32).reverse ty?
  | _ => throwUnsupportedSyntax

open Lean Elab Term in
@[term_elab chainD32From] def elabChainD32From : TermElab := fun stx ty? =>
  match stx with
  | `(chainD32From% $a, $f) => elabChain (some a) f (List.range 32).reverse ty?
  | _ => throwUnsupportedSyntax

theorem sum_fin32_desc {M : Type} [AddCommMonoid M] (f : Fin 32 → M) : ∑ k, f k = chainD32% f := by
  rw [← Equiv.sum_comp Fin.revPerm f, sum_fin32]
  rfl

theorem sum_fin32_desc_from {M : Type} [AddCommMonoid M] (a : M) (f : Fin 32 → M) : a + ∑ k, f k = chainD32From% a, f := by
  rw [sum_fin32_desc f]
  simp only [← add_assoc]

/-! ## What a device owes at launch, last paid first -/

/-- Everything device c owes at launch as one sum associated to the left, in the reverse of the order in which it is paid:
    the y-receive credits of chunks 31 down to 0, the x-receive credits of chunks 31 down to 0, the unit to the y-partner's
    entry cell, the unit to the x-partner's entry cell. -/
def owedRev (c : Dev nD) : CellTallies nD τ sig Unit :=
  (chainD32From% (chainD32% fun k : Fin 32 => tallyAt (yrCell (yp c) k) () Nc), fun k : Fin 32 => tallyAt (xrCell (xp c) k) () Nc)
    + tallyAt (barCell (yp c)) () 1 + tallyAt (barCell (xp c)) () 1

theorem owedXfer_rev (c : Dev nD) :
    owedXfer c = chainD32From% (chainD32% fun k : Fin 32 => tallyAt (yrCell (yp c) k) () Nc), fun k : Fin 32 => tallyAt (xrCell (xp c) k) () Nc := by
  unfold owedXfer
  rw [Finset.sum_add_distrib, add_comm (∑ k : Fin 32, tallyAt (xrCell (xp c) k) () Nc) _,
    sum_fin32_desc fun k : Fin 32 => tallyAt (yrCell (yp c) k) () Nc]
  exact sum_fin32_desc_from _ fun k : Fin 32 => tallyAt (xrCell (xp c) k) () Nc

theorem O₀_rev (c : Dev nD) : O₀ c = owedRev c := by
  unfold O₀ O₁ owedRev
  rw [owedXfer_rev]

/-- The last summands come off syntactically. -/
example (c : Dev nD) : ∃ R, owedRev c = R + tallyAt (barCell (xp c)) () 1 := ⟨_, by unfold owedRev; with_reducible rfl⟩
example (c : Dev nD) : ∃ R, owedRev c = R + tallyAt (xrCell (xp c) 1) () Nc + tallyAt (xrCell (xp c) 0) () Nc + tallyAt (barCell (yp c)) () 1 + tallyAt (barCell (xp c)) () 1 :=
  ⟨_, by unfold owedRev; with_reducible rfl⟩

/-- info: 'Cert.KernelIdealProof.O₀_rev' depends on axioms: [propext, Classical.choice, Quot.sound] -/
#guard_msgs in #print axioms O₀_rev

end Cert.KernelIdealProof

end
-- ==== Proof.Buffers.lean ====
/-
  Cutting and joining buffers around the body's run, and what a landed chunk holds.

  A landing buffer [32, 32, 512] is its 32 chunks {i | i 0 = k}; chunk k's index (r, j) sits at (k, r, j). The rows the
  x-transfer of chunk k reads on device c are rows 1024 · y + 32 · k + r of its staged block, y its y coordinate. So what
  lands in chunk k of the x-partner's first landing buffer is, at (k, r, j), the sender's block at row
  1024 · y + 32 · k + r, column j: the contents the schedule names for that chunk; and the forwarded chunk lands in the
  y-partner's second landing buffer as the contents named there.
-/
import proofs.«900707_g7700000000000708_dist_ar_v7x_xyz2x2x4_x_m2048_n512_f32_1_alg».proof.Proof.Proto
import Idealize.ShloMosaic.Rules.PointsTo
import Idealize.ShloMosaic.Lib.Pipeline.Value
import Idealize.ShloMosaic.Lib.ValueLayout

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Where a chunk's and a row block's indices sit -/

/-- Index (r, j) of chunk k of the first landing buffer sits at (k, r, j). -/
theorem aChunk_emb (k : Fin 32) (x : S32x512.Idx) :
    (chunkOf aM k).view.emb x = ix3 k (⟨(x 0).val, idx2_lt0 x⟩ : Fin 32) (⟨(x 1).val, idx2_lt1 x⟩ : Fin 512) := by
  obtain ⟨p, q, rfl⟩ : ∃ (p : Fin 32) (q : Fin 512), x = ix2 p q := ⟨x 0, x 1, eq_ix2 x⟩
  show (Rect.unit (s := S32x32x512) ![k.val, 0, 0] S1x32x512.size (inbA k)).emb
      (Shape.reshapeEquiv squeezes_S1x32x512_S32x512.numel_eq (ix2 p q)) = _
  rw [reshapeEquiv_ix2_1ab]
  funext a
  refine Fin.ext ?_
  match a with
  | ⟨0, _⟩ => show k.val + 1 * 0 = k.val; omega
  | ⟨1, _⟩ => show 0 + 1 * p.val = p.val; omega
  | ⟨2, _⟩ => show 0 + 1 * q.val = q.val; omega

/-- The same for the second landing buffer. -/
theorem bChunk_emb (k : Fin 32) (x : S32x512.Idx) :
    (chunkOf bM k).view.emb x = ix3 k (⟨(x 0).val, idx2_lt0 x⟩ : Fin 32) (⟨(x 1).val, idx2_lt1 x⟩ : Fin 512) := by
  obtain ⟨p, q, rfl⟩ : ∃ (p : Fin 32) (q : Fin 512), x = ix2 p q := ⟨x 0, x 1, eq_ix2 x⟩
  show (Rect.unit (s := S32x32x512) ![k.val, 0, 0] S1x32x512.size (inbA k)).emb
      (Shape.reshapeEquiv squeezes_S1x32x512_S32x512.numel_eq (ix2 p q)) = _
  rw [reshapeEquiv_ix2_1ab]
  funext a
  refine Fin.ext ?_
  match a with
  | ⟨0, _⟩ => show k.val + 1 * 0 = k.val; omega
  | ⟨1, _⟩ => show 0 + 1 * p.val = p.val; omega
  | ⟨2, _⟩ => show 0 + 1 * q.val = q.val; omega

/-- Index (r, j) of the rows the x-transfer of chunk k reads on device c sits at row 1024 · y + 32 · k + r, column j of
    the staged block, y the device's y coordinate. -/
theorem rowsX_emb (c : Dev nD) (k : Fin 32) (x : S32x512.Idx) :
    (rowsX c k).view.emb x = rowIx (yc c) (yc_lt c) (ix3 k (⟨(x 0).val, idx2_lt0 x⟩ : Fin 32) (⟨(x 1).val, idx2_lt1 x⟩ : Fin 512)) := by
  have h0 := idx2_lt0 x
  funext a
  refine Fin.ext ?_
  show (k0_off1 c (BitVec.ofNat 32 (32 * k.val))) a + 1 * (x a).val = _
  rw [k0_off1_eq c k]
  match a with
  | ⟨0, _⟩ => show 1024 * ((c.val / 4) % 2) + 32 * k.val + 1 * (x 0).val = 1024 * ((c.val / 4) % 2) + 32 * k.val + (x 0).val; omega
  | ⟨1, _⟩ => show 0 + 1 * (x 1).val = (x 1).val; omega

/-- `rowIx` depends on its half only through its value. -/
theorem rowIx_congr {h h' : ℕ} (e : h = h') (hh : h < 2) (hh' : h' < 2) (i : S32x32x512.Idx) :
    rowIx h hh i = rowIx h' hh' i := by subst e; rfl

/-! ## The landings -/

/-- What the x-transfer of chunk k from device c leaves in chunk k of the x-partner's first landing buffer is what the
    schedule names there: at (k, r, j) the sender's block at row 1024 · y + 32 · k + r, column j; the sender is the
    x-partner's x-partner and has the x-partner's y coordinate. -/
theorem landing_x (c : Dev nD) (k : Fin 32) (fd : Buf (Elt F) ((chunkOf aM k).view.loc ((xp c : Dev nD) : Thread nD τ))) :
    ((chunkOf aM k).view.loc ((xp c : Dev nD) : Thread nD τ) ↦[(chunkOf aM k).view.set]{fullShare}
        (chunkOf aM k).view.write (Elt F) fd ((rowsX c k).view.read (Elt F) (xstg m ρ c)) Finset.univ : sProp 𝕄)
      ⊢ aChunk (xp c) k fullShare (xcommFull m ρ (xp c)) := by
  unfold aChunk
  refine Entails.of_eq (pointsTo_congr fun i hi => ?_)
  obtain ⟨x, rfl⟩ := View.exists_emb_of_mem_set _ hi
  rw [View.write_emb_of_mem _ _ (Finset.mem_univ x), View.read_apply, cast_cast, cast_eq]
  unfold xcommFull
  rw [aChunk_emb, rowsX_emb, xp_xp, rowIx_congr (yc_xp c) _ (yc_lt c)]

/-- What the y-transfer of chunk k from device c (a forward of chunk k of its first landing buffer) leaves in chunk k of
    the y-partner's second landing buffer is what the schedule names there: the first landing buffer of the y-partner's
    y-partner, which is the sender. -/
theorem landing_y (c : Dev nD) (k : Fin 32) (fd : Buf (Elt F) ((chunkOf bM k).view.loc ((yp c : Dev nD) : Thread nD τ))) :
    ((chunkOf bM k).view.loc ((yp c : Dev nD) : Thread nD τ) ↦[(chunkOf bM k).view.set]{fullShare}
        (chunkOf bM k).view.write (Elt F) fd ((chunkOf aM k).view.read (Elt F) (xcommFull m ρ c)) Finset.univ : sProp 𝕄)
      ⊢ bChunk (yp c) k fullShare (ycommFull m ρ (yp c)) := by
  unfold bChunk
  refine Entails.of_eq (pointsTo_congr fun i hi => ?_)
  obtain ⟨x, rfl⟩ := View.exists_emb_of_mem_set _ hi
  rw [View.write_emb_of_mem _ _ (Finset.mem_univ x), View.read_apply, cast_cast, cast_eq]
  unfold ycommFull xcommFull
  rw [aChunk_emb, bChunk_emb, rowIx_congr (congrArg yc (yp_yp c)) _ (yc_lt c), yp_yp]

/-! ## A share's two halves -/

/-- A points-to at the full share is the same at its left and at its right half. -/
theorem pts_halves (ℓ : Loc nD τ sig) (S : Finset (Idx ℓ)) (f : Buf (Elt F) ℓ) :
    (ℓ ↦[S]{fullShare} f : sProp 𝕄) ⊣⊢ iprop((ℓ ↦[S]{fullShare.left} f) ∗ (ℓ ↦[S]{fullShare.right} f)) :=
  pointsTo_share (PosShare.mem_left_op_right fullShare)

/-! ## A landing buffer is its 32 chunks -/

/-- Chunk k of the first landing buffer is the indices whose leading coordinate is k. -/
theorem mem_aChunk_set (k : Fin 32) (i : S32x32x512.Idx) : i ∈ (chunkOf aM k).view.set ↔ (i 0).val = k.val := by
  constructor
  · intro hi
    obtain ⟨x, rfl⟩ := View.exists_emb_of_mem_set _ hi
    rw [aChunk_emb]
  · intro h
    have e : (chunkOf aM k).view.emb (ix2 (⟨(i 1).val, (i 1).isLt⟩ : Fin 32) (⟨(i 2).val, (i 2).isLt⟩ : Fin 512)) = i := by
      rw [aChunk_emb]
      funext a
      refine Fin.ext ?_
      match a with
      | ⟨0, _⟩ => exact h.symm
      | ⟨1, _⟩ => rfl
      | ⟨2, _⟩ => rfl
    rw [← e]
    exact View.emb_mem_set _ _

/-- The same for the second landing buffer. -/
theorem mem_bChunk_set (k : Fin 32) (i : S32x32x512.Idx) : i ∈ (chunkOf bM k).view.set ↔ (i 0).val = k.val := by
  constructor
  · intro hi
    obtain ⟨x, rfl⟩ := View.exists_emb_of_mem_set _ hi
    rw [bChunk_emb]
  · intro h
    have e : (chunkOf bM k).view.emb (ix2 (⟨(i 1).val, (i 1).isLt⟩ : Fin 32) (⟨(i 2).val, (i 2).isLt⟩ : Fin 512)) = i := by
      rw [bChunk_emb]
      funext a
      refine Fin.ext ?_
      match a with
      | ⟨0, _⟩ => exact h.symm
      | ⟨1, _⟩ => rfl
      | ⟨2, _⟩ => rfl
    rw [← e]
    exact View.emb_mem_set _ _

/-- The first landing buffer, whole, is its 32 chunks: they are pairwise disjoint and cover it. -/
theorem aWhole_chunks (c : Dev nD) (f : Buf (Elt F) (aM.view.loc (c : Thread nD τ))) :
    (aWhole c f : sProp 𝕄) ⊣⊢ bigSep Finset.univ (fun k : Fin 32 => aChunk c k fullShare f) := by
  have hU : aM.view.set = Finset.univ.biUnion fun k : Fin 32 => (chunkOf aM k).view.set := by
    rw [View.set_whole]
    refine (Finset.eq_univ_iff_forall.mpr fun i => ?_).symm
    exact Finset.mem_biUnion.mpr ⟨⟨(i 0).val, (i 0).isLt⟩, Finset.mem_univ _, (mem_aChunk_set _ i).mpr rfl⟩
  refine BiEntails.of_eq ?_
  unfold aWhole aChunk
  rw [hU, pointsTo_biUnion _ _ fun k _ k' _ hne => Finset.disjoint_left.mpr fun i hi hi' =>
    hne (Fin.ext (((mem_aChunk_set k i).mp hi).symm.trans ((mem_aChunk_set k' i).mp hi')))]

/-- The second landing buffer, whole, is its 32 chunks. -/
theorem bWhole_chunks (c : Dev nD) (f : Buf (Elt F) (bM.view.loc (c : Thread nD τ))) :
    (bWhole c f : sProp 𝕄) ⊣⊢ bigSep Finset.univ (fun k : Fin 32 => bChunk c k fullShare f) := by
  have hU : bM.view.set = Finset.univ.biUnion fun k : Fin 32 => (chunkOf bM k).view.set := by
    rw [View.set_whole]
    refine (Finset.eq_univ_iff_forall.mpr fun i => ?_).symm
    exact Finset.mem_biUnion.mpr ⟨⟨(i 0).val, (i 0).isLt⟩, Finset.mem_univ _, (mem_bChunk_set _ i).mpr rfl⟩
  refine BiEntails.of_eq ?_
  unfold bWhole bChunk
  rw [hU, pointsTo_biUnion _ _ fun k _ k' _ hne => Finset.disjoint_left.mpr fun i hi hi' =>
    hne (Fin.ext (((mem_bChunk_set k i).mp hi).symm.trans ((mem_bChunk_set k' i).mp hi')))]

/-! ## The rows the x-transfers lend -/

/-- The rows the x-transfer of chunk k reads on device c lie in rows [1024 · y + 32 · k, 1024 · y + 32 · k + 32). -/
theorem mem_rowsX_set (c : Dev nD) (k : Fin 32) (i : S2048x512.Idx) (hi : i ∈ (rowsX c k).view.set) :
    1024 * yc c + 32 * k.val ≤ (i 0).val ∧ (i 0).val < 1024 * yc c + 32 * k.val + 32 := by
  obtain ⟨x, rfl⟩ := View.exists_emb_of_mem_set _ hi
  rw [rowsX_emb]
  have h0 := idx2_lt0 x
  show 1024 * yc c + 32 * k.val ≤ 1024 * yc c + 32 * k.val + (x 0).val
    ∧ 1024 * yc c + 32 * k.val + (x 0).val < 1024 * yc c + 32 * k.val + 32
  omega

/-- The staged block at the full share: the whole block at the right half share (it stays, for the loads), and the left
    half cut into the 32 row blocks the x-transfers lend and the rest. -/
theorem xrows_cut (c : Dev nD) (f : (cc0_stg0_0 : Ref sig .tc).ty.Contents (Elt F)) :
    (((c : Thread nD τ).loc cc0_stg0_0) ↦{fullShare} f : sProp 𝕄) ⊣⊢
      iprop((((c : Thread nD τ).loc cc0_stg0_0) ↦{fullShare.right} f)
        ∗ (bigSep Finset.univ fun k : Fin 32 =>
            ((rowsX c k).view.loc (c : Thread nD τ) ↦[(rowsX c k).view.set]{fullShare.left} f))
        ∗ (((c : Thread nD τ).loc cc0_stg0_0)
            ↦[Finset.univ \ (Finset.univ.biUnion fun k : Fin 32 => (rowsX c k).view.set)]{fullShare.left} f)) := by
  have hd : ∀ k ∈ (Finset.univ : Finset (Fin 32)), ∀ k' ∈ (Finset.univ : Finset (Fin 32)), k ≠ k' →
      Disjoint (rowsX c k).view.set (rowsX c k').view.set :=
    fun k _ k' _ hne => Finset.disjoint_left.mpr fun i hi hi' => hne (Fin.ext (by
      have h1 := mem_rowsX_set c k i hi
      have h2 := mem_rowsX_set c k' i hi'
      omega))
  have e1 := pts_halves (F := F) ((c : Thread nD τ).loc cc0_stg0_0) Finset.univ f
  have e2 := pointsTo_split_subset (nD := nD) (τ := τ) (sig := sig) (Val := Elt F) (Ix := Unit) (Name := ℕ) (U := UU) (Lvl := ℕ)
    (ℓ := (c : Thread nD τ).loc cc0_stg0_0) (q := fullShare.left) (f := f)
    (I := Finset.univ.biUnion fun k : Fin 32 => (rowsX c k).view.set) (S := Finset.univ) (Finset.subset_univ _)
  have e3 := pointsTo_biUnion (nD := nD) (τ := τ) (sig := sig) (Val := Elt F) (Ix := Unit) (Name := ℕ) (U := UU) (Lvl := ℕ)
    (ℓ := (c : Thread nD τ).loc cc0_stg0_0) (q := fullShare.left) (f := f) Finset.univ
    (fun k : Fin 32 => (rowsX c k).view.set) hd
  refine e1.trans (sep_comm.trans (sep_congr_right ?_))
  refine e2.trans (sep_congr_left ?_)
  exact BiEntails.of_eq (e3.trans rfl)

/-- info: 'Cert.KernelIdealProof.landing_x' depends on axioms: [propext, Classical.choice, Quot.sound] -/
#guard_msgs in #print axioms landing_x
/-- info: 'Cert.KernelIdealProof.landing_y' depends on axioms: [propext, Classical.choice, Quot.sound] -/
#guard_msgs in #print axioms landing_y
/-- info: 'Cert.KernelIdealProof.xrows_cut' depends on axioms: [propext, Classical.choice, Quot.sound] -/
#guard_msgs in #print axioms xrows_cut

/-- The same landing read from the receiver's side: what the x-partner's x-transfer of chunk k leaves in chunk k of
    device c's first landing buffer is what the schedule names there; the sender reads its rows at its own y coordinate,
    which is the receiver's. -/
theorem landing_x_own (c : Dev nD) (k : Fin 32) (fd : Buf (Elt F) ((chunkOf aM k).view.loc (c : Thread nD τ))) :
    ((chunkOf aM k).view.loc (c : Thread nD τ) ↦[(chunkOf aM k).view.set]{fullShare}
        (chunkOf aM k).view.write (Elt F) fd ((rowsX (xp c) k).view.read (Elt F) (xstg m ρ (xp c))) Finset.univ : sProp 𝕄)
      ⊢ ((chunkOf aM k).view.loc (c : Thread nD τ) ↦[(chunkOf aM k).view.set]{fullShare} xcommFull m ρ c) := by
  refine Entails.of_eq (pointsTo_congr fun i hi => ?_)
  obtain ⟨x, rfl⟩ := View.exists_emb_of_mem_set _ hi
  rw [View.write_emb_of_mem _ _ (Finset.mem_univ x), View.read_apply, cast_cast, cast_eq]
  unfold xcommFull
  rw [aChunk_emb, rowsX_emb, rowIx_congr (yc_xp c) _ (yc_lt c)]

/-- info: 'Cert.KernelIdealProof.landing_x_own' depends on axioms: [propext, Classical.choice, Quot.sound] -/
#guard_msgs in #print axioms landing_x_own

/-- The second landing read from the receiver's side: what the y-partner's forward of chunk k leaves in chunk k of
    device c's second landing buffer is what the schedule names there, chunk k of the y-partner's first landing buffer. -/
theorem landing_y_own (c : Dev nD) (k : Fin 32) (fd : Buf (Elt F) ((chunkOf bM k).view.loc (c : Thread nD τ))) :
    ((chunkOf bM k).view.loc (c : Thread nD τ) ↦[(chunkOf bM k).view.set]{fullShare}
        (chunkOf bM k).view.write (Elt F) fd ((chunkOf aM k).view.read (Elt F) (xcommFull m ρ (yp c))) Finset.univ : sProp 𝕄)
      ⊢ ((chunkOf bM k).view.loc (c : Thread nD τ) ↦[(chunkOf bM k).view.set]{fullShare} ycommFull m ρ c) := by
  refine Entails.of_eq (pointsTo_congr fun i hi => ?_)
  obtain ⟨x, rfl⟩ := View.exists_emb_of_mem_set _ hi
  rw [View.write_emb_of_mem _ _ (Finset.mem_univ x), View.read_apply, cast_cast, cast_eq]
  unfold ycommFull xcommFull
  rw [aChunk_emb, bChunk_emb]

/-- info: 'Cert.KernelIdealProof.landing_y_own' depends on axioms: [propext, Classical.choice, Quot.sound] -/
#guard_msgs in #print axioms landing_y_own

end Cert.KernelIdealProof

end
-- ==== Proof.Sends.lean ====
/-
  The two remote transfers of a chunk, as the rounds discipline takes them, at a symbolic chunk k. The x-transfer sends
  the 32 rows of the own block that chunk k covers into chunk k of the x-partner's first landing buffer; it pays the own
  x-send cell (handing back the lent half share of the rows once they are read) and the x-partner's x-receive cell
  (handing it the chunk, rewritten with those rows). The y-transfer forwards chunk k of the own first landing buffer into
  chunk k of the y-partner's second landing buffer; it pays the own y-send cell and the y-partner's y-receive cell.
-/
import proofs.«900707_g7700000000000708_dist_ar_v7x_xyz2x2x4_x_m2048_n512_f32_1_alg».proof.Proof.Proto

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- A chunk transfer's credit, as a number. -/
private theorem Nc_2048 : Nc = 2048 := by decide

omit [FloatOps F] in
private theorem rec_inv (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)
omit [FloatOps F] in
private theorem rec_reached (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- What the x-receive cell of the x-partner is handed: its chunk rewritten with the sender's rows (the x-partner's
    x-partner is the sender). -/
theorem payload_xr_xp (c : Dev nD) (k : Fin 32) :
    (sched (F := F) m ρ).payload (xrCell (xp c) k) 0 false
      = iprop(∃ fd : Buf (Elt F) ((chunkOf aM k).view.loc ((xp c : Dev nD) : Thread nD τ)),
          (chunkOf aM k).view.loc ((xp c : Dev nD) : Thread nD τ) ↦[(chunkOf aM k).view.set]{fullShare}
            (chunkOf aM k).view.write (Elt F) fd ((rowsX c k).view.read (Elt F) (xstg m ρ c)) Finset.univ) := by
  rw [payload_xfer]; unfold xferPay; rw [xp_xp]

omit [FloatOps F] in
/-- What the y-receive cell of the y-partner is handed: its chunk rewritten with the sender's landed chunk. -/
theorem payload_yr_yp (c : Dev nD) (k : Fin 32) :
    (sched (F := F) m ρ).payload (yrCell (yp c) k) 0 false
      = iprop(∃ fd : Buf (Elt F) ((chunkOf bM k).view.loc ((yp c : Dev nD) : Thread nD τ)),
          (chunkOf bM k).view.loc ((yp c : Dev nD) : Thread nD τ) ↦[(chunkOf bM k).view.set]{fullShare}
            (chunkOf bM k).view.write (Elt F) fd ((chunkOf aM k).view.read (Elt F) (xcommFull m ρ c)) Finset.univ) := by
  rw [payload_xfer]; unfold xferPay; rw [yp_yp]

/-- The x-transfer of chunk k from device c to its x-partner. -/
theorem wp_xsend (K : Dev nD × CIx → ℕ) (c : Dev nD) (k : Fin 32) (n : Dev nD) (hn : n = xp c)
    {hsc : ((chunkOf aM k) : Memref sig (Dev.tc n : Thread nD τ).2.kind .vmem S32x512 .f32).view.ref.isScScratch = false}
    {hsrc : (rowsX c k).view.WordExact} {hdst : (chunkOf aM k).view.WordExact}
    {hsem : DmaTarget.Typed .vmem (.dma (semAt cc0_scratch3 k)) (.remote (Dev.tc n : Thread nD τ) (chunkOf aM k) (.dma (semAt cc0_scratch2 k)) hsc)}
    {α : Type} {Q : α → sProp 𝕄} {kont : PUnit → Prog (TpuEff nD τ sig (Elt F) Λ₀ .tc) α}
    (fd : Buf (Elt F) ((chunkOf aM k).view.loc ((xp c : Dev nD) : Thread nD τ))) (O : CellTallies nD τ sig Unit) (W : Waits sig Unit) :
    iprop(records m ρ K
        ∗ ((rowsX c k).view.loc (c : Thread nD τ) ↦[(rowsX c k).view.set]{fullShare.left} xstg m ρ c)
        ∗ ((chunkOf aM k).view.loc ((xp c : Dev nD) : Thread nD τ) ↦[(chunkOf aM k).view.set]{fullShare} fd)
        ∗ owes (c : Thread nD τ) (O + tallyAt (xrCell (xp c) k) () 2048) W
        ∗ dutyTok ER (xsCell c k) 0 false ∗ dutyTok ER (xrCell (xp c) k) 0 false)
      ⊢ iprop(((cred (tallyAt (xsCell c k) () 2048) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowsX c k) (.remote (Dev.tc n : Thread nD τ) (chunkOf aM k) (.dma (semAt cc0_scratch2 k)) hsc) (.dma (semAt cc0_scratch3 k)) hsrc hdst hsem) kont) Q) := by
  subst hn
  refine BIBase.Entails.trans ?_ (Rounds.wp_send_pointsTo 𝒱₀ ER (sched m ρ) (c : Thread nD τ) none
    (κ₁ := K (c, some (0, k))) (κ₂ := K (xp c, some (1, k))) (r₁ := 0) (r₂ := 0) (d₁ := false) (d₂ := false)
    (q := fullShare.left) (fs := xstg m ρ c) (fd := fd)
    (show false ∈ (sched (F := F) m ρ).duties (kcell (c, some (0, k))) 0 by rw [duties_xfer]; exact Finset.mem_singleton_self _)
    (show false ∈ (sched (F := F) m ρ).duties (kcell (xp c, some (1, k))) 0 by rw [duties_xfer]; exact Finset.mem_singleton_self _)
    () () 2048 rfl
    ((amount_xfer m ρ c 0 k false).trans Nc_2048) ((amount_xfer m ρ (xp c) 1 k false).trans Nc_2048)
    O rfl (W := W)
    (show _ ⊢ (sched (F := F) m ρ).payload (kcell (c, some (0, k))) 0 false by rw [payload_xfer]; unfold xferPay xRows; exact .refl)
    (show _ ⊢ (sched (F := F) m ρ).payload (xrCell (xp c) k) 0 false by
      rw [payload_xr_xp]; iintro H; iexists fd; iexact H))
  unfold records
  iintro ⟨⟨#HI, #Hr⟩, Hsrc, Hdst, HO, Ht1, Ht2⟩
  isplitr; · iapply (rec_inv m ρ K (c, some (0, k))); iexact HI
  isplitr; · iapply (rec_inv m ρ K (xp c, some (1, k))); iexact HI
  isplitl [Hsrc]; · iexact Hsrc
  isplitl [Hdst]; · iexact Hdst
  isplitl [HO]; · iexact HO
  isplitl [Ht1]; · iexact Ht1
  isplitr; · iapply (rec_reached (F := F) (c, some (0, k))); iexact Hr
  isplitl [Ht2]; · iexact Ht2
  iapply (rec_reached (F := F) (xp c, some (1, k))); iexact Hr

/-- The y-transfer of chunk k from device c to its y-partner: the landed chunk of the first landing buffer forwarded. -/
theorem wp_ysend (K : Dev nD × CIx → ℕ) (c : Dev nD) (k : Fin 32) (n : Dev nD) (hn : n = yp c)
    {hsc : ((chunkOf bM k) : Memref sig (Dev.tc n : Thread nD τ).2.kind .vmem S32x512 .f32).view.ref.isScScratch = false}
    {hsrc : (chunkOf aM k).view.WordExact} {hdst : (chunkOf bM k).view.WordExact}
    {hsem : DmaTarget.Typed .vmem (.dma (semAt cc0_scratch5 k)) (.remote (Dev.tc n : Thread nD τ) (chunkOf bM k) (.dma (semAt cc0_scratch4 k)) hsc)}
    {α : Type} {Q : α → sProp 𝕄} {kont : PUnit → Prog (TpuEff nD τ sig (Elt F) Λ₀ .tc) α}
    (fd : Buf (Elt F) ((chunkOf bM k).view.loc ((yp c : Dev nD) : Thread nD τ))) (O : CellTallies nD τ sig Unit) (W : Waits sig Unit) :
    iprop(records m ρ K
        ∗ ((chunkOf aM k).view.loc (c : Thread nD τ) ↦[(chunkOf aM k).view.set]{fullShare.left} xcommFull m ρ c)
        ∗ ((chunkOf bM k).view.loc ((yp c : Dev nD) : Thread nD τ) ↦[(chunkOf bM k).view.set]{fullShare} fd)
        ∗ owes (c : Thread nD τ) (O + tallyAt (yrCell (yp c) k) () 2048) W
        ∗ dutyTok ER (ysCell c k) 0 false ∗ dutyTok ER (yrCell (yp c) k) 0 false)
      ⊢ iprop(((cred (tallyAt (ysCell c k) () 2048) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkOf aM k) (.remote (Dev.tc n : Thread nD τ) (chunkOf bM k) (.dma (semAt cc0_scratch4 k)) hsc) (.dma (semAt cc0_scratch5 k)) hsrc hdst hsem) kont) Q) := by
  subst hn
  refine BIBase.Entails.trans ?_ (Rounds.wp_send_pointsTo 𝒱₀ ER (sched m ρ) (c : Thread nD τ) none
    (κ₁ := K (c, some (2, k))) (κ₂ := K (yp c, some (3, k))) (r₁ := 0) (r₂ := 0) (d₁ := false) (d₂ := false)
    (q := fullShare.left) (fs := xcommFull m ρ c) (fd := fd)
    (show false ∈ (sched (F := F) m ρ).duties (kcell (c, some (2, k))) 0 by rw [duties_xfer]; exact Finset.mem_singleton_self _)
    (show false ∈ (sched (F := F) m ρ).duties (kcell (yp c, some (3, k))) 0 by rw [duties_xfer]; exact Finset.mem_singleton_self _)
    () () 2048 rfl
    ((amount_xfer m ρ c 2 k false).trans Nc_2048) ((amount_xfer m ρ (yp c) 3 k false).trans Nc_2048)
    O rfl (W := W)
    (show _ ⊢ (sched (F := F) m ρ).payload (kcell (c, some (2, k))) 0 false by rw [payload_xfer]; unfold xferPay aChunk; exact .refl)
    (show _ ⊢ (sched (F := F) m ρ).payload (yrCell (yp c) k) 0 false by
      rw [payload_yr_yp]; iintro H; iexists fd; iexact H))
  unfold records
  iintro ⟨⟨#HI, #Hr⟩, Hsrc, Hdst, HO, Ht1, Ht2⟩
  isplitr; · iapply (rec_inv m ρ K (c, some (2, k))); iexact HI
  isplitr; · iapply (rec_inv m ρ K (yp c, some (3, k))); iexact HI
  isplitl [Hsrc]; · iexact Hsrc
  isplitl [Hdst]; · iexact Hdst
  isplitl [HO]; · iexact HO
  isplitl [Ht1]; · iexact Ht1
  isplitr; · iapply (rec_reached (F := F) (c, some (2, k))); iexact Hr
  isplitl [Ht2]; · iexact Ht2
  iapply (rec_reached (F := F) (yp c, some (3, k))); iexact Hr

/-- info: 'Cert.KernelIdealProof.wp_xsend' depends on axioms: [propext, Classical.choice, Quot.sound] -/
#guard_msgs in #print axioms wp_xsend
/-- info: 'Cert.KernelIdealProof.wp_ysend' depends on axioms: [propext, Classical.choice, Quot.sound] -/
#guard_msgs in #print axioms wp_ysend

end Cert.KernelIdealProof

end
-- ==== Proof.Closing.lean ====
/-
  The end of a device's run: a transfer cell past its one round is closed and its counter read at zero; the chunks of
  the two landing buffers are joined back into the whole buffers; the staged block's lent row blocks, the rest of its
  left half and its right half are joined back into the block at the full share.
-/
import proofs.«900707_g7700000000000708_dist_ar_v7x_xyz2x2x4_x_m2048_n512_f32_1_alg».proof.Proof.Shapes
import proofs.«900707_g7700000000000708_dist_ar_v7x_xyz2x2x4_x_m2048_n512_f32_1_alg».proof.Proof.Buffers

noncomputable section

namespace Cert.KernelIdealProof

open Cert.KernelIdeal Cert.KernelIdeal.Gen Cert.Mesh Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A transfer cell has its one duty in round 0 and none after: its owner, at round 1 with nothing taken or consumed, closes
    it and keeps the counter, which stands at zero. -/
theorem close_xfer (K : Dev nD × CIx → ℕ) (c : Dev nD) (jk : Fin 4 × Fin 32) :
    iprop(cellInv ER (sched m ρ) (K (c, some jk)) (kcell (c, some jk)) ∗ atPos ER (kcell (c, some jk)) (0 + 1) ∅ 0)
      ⊢ |={Set.univ}=> (semVal (kcell (c, some jk)) 0 : sProp 𝕄) :=
  Rounds.cell_close ER (sched m ρ) (Set.mem_univ (K (c, some jk))) (fun h => h) (R := 0 + 1) (duties_later m ρ (kcell (c, some jk)))

/-- The first landing buffer's 32 chunks, each held as its two half shares, all landed: the buffer whole. -/
theorem a_rejoin (c : Dev nD) :
    (bigSepL fin32list% fun k : Fin 32 => iprop(aChunk c k fullShare.left (xcommFull m ρ c) ∗ aChunk c k fullShare.right (xcommFull m ρ c)) : sProp 𝕄)
      ⊢ iprop(∃ f, aWhole c f) := by
  rw [← bigSep_fin32]
  refine (bigSep_mono fun k _ => ?_).trans ((aWhole_chunks c (xcommFull m ρ c)).mpr.trans ?_)
  · unfold aChunk; exact (pts_halves _ _ _).mpr
  · iintro H; iexists (xcommFull m ρ c); iexact H

/-- The second landing buffer's 32 chunks, all landed: the buffer whole. -/
theorem b_rejoin (c : Dev nD) :
    (bigSepL fin32list% fun k : Fin 32 => bChunk c k fullShare (ycommFull m ρ c) : sProp 𝕄) ⊢ iprop(∃ f, bWhole c f) := by
  rw [← bigSep_fin32]
  refine (bWhole_chunks c (ycommFull m ρ c)).mpr.trans ?_
  iintro H; iexists (ycommFull m ρ c); iexact H

/-- The staged block's right half share, the 32 row blocks its left half lent to the x-transfers, and the rest of the left
    half: the block at the full share. -/
theorem x_rejoin (c : Dev nD) (f : (cc0_stg0_0 : Ref sig .tc).ty.Contents (Elt F)) :
    iprop((xM.view.loc (c : Thread nD τ) ↦[xM.view.set]{fullShare.right} f)
        ∗ (bigSepL fin32list% fun k : Fin 32 => ((rowsX c k).view.loc (c : Thread nD τ) ↦[(rowsX c k).view.set]{fullShare.left} f))
        ∗ (((c : Thread nD τ).loc cc0_stg0_0) ↦[Finset.univ \ (Finset.univ.biUnion fun k : Fin 32 => (rowsX c k).view.set)]{fullShare.left} f))
      ⊢ (((c : Thread nD τ).loc cc0_stg0_0) ↦{fullShare} f : sProp 𝕄) := by
  rw [View.set_whole, ← bigSep_fin32]
  exact (xrows_cut c f).mpr

/-- info: 'Cert.KernelIdealProof.close_xfer' depends on axioms: [propext, Classical.choice, Quot.sound] -/
#guard_msgs in #print axioms close_xfer
/-- info: 'Cert.KernelIdealProof.a_rejoin' depends on axioms: [propext, Classical.choice, Quot.sound] -/
#guard_msgs in #print axioms a_rejoin
/-- info: 'Cert.KernelIdealProof.b_rejoin' depends on axioms: [propext, Classical.choice, Quot.sound] -/
#guard_msgs in #print axioms b_rejoin
/-- info: 'Cert.KernelIdealProof.x_rejoin' depends on axioms: [propext, Classical.choice, Quot.sound] -/
#guard_msgs in #print axioms x_rejoin

omit [FloatOps F] in
private theorem table_inv (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)

omit [FloatOps F] in
/-- All 128 transfer cells of a device closed at once: each is past its one round with nothing taken or consumed; the
    invariants come from the table every device holds; the counters all stand at zero. -/
theorem close_all (K : Dev nD × CIx → ℕ) (c : Dev nD) :
    iprop(records m ρ K ∗ bigSepL fin32list% fun k : Fin 32 =>
        iprop(atPos ER (xsCell c k) (0 + 1) ∅ 0 ∗ atPos ER (xrCell c k) (0 + 1) ∅ 0 ∗ atPos ER (ysCell c k) (0 + 1) ∅ 0 ∗ atPos ER (yrCell c k) (0 + 1) ∅ 0))
      ⊢ |={Set.univ}=> (bigSep Finset.univ fun jk : Fin 4 × Fin 32 => semVal (kcell (c, some jk)) 0 : sProp 𝕄) := by
  rw [← xfer_chunks (fun jk : Fin 4 × Fin 32 => (atPos ER (kcell (c, some jk)) (0 + 1) ∅ 0 : sProp 𝕄))]
  refine (bigSep_with_persistent (R := records m ρ K)
    (Ψ := fun jk : Fin 4 × Fin 32 => iprop(|={Set.univ}=> (semVal (kcell (c, some jk)) 0 : sProp 𝕄))) fun jk _ => ?_).trans (bigSep_fupd _ _)
  unfold records
  iintro ⟨⟨#HI, -⟩, Hat⟩
  iapply (close_xfer m ρ K c jk)
  isplitr
  · iapply (table_inv m ρ K (c, some jk)); iexact HI
  · iexact Hat

/-- The second landing buffer's 32 chunks as the y-partner's forwards left them, whatever each held before: the buffer
    whole. -/
theorem b_rejoin' (c : Dev nD) (fy : (k : Fin 32) → Buf (Elt F) ((chunkOf bM k).view.loc (c : Thread nD τ))) :
    (bigSepL fin32list% fun k : Fin 32 => ((chunkOf bM k).view.loc (c : Thread nD τ) ↦[(chunkOf bM k).view.set]{fullShare}
        (chunkOf bM k).view.write (Elt F) (fy k) ((chunkOf aM k).view.read (Elt F) (xcommFull m ρ (yp c))) Finset.univ) : sProp 𝕄)
      ⊢ iprop(∃ f, bWhole c f) := by
  rw [← bigSep_fin32]
  refine (bigSep_mono (Ψ := fun k : Fin 32 => bChunk c k fullShare (ycommFull m ρ c)) fun k _ =>
    (landing_y_own m ρ c k (fy k)).trans (by unfold bChunk; exact .refl)).trans ?_
  refine (bWhole_chunks c (ycommFull m ρ c)).mpr.trans ?_
  iintro H; iexists (ycommFull m ρ c); iexact H

/-- info: 'Cert.KernelIdealProof.close_all' depends on axioms: [propext, Classical.choice, Quot.sound] -/
#guard_msgs in #print axioms close_all
/-- info: 'Cert.KernelIdealProof.b_rejoin'' depends on axioms: [propext, Classical.choice, Quot.sound] -/
#guard_msgs in #print axioms b_rejoin'

/-! ## The tail's pieces gathered chunk by chunk: each list is built from its last chunk down, one summand at a time -/

omit [FloatOps F] in
private theorem listL_cons {I : Type} (i : I) (l : List I) (Φ : I → sProp 𝕄) : bigSepL (i :: l) Φ = iprop(Φ i ∗ bigSepL l Φ) := by
  rw [bigSepL_cons]; rfl

omit [FloatOps F] in
/-- The empty list of summands holds outright. -/
theorem listL_nil {I : Type} (Φ : I → sProp 𝕄) : ⊢ (bigSepL [] Φ : sProp 𝕄) := by
  rw [bigSepL_nil]; iempintro

/-- A chunk's four positions, past the one round. -/
abbrev atL (c : Dev nD) : Fin 32 → sProp 𝕄 := fun k =>
  iprop(atPos ER (xsCell c k) (0 + 1) ∅ 0 ∗ atPos ER (xrCell c k) (0 + 1) ∅ 0 ∗ atPos ER (ysCell c k) (0 + 1) ∅ 0 ∗ atPos ER (yrCell c k) (0 + 1) ∅ 0)
/-- A chunk of the first landing buffer, landed, as its two half shares. -/
abbrev aL (c : Dev nD) : Fin 32 → sProp 𝕄 := fun k =>
  iprop(aChunk c k fullShare.left (xcommFull m ρ c) ∗ aChunk c k fullShare.right (xcommFull m ρ c))
/-- A chunk of the second landing buffer, landed. -/
abbrev bL (c : Dev nD) : Fin 32 → sProp 𝕄 := fun k => bChunk c k fullShare (ycommFull m ρ c)
/-- The row block of the staged block that a chunk's x-transfer was lent, back at the left half share. -/
abbrev xL (c : Dev nD) : Fin 32 → sProp 𝕄 := fun k =>
  ((rowsX c k).view.loc (c : Thread nD τ) ↦[(rowsX c k).view.set]{fullShare.left} xstg m ρ c)

omit [FloatOps F] in
private theorem aL_intro (c : Dev nD) (k : Fin 32) :
    iprop(((chunkOf aM k).view.loc (c : Thread nD τ) ↦[(chunkOf aM k).view.set]{fullShare.left} xcommFull m ρ c)
      ∗ ((chunkOf aM k).view.loc (c : Thread nD τ) ↦[(chunkOf aM k).view.set]{fullShare.right} xcommFull m ρ c)) ⊢ (aL m ρ c k : sProp 𝕄) := by
  show _ ⊢ iprop(aChunk c k fullShare.left (xcommFull m ρ c) ∗ aChunk c k fullShare.right (xcommFull m ρ c))
  unfold aChunk; exact .rfl
omit [FloatOps F] in
private theorem bL_intro (c : Dev nD) (k : Fin 32) :
    ((chunkOf bM k).view.loc (c : Thread nD τ) ↦[(chunkOf bM k).view.set]{fullShare} ycommFull m ρ c : sProp 𝕄) ⊢ bL m ρ c k := by
  show _ ⊢ bChunk c k fullShare (ycommFull m ρ c)
  unfold bChunk; exact .rfl

omit [FloatOps F] in
theorem at_cons (c : Dev nD) (k : Fin 32) (l : List (Fin 32)) :
    (atPos ER (xsCell c k) (0 + 1) ∅ 0 : sProp 𝕄) ⊢ iprop(atPos ER (xrCell c k) (0 + 1) ∅ 0 -∗ atPos ER (ysCell c k) (0 + 1) ∅ 0
      -∗ atPos ER (yrCell c k) (0 + 1) ∅ 0 -∗ bigSepL l (atL c) -∗ bigSepL (k :: l) (atL c)) := by
  iintro H1 H2 H3 H4 HL
  iapply (Entails.of_eq (listL_cons k l (atL (F := F) c)).symm)
  isplitr [HL]
  · isplitl [H1]; · iexact H1
    isplitl [H2]; · iexact H2
    isplitl [H3]; · iexact H3
    iexact H4
  · iexact HL

omit [FloatOps F] in
theorem a_cons (c : Dev nD) (k : Fin 32) (l : List (Fin 32)) :
    ((chunkOf aM k).view.loc (c : Thread nD τ) ↦[(chunkOf aM k).view.set]{fullShare.left} xcommFull m ρ c : sProp 𝕄)
      ⊢ iprop(((chunkOf aM k).view.loc (c : Thread nD τ) ↦[(chunkOf aM k).view.set]{fullShare.right} xcommFull m ρ c)
        -∗ bigSepL l (aL m ρ c) -∗ bigSepL (k :: l) (aL m ρ c)) := by
  iintro H1 H2 HL
  iapply (Entails.of_eq (listL_cons k l (aL m ρ c)).symm)
  isplitr [HL]
  · iapply (aL_intro m ρ c k)
    isplitl [H1]; · iexact H1
    iexact H2
  · iexact HL

/-- The chunk as the y-partner's forward left it, whatever it held before, is the chunk landed. -/
theorem b_cons (c : Dev nD) (k : Fin 32) (l : List (Fin 32)) (fd : Buf (Elt F) ((chunkOf bM k).view.loc (c : Thread nD τ))) :
    ((chunkOf bM k).view.loc (c : Thread nD τ) ↦[(chunkOf bM k).view.set]{fullShare}
        (chunkOf bM k).view.write (Elt F) fd ((chunkOf aM k).view.read (Elt F) (xcommFull m ρ (yp c))) Finset.univ : sProp 𝕄)
      ⊢ iprop(bigSepL l (bL m ρ c) -∗ bigSepL (k :: l) (bL m ρ c)) := by
  iintro H1 HL
  iapply (Entails.of_eq (listL_cons k l (bL m ρ c)).symm)
  isplitr [HL]
  · iapply ((landing_y_own m ρ c k fd).trans (bL_intro m ρ c k)); iexact H1
  · iexact HL

omit [FloatOps F] in
theorem x_cons (c : Dev nD) (k : Fin 32) (l : List (Fin 32)) :
    ((rowsX c k).view.loc (c : Thread nD τ) ↦[(rowsX c k).view.set]{fullShare.left} xstg m ρ c : sProp 𝕄)
      ⊢ iprop(bigSepL l (xL m ρ c) -∗ bigSepL (k :: l) (xL m ρ c)) := by
  iintro H1 HL
  iapply (Entails.of_eq (listL_cons k l (xL m ρ c)).symm)
  isplitr [HL]
  · iexact H1
  · iexact HL

/-- The whole tail at once: the table, the four lists, the staged block's right half and the rest of its left half give,
    after the 128 cells are closed, both landing buffers whole, the 128 counters at zero and the staged block at the full share. -/
theorem tail_all (K : Dev nD × CIx → ℕ) (c : Dev nD) :
    iprop(records m ρ K ∗ bigSepL fin32list% (atL c) ∗ bigSepL fin32list% (aL m ρ c) ∗ bigSepL fin32list% (bL m ρ c) ∗ bigSepL fin32list% (xL m ρ c)
        ∗ (xM.view.loc (c : Thread nD τ) ↦[xM.view.set]{fullShare.right} xstg m ρ c)
        ∗ (((c : Thread nD τ).loc cc0_stg0_0) ↦[Finset.univ \ (Finset.univ.biUnion fun k : Fin 32 => (rowsX c k).view.set)]{fullShare.left} xstg m ρ c))
      ⊢ |={Set.univ}=> iprop((∃ f, aWhole c f) ∗ (∃ f, bWhole c f) ∗ (bigSep Finset.univ fun jk : Fin 4 × Fin 32 => semVal (kcell (c, some jk)) 0)
          ∗ (((c : Thread nD τ).loc cc0_stg0_0) ↦{fullShare} xstg m ρ c)) := by
  iintro ⟨#Hrec, LA, La, Lb, Lx, Hxr, Hxrest⟩
  imod (close_all (F := F) m ρ K c) $$ [LA] with HZ
  · isplitr; · iexact Hrec
    iexact LA
  ihave HA := (a_rejoin (F := F) m ρ c) $$ La
  ihave HB := (b_rejoin (F := F) m ρ c) $$ Lb
  ihave HX := (x_rejoin (F := F) c (xstg m ρ c)) $$ [Hxr Lx Hxrest]
  · isplitl [Hxr]; · iexact Hxr
    isplitl [Lx]; · iexact Lx
    iexact Hxrest
  imodintro
  isplitl [HA]; · iexact HA
  isplitl [HB]; · iexact HB
  isplitl [HZ]; · iexact HZ
  iexact HX

/-- info: 'Cert.KernelIdealProof.tail_all' depends on axioms: [propext, Classical.choice, Quot.sound] -/
#guard_msgs in #print axioms tail_all
/-- info: 'Cert.KernelIdealProof.b_cons' depends on axioms: [propext, Classical.choice, Quot.sound] -/
#guard_msgs in #print axioms b_cons

end Cert.KernelIdealProof

end
-- ==== Proof.OutValue.lean ====
/-
  The result, row block by row block. The body stores the result's staging buffer in 64 pieces of 32 rows: for chunk k,
  rows 1024 · y + 32 · k .. of the device's own half (its rows plus chunk k of the first landing buffer) and rows
  1024 · (1 - y) + 32 · k .. of the other half (its rows plus chunk k of the second landing buffer), y the device's y
  coordinate. Each piece is, index by index, the result the proof data names: the device's block plus the other block's
  rows. A store of 32 whole rows changes those rows and no others, so after all 64 the buffer is the result.
-/
import proofs.«900707_g7700000000000708_dist_ar_v7x_xyz2x2x4_x_m2048_n512_f32_1_alg».proof.Proof.Buffers
import proofs.«900707_g7700000000000708_dist_ar_v7x_xyz2x2x4_x_m2048_n512_f32_1_alg».proof.Proof.Gen.KernelIdeal.Skeleton

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Rows done -/

/-- The rows of the result's staging buffer whose number satisfies `P` hold the result. -/
def RowsDone (c : Dev nD) (P : ℕ → Prop) (f : (cc0_stg1_0 : Ref sig .tc).ty.Contents (Elt F)) : Prop :=
  ∀ i : S2048x512.Idx, P (i 0).val → f i = outAt m ρ c i

theorem rowsDone_none (c : Dev nD) (f : (cc0_stg1_0 : Ref sig .tc).ty.Contents (Elt F)) :
    RowsDone m ρ c (fun _ => False) f := fun _ h => h.elim

theorem rowsDone_all (c : Dev nD) (P : ℕ → Prop) (f : (cc0_stg1_0 : Ref sig .tc).ty.Contents (Elt F))
    (hP : ∀ r, r < 2048 → P r) (h : RowsDone m ρ c P f) : f = outAt m ρ c :=
  funext fun i => h i (hP _ (idx2_lt0 i))

theorem RowsDone.mono {c : Dev nD} {P Q : ℕ → Prop} {f : (cc0_stg1_0 : Ref sig .tc).ty.Contents (Elt F)}
    (h : RowsDone m ρ c P f) (hQ : ∀ r, Q r → P r) : RowsDone m ρ c Q f := fun i hi => h i (hQ _ hi)

/-- A store of 32 whole rows at row `off 0`, each element of the payload the result at its place, adds those rows to
    the rows done: the rows stored take the payload, every other row keeps what it held. -/
theorem rowsDone_write (c : Dev nD) (P : ℕ → Prop) (f : (cc0_stg1_0 : Ref sig .tc).ty.Contents (Elt F)) (off : Fin 2 → ℕ)
    (h : ∀ a, off a + S32x512.size a ≤ S2048x512.size a) (w : Vec F S32x512 .f32) (hoff : off 1 = 0)
    (hf : RowsDone m ρ c P f)
    (hw : ∀ (y : S32x512.Idx) (i : S2048x512.Idx), (i 0).val = off 0 + (y 0).val → (i 1).val = (y 1).val →
      w y = outAt m ρ c i) :
    RowsDone m ρ c (fun r => P r ∨ (off 0 ≤ r ∧ r < off 0 + 32))
      ((oM.access (Rect.unit (s := S2048x512) off S32x512.size h) : View sig .tc _ _ _).write (Elt F) f w Finset.univ) := by
  intro i hi
  have hi0 := idx2_lt0 i
  have hi1 := idx2_lt1 i
  by_cases hr : off 0 ≤ (i 0).val ∧ (i 0).val < off 0 + 32
  · have e : (oM.access (Rect.unit (s := S2048x512) off S32x512.size h) : View sig .tc _ _ _).emb
        (ix2 (⟨(i 0).val - off 0, by omega⟩ : Fin 32) (⟨(i 1).val, hi1⟩ : Fin 512)) = i := by
      funext a
      refine Fin.ext ?_
      match a with
      | ⟨0, _⟩ => show off 0 + 1 * ((i 0).val - off 0) = (i 0).val; omega
      | ⟨1, _⟩ => show off 1 + 1 * (i 1).val = (i 1).val; omega
    rw [← e, View.write_emb_of_mem _ _ (Finset.mem_univ _), cast_eq, e]
    exact hw _ i (by show (i 0).val = off 0 + ((i 0).val - off 0); omega) rfl
  · have hn : i ∉ (oM.access (Rect.unit (s := S2048x512) off S32x512.size h) : View sig .tc _ _ _).setOn Finset.univ := by
      intro hm
      obtain ⟨y, rfl⟩ := View.exists_emb_of_mem_set _ hm
      have hy := idx2_lt0 y
      exact hr ⟨by show off 0 ≤ off 0 + 1 * (y 0).val; omega, by show off 0 + 1 * (y 0).val < off 0 + 32; omega⟩
    rw [View.write_of_not_mem _ _ _ hn]
    rcases hi with hP | hr'
    · exact hf i hP
    · exact absurd hr' hr

/-! ## What the loads read -/

/-- The load of 32 rows of the staged block at row `off 0`, cast to its own shape: at (r, j), the block at
    (off 0 + r, j). -/
theorem load_rows (g : (cc0_stg0_0 : Ref sig .tc).ty.Contents (Elt F)) (off : Fin 2 → ℕ)
    (h : ∀ a, off a + S32x512.size a ≤ S2048x512.size a) (hoff : off 1 = 0)
    (y : S32x512.Idx) (i : S2048x512.Idx) (h0 : (i 0).val = off 0 + (y 0).val) (h1 : (i 1).val = (y 1).val) :
    shapeCast S32x512 (xM.view.readAt (Elt F) (Rect.unit (s := S2048x512) off S32x512.size h).toLoadRect g)
      shapeCasts_S32x512_S32x512 y = g i := by
  refine (congrFun (shapeCast_self (s := S32x512)
    (xM.view.readAt (Elt F) (Rect.unit (s := S2048x512) off S32x512.size h).toLoadRect g) shapeCasts_S32x512_S32x512) y).trans ?_
  show g ((Rect.unit (s := S2048x512) off S32x512.size h).idx y) = g i
  refine congrArg g (funext fun a => Fin.ext ?_)
  match a with
  | ⟨0, _⟩ => show off 0 + 1 * (y 0).val = (i 0).val; omega
  | ⟨1, _⟩ => show off 1 + 1 * (y 1).val = (i 1).val; omega

/-- The load of chunk k of the first landing buffer, cast to [32, 512]: at (r, j), the buffer at (k, r, j). -/
theorem load_chunk_a (g : (cc0_scratch0 : Ref sig .tc).ty.Contents (Elt F)) (k : Fin 32) (y : S32x512.Idx) :
    shapeCast S32x512 (aM.view.readAt (Elt F) (Rect.unit (s := S32x32x512) ![k.val, 0, 0] S1x32x512.size (inbA k)).toLoadRect g)
      shapeCasts_S1x32x512_S32x512 y = g (ix3 k (⟨(y 0).val, idx2_lt0 y⟩ : Fin 32) (⟨(y 1).val, idx2_lt1 y⟩ : Fin 512)) := by
  obtain ⟨p, q, rfl⟩ : ∃ (p : Fin 32) (q : Fin 512), y = ix2 p q := ⟨y 0, y 1, eq_ix2 y⟩
  rw [shapeCast_1ab_ab_apply]
  show g ((Rect.unit (s := S32x32x512) ![k.val, 0, 0] S1x32x512.size (inbA k)).idx (ix3 (0 : Fin 1) p q)) = _
  refine congrArg g (funext fun a => Fin.ext ?_)
  match a with
  | ⟨0, _⟩ => show k.val + 1 * 0 = k.val; omega
  | ⟨1, _⟩ => show 0 + 1 * p.val = p.val; omega
  | ⟨2, _⟩ => show 0 + 1 * q.val = q.val; omega

/-- The same for the second landing buffer. -/
theorem load_chunk_b (g : (cc0_scratch1 : Ref sig .tc).ty.Contents (Elt F)) (k : Fin 32) (y : S32x512.Idx) :
    shapeCast S32x512 (bM.view.readAt (Elt F) (Rect.unit (s := S32x32x512) ![k.val, 0, 0] S1x32x512.size (inbA k)).toLoadRect g)
      shapeCasts_S1x32x512_S32x512 y = g (ix3 k (⟨(y 0).val, idx2_lt0 y⟩ : Fin 32) (⟨(y 1).val, idx2_lt1 y⟩ : Fin 512)) := by
  obtain ⟨p, q, rfl⟩ : ∃ (p : Fin 32) (q : Fin 512), y = ix2 p q := ⟨y 0, y 1, eq_ix2 y⟩
  rw [shapeCast_1ab_ab_apply]
  show g ((Rect.unit (s := S32x32x512) ![k.val, 0, 0] S1x32x512.size (inbA k)).idx (ix3 (0 : Fin 1) p q)) = _
  refine congrArg g (funext fun a => Fin.ext ?_)
  match a with
  | ⟨0, _⟩ => show k.val + 1 * 0 = k.val; omega
  | ⟨1, _⟩ => show 0 + 1 * p.val = p.val; omega
  | ⟨2, _⟩ => show 0 + 1 * q.val = q.val; omega

/-- A chunk of a landing buffer read through the chunk's own view: at (r, j), the buffer at (k, r, j). -/
theorem read_chunk_a (g : (cc0_scratch0 : Ref sig .tc).ty.Contents (Elt F)) (k : Fin 32) (y : S32x512.Idx) :
    (chunkOf aM k).view.read (Elt F) g y = g (ix3 k (⟨(y 0).val, idx2_lt0 y⟩ : Fin 32) (⟨(y 1).val, idx2_lt1 y⟩ : Fin 512)) := by
  rw [View.read_apply, cast_eq, aChunk_emb]
theorem read_chunk_b (g : (cc0_scratch1 : Ref sig .tc).ty.Contents (Elt F)) (k : Fin 32) (y : S32x512.Idx) :
    (chunkOf bM k).view.read (Elt F) g y = g (ix3 k (⟨(y 0).val, idx2_lt0 y⟩ : Fin 32) (⟨(y 1).val, idx2_lt1 y⟩ : Fin 512)) := by
  rw [View.read_apply, cast_eq, bChunk_emb]

/-! ## What landed is the other block's rows -/

/-- Chunk k of the first landing buffer, once landed, holds at (k, r, j) the other block's row 1024 · y + 32 · k + r:
    a row of the device's own half, which reaches it through the x-partner. -/
theorem xcomm_other (c : Dev nD) (k : Fin 32) (p : Fin 32) (q : Fin 512) (i : S2048x512.Idx)
    (h0 : (i 0).val = 1024 * yc c + 32 * k.val + p.val) (h1 : (i 1).val = q.val) :
    xcommFull m ρ c (ix3 k p q) = otherRows m ρ c i := by
  have hi : rowIx (yc c) (yc_lt c) (ix3 k p q) = i := by
    funext a
    refine Fin.ext ?_
    match a with
    | ⟨0, _⟩ => exact h0.symm
    | ⟨1, _⟩ => exact h1.symm
  unfold xcommFull otherRows
  rw [hi, if_pos (by have := k.isLt; have := p.isLt; omega)]

/-- Chunk k of the second landing buffer, once landed, holds at (k, r, j) the other block's row
    1024 · (1 - y) + 32 · k + r: a row of the other half, which reaches the device through the y-partner's x-partner. -/
theorem ycomm_other (c : Dev nD) (k : Fin 32) (p : Fin 32) (q : Fin 512) (i : S2048x512.Idx)
    (h0 : (i 0).val = 1024 * (1 - yc c) + 32 * k.val + p.val) (h1 : (i 1).val = q.val) :
    ycommFull m ρ c (ix3 k p q) = otherRows m ρ c i := by
  have hy := yc_lt c
  have hi : rowIx (yc (yp c)) (yc_lt (yp c)) (ix3 k p q) = i := by
    rw [rowIx_congr (yc_yp c) _ (by omega)]
    funext a
    refine Fin.ext ?_
    match a with
    | ⟨0, _⟩ => exact h0.symm
    | ⟨1, _⟩ => exact h1.symm
  unfold ycommFull otherRows
  rw [hi, if_neg (by have := k.isLt; have := p.isLt; omega)]

/-! ## The two payloads -/

/-- The payload stored on the rows of the device's own half for chunk k: its rows there plus chunk k of the first landing
    buffer, which is the result on those rows. -/
theorem pay_own (c : Dev nD) (k : Fin 32) (y : S32x512.Idx) (i : S2048x512.Idx)
    (h0 : (i 0).val = 1024 * yc c + 32 * k.val + (y 0).val) (h1 : (i 1).val = (y 1).val) :
    addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
      (shapeCast S32x512 (aM.view.readAt (Elt F) (Rect.unit (s := S32x32x512) ![k.val, 0, 0] S1x32x512.size (inbA k)).toLoadRect (xcommFull m ρ c)) shapeCasts_S1x32x512_S32x512) y
      = outAt m ρ c i := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  unfold outAt addf
  rw [load_rows (xstg m ρ c) _ _ e1 y i (by rw [e0]; exact h0) h1, load_chunk_a,
    xcomm_other m ρ c k ⟨(y 0).val, idx2_lt0 y⟩ ⟨(y 1).val, idx2_lt1 y⟩ i h0 h1]

/-- The payload stored on the rows of the other half for chunk k: its rows there plus chunk k of the second landing
    buffer, which is the result on those rows. -/
theorem pay_other (c : Dev nD) (k : Fin 32) (y : S32x512.Idx) (i : S2048x512.Idx)
    (h0 : (i 0).val = 1024 * (1 - yc c) + 32 * k.val + (y 0).val) (h1 : (i 1).val = (y 1).val) :
    addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
      (shapeCast S32x512 (bM.view.readAt (Elt F) (Rect.unit (s := S32x32x512) ![k.val, 0, 0] S1x32x512.size (inbA k)).toLoadRect (ycommFull m ρ c)) shapeCasts_S1x32x512_S32x512) y
      = outAt m ρ c i := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  unfold outAt addf
  rw [load_rows (xstg m ρ c) _ _ e1 y i (by rw [e0]; exact h0) h1, load_chunk_b,
    ycomm_other m ρ c k ⟨(y 0).val, idx2_lt0 y⟩ ⟨(y 1).val, idx2_lt1 y⟩ i h0 h1]

/-! ## The two stores -/

/-- The store for chunk k on the device's own half adds rows [1024 · y + 32 · k, + 32) to the rows done. -/
theorem rowsDone_own (c : Dev nD) (k : Fin 32) (P : ℕ → Prop) (f : (cc0_stg1_0 : Ref sig .tc).ty.Contents (Elt F))
    (hf : RowsDone m ρ c P f) :
    RowsDone m ρ c (fun r => P r ∨ (1024 * yc c + 32 * k.val ≤ r ∧ r < 1024 * yc c + 32 * k.val + 32))
      ((oM.access (Rect.unit (s := S2048x512) (k0_off2 c (BitVec.ofNat 32 (32 * k.val))) S32x512.size (k0_off2_inb c k)) : View sig .tc _ _ _).write (Elt F) f
        (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
          (shapeCast S32x512 (aM.view.readAt (Elt F) (Rect.unit (s := S32x32x512) ![k.val, 0, 0] S1x32x512.size (inbA k)).toLoadRect (xcommFull m ρ c)) shapeCasts_S1x32x512_S32x512))
        Finset.univ) := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  refine RowsDone.mono m ρ
    (rowsDone_write m ρ c P f _ _ _ e1 hf fun y i h0 h1 => pay_own m ρ c k y i (by rw [← e0]; exact h0) h1)
    fun r hr => ?_
  rw [e0]; exact hr

/-- The store for chunk k on the other half adds rows [1024 · (1 - y) + 32 · k, + 32) to the rows done. -/
theorem rowsDone_other (c : Dev nD) (k : Fin 32) (P : ℕ → Prop) (f : (cc0_stg1_0 : Ref sig .tc).ty.Contents (Elt F))
    (hf : RowsDone m ρ c P f) :
    RowsDone m ρ c (fun r => P r ∨ (1024 * (1 - yc c) + 32 * k.val ≤ r ∧ r < 1024 * (1 - yc c) + 32 * k.val + 32))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect (ycommFull m ρ c)) shapeCasts_S1x32x512_S32x512))
        Finset.univ) := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  refine RowsDone.mono m ρ
    (rowsDone_write m ρ c P f _ _ _ e1 hf fun y i h0 h1 => pay_other m ρ c k y i (by rw [← e0]; exact h0) h1)
    fun r hr => ?_
  rw [e0]; exact hr

/-- Once every chunk's two stores are done, every row is: a row below 2048 lies in one of the 64 blocks. -/
theorem rows_cover (c : Dev nD) (r : ℕ) (hr : r < 2048) :
    ∃ k : Fin 32, (1024 * yc c + 32 * k.val ≤ r ∧ r < 1024 * yc c + 32 * k.val + 32)
      ∨ (1024 * (1 - yc c) + 32 * k.val ≤ r ∧ r < 1024 * (1 - yc c) + 32 * k.val + 32) := by
  have hy := yc_lt c
  refine ⟨⟨(r % 1024) / 32, by omega⟩, ?_⟩
  show (1024 * yc c + 32 * ((r % 1024) / 32) ≤ r ∧ r < 1024 * yc c + 32 * ((r % 1024) / 32) + 32)
      ∨ (1024 * (1 - yc c) + 32 * ((r % 1024) / 32) ≤ r ∧ r < 1024 * (1 - yc c) + 32 * ((r % 1024) / 32) + 32)
  omega

/-! ## The printed payloads are that sum -/

/-- The first printed payload is the sum the lemmas above are about (the others unfold the same way). -/
theorem k0_pay1_eq (v : Vec F S32x512 .f32) (w : Vec F S1x32x512 .f32) :
    k0_pay1 v w = addf (shapeCast S32x512 v shapeCasts_S32x512_S32x512) (shapeCast S32x512 w shapeCasts_S1x32x512_S32x512) := rfl

/-- info: 'Cert.KernelIdealProof.rowsDone_own' depends on axioms: [propext, Classical.choice, Quot.sound] -/
#guard_msgs in #print axioms rowsDone_own
/-- info: 'Cert.KernelIdealProof.rowsDone_other' depends on axioms: [propext, Classical.choice, Quot.sound] -/
#guard_msgs in #print axioms rowsDone_other

/-! ## The stores, counted -/

/-- The first `n` row blocks of the device's own half. -/
def POwn (c : Dev nD) (n : ℕ) : ℕ → Prop := fun r => 1024 * yc c ≤ r ∧ r < 1024 * yc c + 32 * n
/-- The device's own half, and the first `n` row blocks of the other half. -/
def PBoth (c : Dev nD) (n : ℕ) : ℕ → Prop :=
  fun r => POwn c 32 r ∨ (1024 * (1 - yc c) ≤ r ∧ r < 1024 * (1 - yc c) + 32 * n)

/-- Before any store no row is asked for. -/
theorem rowsDone_start (c : Dev nD) (f : (cc0_stg1_0 : Ref sig .tc).ty.Contents (Elt F)) : RowsDone m ρ c (POwn c 0) f := by
  intro i hi
  exfalso
  have h : 1024 * yc c ≤ (i 0).val ∧ (i 0).val < 1024 * yc c + 32 * 0 := hi
  omega

/-- The store for chunk k on the device's own half takes the count from k to k + 1. -/
theorem rowsDone_own_step (c : Dev nD) (k : Fin 32) (f : (cc0_stg1_0 : Ref sig .tc).ty.Contents (Elt F))
    (hf : RowsDone m ρ c (POwn c k.val) f) :
    RowsDone m ρ c (POwn c (k.val + 1))
      ((oM.access (Rect.unit (s := S2048x512) (k0_off2 c (BitVec.ofNat 32 (32 * k.val))) S32x512.size (k0_off2_inb c k)) : View sig .tc _ _ _).write (Elt F) f
        (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
          (shapeCast S32x512 (aM.view.readAt (Elt F) (Rect.unit (s := S32x32x512) ![k.val, 0, 0] S1x32x512.size (inbA k)).toLoadRect (xcommFull m ρ c)) shapeCasts_S1x32x512_S32x512))
        Finset.univ) := by
  refine RowsDone.mono m ρ (rowsDone_own m ρ c k (POwn c k.val) f hf) fun r hr => ?_
  have h : 1024 * yc c ≤ r ∧ r < 1024 * yc c + 32 * (k.val + 1) := hr
  show (1024 * yc c ≤ r ∧ r < 1024 * yc c + 32 * k.val)
    ∨ (1024 * yc c + 32 * k.val ≤ r ∧ r < 1024 * yc c + 32 * k.val + 32)
  omega

/-- The own half done is the start of the count on the other half. -/
theorem rowsDone_turn (c : Dev nD) (f : (cc0_stg1_0 : Ref sig .tc).ty.Contents (Elt F))
    (hf : RowsDone m ρ c (POwn c 32) f) : RowsDone m ρ c (PBoth c 0) f := by
  refine RowsDone.mono m ρ hf fun r hr => ?_
  have h : (1024 * yc c ≤ r ∧ r < 1024 * yc c + 32 * 32)
      ∨ (1024 * (1 - yc c) ≤ r ∧ r < 1024 * (1 - yc c) + 32 * 0) := hr
  show 1024 * yc c ≤ r ∧ r < 1024 * yc c + 32 * 32
  omega

/-- The store for chunk k on the other half takes the count from k to k + 1. -/
theorem rowsDone_other_step (c : Dev nD) (k : Fin 32) (f : (cc0_stg1_0 : Ref sig .tc).ty.Contents (Elt F))
    (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect (ycommFull m ρ c)) shapeCasts_S1x32x512_S32x512))
        Finset.univ) := by
  refine RowsDone.mono m ρ (rowsDone_other m ρ c k (PBoth c k.val) f hf) fun r hr => ?_
  have h : (1024 * yc c ≤ r ∧ r < 1024 * yc c + 32 * 32)
      ∨ (1024 * (1 - yc c) ≤ r ∧ r < 1024 * (1 - yc c) + 32 * (k.val + 1)) := hr
  show ((1024 * yc c ≤ r ∧ r < 1024 * yc c + 32 * 32)
      ∨ (1024 * (1 - yc c) ≤ r ∧ r < 1024 * (1 - yc c) + 32 * k.val))
    ∨ (1024 * (1 - yc c) + 32 * k.val ≤ r ∧ r < 1024 * (1 - yc c) + 32 * k.val + 32)
  omega

/-- Both halves done: the buffer is the result. -/
theorem rowsDone_done (c : Dev nD) (f : (cc0_stg1_0 : Ref sig .tc).ty.Contents (Elt F))
    (hf : RowsDone m ρ c (PBoth c 32) f) : f = outAt m ρ c := by
  refine rowsDone_all m ρ c (PBoth c 32) f (fun r hr => ?_) hf
  have hy := yc_lt c
  show (1024 * yc c ≤ r ∧ r < 1024 * yc c + 32 * 32)
    ∨ (1024 * (1 - yc c) ≤ r ∧ r < 1024 * (1 - yc c) + 32 * 32)
  omega

/-- info: 'Cert.KernelIdealProof.rowsDone_other_step' depends on axioms: [propext, Classical.choice, Quot.sound] -/
#guard_msgs in #print axioms rowsDone_other_step
/-- info: 'Cert.KernelIdealProof.rowsDone_done' depends on axioms: [propext, Classical.choice, Quot.sound] -/
#guard_msgs in #print axioms rowsDone_done

/-! ## The same stores, the landed chunk given as any vector that is it index by index -/

/-- The payload of the other half with any second addend that is, index by index, chunk k of what the second landing
    buffer holds once landed. -/
theorem pay_other_vec (c : Dev nD) (k : Fin 32) (w2 : Vec F S32x512 .f32)
    (hw2 : ∀ y : S32x512.Idx, w2 y = ycommFull m ρ c (ix3 k (⟨(y 0).val, idx2_lt0 y⟩ : Fin 32) (⟨(y 1).val, idx2_lt1 y⟩ : Fin 512)))
    (y : S32x512.Idx) (i : S2048x512.Idx)
    (h0 : (i 0).val = 1024 * (1 - yc c) + 32 * k.val + (y 0).val) (h1 : (i 1).val = (y 1).val) :
    addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512) w2 y = outAt m ρ c i := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  unfold outAt addf
  rw [load_rows (xstg m ρ c) _ _ e1 y i (by rw [e0]; exact h0) h1, hw2,
    ycomm_other m ρ c k ⟨(y 0).val, idx2_lt0 y⟩ ⟨(y 1).val, idx2_lt1 y⟩ i h0 h1]

/-- The payload of the own half with any second addend that is, index by index, chunk k of what the first landing
    buffer holds once landed. -/
theorem pay_own_vec (c : Dev nD) (k : Fin 32) (w2 : Vec F S32x512 .f32)
    (hw2 : ∀ y : S32x512.Idx, w2 y = xcommFull m ρ c (ix3 k (⟨(y 0).val, idx2_lt0 y⟩ : Fin 32) (⟨(y 1).val, idx2_lt1 y⟩ : Fin 512)))
    (y : S32x512.Idx) (i : S2048x512.Idx)
    (h0 : (i 0).val = 1024 * yc c + 32 * k.val + (y 0).val) (h1 : (i 1).val = (y 1).val) :
    addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512) w2 y = outAt m ρ c i := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  unfold outAt addf
  rw [load_rows (xstg m ρ c) _ _ e1 y i (by rw [e0]; exact h0) h1, hw2,
    xcomm_other m ρ c k ⟨(y 0).val, idx2_lt0 y⟩ ⟨(y 1).val, idx2_lt1 y⟩ i h0 h1]

/-- The counted store step of the other half, for such a second addend. -/
theorem rowsDone_other_step_vec (c : Dev nD) (k : Fin 32) (w2 : Vec F S32x512 .f32)
    (hw2 : ∀ y : S32x512.Idx, w2 y = ycommFull m ρ c (ix3 k (⟨(y 0).val, idx2_lt0 y⟩ : Fin 32) (⟨(y 1).val, idx2_lt1 y⟩ : Fin 512)))
    (f : (cc0_stg1_0 : Ref sig .tc).ty.Contents (Elt F)) (hf : RowsDone m ρ c (PBoth c k.val) f) :
    RowsDone m ρ c (PBoth c (k.val + 1)) ((oM.access (Rect.unit (s := S2048x512) (k0_off3 c (BitVec.ofNat 32 (32 * k.val))) S32x512.size (k0_off3_inb c k)) : View sig .tc _ _ _).write (Elt F) f (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512) w2) Finset.univ) := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  refine RowsDone.mono m ρ
    (rowsDone_write m ρ c (PBoth c k.val) f _ _ _ e1 hf fun y i h0 h1 =>
      pay_other_vec m ρ c k w2 hw2 y i (by rw [← e0]; exact h0) h1)
    fun r hr => ?_
  have h : (1024 * yc c ≤ r ∧ r < 1024 * yc c + 32 * 32)
      ∨ (1024 * (1 - yc c) ≤ r ∧ r < 1024 * (1 - yc c) + 32 * (k.val + 1)) := hr
  rw [e0]
  show ((1024 * yc c ≤ r ∧ r < 1024 * yc c + 32 * 32)
      ∨ (1024 * (1 - yc c) ≤ r ∧ r < 1024 * (1 - yc c) + 32 * k.val))
    ∨ (1024 * (1 - yc c) + 32 * k.val ≤ r ∧ r < 1024 * (1 - yc c) + 32 * k.val + 32)
  omega

/-- The counted store step of the own half, for such a second addend. -/
theorem rowsDone_own_step_vec (c : Dev nD) (k : Fin 32) (w2 : Vec F S32x512 .f32)
    (hw2 : ∀ y : S32x512.Idx, w2 y = xcommFull m ρ c (ix3 k (⟨(y 0).val, idx2_lt0 y⟩ : Fin 32) (⟨(y 1).val, idx2_lt1 y⟩ : Fin 512)))
    (f : (cc0_stg1_0 : Ref sig .tc).ty.Contents (Elt F)) (hf : RowsDone m ρ c (POwn c k.val) f) :
    RowsDone m ρ c (POwn c (k.val + 1)) ((oM.access (Rect.unit (s := S2048x512) (k0_off2 c (BitVec.ofNat 32 (32 * k.val))) S32x512.size (k0_off2_inb c k)) : View sig .tc _ _ _).write (Elt F) f (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512) w2) Finset.univ) := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  refine RowsDone.mono m ρ
    (rowsDone_write m ρ c (POwn c k.val) f _ _ _ e1 hf fun y i h0 h1 =>
      pay_own_vec m ρ c k w2 hw2 y i (by rw [← e0]; exact h0) h1)
    fun r hr => ?_
  have h : 1024 * yc c ≤ r ∧ r < 1024 * yc c + 32 * (k.val + 1) := hr
  rw [e0]
  show (1024 * yc c ≤ r ∧ r < 1024 * yc c + 32 * k.val)
    ∨ (1024 * yc c + 32 * k.val ≤ r ∧ r < 1024 * yc c + 32 * k.val + 32)
  omega

/-! ## The second landing buffer still at its written contents -/

/-- Chunk k of the second landing buffer as the y-partner's forward wrote it holds, at (k, r, j), what the schedule
    names there: the forwarded chunk is chunk k of the y-partner's first landing buffer. -/
theorem written_b (c : Dev nD) (k : Fin 32) (fd : Buf (Elt F) ((chunkOf bM k).view.loc (c : Thread nD τ)))
    (p : Fin 32) (q : Fin 512) :
    ((chunkOf bM k).view.write (Elt F) fd ((chunkOf aM k).view.read (Elt F) (xcommFull m ρ (yp c))) Finset.univ) (ix3 k p q) = ycommFull m ρ c (ix3 k p q) := by
  have e : (chunkOf bM k).view.emb (ix2 p q) = ix3 k p q := bChunk_emb k (ix2 p q)
  rw [← e, View.write_emb_of_mem _ _ (Finset.mem_univ _), cast_eq, read_chunk_a, e]
  rfl

/-- The counted store step of the other half, the chunk loaded from the second landing buffer at its written contents. -/
theorem rowsDone_other_step' (c : Dev nD) (k : Fin 32) (fd : Buf (Elt F) ((chunkOf bM k).view.loc (c : Thread nD τ)))
    (f : (cc0_stg1_0 : Ref sig .tc).ty.Contents (Elt F)) (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect ((chunkOf bM k).view.write (Elt F) fd ((chunkOf aM k).view.read (Elt F) (xcommFull m ρ (yp c))) Finset.univ)) shapeCasts_S1x32x512_S32x512))
        Finset.univ) :=
  rowsDone_other_step_vec m ρ c k _ (fun y => (load_chunk_b _ k y).trans (written_b m ρ c k fd _ _)) f hf

/-- The same, the chunk read through the chunk's own view (a [32, 512] vector as it stands). -/
theorem rowsDone_other_step'' (c : Dev nD) (k : Fin 32) (fd : Buf (Elt F) ((chunkOf bM k).view.loc (c : Thread nD τ)))
    (f : (cc0_stg1_0 : Ref sig .tc).ty.Contents (Elt F)) (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          ((chunkOf bM k).view.read (Elt F) ((chunkOf bM k).view.write (Elt F) fd ((chunkOf aM k).view.read (Elt F) (xcommFull m ρ (yp c))) Finset.univ)))
        Finset.univ) :=
  rowsDone_other_step_vec m ρ c k _ (fun y => (read_chunk_b _ k y).trans (written_b m ρ c k fd _ _)) f hf

/-- info: 'Cert.KernelIdealProof.rowsDone_other_step'' depends on axioms: [propext, Classical.choice, Quot.sound] -/
#guard_msgs in #print axioms rowsDone_other_step'
/-- info: 'Cert.KernelIdealProof.rowsDone_other_step''' depends on axioms: [propext, Classical.choice, Quot.sound] -/
#guard_msgs in #print axioms rowsDone_other_step''

end Cert.KernelIdealProof

end
-- ==== Proof.Body.lean ====
/-
  One device's body, run symbolically from the protocol's ghost state.
-/
import proofs.«900707_g7700000000000708_dist_ar_v7x_xyz2x2x4_x_m2048_n512_f32_1_alg».proof.Proof.Proto
import proofs.«900707_g7700000000000708_dist_ar_v7x_xyz2x2x4_x_m2048_n512_f32_1_alg».proof.Proof.BodyDefs
import proofs.«900707_g7700000000000708_dist_ar_v7x_xyz2x2x4_x_m2048_n512_f32_1_alg».proof.Proof.Chunks
import proofs.«900707_g7700000000000708_dist_ar_v7x_xyz2x2x4_x_m2048_n512_f32_1_alg».proof.Proof.Shapes
import proofs.«900707_g7700000000000708_dist_ar_v7x_xyz2x2x4_x_m2048_n512_f32_1_alg».proof.Proof.Ledger
import proofs.«900707_g7700000000000708_dist_ar_v7x_xyz2x2x4_x_m2048_n512_f32_1_alg».proof.Proof.Owed
import proofs.«900707_g7700000000000708_dist_ar_v7x_xyz2x2x4_x_m2048_n512_f32_1_alg».proof.Proof.Buffers
import proofs.«900707_g7700000000000708_dist_ar_v7x_xyz2x2x4_x_m2048_n512_f32_1_alg».proof.Proof.Sends
import proofs.«900707_g7700000000000708_dist_ar_v7x_xyz2x2x4_x_m2048_n512_f32_1_alg».proof.Proof.Closing
import proofs.«900707_g7700000000000708_dist_ar_v7x_xyz2x2x4_x_m2048_n512_f32_1_alg».proof.Proof.OutValue
import proofs.«900707_g7700000000000708_dist_ar_v7x_xyz2x2x4_x_m2048_n512_f32_1_alg».proof.Proof.Gen.KernelIdeal.Skeleton
import proofs.«900707_g7700000000000708_dist_ar_v7x_xyz2x2x4_x_m2048_n512_f32_1_alg».proof.Proof.Gen.KernelIdeal.Points

noncomputable section

namespace Cert.KernelIdealProof

open Cert.KernelIdeal Cert.KernelIdeal.Gen Cert.Mesh Cert.Chunks
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

-- two different partners are never to be compared by unfolding their arithmetic, nor a printed device chain with a partner:
-- the chains are named partners by their equations alone
attribute [local irreducible] Cert.Mesh.xp Cert.Mesh.yp

open Lean Elab Command in
/-- Marks the 66 printed device chains irreducible in this module. -/
elab "irreducible_device_chains" : command => do
  for n in [1:67] do
    elabCommand (← `(attribute [local irreducible] $(mkIdent (Name.mkSimple s!"k0_dev{n}"))))

irreducible_device_chains

variable {F : FTy → Type} [FloatOps F]
local notation "𝕄" => MT nD τ sig Unit (Elt F) ℕ UU ℕ
variable (m : (ℓ : Loc nD τ sig) → Buf (Elt F) ℓ) (ρ : Dev nD → PrngReg)

/-! ## The schedule's tables as the run reads them: each payload spelt as the points-to it is -/

/-- A chunk's credit, as the number it is. -/
theorem Nc_eq : Nc = 2048 := by decide

section Tables
variable (c : Dev nD) (k : Fin 32)

omit [FloatOps F] in
theorem pay_bar_false_xp : (sched (F := F) m ρ).payload (barCell (xp c)) 0 false
    = iprop(∃ f, aM.view.loc (c : Thread nD τ) ↦[aM.view.set]{fullShare} f) := by
  rw [payload_bar]; unfold barPay aWhole; rw [if_neg Bool.false_ne_true, xp_xp]
omit [FloatOps F] in
theorem pay_bar_true_yp : (sched (F := F) m ρ).payload (barCell (yp c)) 0 true
    = iprop(∃ f, bM.view.loc (c : Thread nD τ) ↦[bM.view.set]{fullShare} f) := by
  rw [payload_bar]; unfold barPay bWhole; rw [if_pos rfl, yp_yp]
omit [FloatOps F] in
theorem pay_bar_false_own : (sched (F := F) m ρ).payload (barCell c) 0 false
    = iprop(∃ f, aM.view.loc (xp c : Thread nD τ) ↦[aM.view.set]{fullShare} f) := by
  rw [payload_bar]; unfold barPay aWhole; rw [if_neg Bool.false_ne_true]
omit [FloatOps F] in
theorem pay_bar_true_own : (sched (F := F) m ρ).payload (barCell c) 0 true
    = iprop(∃ f, bM.view.loc (yp c : Thread nD τ) ↦[bM.view.set]{fullShare} f) := by
  rw [payload_bar]; unfold barPay bWhole; rw [if_pos rfl]
omit [FloatOps F] in
theorem pay_xs : (sched (F := F) m ρ).payload (xsCell c k) 0 false
    = ((rowsX c k).view.loc (c : Thread nD τ) ↦[(rowsX c k).view.set]{half} xstg m ρ c) := by
  rw [payload_xfer]; rfl
omit [FloatOps F] in
theorem pay_xr : (sched (F := F) m ρ).payload (xrCell c k) 0 false
    = iprop(∃ fd : Buf (Elt F) ((chunkOf aM k).view.loc (c : Thread nD τ)),
        (chunkOf aM k).view.loc (c : Thread nD τ) ↦[(chunkOf aM k).view.set]{fullShare}
          (chunkOf aM k).view.write (Elt F) fd ((rowsX (xp c) k).view.read (Elt F) (xstg m ρ (xp c))) Finset.univ) := by
  rw [payload_xfer]; rfl
omit [FloatOps F] in
theorem pay_xr_xp : (sched (F := F) m ρ).payload (xrCell (xp c) k) 0 false
    = iprop(∃ fd : Buf (Elt F) ((chunkOf aM k).view.loc ((xp c : Dev nD) : Thread nD τ)),
        (chunkOf aM k).view.loc ((xp c : Dev nD) : Thread nD τ) ↦[(chunkOf aM k).view.set]{fullShare}
          (chunkOf aM k).view.write (Elt F) fd ((rowsX c k).view.read (Elt F) (xstg m ρ c)) Finset.univ) := by
  rw [payload_xfer]; unfold xferPay; rw [xp_xp]
omit [FloatOps F] in
theorem pay_ys : (sched (F := F) m ρ).payload (ysCell c k) 0 false
    = ((chunkOf aM k).view.loc (c : Thread nD τ) ↦[(chunkOf aM k).view.set]{half} xcommFull m ρ c) := by
  rw [payload_xfer]; rfl
omit [FloatOps F] in
theorem pay_yr : (sched (F := F) m ρ).payload (yrCell c k) 0 false
    = iprop(∃ fd : Buf (Elt F) ((chunkOf bM k).view.loc (c : Thread nD τ)),
        (chunkOf bM k).view.loc (c : Thread nD τ) ↦[(chunkOf bM k).view.set]{fullShare}
          (chunkOf bM k).view.write (Elt F) fd ((chunkOf aM k).view.read (Elt F) (xcommFull m ρ (yp c))) Finset.univ) := by
  rw [payload_xfer]; rfl
omit [FloatOps F] in
theorem pay_yr_yp : (sched (F := F) m ρ).payload (yrCell (yp c) k) 0 false
    = iprop(∃ fd : Buf (Elt F) ((chunkOf bM k).view.loc ((yp c : Dev nD) : Thread nD τ)),
        (chunkOf bM k).view.loc ((yp c : Dev nD) : Thread nD τ) ↦[(chunkOf bM k).view.set]{fullShare}
          (chunkOf bM k).view.write (Elt F) fd ((chunkOf aM k).view.read (Elt F) (xcommFull m ρ c)) Finset.univ) := by
  rw [payload_xfer]; unfold xferPay; rw [yp_yp]
omit [FloatOps F] in
theorem duties_xs : (sched (F := F) m ρ).duties (xsCell c k) 0 = {false} := duties_xfer m ρ c 0 k
omit [FloatOps F] in
theorem duties_xr : (sched (F := F) m ρ).duties (xrCell c k) 0 = {false} := duties_xfer m ρ c 1 k
omit [FloatOps F] in
theorem duties_ys : (sched (F := F) m ρ).duties (ysCell c k) 0 = {false} := duties_xfer m ρ c 2 k
omit [FloatOps F] in
theorem duties_yr : (sched (F := F) m ρ).duties (yrCell c k) 0 = {false} := duties_xfer m ρ c 3 k
omit [FloatOps F] in
theorem amount_xs (d : Bool) : (sched (F := F) m ρ).amount (xsCell c k) 0 d = 2048 := (amount_xfer m ρ c 0 k d).trans Nc_eq
omit [FloatOps F] in
theorem amount_xr (d : Bool) : (sched (F := F) m ρ).amount (xrCell c k) 0 d = 2048 := (amount_xfer m ρ c 1 k d).trans Nc_eq
omit [FloatOps F] in
theorem amount_ys (d : Bool) : (sched (F := F) m ρ).amount (ysCell c k) 0 d = 2048 := (amount_xfer m ρ c 2 k d).trans Nc_eq
omit [FloatOps F] in
theorem amount_yr (d : Bool) : (sched (F := F) m ρ).amount (yrCell c k) 0 d = 2048 := (amount_xfer m ρ c 3 k d).trans Nc_eq
omit [FloatOps F] in
theorem expect_xs : (sched (F := F) m ρ).expect (xsCell c k) 0 = 2048 := (expect_xfer m ρ c 0 k).trans Nc_eq
omit [FloatOps F] in
theorem expect_xr : (sched (F := F) m ρ).expect (xrCell c k) 0 = 2048 := (expect_xfer m ρ c 1 k).trans Nc_eq
omit [FloatOps F] in
theorem expect_ys : (sched (F := F) m ρ).expect (ysCell c k) 0 = 2048 := (expect_xfer m ρ c 2 k).trans Nc_eq
omit [FloatOps F] in
theorem expect_yr : (sched (F := F) m ρ).expect (yrCell c k) 0 = 2048 := (expect_xfer m ρ c 3 k).trans Nc_eq

end Tables

omit [FloatOps F] in
/-- The entry cell's two duties as a literal set: the run then hands each duty's payload back by itself. -/
theorem duties_bar_lit (c : Dev nD) : (sched (F := F) m ρ).duties (barCell c) 0 = {false, true} := by
  rw [duties_bar]; decide

omit [FloatOps F] in
/-- A whole buffer's points-to, through its whole view (the spelling the run reads a held buffer in). -/
theorem pts_whole (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [View.set_whole]

omit [FloatOps F] in
/-- A raw conjunction in the spelling the proof mode destructs. -/
theorem sep_iprop (A B : sProp 𝕄) : BI.sep A B = iprop(A ∗ B) := rfl

attribute [local sl_rounds high] pay_bar_false_xp pay_bar_true_yp duties_bar_lit pay_xr_xp pay_yr_yp
attribute [local sl_rounds] pay_bar_false_own pay_bar_true_own duties_bar amount_bar expect_bar
  pay_xs pay_xr pay_ys pay_yr duties_xs duties_xr duties_ys duties_yr amount_xs amount_xr amount_ys amount_yr
  expect_xs expect_xr expect_ys expect_yr

/-! ## Taking one cell's record out of the persistent table -/

omit [FloatOps F] in
theorem inv_at (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- The head of a list's conjunction, in the spelling the proof mode destructs. -/
theorem bigSepL_cons' {I : Type} (i : I) (l : List I) (Φ : I → sProp 𝕄) : bigSepL (i :: l) Φ = iprop(Φ i ∗ bigSepL l Φ) := by
  rw [bigSepL_cons]; rfl

omit [FloatOps F] in
/-- A persistent fact yields any list of its consequences. -/
theorem bigSepL_of_persistent {I : Type} (R : sProp 𝕄) [BI.Persistent R] (Φ : I → sProp 𝕄) (h : ∀ i, R ⊢ Φ i) (l : List I) :
    R ⊢ bigSepL l Φ := by
  induction l with
  | nil => rw [bigSepL_nil]; iintro -; iempintro
  | cons i l ih =>
    rw [bigSepL_cons']
    iintro #H
    isplitr
    · iapply (h i); iexact H
    · iapply ih; iexact H

/-- The records one chunk's steps name: the device's own four cells, the partners' receive cells it pays into, and that the
    cells it pays have reached round 0. -/
def chunkRec (K : Dev nD × CIx → ℕ) (c : Dev nD) (k : Fin 32) : sProp 𝕄 :=
  iprop(cellInv ER (sched m ρ) (K (c, some (0, k))) (xsCell c k) ∗ cellInv ER (sched m ρ) (K (c, some (1, k))) (xrCell c k)
    ∗ cellInv ER (sched m ρ) (K (c, some (2, k))) (ysCell c k) ∗ cellInv ER (sched m ρ) (K (c, some (3, k))) (yrCell c k)
    ∗ cellInv ER (sched m ρ) (K (xp c, some (1, k))) (xrCell (xp c) k) ∗ cellInv ER (sched m ρ) (K (yp c, some (3, k))) (yrCell (yp c) k)
    ∗ reached ER (xsCell c k) 0 ∗ reached ER (ysCell c k) 0 ∗ reached ER (xrCell (xp c) k) 0 ∗ reached ER (yrCell (yp c) k) 0)

omit [FloatOps F] in
theorem records_open (K : Dev nD × CIx → ℕ) (c : Dev nD) :
    records m ρ K ⊢ iprop((cellInv ER (sched m ρ) (K (c, none)) (barCell c) ∗ cellInv ER (sched m ρ) (K (xp c, none)) (barCell (xp c))
        ∗ cellInv ER (sched m ρ) (K (yp c, none)) (barCell (yp c)) ∗ reached ER (barCell (xp c)) 0 ∗ reached ER (barCell (yp c)) 0)
      ∗ bigSepL fin32list% (chunkRec m ρ K c)) := by
  iintro #H
  isplitr
  · unfold records
    icases H with ⟨#HI, #HR⟩
    isplitr; · iapply (inv_at m ρ K (c, none)); iexact HI
    isplitr; · iapply (inv_at m ρ K (xp c, none)); iexact HI
    isplitr; · iapply (inv_at m ρ K (yp c, none)); iexact HI
    isplitr; · iapply (reached_at (F := F) (xp c, none)); iexact HR
    iapply (reached_at (F := F) (yp c, none)); iexact HR
  · iapply (bigSepL_of_persistent (records m ρ K) (chunkRec m ρ K c) (fun k => by
      unfold records chunkRec
      iintro ⟨#HI, #HR⟩
      isplitr; · iapply (inv_at m ρ K (c, some (0, k))); iexact HI
      isplitr; · iapply (inv_at m ρ K (c, some (1, k))); iexact HI
      isplitr; · iapply (inv_at m ρ K (c, some (2, k))); iexact HI
      isplitr; · iapply (inv_at m ρ K (c, some (3, k))); iexact HI
      isplitr; · iapply (inv_at m ρ K (xp c, some (1, k))); iexact HI
      isplitr; · iapply (inv_at m ρ K (yp c, some (3, k))); iexact HI
      isplitr; · iapply (reached_at (F := F) (c, some (0, k))); iexact HR
      isplitr; · iapply (reached_at (F := F) (c, some (2, k))); iexact HR
      isplitr; · iapply (reached_at (F := F) (xp c, some (1, k))); iexact HR
      iapply (reached_at (F := F) (yp c, some (3, k))); iexact HR) fin32list%)
    iexact H

/-! ## The body -/

/-! ## A row block's credit -/

/-- The credit of a block of 32 rows is 2048 wherever the block starts: it is the credit of the block at row 0. -/
theorem dmaCredit_rows (off : Fin 2 → ℕ) (h : ∀ a, off a + S32x512.size a ≤ S2048x512.size a)
    (hr : ∀ a, (Rect.unit (s := S2048x512) off S32x512.size h).stride a = 1) :
    ((Memref.whole cc0_stg0_0 : Memref sig .tc .vmem S2048x512 .f32).slice (Rect.unit (s := S2048x512) off S32x512.size h) hr).view.dmaCredit = 2048 :=
  (show _ = ((Memref.whole cc0_stg0_0 : Memref sig .tc .vmem S2048x512 .f32).slice
      (Rect.unit (s := S2048x512) (fun _ => 0) S32x512.size (by decide)) (fun _ => rfl)).view.dmaCredit from rfl).trans (by decide)

/-- The same through the view. -/
theorem dmaCredit_rows_view (off : Fin 2 → ℕ) (h : ∀ a, off a + (![32, 512] : Fin 2 → ℕ) a ≤ S2048x512.size a) :
    ((View.whole cc0_stg0_0 : View sig .tc _ _ _).slice (Rect.unit (s := S2048x512) off ![32, 512] h)).dmaCredit = 2048 :=
  dmaCredit_rows off h (fun _ => rfl)

/-! ## The levels' word at the numeral credit -/

theorem above_xr' (c : Dev nD) (k : Fin 32) : Above 1 (tallyAt (xrCell c k) () 2048) := Nc_eq ▸ above_xr c k
theorem above_yr1' (c : Dev nD) (k : Fin 32) : Above 1 (tallyAt (yrCell c k) () 2048) := Nc_eq ▸ above_yr1 c k
theorem above_yr2' (c : Dev nD) (k : Fin 32) : Above 2 (tallyAt (yrCell c k) () 2048) := Nc_eq ▸ above_yr2 c k

/-- Closes `Above n O` for a sum of receive credits. -/
syntax "above_num" : tactic
macro_rules
  | `(tactic| above_num) => `(tactic| first
      | (with_reducible refine above_add ?_ ?_) <;> above_num
      | with_reducible exact above_xr' _ _ | with_reducible exact above_yr1' _ _ | with_reducible exact above_yr2' _ _
      | exact above_zero _)

/-- A landing buffer held whole, cut into its 32 chunks (a list). -/
theorem a_cut (d : Dev nD) (f : Buf (Elt F) (aM.view.loc (d : Thread nD τ))) :
    (aM.view.loc (d : Thread nD τ) ↦[aM.view.set]{fullShare} f : sProp 𝕄)
      ⊢ bigSepL fin32list% fun k : Fin 32 => ((chunkOf aM k).view.loc (d : Thread nD τ) ↦[(chunkOf aM k).view.set]{fullShare} f) := by
  have h := (aWhole_chunks (F := F) d f).1
  unfold aWhole aChunk at h; rw [bigSep_fin32] at h; exact h
theorem b_cut (d : Dev nD) (f : Buf (Elt F) (bM.view.loc (d : Thread nD τ))) :
    (bM.view.loc (d : Thread nD τ) ↦[bM.view.set]{fullShare} f : sProp 𝕄)
      ⊢ bigSepL fin32list% fun k : Fin 32 => ((chunkOf bM k).view.loc (d : Thread nD τ) ↦[(chunkOf bM k).view.set]{fullShare} f) := by
  have h := (bWhole_chunks (F := F) d f).1
  unfold bWhole bChunk at h; rw [bigSep_fin32] at h; exact h

section Body
variable (K : Dev nD × CIx → ℕ)

set_option sl_exec.foldHeartbeats 2 in
set_option sl_exec.dischHeartbeats 100000 in
set_option maxHeartbeats 4000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  unfold bodyPre ghost linear payToks creds aWhole bWhole
  rw [bigSep_fin32, bigSep_fin32]
  iintro ⟨⟨⟨⟨#Hrec, Hat, HtBX, HtBY, Htok⟩, ⟨HcB, Hcr⟩, #Hlev, ⟨%fa, Ha⟩, ⟨%fb, Hb⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  -- the cells' records this device's steps name
  ihave Hro := (records_open m ρ K c) $$ []
  · iexact Hrec
  icases Hro with ⟨⟨#HIb, #HIbx, #HIby, #HRbx, #HRby⟩, Hrl⟩
  unfold chunkRec
  for_chunks "(ihave T := (Entails.of_eq (bigSepL_cons' _ _ _)) $$ Hrl; icases T with ⟨⟨#HIxsζ, #HIxrζ, #HIysζ, #HIyrζ, -, -, #HRxsζ, #HRysζ, -, -⟩, Hrl⟩)"
  -- the tokens and the launch credit, chunk by chunk
  for_chunks "(ihave T := (Entails.of_eq (bigSepL_cons' _ _ _)) $$ Htok; icases T with ⟨⟨Htxsζ, HtxrPζ, Htysζ, HtyrPζ⟩, Htok⟩)"
  for_chunks "(ihave T := (Entails.of_eq (bigSepL_cons' _ _ _)) $$ Hcr; icases T with ⟨⟨Hcxrζ, Hcyrζ⟩, Hcr⟩)"
  -- the positions in the own cells
  ihave T := (Entails.of_eq (atPos_chunks (F := F) c 0)) $$ Hat
  icases T with ⟨Hatb, Hatl⟩
  for_chunks "(ihave T := (Entails.of_eq (bigSepL_cons' _ _ _)) $$ Hatl; icases T with ⟨⟨Hatxsζ, Hatxrζ, Hatysζ, Hatyrζ⟩, Hatl⟩)"
  -- what the device owes, as the chain of its 66 summands
  unfold Dat.owesAt Pipeline.owesWithin
  icases Ho with ⟨%W, %hW, HO⟩
  rw [show (dats m ρ 0 c).owed t₀.castSucc = O₀ c from rfl]
  rw [O₀_rev]; unfold owedRev
  -- every chunk credit as the number it is; a leading zero, so that every payment leaves a sum and the last leaves 0
  rw [Nc_eq]
  rw [← zero_add (tallyAt (yrCell (yp c) 31) () 2048)]
  -- the levels' word for the waits that others pay
  have hmwb := mayWait_bar' (F := F) c
  have hmwx := mayWait_xr' (F := F) c
  -- the x staging buffer: the right half share stays whole for the loads; the left half is cut into the 32 lent row blocks and the rest
  ihave T := (xrows_cut (F := F) c (xstg m ρ c)).1 $$ Hx
  icases T with ⟨Hxr, Hxl, Hxrest⟩
  ihave Hxr := (Entails.of_eq (pts_whole (F := F) c cc0_stg0_0 fullShare.right (xstg m ρ c))) $$ Hxr
  ihave Hout := (Entails.of_eq (pts_whole (F := F) c cc0_stg1_0 fullShare g1)) $$ Hout
  ihave Hxl := (Entails.of_eq (bigSep_fin32 (F := F) _)) $$ Hxl
  for_chunks "(ihave T := (Entails.of_eq (bigSepL_cons' _ _ _)) $$ Hxl; icases T with ⟨Hxlζ, Hxl⟩)"
  sl_unfold [cc0_body]
  -- through the entry handshake (the run has no record of the partners' receive cells in its hands: it stops at a transfer)
  sl_exec (disch := first | simp only [sl_canon] | exact dmaCredit_rows_view _ _ | exact dmaCredit_rows _ _ _ | above_num)
  -- the two partners' landing buffers, each cut into its 32 chunks
  ihave T := (Entails.of_eq (sep_iprop (F := F) _ _)) $$ Hatb_pay1
  icases T with ⟨⟨%fpa, Hpa⟩, ⟨%fpb, Hpb⟩⟩
  ihave Hpa := (a_cut (F := F) (xp c) fpa) $$ Hpa
  ihave Hpb := (b_cut (F := F) (yp c) fpb) $$ Hpb
  for_chunks "(ihave T := (Entails.of_eq (bigSepL_cons' _ _ _)) $$ Hpa; icases T with ⟨Hpaζ, Hpa⟩)"
  for_chunks "(ihave T := (Entails.of_eq (bigSepL_cons' _ _ _)) $$ Hpb; icases T with ⟨Hpbζ, Hpb⟩)"
  -- the 32 transfers to the x-partner, each by the send rule, then on to the next
  for_chunks "(iapply (wp_xsend (F := F) m ρ K c ζ _ (by first | rfl | exact devξ_eq c) fpa _ _) $$ [Hxlζ Hpaζ HO Htxsζ HtxrPζ]; (· (isplitr; (· iexact Hrec); isplitl [Hxlζ]; (· iexact Hxlζ); isplitl [Hpaζ]; (· iexact Hpaζ); isplitl [HO]; (· iexact HO); isplitl [Htxsζ]; (· iexact Htxsζ); iexact HtxrPζ)); iintro ⟨Hcxsζ, HO⟩; ihave Hcxsζ := (Entails.of_eq (congrArg (fun n => (cred (tallyAt (xsCell c ζ) () n) : sProp 𝕄)) (dmaCredit_rows (k0_off1 c ψ#32) (k0_off1_inb c ζ) (fun _ => rfl)).symm)) $$ Hcxsζ; first | sl_exec (disch := first | simp only [sl_canon] | exact dmaCredit_rows_view _ _ | exact dmaCredit_rows _ _ _ | above_num) | skip)"
  -- the second loop: the landed chunk at what it holds, half its share lent to the forward, then loads and the store, then the next arrival
  for_chunks "(ihave T := (landing_x_own (F := F) m ρ c ζ _) $$ Hatxrζ_pay1; ihave T := (pts_halves (F := F) ((chunkOf aM ζ).view.loc (c : Thread nD τ)) (chunkOf aM ζ).view.set (xcommFull m ρ c)).1 $$ T; icases T with ⟨HaLζ, HaRζ⟩; iapply (wp_ysend (F := F) m ρ K c ζ _ (by first | rfl | exact devη_eq c) fpb _ _) $$ [HaLζ Hpbζ HO Htysζ HtyrPζ]; (· (isplitr; (· iexact Hrec); isplitl [HaLζ]; (· iexact HaLζ); isplitl [Hpbζ]; (· iexact Hpbζ); isplitl [HO]; (· iexact HO); isplitl [Htysζ]; (· iexact Htysζ); iexact HtyrPζ)); iintro ⟨Hcysζ, HO⟩; first | sl_exec (disch := first | simp only [sl_canon] | exact dmaCredit_rows_view _ _ | exact dmaCredit_rows _ _ _ | above_num) | skip)"
  -- the run is at the program's end. The pieces gathered into lists, last chunk first
  ihave LA := (listL_nil (F := F) (atL c))
  for_chunks_rev "(ihave LA := (at_cons (F := F) c (ζ : Fin 32) _) $$ Hatxsζ Hatxrζ Hatysζ Hatyrζ LA)"
  ihave La := (listL_nil (F := F) (aL m ρ c))
  for_chunks_rev "(ihave La := (a_cons (F := F) m ρ c (ζ : Fin 32) _) $$ Hatysζ_pay1 HaRζ La)"
  ihave Lb := (listL_nil (F := F) (bL m ρ c))
  for_chunks_rev "(ihave Lb := (b_cons (F := F) m ρ c (ζ : Fin 32) _ _) $$ Hatyrζ_pay1 Lb)"
  ihave Lx := (listL_nil (F := F) (xL m ρ c))
  for_chunks_rev "(ihave Lx := (x_cons (F := F) m ρ c (ζ : Fin 32) _) $$ Hatxsζ_pay1 Lx)"
  -- the 128 own cells close and the three buffers are whole again
  imod (tail_all (F := F) m ρ K c) $$ [LA La Lb Lx Hxr Hxrest] with ⟨HA, HB, HZ, HX⟩
  · isplitr; · iexact Hrec
    isplitl [LA]; · iexact LA
    isplitl [La]; · iexact La
    isplitl [Lb]; · iexact Lb
    isplitl [Lx]; · iexact Lx
    isplitl [Hxr]; · iexact Hxr
    iexact Hxrest
  first | sl_step | (rw [wp_ret]; imodintro)
  iapply Hk
  unfold bodyPost Φ₁ Dat.owesAt Pipeline.owesWithin
  rw [show (dats m ρ 0 c).owed t₀.succ = 0 from rfl]
  ihave Hout := (Entails.of_eq (pts_whole (F := F) c cc0_stg1_0 fullShare _).symm) $$ Hout
  isplitl [HA HB HZ]
  · isplitl [HA]; · iexact HA
    isplitl [HB]; · iexact HB
    iexact HZ
  isplitl [HO]
  · iexists _
    isplitr [HO]
    rotate_left
    · iexact HO
    · ipureintro; exact fun _ _ => Or.inl trivial
  isplitl [HX]
  · iexists _; isplitr; · (ipureintro; rfl)
    iexact HX
  -- the result: the 64 stores, read from the last back to the first, leave every row at its sum
  iexists _
  isplitr [Hout]
  rotate_left
  · iexact Hout
  · ipureintro
    refine rowsDone_done m ρ c _ ?_
    for_chunks_rev "(refine rowsDone_other_step' m ρ c (ζ : Fin 32) Hatyrζ_pay1_v _ ?_)"
    refine rowsDone_turn m ρ c _ ?_
    for_chunks_rev "(refine rowsDone_own_step m ρ c (ζ : Fin 32) _ ?_)"
    exact rowsDone_start m ρ c _

end Body

end Cert.KernelIdealProof

end
-- ==== Proof.Bits.DevTable.lean ====
import proofs.«900707_g7700000000000708_dist_ar_v7x_xyz2x2x4_x_m2048_n512_f32_1_alg».proof.Proof.Gen.Kernel
import proofs.«900707_g7700000000000708_dist_ar_v7x_xyz2x2x4_x_m2048_n512_f32_1_alg».proof.Proof.Mesh
import Idealize.ShloMosaic.Lib.Tactic

namespace Cert.KernelProof

open Cert.Kernel Cert.Kernel.Gen Cert.Mesh Idealize.ShloMosaic Idealize.ShloMosaic.Tactic

@[sl_canon] theorem dev1_eq (c : Dev nD) : (⟨k0_dev1 c, k0_dev1_lt c⟩ : Dev nD) = xp c := Fin.ext ((k0_dev1_eq c).trans (xp_val c).symm)
@[sl_canon] theorem dev3_eq (c : Dev nD) : (⟨k0_dev3 c, k0_dev3_lt c⟩ : Dev nD) = xp c := Fin.ext ((k0_dev3_eq c).trans (xp_val c).symm)
@[sl_canon] theorem dev4_eq (c : Dev nD) : (⟨k0_dev4 c, k0_dev4_lt c⟩ : Dev nD) = xp c := Fin.ext ((k0_dev4_eq c).trans (xp_val c).symm)
@[sl_canon] theorem dev5_eq (c : Dev nD) : (⟨k0_dev5 c, k0_dev5_lt c⟩ : Dev nD) = xp c := Fin.ext ((k0_dev5_eq c).trans (xp_val c).symm)
@[sl_canon] theorem dev6_eq (c : Dev nD) : (⟨k0_dev6 c, k0_dev6_lt c⟩ : Dev nD) = xp c := Fin.ext ((k0_dev6_eq c).trans (xp_val c).symm)
@[sl_canon] theorem dev7_eq (c : Dev nD) : (⟨k0_dev7 c, k0_dev7_lt c⟩ : Dev nD) = xp c := Fin.ext ((k0_dev7_eq c).trans (xp_val c).symm)
@[sl_canon] theorem dev8_eq (c : Dev nD) : (⟨k0_dev8 c, k0_dev8_lt c⟩ : Dev nD) = xp c := Fin.ext ((k0_dev8_eq c).trans (xp_val c).symm)
@[sl_canon] theorem dev9_eq (c : Dev nD) : (⟨k0_dev9 c, k0_dev9_lt c⟩ : Dev nD) = xp c := Fin.ext ((k0_dev9_eq c).trans (xp_val c).symm)
@[sl_canon] theorem dev10_eq (c : Dev nD) : (⟨k0_dev10 c, k0_dev10_lt c⟩ : Dev nD) = xp c := Fin.ext ((k0_dev10_eq c).trans (xp_val c).symm)
@[sl_canon] theorem dev11_eq (c : Dev nD) : (⟨k0_dev11 c, k0_dev11_lt c⟩ : Dev nD) = xp c := Fin.ext ((k0_dev11_eq c).trans (xp_val c).symm)
@[sl_canon] theorem dev12_eq (c : Dev nD) : (⟨k0_dev12 c, k0_dev12_lt c⟩ : Dev nD) = xp c := Fin.ext ((k0_dev12_eq c).trans (xp_val c).symm)
@[sl_canon] theorem dev13_eq (c : Dev nD) : (⟨k0_dev13 c, k0_dev13_lt c⟩ : Dev nD) = xp c := Fin.ext ((k0_dev13_eq c).trans (xp_val c).symm)
@[sl_canon] theorem dev14_eq (c : Dev nD) : (⟨k0_dev14 c, k0_dev14_lt c⟩ : Dev nD) = xp c := Fin.ext ((k0_dev14_eq c).trans (xp_val c).symm)
@[sl_canon] theorem dev15_eq (c : Dev nD) : (⟨k0_dev15 c, k0_dev15_lt c⟩ : Dev nD) = xp c := Fin.ext ((k0_dev15_eq c).trans (xp_val c).symm)
@[sl_canon] theorem dev16_eq (c : Dev nD) : (⟨k0_dev16 c, k0_dev16_lt c⟩ : Dev nD) = xp c := Fin.ext ((k0_dev16_eq c).trans (xp_val c).symm)
@[sl_canon] theorem dev17_eq (c : Dev nD) : (⟨k0_dev17 c, k0_dev17_lt c⟩ : Dev nD) = xp c := Fin.ext ((k0_dev17_eq c).trans (xp_val c).symm)
@[sl_canon] theorem dev18_eq (c : Dev nD) : (⟨k0_dev18 c, k0_dev18_lt c⟩ : Dev nD) = xp c := Fin.ext ((k0_dev18_eq c).trans (xp_val c).symm)
@[sl_canon] theorem dev19_eq (c : Dev nD) : (⟨k0_dev19 c, k0_dev19_lt c⟩ : Dev nD) = xp c := Fin.ext ((k0_dev19_eq c).trans (xp_val c).symm)
@[sl_canon] theorem dev20_eq (c : Dev nD) : (⟨k0_dev20 c, k0_dev20_lt c⟩ : Dev nD) = xp c := Fin.ext ((k0_dev20_eq c).trans (xp_val c).symm)
@[sl_canon] theorem dev21_eq (c : Dev nD) : (⟨k0_dev21 c, k0_dev21_lt c⟩ : Dev nD) = xp c := Fin.ext ((k0_dev21_eq c).trans (xp_val c).symm)
@[sl_canon] theorem dev22_eq (c : Dev nD) : (⟨k0_dev22 c, k0_dev22_lt c⟩ : Dev nD) = xp c := Fin.ext ((k0_dev22_eq c).trans (xp_val c).symm)
@[sl_canon] theorem dev23_eq (c : Dev nD) : (⟨k0_dev23 c, k0_dev23_lt c⟩ : Dev nD) = xp c := Fin.ext ((k0_dev23_eq c).trans (xp_val c).symm)
@[sl_canon] theorem dev24_eq (c : Dev nD) : (⟨k0_dev24 c, k0_dev24_lt c⟩ : Dev nD) = xp c := Fin.ext ((k0_dev24_eq c).trans (xp_val c).symm)
@[sl_canon] theorem dev25_eq (c : Dev nD) : (⟨k0_dev25 c, k0_dev25_lt c⟩ : Dev nD) = xp c := Fin.ext ((k0_dev25_eq c).trans (xp_val c).symm)
@[sl_canon] theorem dev26_eq (c : Dev nD) : (⟨k0_dev26 c, k0_dev26_lt c⟩ : Dev nD) = xp c := Fin.ext ((k0_dev26_eq c).trans (xp_val c).symm)
@[sl_canon] theorem dev27_eq (c : Dev nD) : (⟨k0_dev27 c, k0_dev27_lt c⟩ : Dev nD) = xp c := Fin.ext ((k0_dev27_eq c).trans (xp_val c).symm)
@[sl_canon] theorem dev28_eq (c : Dev nD) : (⟨k0_dev28 c, k0_dev28_lt c⟩ : Dev nD) = xp c := Fin.ext ((k0_dev28_eq c).trans (xp_val c).symm)
@[sl_canon] theorem dev29_eq (c : Dev nD) : (⟨k0_dev29 c, k0_dev29_lt c⟩ : Dev nD) = xp c := Fin.ext ((k0_dev29_eq c).trans (xp_val c).symm)
@[sl_canon] theorem dev30_eq (c : Dev nD) : (⟨k0_dev30 c, k0_dev30_lt c⟩ : Dev nD) = xp c := Fin.ext ((k0_dev30_eq c).trans (xp_val c).symm)
@[sl_canon] theorem dev31_eq (c : Dev nD) : (⟨k0_dev31 c, k0_dev31_lt c⟩ : Dev nD) = xp c := Fin.ext ((k0_dev31_eq c).trans (xp_val c).symm)
@[sl_canon] theorem dev32_eq (c : Dev nD) : (⟨k0_dev32 c, k0_dev32_lt c⟩ : Dev nD) = xp c := Fin.ext ((k0_dev32_eq c).trans (xp_val c).symm)
@[sl_canon] theorem dev33_eq (c : Dev nD) : (⟨k0_dev33 c, k0_dev33_lt c⟩ : Dev nD) = xp c := Fin.ext ((k0_dev33_eq c).trans (xp_val c).symm)
@[sl_canon] theorem dev34_eq (c : Dev nD) : (⟨k0_dev34 c, k0_dev34_lt c⟩ : Dev nD) = xp c := Fin.ext ((k0_dev34_eq c).trans (xp_val c).symm)
@[sl_canon] theorem dev2_eq (c : Dev nD) : (⟨k0_dev2 c, k0_dev2_lt c⟩ : Dev nD) = yp c := Fin.ext ((k0_dev2_eq c).trans (yp_val c).symm)
@[sl_canon] theorem dev35_eq (c : Dev nD) : (⟨k0_dev35 c, k0_dev35_lt c⟩ : Dev nD) = yp c := Fin.ext ((k0_dev35_eq c).trans (yp_val c).symm)
@[sl_canon] theorem dev36_eq (c : Dev nD) : (⟨k0_dev36 c, k0_dev36_lt c⟩ : Dev nD) = yp c := Fin.ext ((k0_dev36_eq c).trans (yp_val c).symm)
@[sl_canon] theorem dev37_eq (c : Dev nD) : (⟨k0_dev37 c, k0_dev37_lt c⟩ : Dev nD) = yp c := Fin.ext ((k0_dev37_eq c).trans (yp_val c).symm)
@[sl_canon] theorem dev38_eq (c : Dev nD) : (⟨k0_dev38 c, k0_dev38_lt c⟩ : Dev nD) = yp c := Fin.ext ((k0_dev38_eq c).trans (yp_val c).symm)
@[sl_canon] theorem dev39_eq (c : Dev nD) : (⟨k0_dev39 c, k0_dev39_lt c⟩ : Dev nD) = yp c := Fin.ext ((k0_dev39_eq c).trans (yp_val c).symm)
@[sl_canon] theorem dev40_eq (c : Dev nD) : (⟨k0_dev40 c, k0_dev40_lt c⟩ : Dev nD) = yp c := Fin.ext ((k0_dev40_eq c).trans (yp_val c).symm)
@[sl_canon] theorem dev41_eq (c : Dev nD) : (⟨k0_dev41 c, k0_dev41_lt c⟩ : Dev nD) = yp c := Fin.ext ((k0_dev41_eq c).trans (yp_val c).symm)
@[sl_canon] theorem dev42_eq (c : Dev nD) : (⟨k0_dev42 c, k0_dev42_lt c⟩ : Dev nD) = yp c := Fin.ext ((k0_dev42_eq c).trans (yp_val c).symm)
@[sl_canon] theorem dev43_eq (c : Dev nD) : (⟨k0_dev43 c, k0_dev43_lt c⟩ : Dev nD) = yp c := Fin.ext ((k0_dev43_eq c).trans (yp_val c).symm)
@[sl_canon] theorem dev44_eq (c : Dev nD) : (⟨k0_dev44 c, k0_dev44_lt c⟩ : Dev nD) = yp c := Fin.ext ((k0_dev44_eq c).trans (yp_val c).symm)
@[sl_canon] theorem dev45_eq (c : Dev nD) : (⟨k0_dev45 c, k0_dev45_lt c⟩ : Dev nD) = yp c := Fin.ext ((k0_dev45_eq c).trans (yp_val c).symm)
@[sl_canon] theorem dev46_eq (c : Dev nD) : (⟨k0_dev46 c, k0_dev46_lt c⟩ : Dev nD) = yp c := Fin.ext ((k0_dev46_eq c).trans (yp_val c).symm)
@[sl_canon] theorem dev47_eq (c : Dev nD) : (⟨k0_dev47 c, k0_dev47_lt c⟩ : Dev nD) = yp c := Fin.ext ((k0_dev47_eq c).trans (yp_val c).symm)
@[sl_canon] theorem dev48_eq (c : Dev nD) : (⟨k0_dev48 c, k0_dev48_lt c⟩ : Dev nD) = yp c := Fin.ext ((k0_dev48_eq c).trans (yp_val c).symm)
@[sl_canon] theorem dev49_eq (c : Dev nD) : (⟨k0_dev49 c, k0_dev49_lt c⟩ : Dev nD) = yp c := Fin.ext ((k0_dev49_eq c).trans (yp_val c).symm)
@[sl_canon] theorem dev50_eq (c : Dev nD) : (⟨k0_dev50 c, k0_dev50_lt c⟩ : Dev nD) = yp c := Fin.ext ((k0_dev50_eq c).trans (yp_val c).symm)
@[sl_canon] theorem dev51_eq (c : Dev nD) : (⟨k0_dev51 c, k0_dev51_lt c⟩ : Dev nD) = yp c := Fin.ext ((k0_dev51_eq c).trans (yp_val c).symm)
@[sl_canon] theorem dev52_eq (c : Dev nD) : (⟨k0_dev52 c, k0_dev52_lt c⟩ : Dev nD) = yp c := Fin.ext ((k0_dev52_eq c).trans (yp_val c).symm)
@[sl_canon] theorem dev53_eq (c : Dev nD) : (⟨k0_dev53 c, k0_dev53_lt c⟩ : Dev nD) = yp c := Fin.ext ((k0_dev53_eq c).trans (yp_val c).symm)
@[sl_canon] theorem dev54_eq (c : Dev nD) : (⟨k0_dev54 c, k0_dev54_lt c⟩ : Dev nD) = yp c := Fin.ext ((k0_dev54_eq c).trans (yp_val c).symm)
@[sl_canon] theorem dev55_eq (c : Dev nD) : (⟨k0_dev55 c, k0_dev55_lt c⟩ : Dev nD) = yp c := Fin.ext ((k0_dev55_eq c).trans (yp_val c).symm)
@[sl_canon] theorem dev56_eq (c : Dev nD) : (⟨k0_dev56 c, k0_dev56_lt c⟩ : Dev nD) = yp c := Fin.ext ((k0_dev56_eq c).trans (yp_val c).symm)
@[sl_canon] theorem dev57_eq (c : Dev nD) : (⟨k0_dev57 c, k0_dev57_lt c⟩ : Dev nD) = yp c := Fin.ext ((k0_dev57_eq c).trans (yp_val c).symm)
@[sl_canon] theorem dev58_eq (c : Dev nD) : (⟨k0_dev58 c, k0_dev58_lt c⟩ : Dev nD) = yp c := Fin.ext ((k0_dev58_eq c).trans (yp_val c).symm)
@[sl_canon] theorem dev59_eq (c : Dev nD) : (⟨k0_dev59 c, k0_dev59_lt c⟩ : Dev nD) = yp c := Fin.ext ((k0_dev59_eq c).trans (yp_val c).symm)
@[sl_canon] theorem dev60_eq (c : Dev nD) : (⟨k0_dev60 c, k0_dev60_lt c⟩ : Dev nD) = yp c := Fin.ext ((k0_dev60_eq c).trans (yp_val c).symm)
@[sl_canon] theorem dev61_eq (c : Dev nD) : (⟨k0_dev61 c, k0_dev61_lt c⟩ : Dev nD) = yp c := Fin.ext ((k0_dev61_eq c).trans (yp_val c).symm)
@[sl_canon] theorem dev62_eq (c : Dev nD) : (⟨k0_dev62 c, k0_dev62_lt c⟩ : Dev nD) = yp c := Fin.ext ((k0_dev62_eq c).trans (yp_val c).symm)
@[sl_canon] theorem dev63_eq (c : Dev nD) : (⟨k0_dev63 c, k0_dev63_lt c⟩ : Dev nD) = yp c := Fin.ext ((k0_dev63_eq c).trans (yp_val c).symm)
@[sl_canon] theorem dev64_eq (c : Dev nD) : (⟨k0_dev64 c, k0_dev64_lt c⟩ : Dev nD) = yp c := Fin.ext ((k0_dev64_eq c).trans (yp_val c).symm)
@[sl_canon] theorem dev65_eq (c : Dev nD) : (⟨k0_dev65 c, k0_dev65_lt c⟩ : Dev nD) = yp c := Fin.ext ((k0_dev65_eq c).trans (yp_val c).symm)
@[sl_canon] theorem dev66_eq (c : Dev nD) : (⟨k0_dev66 c, k0_dev66_lt c⟩ : Dev nD) = yp c := Fin.ext ((k0_dev66_eq c).trans (yp_val c).symm)

end Cert.KernelProof
-- ==== Proof.Bits.Proto.lean ====
/-
  The protocol of the two-step all-reduce, as the rounds discipline sees it.

  Device c at mesh coordinates (x, y, z) holds block x of the input (2048 rows). Its x-partner xp c holds the OTHER
  block, its y-partner yp c the same block. In 32 chunks of 32 rows: it sends the rows of its y-th half to the
  x-partner's first landing buffer, sums what lands in its own with its rows (the y-th half of the result), forwards
  each landed chunk to the y-partner's second landing buffer, and sums what lands in its own second buffer with the
  rows of the other half. Before any transfer the two partners are signalled and two units awaited on the entry
  semaphore: both devices a device writes into have then entered.

  Cells of device c: the entry cell (two duties of one unit: false paid by xp c, true paid by yp c) and, per chunk k,
  four transfer cells of one duty each: x-send, x-receive, y-send, y-receive. One round.
  What a duty hands the cell's owner:
    entry, false : the x-partner's first landing buffer, whole, at any contents;
    entry, true  : the y-partner's second landing buffer, whole, at any contents;
    x-receive k  : chunk k of the own first landing buffer, at some contents overwritten by rows (1024·y + 32·k ..+32) of the
                   x-partner's block;
    y-receive k  : chunk k of the own second landing buffer, at some contents overwritten by what the y-partner's first buffer
                   holds there, that is rows (1024·(1-y) + 32·k ..+32) of the other block;
    x-send k     : the lent half share of the rows sent; y-send k : the lent half share of the forwarded chunk.
-/
import proofs.«900707_g7700000000000708_dist_ar_v7x_xyz2x2x4_x_m2048_n512_f32_1_alg».proof.Proof.Gen.Kernel
import proofs.«900707_g7700000000000708_dist_ar_v7x_xyz2x2x4_x_m2048_n512_f32_1_alg».proof.Proof.Gen.Kernel.Launch
import proofs.«900707_g7700000000000708_dist_ar_v7x_xyz2x2x4_x_m2048_n512_f32_1_alg».proof.Proof.Mesh
import proofs.«900707_g7700000000000708_dist_ar_v7x_xyz2x2x4_x_m2048_n512_f32_1_alg».proof.Proof.Bits.DevTable
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

/-! ## The resource algebra: the pipeline library's copy and the protocol's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The partners: every device id the body computes is one of the two -/

-- (the table of the 66 printed device chains is its own module)

/-! ## Buffers, chunks and cells -/

abbrev xM : Memref sig .tc .vmem S2048x512 .f32 := Memref.whole cc0_stg0_0
abbrev oM : Memref sig .tc .vmem S2048x512 .f32 := Memref.whole cc0_stg1_0
abbrev aM : Memref sig .tc .vmem S32x32x512 .f32 := Memref.whole cc0_scratch0
abbrev bM : Memref sig .tc .vmem S32x32x512 .f32 := Memref.whole cc0_scratch1

theorem inbS (k : Fin 32) : ∀ a, (![k.val] : Fin 1 → Nat) a + S1.size a ≤ S32.size a := by
  intro a; have := k.isLt; fin_cases a; show k.val + 1 ≤ 32; omega
theorem inbA (k : Fin 32) : ∀ a, (![k.val, 0, 0] : Fin 3 → Nat) a + S1x32x512.size a ≤ S32x32x512.size a := by
  intro a; have := k.isLt; fin_cases a
  · show k.val + 1 ≤ 32; omega
  · show 0 + 32 ≤ 32; omega
  · show 0 + 512 ≤ 512; omega

/-- Semaphore k of a 32-semaphore array, as the body spells it. -/
abbrev semAt (A : DmaSems sig S32) (k : Fin 32) : DmaSem sig :=
  ((A.slice (Rect.unit (s := S32) ![k.val] S1.size (inbS k))).squeeze S_ squeezes_S1_S_).sem
/-- Chunk k of a landing buffer, as the body spells it. -/
abbrev chunkOf (M : Memref sig .tc .vmem S32x32x512 .f32) (k : Fin 32) : Memref sig .tc .vmem S32x512 .f32 :=
  (M.slice (Rect.unit (s := S32x32x512) ![k.val, 0, 0] S1x32x512.size (inbA k)) (fun _ => rfl)).squeeze S32x512 squeezes_S1x32x512_S32x512
/-- The 32 rows the x-transfer of chunk k reads on device c, as the body spells them. -/
abbrev rowsX (c : Dev nD) (k : Fin 32) : Memref sig .tc .vmem S32x512 .f32 :=
  xM.slice (Rect.unit (s := S2048x512) (k0_off1 c (BitVec.ofNat 32 (32 * k.val))) S32x512.size (k0_off1_inb c k)) (fun _ => rfl)

abbrev barS : Sem sig := (SemArray.scalar (sig.barrier 0 rfl) : Sems sig S_).sem

/-- The four semaphore arrays: x-send, x-receive, y-send, y-receive. -/
abbrev semArr : Fin 4 → DmaSems sig S32 := fun | 0 => cc0_scratch2 | 1 => cc0_scratch3 | 2 => cc0_scratch4 | 3 => cc0_scratch5

/-- A device's cells: none is the entry cell, some (j, k) the k-th semaphore of array j. -/
abbrev CIx : Type := Option (Fin 4 × Fin 32)
abbrev csem : CIx → SemLoc sig := fun | none => .reg barS | some (j, k) => .dma (semAt (semArr j) k)
abbrev kcell (ck : Dev nD × CIx) : GSem nD τ sig := ((ck.1 : Thread nD τ), csem ck.2)

abbrev barCell (c : Dev nD) : GSem nD τ sig := kcell (c, none)
abbrev xsCell (c : Dev nD) (k : Fin 32) : GSem nD τ sig := kcell (c, some (0, k))
abbrev xrCell (c : Dev nD) (k : Fin 32) : GSem nD τ sig := kcell (c, some (1, k))
abbrev ysCell (c : Dev nD) (k : Fin 32) : GSem nD τ sig := kcell (c, some (2, k))
abbrev yrCell (c : Dev nD) (k : Fin 32) : GSem nD τ sig := kcell (c, some (3, k))

theorem csem_injective : Function.Injective csem := by decide

/-- Which cell a semaphore is, if any. -/
def cellIx (s : SemLoc sig) : Option CIx := if h : ∃ q, csem q = s then some h.choose else none
theorem cellIx_csem (q : CIx) : cellIx (csem q) = some q := by
  unfold cellIx
  have h : ∃ q', csem q' = csem q := ⟨q, rfl⟩
  rw [dif_pos h]; exact congrArg some (csem_injective h.choose_spec)

/-- A chunk transfer's credit. -/
abbrev Nc : ℕ := (chunkOf aM 0).view.dmaCredit
theorem Nc_pos : 0 < Nc := View.dmaCredit_pos _ (by decide)

/-! ## Contents -/

/-- The device's block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Row (1024·h + 32·k + r), column j of a [2048, 512] array, for h < 2. -/
def rowIx (h : ℕ) (hh : h < 2) (i : S32x32x512.Idx) : S2048x512.Idx :=
  ValueIdx.ix2 (⟨1024 * h + 32 * (i 0).val + (i 1).val, by have h0 : (i 0).val < 32 := (i 0).isLt; have h1 : (i 1).val < 32 := (i 1).isLt; show _ < 2048; omega⟩ : Fin 2048) (⟨(i 2).val, (i 2).isLt⟩ : Fin 512)

/-- What device d's first landing buffer holds once all 32 chunks have landed: rows of its y-th half of the x-partner's block. -/
def xcommFull (d : Dev nD) : (cc0_scratch0 : Ref sig .tc).ty.Contents (Elt F) :=
  fun i => xstg m ρ (xp d) (rowIx (yc d) (yc_lt d) i)
/-- What device d's second landing buffer holds once all have landed: the y-partner's first landing buffer. -/
def ycommFull (d : Dev nD) : (cc0_scratch1 : Ref sig .tc).ty.Contents (Elt F) :=
  fun i => xstg m ρ (xp (yp d)) (rowIx (yc (yp d)) (yc_lt (yp d)) i)

abbrev half : PosShare TreeShare := fullShare.left

/-- Buffers through their views. -/
def aWhole (c : Dev nD) (f : Buf (Elt F) (aM.view.loc (c : Thread nD τ))) : sProp 𝕄 :=
  aM.view.loc (c : Thread nD τ) ↦[aM.view.set]{fullShare} f
def bWhole (c : Dev nD) (f : Buf (Elt F) (bM.view.loc (c : Thread nD τ))) : sProp 𝕄 :=
  bM.view.loc (c : Thread nD τ) ↦[bM.view.set]{fullShare} f
def aChunk (c : Dev nD) (k : Fin 32) (q : PosShare TreeShare) (f : Buf (Elt F) ((chunkOf aM k).view.loc (c : Thread nD τ))) : sProp 𝕄 :=
  (chunkOf aM k).view.loc (c : Thread nD τ) ↦[(chunkOf aM k).view.set]{q} f
def bChunk (c : Dev nD) (k : Fin 32) (q : PosShare TreeShare) (f : Buf (Elt F) ((chunkOf bM k).view.loc (c : Thread nD τ))) : sProp 𝕄 :=
  (chunkOf bM k).view.loc (c : Thread nD τ) ↦[(chunkOf bM k).view.set]{q} f
def xRows (c : Dev nD) (k : Fin 32) (q : PosShare TreeShare) : sProp 𝕄 :=
  (rowsX c k).view.loc (c : Thread nD τ) ↦[(rowsX c k).view.set]{q} xstg m ρ c

/-! ## The schedule -/

def barPay (g : Dev nD) (d : Bool) : sProp 𝕄 :=
  if d then iprop(∃ f, bWhole (yp g) f) else iprop(∃ f, aWhole (xp g) f)

def xferPay (g : Dev nD) (j : Fin 4) (k : Fin 32) : sProp 𝕄 :=
  match j with
  | 0 => xRows m ρ g k half
  | 1 => iprop(∃ fd : Buf (Elt F) ((chunkOf aM k).view.loc (g : Thread nD τ)),
      (chunkOf aM k).view.loc (g : Thread nD τ) ↦[(chunkOf aM k).view.set]{fullShare}
        (chunkOf aM k).view.write (Elt F) fd ((rowsX (xp g) k).view.read (Elt F) (xstg m ρ (xp g))) Finset.univ)
  | 2 => aChunk g k half (xcommFull m ρ g)
  | 3 => iprop(∃ fd : Buf (Elt F) ((chunkOf bM k).view.loc (g : Thread nD τ)),
      (chunkOf bM k).view.loc (g : Thread nD τ) ↦[(chunkOf bM k).view.set]{fullShare}
        (chunkOf bM k).view.write (Elt F) fd ((chunkOf aM k).view.read (Elt F) (xcommFull m ρ (yp g))) Finset.univ)

/-- One round. An entry cell has the two duties of one unit each; a transfer cell the duty false of a chunk's credit. -/
def sched : Rounds.Schedule (GSem nD τ sig) Bool 𝕄 where
  duties g r := if r = 0 ∧ g.1.2 = .tc then (match cellIx g.2 with | some none => Finset.univ | some (some _) => {false} | none => ∅) else ∅
  unitless _ := False
  amount g _ _ := if g.2 = .reg barS then 1 else Nc
  payload g _ d := match cellIx g.2 with
    | some none => barPay g.1.1 d
    | some (some (j, k)) => xferPay m ρ g.1.1 j k
    | none => iprop(emp)
  amount_pos g _ _ _ := by
    by_cases h : g.2 = .reg barS
    · rw [if_pos h]; exact Nat.one_pos
    · rw [if_neg h]; exact Nc_pos

section Tables
variable (c : Dev nD) (j : Fin 4) (k : Fin 32)

omit [FloatOps F] in
theorem duties_bar : (sched (F := F) m ρ).duties (barCell c) 0 = Finset.univ := by
  dsimp only [sched]; rw [if_pos ⟨rfl, rfl⟩, cellIx_csem]
omit [FloatOps F] in
theorem duties_xfer : (sched (F := F) m ρ).duties (kcell (c, some (j, k))) 0 = {false} := by
  dsimp only [sched]; rw [if_pos ⟨rfl, rfl⟩, cellIx_csem]
omit [FloatOps F] in
theorem duties_later (g : GSem nD τ sig) : ∀ r, 1 ≤ r → (sched (F := F) m ρ).duties g r = ∅ :=
  fun r hr => by dsimp only [sched]; rw [if_neg fun h => by omega]
omit [FloatOps F] in
theorem amount_bar (d : Bool) : (sched (F := F) m ρ).amount (barCell c) 0 d = 1 := by dsimp only [sched]; exact if_pos rfl
omit [FloatOps F] in
theorem amount_xfer (d : Bool) : (sched (F := F) m ρ).amount (kcell (c, some (j, k))) 0 d = Nc := by
  dsimp only [sched]; exact if_neg (fun h => by cases h)
omit [FloatOps F] in
theorem payload_bar (d : Bool) : (sched (F := F) m ρ).payload (barCell c) 0 d = barPay c d := by
  dsimp only [sched]; rw [cellIx_csem]
omit [FloatOps F] in
theorem payload_xfer (d : Bool) : (sched (F := F) m ρ).payload (kcell (c, some (j, k))) 0 d = xferPay m ρ c j k := by
  dsimp only [sched]; rw [cellIx_csem]
omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_xfer : (sched (F := F) m ρ).expect (kcell (c, some (j, k))) 0 = Nc := by
  unfold Schedule.expect Schedule.amountOf; rw [duties_xfer, Finset.sum_singleton, amount_xfer]

end Tables

/-! ## What each device owes at launch; the levels -/

/-- The chunk credits device c owes: per chunk, the x-partner's x-receive cell and the y-partner's y-receive cell. -/
def owedXfer (c : Dev nD) : CellTallies nD τ sig Unit :=
  ∑ k : Fin 32, (tallyAt (xrCell (xp c) k) () Nc + tallyAt (yrCell (yp c) k) () Nc)
/-- Beside them one unit to each partner's entry cell, summed so that the first signal (to the x-partner) peels the last summand. -/
def O₁ (c : Dev nD) : CellTallies nD τ sig Unit := owedXfer c + tallyAt (barCell (yp c)) () 1
def O₀ (c : Dev nD) : CellTallies nD τ sig Unit := O₁ c + tallyAt (barCell (xp c)) () 1

def L (g : GSem nD τ sig) : Finset Unit := if g.1.2 = .tc then {()} else ∅
/-- Entry cells at 1, x-receive cells at 2, y-receive cells at 3, everything else (staging, send) at 0: every wait is strictly below
    everything the waiter still owes (the entry wait owes receive credits; an x-receive wait owes y-receive credits only). -/
def lv (g : GSem nD τ sig) (_ : Unit) : ℕ :=
  match cellIx g.2 with
  | some none => 1
  | some (some (j, _)) => if j = 1 then 2 else if j = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from, and the pipeline's proof data -/

/-- Every cell's invariant under the names the launch allocated, and that every cell has reached round 0: persistent, dealt to all. -/
def records (K : Dev nD × CIx → ℕ) : sProp 𝕄 :=
  iprop((bigSep Finset.univ fun ck : Dev nD × CIx => cellInv ER (sched m ρ) (K ck) (kcell ck))
    ∗ bigSep Finset.univ fun ck : Dev nD × CIx => reached ER (kcell ck) 0)

instance records_persistent (K : Dev nD × CIx → ℕ) : BI.Persistent (records m ρ K) := by unfold records; infer_instance

/-- The tokens of the duties device c pays: the partners' entry duties, and per chunk the two ends of its two transfers. -/
def payToks (c : Dev nD) : sProp 𝕄 :=
  iprop(dutyTok ER (barCell (xp c)) 0 false ∗ dutyTok ER (barCell (yp c)) 0 true
    ∗ bigSep Finset.univ fun k : Fin 32 =>
        iprop(dutyTok ER (xsCell c k) 0 false ∗ dutyTok ER (xrCell (xp c) k) 0 false ∗ dutyTok ER (ysCell c k) 0 false ∗ dutyTok ER (yrCell (yp c) k) 0 false))
/-- What stays with device c: its positions in its own cells, and those tokens. -/
def linear (c : Dev nD) : sProp 𝕄 :=
  iprop((bigSep Finset.univ fun q : CIx => atPos ER (kcell (c, q)) 0 ∅ 0) ∗ payToks c)

def ghost (K : Dev nD × CIx → ℕ) (c : Dev nD) : sProp 𝕄 := iprop(records m ρ K ∗ linear c)

/-- The launch credit of the cells other devices pay: the entry cell's two units, each receive cell's chunk credit. -/
def creds (c : Dev nD) : sProp 𝕄 :=
  iprop(cred (tallyAt (barCell c) () 2) ∗ bigSep Finset.univ fun k : Fin 32 => iprop(cred (tallyAt (xrCell c k) () Nc) ∗ cred (tallyAt (yrCell c k) () Nc)))

/-- What a device's body starts from, beside its buffers. -/
def start (c : Dev nD) : sProp 𝕄 := iprop((∃ K, ghost m ρ K c) ∗ creds c ∗ levAts L lv)

def Φ₀ (c : Dev nD) : sProp 𝕄 := iprop(start m ρ c ∗ (∃ f, aWhole c f) ∗ (∃ f, bWhole c f))
/-- After the point: both landing buffers whole again, the 128 own transfer cells closed at zero. -/
def Φ₁ (c : Dev nD) : sProp 𝕄 :=
  iprop((∃ f, aWhole c f) ∗ (∃ f, bWhole c f) ∗ bigSep Finset.univ fun jk : Fin 4 × Fin 32 => semVal (kcell (c, some jk)) 0)

/-- The other block's rows as they reach device c: its own half's through the x-partner, the other half's through the
    y-partner's x-partner. -/
def otherRows (c : Dev nD) : (cc0_stg1_0 : Ref sig .tc).ty.Contents (Elt F) :=
  fun i => if (i 0).val / 1024 = yc c then xstg m ρ (xp c) i else xstg m ρ (xp (yp c)) i
/-- The kernel's result on device c: its block plus the other block's rows, row by row. -/
def outAt (c : Dev nD) : (cc0_stg1_0 : Ref sig .tc).ty.Contents (Elt F) := addf (xstg m ρ c) (otherRows m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- What the launch's global step hands device c: the ghost state at some names. -/
def G' (c : Dev nD) : sProp 𝕄 := iprop(∃ K, ghost m ρ K c)

/-- The kernel's own (scoped) semaphores as the launch theorem indexes them: the four arrays of 32, in order. -/
abbrev osem : Fin 128 → SemLoc sig := fun i =>
  .dma (semAt (semArr ⟨i.val / 32, by have := i.isLt; omega⟩) ⟨i.val % 32, Nat.mod_lt _ (by decide)⟩)

end Cert.KernelProof

end
-- ==== Proof.Bits.Launch.lean ====
/-
  The launch of the two-step all-reduce: the side conditions of the launch theorem for cores that owe units at launch
  and handshake on an unscoped entry semaphore, and its application with the body obligation and the two ghost-state
  steps as hypotheses.

  The credit. Device d owes, per chunk, the x-receive cell of xp d and the y-receive cell of yp d one chunk's credit, and
  the entry cells of yp d and xp d one unit each. xp and yp being involutions, the units owed to device c's cells, summed
  over the devices, are: two on its entry cell (one from each partner), one chunk's credit on each of its 64 receive cells.

  The levels. Entry cells at 1, x-receive cells at 2, y-receive cells at 3, every other semaphore at 0. Everything owed at
  launch is owed to a cell at level 1 or above, so a wait on a staging semaphore (level 0) is below all of it; the body's
  own waits present the level of the cell waited on and that what is still owed lies strictly above.

  The ends. The launch hands the two landing buffers whole at arbitrary contents; the last invariant returns them and the
  128 own semaphores at zero, indexed by (array, chunk) in the proof and by 32·array + chunk in the launch theorem.
-/
import proofs.«900707_g7700000000000708_dist_ar_v7x_xyz2x2x4_x_m2048_n512_f32_1_alg».proof.Proof.Bits.Proto

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The layout facts the launch asks of the semaphores and shares -/

theorem ownSemFacts : Pipeline.OwnSemFacts cfg0.spec osem := by decide

theorem share_eq (c : Dev nD) (w : Fin cfg0.W) : (dats m ρ 0 c).share w = fullShare := by unfold Dat.share; split <;> rfl

/-! ## The levels -/

omit [FloatOps F] in
theorem lv_bar (c : Dev nD) : lv (barCell c) () = 1 := by dsimp only [lv]; rw [cellIx_csem]
omit [FloatOps F] in
theorem lv_xr (c : Dev nD) (k : Fin 32) : lv (xrCell c k) () = 2 := by dsimp only [lv]; rw [cellIx_csem]; rfl
omit [FloatOps F] in
theorem lv_yr (c : Dev nD) (k : Fin 32) : lv (yrCell c k) () = 3 := by dsimp only [lv]; rw [cellIx_csem]; rfl
omit [FloatOps F] in
theorem lv_xs (c : Dev nD) (k : Fin 32) : lv (xsCell c k) () = 0 := by dsimp only [lv]; rw [cellIx_csem]; rfl
omit [FloatOps F] in
theorem lv_ys (c : Dev nD) (k : Fin 32) : lv (ysCell c k) () = 0 := by dsimp only [lv]; rw [cellIx_csem]; rfl
/-- A semaphore that is no cell of the protocol sits at level 0. -/
theorem lv_none (c : Dev nD) (s : SemLoc sig) (h : cellIx s = none) : lv ((c : Thread nD τ), s) () = 0 := by dsimp only [lv]; rw [h]

/-- A semaphore no cell index names is no cell. -/
theorem cellIx_none_of {s : SemLoc sig} (h : ∀ q, csem q ≠ s) : cellIx s = none := by
  unfold cellIx; rw [dif_neg (fun ⟨q, hq⟩ => h q hq)]

/-- Where a device owes at launch: the partners' receive cells, chunk by chunk, and the partners' entry cells. -/
theorem O₀_pos {c : Dev nD} {g : GSem nD τ sig} {u : Unit} (h : 0 < O₀ c g u) :
    (∃ k, g = xrCell (xp c) k) ∨ (∃ k, g = yrCell (yp c) k) ∨ g = barCell (yp c) ∨ g = barCell (xp c) := by
  unfold O₀ O₁ owedXfer at h
  rcases Pipeline.add_pos_cases h with h | h
  · rcases Pipeline.add_pos_cases h with h | h
    · obtain ⟨k, -, hk⟩ := Pipeline.sum_pos_exists h
      rcases Pipeline.add_pos_cases hk with hk | hk
      · exact .inl ⟨k, (Pipeline.tallyAt_pos hk).1⟩
      · exact .inr (.inl ⟨k, (Pipeline.tallyAt_pos hk).1⟩)
    · exact .inr (.inr (.inl (Pipeline.tallyAt_pos h).1))
  · exact .inr (.inr (.inr (Pipeline.tallyAt_pos h).1))

/-- Everything owed at launch is owed to a TensorCore's cell at level 1 or above. -/
theorem O₀_above {c : Dev nD} {g : GSem nD τ sig} {u : Unit} (h : 0 < O₀ c g u) : g.1.2 = .tc ∧ 0 < lv g u := by
  rcases O₀_pos h with ⟨k, rfl⟩ | ⟨k, rfl⟩ | rfl | rfl
  · exact ⟨rfl, by rw [lv_xr]; decide⟩
  · exact ⟨rfl, by rw [lv_yr]; decide⟩
  · exact ⟨rfl, by rw [lv_bar]; decide⟩
  · exact ⟨rfl, by rw [lv_bar]; decide⟩

omit [FloatOps F] in
/-- A wait on a cell at level n, everything owed being owed to TensorCore cells strictly above n. -/
theorem mayWait_of_above (c : Dev nD) (s : SemLoc sig) (n : ℕ) (hs : lv ((c : Thread nD τ), s) () = n)
    (O : CellTallies nD τ sig Unit) (hO : ∀ g u, 0 < O g u → g.1.2 = .tc ∧ n < lv g u) :
    (levAts L lv : sProp 𝕄) ⊢ MayWait (c : Thread nD τ) s () O :=
  Pipeline.mayWait_of_levAts (by rw [L_tc]; exact Finset.mem_singleton_self _) fun g u hg =>
    ⟨by unfold L; rw [if_pos (hO g u hg).1]; exact Finset.mem_singleton.mpr (Subsingleton.elim _ _), by rw [hs]; exact (hO g u hg).2⟩

omit [FloatOps F] in
/-- A staging semaphore is no cell of the protocol: it sits at level 0, below everything owed at launch. -/
theorem mayWait_stage (c : Dev nD) (q : DmaSem sig) (hq : cellIx (.dma q) = none) (O : CellTallies nD τ sig Unit) (hO : O = O₀ c ∨ O = 0) :
    (levAts L lv : sProp 𝕄) ⊢ MayWait (c : Thread nD τ) (.dma q) () O := by
  rcases hO with rfl | rfl
  · exact mayWait_of_above c (.dma q) 0 (lv_none c _ hq) _ fun g u hg => O₀_above hg
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (cellIx_none_of (by fin_cases w <;> fin_cases s <;> decide)) _ (by
      rcases t with ⟨_ | _, ht⟩
      · exact Or.inl rfl
      · exact Or.inr rfl)

/-! ## The launch credit -/

omit [FloatOps F] in
/-- The two entry units: every device owes one to each partner's entry cell, so each entry cell is owed one by each partner. -/
theorem creds_bar (c : Dev nD) :
    (Pipeline.launchCred (fun d => tallyAt (barCell (yp d)) () 1 + tallyAt (barCell (xp d)) () 1) c : sProp 𝕄) ⊢ cred (tallyAt (barCell c) () 2) := by
  rw [Pipeline.launchCred_add, ← tallyAt_add (barCell c) () 1 1]
  refine (BIClass.sep_mono ?_ ?_).trans (cred_add _ _).2
  · exact Pipeline.launchCred_tallyAt (.reg barS) yp yp yp_yp yp_yp () 1 c
  · exact Pipeline.launchCred_tallyAt (.reg barS) xp xp xp_xp xp_xp () 1 c

omit [FloatOps F] in
/-- Chunk k's two credits: the x-receive cell is owed by the x-partner, the y-receive cell by the y-partner. -/
theorem creds_xfer (c : Dev nD) (k : Fin 32) :
    (Pipeline.launchCred (fun d => tallyAt (xrCell (xp d) k) () Nc + tallyAt (yrCell (yp d) k) () Nc) c : sProp 𝕄)
      ⊢ iprop(cred (tallyAt (xrCell c k) () Nc) ∗ cred (tallyAt (yrCell c k) () Nc)) := by
  rw [Pipeline.launchCred_add]
  refine BIClass.sep_mono ?_ ?_
  · exact Pipeline.launchCred_tallyAt (csem (some (1, k))) xp xp xp_xp xp_xp () Nc c
  · exact Pipeline.launchCred_tallyAt (csem (some (3, k))) yp yp yp_yp yp_yp () Nc c

omit [FloatOps F] in
/-- What the launch deals a device for the units the others owe its cells. -/
theorem creds_intro (c : Dev nD) : (Pipeline.launchCred O₀ c : sProp 𝕄) ⊢ creds c := by
  have h : (O₀ : Dev nD → CellTallies nD τ sig Unit) = fun d => (∑ k : Fin 32, (tallyAt (xrCell (xp d) k) () Nc + tallyAt (yrCell (yp d) k) () Nc))
      + (tallyAt (barCell (yp d)) () 1 + tallyAt (barCell (xp d)) () 1) := funext fun d => by unfold O₀ O₁ owedXfer; rw [add_assoc]
  rw [h, Pipeline.launchCred_add, Pipeline.launchCred_sum]
  unfold creds
  refine (BIClass.sep_mono (bigSep_mono fun k _ => creds_xfer c k) (creds_bar c)).trans ?_
  iintro ⟨Hx, Hb⟩
  isplitl [Hb] <;> iassumption

/-! ## The ends: into the first invariant, out of the last -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

omit [FloatOps F] in
/-- The landing buffers through the whole-buffer view: the plain points-to. -/
theorem aWhole_eq (c : Dev nD) (f : Buf (Elt F) ((c : Thread nD τ).loc cc0_scratch0)) :
    aWhole c f = (((c : Thread nD τ).loc cc0_scratch0) ↦{fullShare} f : sProp 𝕄) := by unfold aWhole; rw [View.set_whole]
omit [FloatOps F] in
theorem bWhole_eq (c : Dev nD) (f : Buf (Elt F) ((c : Thread nD τ).loc cc0_scratch1)) :
    bWhole c f = (((c : Thread nD τ).loc cc0_scratch1) ↦{fullShare} f : sProp 𝕄) := by unfold bWhole; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Ha⟩, ⟨%g, Hb⟩⟩
  isplitl [Hs]; · iexact Hs
  isplitl [Ha]
  · iexists f; rw [aWhole_eq]; iexact Ha
  · iexists g; rw [bWhole_eq]; iexact Hb

/-- The 128 own semaphores, indexed by (array, chunk). -/
def e128 : Fin 4 × Fin 32 ≃ Fin 128 := finProdFinEquiv

omit [FloatOps F] in
theorem osem_eq (i : Fin 128) (j : Fin 4) (k : Fin 32) (hj : i.val / 32 = j.val) (hk : i.val % 32 = k.val) : osem i = csem (some (j, k)) := by
  have h1 : (⟨i.val / 32, by have := i.isLt; omega⟩ : Fin 4) = j := Fin.ext hj
  have h2 : (⟨i.val % 32, Nat.mod_lt _ (by decide)⟩ : Fin 32) = k := Fin.ext hk
  show SemLoc.dma (semAt (semArr ⟨i.val / 32, _⟩) ⟨i.val % 32, _⟩) = SemLoc.dma (semAt (semArr j) k)
  rw [h1, h2]

omit [FloatOps F] in
theorem osem_e128 (jk : Fin 4 × Fin 32) : osem (e128 jk) = csem (some jk) := by
  obtain ⟨j, k⟩ := jk
  have hv : (e128 (j, k)).val = k.val + 32 * j.val := rfl
  have := k.isLt
  exact osem_eq _ j k (by rw [hv]; omega) (by rw [hv]; omega)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 32 => semVal (kcell (c, some jk)) 0 := by
  unfold Pipeline.ownSems0
  rw [bigSep_univ_equiv e128]
  exact bigSep_congr fun jk _ => by rw [osem_e128]

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Ha⟩, ⟨%g, Hb⟩, Hz⟩
  isplitr; · iempintro
  isplitl [Hz]; · iexact Hz
  isplitl [Ha]
  · iexists f; rw [← aWhole_eq]; iexact Ha
  · iexists g; rw [← bWhole_eq]; iexact Hb

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: given each device's
    body obligation and the two ghost-state steps of the launch, every weakly fair execution of @main terminates, and every
    final state has each device's windows' arrays at the contents the proof data names. -/
theorem run_main (hbody : ∀ c, BodyObligation (dats (F := F) m ρ 0 c) (defs₀ (F := F)) 𝒱₀ () Set.univ)
    (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m ρ)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.Bits.Alloc.lean ====
/-
  The launch's ghost state: the cells of the sixteen devices (per device the entry cell and the 128 transfer
  cells), the duty tokens minted for them, and how the launch element becomes, per device, the round states,
  positions and tokens of its own cells; then how, once every counter stands at zero, the cells' invariants are
  allocated for all devices at once and the tokens are dealt to the devices that pay them.
-/
import proofs.«900707_g7700000000000708_dist_ar_v7x_xyz2x2x4_x_m2048_n512_f32_1_alg».proof.Proof.Bits.Proto
import Idealize.SL.ProofMode.BigOp

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × CIx → GSem nD τ sig) := by
  rintro ⟨c, q⟩ ⟨c', q'⟩ h
  have h1 : c = c' := congrArg (fun g : GSem nD τ sig => g.1.1) h
  subst h1
  have h2 : csem q = csem q' := congrArg Prod.snd h
  rw [csem_injective h2]

/-- Every cell of the protocol: per device its entry cell and its 128 transfer cells. -/
def allCells : Finset (GSem nD τ sig) := Finset.univ.map ⟨kcell, kcell_injective⟩

/-- The duties minted at launch, per device: the entry cell's two, and each transfer cell's one. -/
abbrev TIx : Type := Bool ⊕ (Fin 4 × Fin 32)
abbrev tokOf (ct : Dev nD × TIx) : GSem nD τ sig × ℕ × Bool := match ct.2 with
  | .inl d => (barCell ct.1, 0, d)
  | .inr jk => (kcell (ct.1, some jk), 0, false)

theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    rcases t with d | jk <;> rcases t' with d' | jk' <;> exact this
  subst h1
  rcases t with d | jk <;> rcases t' with d' | jk'
  · have : d = d' := congrArg (fun x : GSem nD τ sig × ℕ × Bool => x.2.2) h
    rw [this]
  · have h2 : csem none = csem (some jk') := congrArg (fun x : GSem nD τ sig × ℕ × Bool => x.1.2) h
    exact absurd (csem_injective h2) (fun h' => by cases h')
  · have h2 : csem (some jk) = csem none := congrArg (fun x : GSem nD τ sig × ℕ × Bool => x.1.2) h
    exact absurd (csem_injective h2) (fun h' => by cases h')
  · have h2 : csem (some jk) = csem (some jk') := congrArg (fun x : GSem nD τ sig × ℕ × Bool => x.1.2) h
    rw [Option.some.inj (csem_injective h2)]

def allToks : Finset (GSem nD τ sig × ℕ × Bool) := Finset.univ.map ⟨tokOf, tokOf_injective⟩

/-- The launch element: the pipeline library's, and the protocol's cells and tokens. -/
def u₀ : UU :=
  (initOf (Pipeline.cells cfgs cellOf_inj) (Pipeline.launchToks cfgs cellOf_inj), initOf allCells allToks)

/-- The duty tokens of device c's own cells: the entry cell's two, each transfer cell's one. -/
def toks (c : Dev nD) : sProp 𝕄 :=
  iprop(dutyTok ER (barCell c) 0 false ∗ dutyTok ER (barCell c) 0 true
    ∗ bigSep Finset.univ fun jk : Fin 4 × Fin 32 => dutyTok ER (kcell (c, some jk)) 0 false)

/-- What the launch element deals device c: its cells' round states at counter zero, its positions in them, that each has
    reached round 0, and the tokens of its cells' duties. -/
def G (c : Dev nD) : sProp 𝕄 :=
  iprop((bigSep Finset.univ fun q : CIx => roundState ER (sched m ρ) (kcell (c, q)) 0)
    ∗ (bigSep Finset.univ fun q : CIx => iprop(atPos ER (kcell (c, q)) 0 ∅ 0 ∗ reached ER (kcell (c, q)) 0)) ∗ toks c)

omit [FloatOps F] in
theorem sep_comm_eq (P Q : sProp 𝕄) : iprop(P ∗ Q) = iprop(Q ∗ P) :=
  Idealize.SL.BI.equiv_iff.mp ⟨Idealize.SL.BI.sep_comm, Idealize.SL.BI.sep_comm⟩
omit [FloatOps F] in
theorem sep_assoc_eq (P Q R : sProp 𝕄) : iprop((P ∗ Q) ∗ R) = iprop(P ∗ Q ∗ R) :=
  Idealize.SL.BI.equiv_iff.mp ⟨Idealize.SL.BI.sep_assoc, Idealize.SL.BI.sep_assoc'⟩

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A sum over a device's cells is the entry cell's summand and the sum over its transfer cells. -/
theorem bigSep_cix (Φ : CIx → sProp 𝕄) : bigSep Finset.univ Φ = iprop(Φ none ∗ bigSep Finset.univ fun jk : Fin 4 × Fin 32 => Φ (some jk)) := by
  rw [bigSep_univ_equiv (Equiv.optionEquivSumPUnit.{0, 0} (Fin 4 × Fin 32)).symm Φ, bigSep_univ_sum, bigSep_univ_of_subsingleton PUnit.unit]
  exact sep_comm_eq _ _

omit [FloatOps F] in
theorem toks_eq (c : Dev nD) : (bigSep Finset.univ fun t : TIx => (dutyTok ER (tokOf (c, t)).1 (tokOf (c, t)).2.1 (tokOf (c, t)).2.2 : sProp 𝕄)) = toks c := by
  unfold toks; rw [bigSep_univ_sum, bigSep_bool]; exact sep_assoc_eq _ _ _

omit [FloatOps F] in
/-- The protocol's half of the launch element, dealt per device. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun q : CIx => Φ (kcell (c, q)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch element split between the pipeline library and the protocol, the protocol's half dealt per device. -/
theorem fund_all : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_cells m ρ) $$ HX with HG
  imodintro
  isplitl [HP] <;> iassumption

/-! ## The global step: every counter at zero, the cells' invariants allocated for all devices at once -/

omit [FloatOps F] in
instance sched_payload_storable (g : GSem nD τ sig) (r : ℕ) (d : Bool) :
    BI.Storable (upEmb : UEmb _ 𝕄) ((sched (F := F) m ρ).payload g r d) := by
  show BI.Storable upEmb (match cellIx g.2 with
    | some none => barPay g.1.1 d
    | some (some (j, k)) => xferPay m ρ g.1.1 j k
    | none => iprop(emp))
  split
  · unfold barPay aWhole bWhole; split <;> infer_instance
  · unfold xferPay xRows aChunk; split <;> infer_instance
  · infer_instance

/-- The 128 own semaphores in the order the launch lists them: semaphore k of array j stands at 32·j + k. -/
def jkEquiv : Fin 128 ≃ Fin 4 × Fin 32 where
  toFun i := (⟨i.val / 32, by have := i.isLt; omega⟩, ⟨i.val % 32, Nat.mod_lt _ (by decide)⟩)
  invFun jk := ⟨32 * jk.1.val + jk.2.val, by have := jk.1.isLt; have := jk.2.isLt; omega⟩
  left_inv i := Fin.ext (by show 32 * (i.val / 32) + i.val % 32 = i.val; omega)
  right_inv jk := by
    obtain ⟨j, k⟩ := jk
    have hj := j.isLt; have hk := k.isLt
    refine Prod.ext (Fin.ext ?_) (Fin.ext ?_)
    · show (32 * j.val + k.val) / 32 = j.val; omega
    · show (32 * j.val + k.val) % 32 = k.val; omega

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun q : CIx => semVal (kcell (c, q)) 0 : sProp 𝕄) := by
  rw [unscopedSems0_eq, bigSep_cix, bigSep_univ_equiv jkEquiv (fun jk : Fin 4 × Fin 32 => (semVal (kcell (c, some jk)) 0 : sProp 𝕄))]
  exact Idealize.SL.BI.sep_comm

omit [FloatOps F] in
/-- On one device: the 129 counters at zero and the round states at zero become the cells' invariants, each at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun q : CIx => iprop(∃ κ : ℕ, cellInv ER (sched m ρ) κ (kcell (c, q))))
          ∗ (bigSep Finset.univ fun q : CIx => iprop(atPos ER (kcell (c, q)) 0 ∅ 0 ∗ reached ER (kcell (c, q)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun q : CIx => semVal (kcell (c, q)) 0) ∗ bigSep Finset.univ fun q : CIx => roundState ER (sched m ρ) (kcell (c, q)) 0)
      ⊢ (|={Set.univ}=> bigSep Finset.univ fun q : CIx => iprop(∃ κ : ℕ, cellInv ER (sched m ρ) κ (kcell (c, q))) : sProp 𝕄) from by
        rw [← bigSep_sep']
        exact (bigSep_mono fun q _ => (Rounds.body_intro ER (sched m ρ) (kcell (c, q))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent assertion beside a sum serves every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × CIx → ℕ) (c : Dev nD) : iprop(records m ρ K ∗ linear c) ⊢ G' m ρ c := by
  unfold G' ghost
  iintro H
  iexists K
  iexact H

/-- The tokens of array j's 32 cells on device c. -/
def arrToks (j : Fin 4) (c : Dev nD) : sProp 𝕄 := bigSep Finset.univ fun k : Fin 32 => dutyTok ER (kcell (c, some (j, k))) 0 false

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem toks_split (c : Dev nD) : (toks c : sProp 𝕄)
    = iprop(dutyTok ER (barCell c) 0 false ∗ dutyTok ER (barCell c) 0 true ∗ arrToks 0 c ∗ arrToks 1 c ∗ arrToks 2 c ∗ arrToks 3 c) := by
  unfold toks arrToks
  rw [bigSep_univ_prod (fun jk : Fin 4 × Fin 32 => (dutyTok ER (kcell (c, some jk)) 0 false : sProp 𝕄)), bigSep_fin4]

omit [FloatOps F] in
theorem payToks_split (c : Dev nD) : (payToks c : sProp 𝕄)
    = iprop(dutyTok ER (barCell (xp c)) 0 false ∗ dutyTok ER (barCell (yp c)) 0 true ∗ arrToks 0 c ∗ arrToks 1 (xp c) ∗ arrToks 2 c ∗ arrToks 3 (yp c)) := by
  unfold payToks arrToks
  rw [bigSep_sep', bigSep_sep', bigSep_sep']

omit [FloatOps F] in
/-- The tokens dealt to the devices that pay them: an entry cell's token false goes to the x-partner, its token true to the
    y-partner; an x-receive cell's token to the x-partner, a y-receive cell's to the y-partner; the send cells' tokens stay. -/
theorem toks_around : (bigSep Finset.univ fun c : Dev nD => (toks c : sProp 𝕄)) ⊢ bigSep Finset.univ fun c : Dev nD => payToks c := by
  rw [bigSep_congr (s := Finset.univ) (fun (c : Dev nD) _ => toks_split (F := F) c), bigSep_congr (s := Finset.univ) (fun (c : Dev nD) _ => payToks_split (F := F) c)]
  rw [bigSep_sep', bigSep_sep', bigSep_sep', bigSep_sep', bigSep_sep', bigSep_sep', bigSep_sep', bigSep_sep', bigSep_sep', bigSep_sep',
    bigSep_univ_equiv xpEquiv (fun c : Dev nD => (dutyTok ER (barCell c) 0 false : sProp 𝕄)),
    bigSep_univ_equiv ypEquiv (fun c : Dev nD => (dutyTok ER (barCell c) 0 true : sProp 𝕄)),
    bigSep_univ_equiv xpEquiv (fun c : Dev nD => (arrToks 1 c : sProp 𝕄)),
    bigSep_univ_equiv ypEquiv (fun c : Dev nD => (arrToks 3 c : sProp 𝕄))]
  exact .refl

omit [FloatOps F] in
theorem regroup :
    (bigSep Finset.univ fun c : Dev nD => iprop((bigSep Finset.univ fun q : CIx => iprop(∃ κ : ℕ, cellInv ER (sched m ρ) κ (kcell (c, q))))
          ∗ (bigSep Finset.univ fun q : CIx => iprop(atPos ER (kcell (c, q)) 0 ∅ 0 ∗ reached ER (kcell (c, q)) 0)) ∗ toks c) : sProp 𝕄)
      ⊢ bigSep Finset.univ (G' m ρ) := by
  rw [bigSep_sep', bigSep_sep', ← bigSep_univ_prod (fun ck : Dev nD × CIx => iprop(∃ κ : ℕ, cellInv ER (sched m ρ) κ (kcell ck))),
    bigSep_congr (s := Finset.univ) (fun (c : Dev nD) _ => bigSep_sep' Finset.univ (fun q : CIx => (atPos ER (kcell (c, q)) 0 ∅ 0 : sProp 𝕄)) (fun q => reached ER (kcell (c, q)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun q : CIx => (atPos ER (kcell (c, q)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at zero, and what the launch element dealt, become
    every device's ghost state at one choice of names. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelProof.fund_all' depends on axioms: [propext, Classical.choice, Quot.sound] -/
#guard_msgs in #print axioms fund_all
/-- info: 'Cert.KernelProof.glob' depends on axioms: [propext, Classical.choice, Quot.sound] -/
#guard_msgs in #print axioms glob

end Cert.KernelProof

end
-- ==== Proof.Bits.Final.lean ====
/-
  From the pipeline's book-keeping to the run's result. The kernel has no grid: each of its two windows is the whole
  array at block index 0, so the staged block of the argument is the argument array itself, the argument array is never
  written back, and the result array after the one point is what the body left in the result's staging buffer. Given
  that each device's body meets its obligation, the launch runs the kernel to a state where each window's array holds
  what the proof data names; dropping the result leaves that every device's argument array is unchanged.
-/
import proofs.«900707_g7700000000000708_dist_ar_v7x_xyz2x2x4_x_m2048_n512_f32_1_alg».proof.Proof.Bits.Launch
import proofs.«900707_g7700000000000708_dist_ar_v7x_xyz2x2x4_x_m2048_n512_f32_1_alg».proof.Proof.Bits.Alloc
import proofs.«900707_g7700000000000708_dist_ar_v7x_xyz2x2x4_x_m2048_n512_f32_1_alg».proof.Proof.Gen.Kernel.Points

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The staged block of the argument is the argument array: the window's one block is the whole array at offset 0. -/
theorem xstg_eq (c : Dev nD) : xstg m ρ c = m ((c : Thread nD τ).loc main_arg0) := by
  have hz : (fun a => (win0_0.index (0 : Fin 1)) a * main_arg0.ty.shape.size a) = fun _ => 0 :=
    funext fun a => Nat.zero_mul _
  exact Memref.read_access_unit_zero (Elt F) main_arg0 hz (fun a => by fin_cases a <;> decide) _

/-- The argument array after the run holds what it held at launch. -/
theorem finalA_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run holds what the body left in its staging buffer at the one point: the write-back
    there covers the whole array. -/
theorem finalA_out (c : Dev nD) : (dats m ρ 0 c).arrAt (1 : Fin 2) cfg0.N = outAt m ρ c := by
  have hz : (fun a => (win0_1.index (0 : Fin 1)) a * main_v1.ty.shape.size a) = fun _ => 0 :=
    funext fun a => Nat.zero_mul _
  rw [show cfg0.N = (⟨0, by decide⟩ : Fin cfg0.N).val + 1 from rfl,
    (dats (F := F) m ρ 0 c).arrAt_succ (1 : Fin 2) ⟨0, by decide⟩, flush0_1 ⟨0, by decide⟩, if_pos rfl]
  exact Memref.write_access_unit_zero_univ (Elt F) main_v1 hz (fun a => by fin_cases a <;> decide) _ _

/-- The run, from the body obligation alone: the launch's two ghost-state steps are the allocation's. -/
theorem run_all (hbody : ∀ c, BodyObligation (dats (F := F) m ρ 0 c) (defs₀ (F := F)) 𝒱₀ () Set.univ) :
    θ_run defs (onTc (τ := τ) (main (F := F))) (s₀ m ρ) (QC m ρ) :=
  run_main m ρ hbody (G := G m ρ) (u₀ := u₀) (hu₀ := fund_all m ρ) (hglob := glob m ρ)

/-- The kernel runs and leaves every device's argument array unchanged. -/
theorem frame_of_body (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m ρ c)) (run_all m ρ hbody)

/-- info: 'Cert.KernelProof.finalA_out' depends on axioms: [propext, Classical.choice, Quot.sound] -/
#guard_msgs in #print axioms finalA_out
/-- info: 'Cert.KernelProof.frame_of_body' depends on axioms: [propext, Classical.choice, Quot.sound] -/
#guard_msgs in #print axioms frame_of_body

end Cert.KernelProof

end
-- ==== Proof.Bits.BodyDefs.lean ====
/-
  What one device's body starts from and what it leaves: the statement of the body's run.
-/
import proofs.«900707_g7700000000000708_dist_ar_v7x_xyz2x2x4_x_m2048_n512_f32_1_alg».proof.Proof.Bits.Proto
import proofs.«900707_g7700000000000708_dist_ar_v7x_xyz2x2x4_x_m2048_n512_f32_1_alg».proof.Proof.Gen.Kernel.Points

noncomputable section

namespace Cert.KernelProof

open Cert.Kernel Cert.Kernel.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × CIx → ℕ)

def bodyPre (c : Dev nD) : sProp 𝕄 :=
  iprop((ghost m ρ K c ∗ creds c ∗ levAts L lv ∗ (∃ f, aWhole c f) ∗ (∃ f, bWhole c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Body

end Cert.KernelProof

end
-- ==== Proof.Bits.Oblig.lean ====
/-
  The body obligation of the launch theorem on one device, from the body's run taken as a hypothesis.

  The pipeline has one grid point. There the obligation's precondition is the first invariant (the ghost state at some
  allocation of names, the launch credit, the level facts, the two landing buffers whole), what the device owes, and the
  two staging buffers, each a whole buffer held through its plain points-to; the program is the kernel's body on those
  buffers; the postcondition is the last invariant, nothing owed, and the staging buffers at the contents the proof data
  names. The names being existentially bound in the invariant, the run is asked at every allocation of names.
-/
import proofs.«900707_g7700000000000708_dist_ar_v7x_xyz2x2x4_x_m2048_n512_f32_1_alg».proof.Proof.Bits.BodyDefs
import proofs.«900707_g7700000000000708_dist_ar_v7x_xyz2x2x4_x_m2048_n512_f32_1_alg».proof.Proof.Bits.Launch

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The body obligation of the launch theorem, from the body's run -/

omit [FloatOps F] in
/-- Holding a whole buffer at given contents: the plain points-to at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 16384 in
/-- The program the pipeline runs at the one grid point: the kernel's body on the two whole staging buffers. -/
theorem body_at_point : defs₀ (F := F) .tc 0 (t₀, cfg0.slots t₀)
    = cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5 := rfl

set_option maxRecDepth 16384 in
/-- The library's body obligation on device c, given the body's run from `bodyPre` to `bodyPost` at every allocation of names. -/
theorem body_obligation_of
    (hsound : ∀ (K : Dev nD × CIx → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt)
    (c : Dev nD) : BodyObligation (dats (F := F) m ρ 0 c) (defs₀ (F := F)) 𝒱₀ () Set.univ := fun t => by
  rw [fin_N t]
  rw [bigSep_W0, bigSep_W0]
  simp only [owns_whole_eq]
  rw [body_at_point, show (dats m ρ 0 c).Φ t₀.castSucc = Φ₀ m ρ c from rfl]
  unfold Φ₀ start
  iintro ⟨⟨⟨⟨%K, Hg⟩, Hcr, Hlev⟩, Ha, Hb⟩, Ho, Hx, Hout⟩
  iapply (hsound K c _)
  unfold bodyPre
  isplitr []
  · isplitl [Hg Hcr Hlev Ha Hb]
    · isplitl [Hg]; · iexact Hg
      isplitl [Hcr]; · iexact Hcr
      isplitl [Hlev]; · iexact Hlev
      isplitl [Ha]; · iexact Ha
      iexact Hb
    isplitl [Ho]; · iexact Ho
    isplitl [Hx] <;> iassumption
  · unfold bodyPost; iintro H; iexact H

/-- info: 'Cert.KernelProof.body_obligation_of' depends on axioms: [propext, Classical.choice, Quot.sound] -/
#guard_msgs in #print axioms body_obligation_of

end Cert.KernelProof

end
-- ==== Proof.Bits.Shapes.lean ====
/-
  A device's sums over its cells, reshaped for a run that goes chunk by chunk: the entry cell's summand, then a list
  over the 32 chunks, each chunk's four transfer cells (x-send, x-receive, y-send, y-receive) side by side.
-/
import proofs.«900707_g7700000000000708_dist_ar_v7x_xyz2x2x4_x_m2048_n512_f32_1_alg».proof.Proof.Bits.Alloc
import proofs.«900707_g7700000000000708_dist_ar_v7x_xyz2x2x4_x_m2048_n512_f32_1_alg».proof.Proof.Chunks

noncomputable section

namespace Cert.KernelProof

open Cert.Kernel Cert.Kernel.Gen Cert.Mesh Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

omit [FloatOps F] in
/-- A sum over the 32 chunks as the list of its summands, in order. -/
theorem bigSep_fin32 (Φ : Fin 32 → sProp 𝕄) : bigSep Finset.univ Φ = bigSepL fin32list% Φ :=
  bigSep_univ_eq_bigSepL fin32list% (by decide) (by decide) Φ

omit [FloatOps F] in
/-- A sum over a device's 128 transfer cells, chunk by chunk: the chunk outside, its four cells inside. -/
theorem xfer_chunks (Ψ : Fin 4 × Fin 32 → sProp 𝕄) :
    bigSep Finset.univ Ψ = bigSepL fin32list% fun k : Fin 32 => iprop(Ψ (0, k) ∗ Ψ (1, k) ∗ Ψ (2, k) ∗ Ψ (3, k)) := by
  rw [bigSep_univ_prod, bigSep_univ_comm (fun (j : Fin 4) (k : Fin 32) => Ψ (j, k)),
    bigSep_congr (s := Finset.univ) (fun (k : Fin 32) _ => bigSep_fin4 (fun j : Fin 4 => Ψ (j, k))), bigSep_fin32]

omit [FloatOps F] in
/-- A sum over a device's 129 cells: the entry cell's summand, then chunk by chunk. -/
theorem cix_chunks (Φ : CIx → sProp 𝕄) :
    bigSep Finset.univ Φ
      = iprop(Φ none ∗ bigSepL fin32list% fun k : Fin 32 => iprop(Φ (some (0, k)) ∗ Φ (some (1, k)) ∗ Φ (some (2, k)) ∗ Φ (some (3, k)))) := by
  rw [bigSep_cix, xfer_chunks (fun jk : Fin 4 × Fin 32 => Φ (some jk))]

omit [FloatOps F] in
/-- A device's positions in its own cells at round R, none of the round's duties taken, nothing consumed. -/
theorem atPos_chunks (c : Dev nD) (R : ℕ) :
    (bigSep Finset.univ fun q : CIx => (atPos ER (kcell (c, q)) R ∅ 0 : sProp 𝕄))
      = iprop(atPos ER (barCell c) R ∅ 0 ∗ bigSepL fin32list% fun k : Fin 32 =>
          iprop(atPos ER (xsCell c k) R ∅ 0 ∗ atPos ER (xrCell c k) R ∅ 0 ∗ atPos ER (ysCell c k) R ∅ 0 ∗ atPos ER (yrCell c k) R ∅ 0)) :=
  cix_chunks fun q : CIx => (atPos ER (kcell (c, q)) R ∅ 0 : sProp 𝕄)

omit [FloatOps F] in
/-- The 128 transfer counters at zero, gathered back from the chunk-by-chunk list. -/
theorem semVal_chunks (c : Dev nD) :
    (bigSepL fin32list% fun k : Fin 32 => iprop(semVal (xsCell c k) 0 ∗ semVal (xrCell c k) 0 ∗ semVal (ysCell c k) 0 ∗ semVal (yrCell c k) 0) : sProp 𝕄)
      ⊢ bigSep Finset.univ fun jk : Fin 4 × Fin 32 => semVal (kcell (c, some jk)) 0 :=
  Entails.of_eq (xfer_chunks fun jk : Fin 4 × Fin 32 => (semVal (kcell (c, some jk)) 0 : sProp 𝕄)).symm

/-- info: 'Cert.KernelProof.cix_chunks' depends on axioms: [propext, Classical.choice, Quot.sound] -/
#guard_msgs in #print axioms cix_chunks
/-- info: 'Cert.KernelProof.semVal_chunks' depends on axioms: [propext, Classical.choice, Quot.sound] -/
#guard_msgs in #print axioms semVal_chunks

end Cert.KernelProof

end
-- ==== Proof.Bits.Ledger.lean ====
/-
  The ledger of the two-step all-reduce: what a device still owes, read as a sum of receive-cell credits, lies above the
  level of the cell it waits on.

  A device's transfers owe, chunk by chunk, the x-partner's x-receive cell (level 2) and the y-partner's y-receive cell
  (level 3) one chunk's credit. The entry wait (level 1) happens while all of these are owed; the x-receive wait of a chunk
  (level 2) while only y-receive credits are owed. `Above n O` says that every cell O owes to is a TensorCore's and sits
  strictly above level n; it holds of 0, of a sum when it holds of the summands, and of a single credit by the cell's
  level. The evidence a wait presents follows from it. What a device owes in transfers is also written out as the explicit
  sum over the 32 chunks in ascending order, equal to the sum over `Fin 32`.
-/
import proofs.«900707_g7700000000000708_dist_ar_v7x_xyz2x2x4_x_m2048_n512_f32_1_alg».proof.Proof.Bits.Launch

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Everything owed lies above a level -/

/-- Everything O owes is owed to a TensorCore's cell strictly above level n. -/
def Above (n : ℕ) (O : CellTallies nD τ sig Unit) : Prop := ∀ g u, 0 < O g u → g.1.2 = .tc ∧ n < lv g u

theorem above_zero (n : ℕ) : Above n (0 : CellTallies nD τ sig Unit) := fun g u h => absurd h (Nat.lt_irrefl 0)
theorem above_add {n : ℕ} {O O' : CellTallies nD τ sig Unit} (h : Above n O) (h' : Above n O') : Above n (O + O') :=
  fun g u hg => (Pipeline.add_pos_cases hg).elim (h g u) (h' g u)
theorem above_tally {n : ℕ} (g : GSem nD τ sig) (k : ℕ) (hg : g.1.2 = .tc) (h : n < lv g ()) : Above n (tallyAt g () k) :=
  fun g' u hg' => by obtain ⟨rfl, rfl⟩ := Pipeline.tallyAt_pos hg'; exact ⟨hg, h⟩
theorem above_mono {n n' : ℕ} {O : CellTallies nD τ sig Unit} (hn : n' ≤ n) (h : Above n O) : Above n' O :=
  fun g u hg => ⟨(h g u hg).1, lt_of_le_of_lt hn (h g u hg).2⟩

theorem above_xr (c : Dev nD) (k : Fin 32) : Above 1 (tallyAt (xrCell c k) () Nc) := above_tally _ _ rfl (by rw [lv_xr]; decide)
theorem above_yr1 (c : Dev nD) (k : Fin 32) : Above 1 (tallyAt (yrCell c k) () Nc) := above_tally _ _ rfl (by rw [lv_yr]; decide)
theorem above_yr2 (c : Dev nD) (k : Fin 32) : Above 2 (tallyAt (yrCell c k) () Nc) := above_tally _ _ rfl (by rw [lv_yr]; decide)

/-- Closes `Above n O` for O a sum, in any association, of zeros and receive-cell credits. -/
syntax "above_tac" : tactic
macro_rules
  | `(tactic| above_tac) => `(tactic| first
      | with_reducible exact above_zero _
      | with_reducible exact above_xr _ _
      | with_reducible exact above_yr2 _ _
      | with_reducible exact above_yr1 _ _
      | (with_reducible refine above_add ?_ ?_) <;> above_tac
      | exact above_zero _
      | exact above_xr _ _
      | exact above_yr2 _ _
      | exact above_yr1 _ _)

/-! ## The ledger: the evidence a wait presents, from what is owed lying above the cell waited on -/

omit [FloatOps F] in
theorem mayWait_bar' (c : Dev nD) (O : CellTallies nD τ sig Unit) (hO : Above 1 O) :
    (levAts L lv : sProp 𝕄) ⊢ MayWait (c : Thread nD τ) (.reg barS) () O :=
  mayWait_of_above c (.reg barS) 1 (lv_bar c) O hO
omit [FloatOps F] in
theorem mayWait_xr' (c : Dev nD) (k : Fin 32) (O : CellTallies nD τ sig Unit) (hO : Above 2 O) :
    (levAts L lv : sProp 𝕄) ⊢ MayWait (c : Thread nD τ) (.dma (semAt cc0_scratch3 k)) () O :=
  mayWait_of_above c (.dma (semAt cc0_scratch3 k)) 2 (lv_xr c k) O hO
omit [FloatOps F] in
theorem mayWait_yr' (c : Dev nD) (k : Fin 32) (O : CellTallies nD τ sig Unit) (hO : Above 3 O) :
    (levAts L lv : sProp 𝕄) ⊢ MayWait (c : Thread nD τ) (.dma (semAt cc0_scratch5 k)) () O :=
  mayWait_of_above c (.dma (semAt cc0_scratch5 k)) 3 (lv_yr c k) O hO

/-! ## What a device owes in transfers, chunk by chunk, as an explicit sum -/

open Lean Elab Term Meta in
/-- `chainL32% f` is `f 0 + f 1 + … + f 31` over the 32 numerals of `Fin 32`, associated to the left, every application
    of `f` beta-reduced. -/
elab "chainL32% " f:term : term <= ty => do
  let mut acc ← `(($f) (0 : Fin 32))
  for i in [1:32] do
    let n := Syntax.mkNumLit (toString i)
    acc ← `($acc + ($f) ($n : Fin 32))
  let e ← elabTermEnsuringType acc ty
  synthesizeSyntheticMVarsNoPostponing
  Core.betaReduce (← instantiateMVars e)

open Lean Elab Term Meta in
/-- The same sum associated to the right. -/
elab "chainR32% " f:term : term <= ty => do
  let mut acc ← `(($f) (31 : Fin 32))
  for j in [1:32] do
    let n := Syntax.mkNumLit (toString (31 - j))
    acc ← `(($f) ($n : Fin 32) + $acc)
  let e ← elabTermEnsuringType acc ty
  synthesizeSyntheticMVarsNoPostponing
  Core.betaReduce (← instantiateMVars e)

/-- A sum over the 32 chunks, written out in ascending order. -/
theorem sum_fin32 {M : Type} [AddCommMonoid M] (f : Fin 32 → M) : ∑ k, f k = chainL32% f := by
  simp only [Fin.sum_univ_castSucc, Fin.sum_univ_zero, zero_add]
  rfl

/-- The chunk credits device c owes, chunk 0 first: per chunk the x-partner's x-receive cell, then the y-partner's y-receive cell. -/
def owedChain (c : Dev nD) : CellTallies nD τ sig Unit :=
  chainL32% fun k : Fin 32 => tallyAt (xrCell (xp c) k) () Nc + tallyAt (yrCell (yp c) k) () Nc

theorem owedXfer_chain (c : Dev nD) : owedXfer c = owedChain c := by
  unfold owedXfer owedChain
  exact sum_fin32 fun k : Fin 32 => tallyAt (xrCell (xp c) k) () Nc + tallyAt (yrCell (yp c) k) () Nc

/-- The same 64 summands associated to the right: a test of the tactic only. -/
def owedChainR (c : Dev nD) : CellTallies nD τ sig Unit :=
  chainR32% fun k : Fin 32 => tallyAt (xrCell (xp c) k) () Nc + tallyAt (yrCell (yp c) k) () Nc

/-! ## The tactic on 64 summands, in both associations, at the two levels -/

example (c : Dev nD) : Above 1 (owedChain c) := by unfold owedChain; above_tac
example (c : Dev nD) : Above 1 (owedChainR c) := by unfold owedChainR; above_tac
example (c : Dev nD) : Above 1 (owedChain c + 0 + (tallyAt (yrCell (yp c) 3) () Nc + owedChainR (xp c))) := by unfold owedChain owedChainR; above_tac
example (c : Dev nD) : Above 2 (chainL32% fun k : Fin 32 => tallyAt (yrCell (yp c) k) () Nc) := by above_tac
example (c : Dev nD) : Above 2 (chainR32% fun k : Fin 32 => (0 : CellTallies nD τ sig Unit) + tallyAt (yrCell (yp c) k) () Nc) := by above_tac

/-- info: 'Cert.KernelProof.owedXfer_chain' depends on axioms: [propext, Classical.choice, Quot.sound] -/
#guard_msgs in #print axioms owedXfer_chain
/-- info: 'Cert.KernelProof.mayWait_xr'' depends on axioms: [propext, Classical.choice, Quot.sound] -/
#guard_msgs in #print axioms mayWait_xr'

end Cert.KernelProof

end
-- ==== Proof.Bits.Owed.lean ====
/-
  What a device owes at launch, written as one sum associated to the left whose summands stand in the reverse of the order
  in which the body pays them: paying always takes the last summand off.

  The body pays the unit to the x-partner's entry cell, then the unit to the y-partner's, then the x-receive credits of
  chunks 0 to 31, then the y-receive credits of chunks 0 to 31. So the sum reads: y-receive credits of chunks 31 down to 0,
  x-receive credits of chunks 31 down to 0, the y-partner's entry unit, the x-partner's entry unit. It equals what the
  protocol states as owed: the sum over the chunks splits into the two sums of credits, each is reindexed by the reversal
  of `Fin 32` and written out, and the second is joined to the first by associativity.
-/
import proofs.«900707_g7700000000000708_dist_ar_v7x_xyz2x2x4_x_m2048_n512_f32_1_alg».proof.Proof.Bits.Ledger

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Sums over the 32 chunks written out in descending order -/

open Lean Elab Term Meta in
/-- The sum `init + f i₀ + f i₁ + …` over the listed numerals of `Fin 32` (without `init` when there is none), associated
    to the left, every application of `f` beta-reduced. -/
def elabChain (init? : Option Syntax) (f : Syntax) (idx : List Nat) (ty? : Option Expr) : TermElabM Expr := do
  let f : Term := ⟨f⟩
  let mut acc? : Option Term := init?.map (⟨·⟩)
  for i in idx do
    let n := Syntax.mkNumLit (toString i)
    let t ← `(($f) ($n : Fin 32))
    acc? := some (← match acc? with | none => pure t | some a => `($a + $t))
  let e ← elabTerm acc?.get! ty?
  synthesizeSyntheticMVarsNoPostponing
  Core.betaReduce (← instantiateMVars e)

/-- `chainD32% f` is `f 31 + f 30 + … + f 0`, associated to the left. -/
syntax (name := chainD32) "chainD32% " term : term
/-- `chainD32From% a, f` is `a + f 31 + f 30 + … + f 0`, associated to the left. -/
syntax (name := chainD32From) "chainD32From% " term ", " term : term

open Lean Elab Term in
@[term_elab chainD32] def elabChainD32 : TermElab := fun stx ty? =>
  match stx with
  | `(chainD32% $f) => elabChain none f (List.range 32).reverse ty?
  | _ => throwUnsupportedSyntax

open Lean Elab Term in
@[term_elab chainD32From] def elabChainD32From : TermElab := fun stx ty? =>
  match stx with
  | `(chainD32From% $a, $f) => elabChain (some a) f (List.range 32).reverse ty?
  | _ => throwUnsupportedSyntax

theorem sum_fin32_desc {M : Type} [AddCommMonoid M] (f : Fin 32 → M) : ∑ k, f k = chainD32% f := by
  rw [← Equiv.sum_comp Fin.revPerm f, sum_fin32]
  rfl

theorem sum_fin32_desc_from {M : Type} [AddCommMonoid M] (a : M) (f : Fin 32 → M) : a + ∑ k, f k = chainD32From% a, f := by
  rw [sum_fin32_desc f]
  simp only [← add_assoc]

/-! ## What a device owes at launch, last paid first -/

/-- Everything device c owes at launch as one sum associated to the left, in the reverse of the order in which it is paid:
    the y-receive credits of chunks 31 down to 0, the x-receive credits of chunks 31 down to 0, the unit to the y-partner's
    entry cell, the unit to the x-partner's entry cell. -/
def owedRev (c : Dev nD) : CellTallies nD τ sig Unit :=
  (chainD32From% (chainD32% fun k : Fin 32 => tallyAt (yrCell (yp c) k) () Nc), fun k : Fin 32 => tallyAt (xrCell (xp c) k) () Nc)
    + tallyAt (barCell (yp c)) () 1 + tallyAt (barCell (xp c)) () 1

theorem owedXfer_rev (c : Dev nD) :
    owedXfer c = chainD32From% (chainD32% fun k : Fin 32 => tallyAt (yrCell (yp c) k) () Nc), fun k : Fin 32 => tallyAt (xrCell (xp c) k) () Nc := by
  unfold owedXfer
  rw [Finset.sum_add_distrib, add_comm (∑ k : Fin 32, tallyAt (xrCell (xp c) k) () Nc) _,
    sum_fin32_desc fun k : Fin 32 => tallyAt (yrCell (yp c) k) () Nc]
  exact sum_fin32_desc_from _ fun k : Fin 32 => tallyAt (xrCell (xp c) k) () Nc

theorem O₀_rev (c : Dev nD) : O₀ c = owedRev c := by
  unfold O₀ O₁ owedRev
  rw [owedXfer_rev]

/-- The last summands come off syntactically. -/
example (c : Dev nD) : ∃ R, owedRev c = R + tallyAt (barCell (xp c)) () 1 := ⟨_, by unfold owedRev; with_reducible rfl⟩
example (c : Dev nD) : ∃ R, owedRev c = R + tallyAt (xrCell (xp c) 1) () Nc + tallyAt (xrCell (xp c) 0) () Nc + tallyAt (barCell (yp c)) () 1 + tallyAt (barCell (xp c)) () 1 :=
  ⟨_, by unfold owedRev; with_reducible rfl⟩

/-- info: 'Cert.KernelProof.O₀_rev' depends on axioms: [propext, Classical.choice, Quot.sound] -/
#guard_msgs in #print axioms O₀_rev

end Cert.KernelProof

end
-- ==== Proof.Bits.Buffers.lean ====
/-
  Cutting and joining buffers around the body's run, and what a landed chunk holds.

  A landing buffer [32, 32, 512] is its 32 chunks {i | i 0 = k}; chunk k's index (r, j) sits at (k, r, j). The rows the
  x-transfer of chunk k reads on device c are rows 1024 · y + 32 · k + r of its staged block, y its y coordinate. So what
  lands in chunk k of the x-partner's first landing buffer is, at (k, r, j), the sender's block at row
  1024 · y + 32 · k + r, column j: the contents the schedule names for that chunk; and the forwarded chunk lands in the
  y-partner's second landing buffer as the contents named there.
-/
import proofs.«900707_g7700000000000708_dist_ar_v7x_xyz2x2x4_x_m2048_n512_f32_1_alg».proof.Proof.Bits.Proto
import Idealize.ShloMosaic.Rules.PointsTo
import Idealize.ShloMosaic.Lib.Pipeline.Value
import Idealize.ShloMosaic.Lib.ValueLayout

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Where a chunk's and a row block's indices sit -/

/-- Index (r, j) of chunk k of the first landing buffer sits at (k, r, j). -/
theorem aChunk_emb (k : Fin 32) (x : S32x512.Idx) :
    (chunkOf aM k).view.emb x = ix3 k (⟨(x 0).val, idx2_lt0 x⟩ : Fin 32) (⟨(x 1).val, idx2_lt1 x⟩ : Fin 512) := by
  obtain ⟨p, q, rfl⟩ : ∃ (p : Fin 32) (q : Fin 512), x = ix2 p q := ⟨x 0, x 1, eq_ix2 x⟩
  show (Rect.unit (s := S32x32x512) ![k.val, 0, 0] S1x32x512.size (inbA k)).emb
      (Shape.reshapeEquiv squeezes_S1x32x512_S32x512.numel_eq (ix2 p q)) = _
  rw [reshapeEquiv_ix2_1ab]
  funext a
  refine Fin.ext ?_
  match a with
  | ⟨0, _⟩ => show k.val + 1 * 0 = k.val; omega
  | ⟨1, _⟩ => show 0 + 1 * p.val = p.val; omega
  | ⟨2, _⟩ => show 0 + 1 * q.val = q.val; omega

/-- The same for the second landing buffer. -/
theorem bChunk_emb (k : Fin 32) (x : S32x512.Idx) :
    (chunkOf bM k).view.emb x = ix3 k (⟨(x 0).val, idx2_lt0 x⟩ : Fin 32) (⟨(x 1).val, idx2_lt1 x⟩ : Fin 512) := by
  obtain ⟨p, q, rfl⟩ : ∃ (p : Fin 32) (q : Fin 512), x = ix2 p q := ⟨x 0, x 1, eq_ix2 x⟩
  show (Rect.unit (s := S32x32x512) ![k.val, 0, 0] S1x32x512.size (inbA k)).emb
      (Shape.reshapeEquiv squeezes_S1x32x512_S32x512.numel_eq (ix2 p q)) = _
  rw [reshapeEquiv_ix2_1ab]
  funext a
  refine Fin.ext ?_
  match a with
  | ⟨0, _⟩ => show k.val + 1 * 0 = k.val; omega
  | ⟨1, _⟩ => show 0 + 1 * p.val = p.val; omega
  | ⟨2, _⟩ => show 0 + 1 * q.val = q.val; omega

/-- Index (r, j) of the rows the x-transfer of chunk k reads on device c sits at row 1024 · y + 32 · k + r, column j of
    the staged block, y the device's y coordinate. -/
theorem rowsX_emb (c : Dev nD) (k : Fin 32) (x : S32x512.Idx) :
    (rowsX c k).view.emb x = rowIx (yc c) (yc_lt c) (ix3 k (⟨(x 0).val, idx2_lt0 x⟩ : Fin 32) (⟨(x 1).val, idx2_lt1 x⟩ : Fin 512)) := by
  have h0 := idx2_lt0 x
  funext a
  refine Fin.ext ?_
  show (k0_off1 c (BitVec.ofNat 32 (32 * k.val))) a + 1 * (x a).val = _
  rw [k0_off1_eq c k]
  match a with
  | ⟨0, _⟩ => show 1024 * ((c.val / 4) % 2) + 32 * k.val + 1 * (x 0).val = 1024 * ((c.val / 4) % 2) + 32 * k.val + (x 0).val; omega
  | ⟨1, _⟩ => show 0 + 1 * (x 1).val = (x 1).val; omega

/-- `rowIx` depends on its half only through its value. -/
theorem rowIx_congr {h h' : ℕ} (e : h = h') (hh : h < 2) (hh' : h' < 2) (i : S32x32x512.Idx) :
    rowIx h hh i = rowIx h' hh' i := by subst e; rfl

/-! ## The landings -/

/-- What the x-transfer of chunk k from device c leaves in chunk k of the x-partner's first landing buffer is what the
    schedule names there: at (k, r, j) the sender's block at row 1024 · y + 32 · k + r, column j; the sender is the
    x-partner's x-partner and has the x-partner's y coordinate. -/
theorem landing_x (c : Dev nD) (k : Fin 32) (fd : Buf (Elt F) ((chunkOf aM k).view.loc ((xp c : Dev nD) : Thread nD τ))) :
    ((chunkOf aM k).view.loc ((xp c : Dev nD) : Thread nD τ) ↦[(chunkOf aM k).view.set]{fullShare}
        (chunkOf aM k).view.write (Elt F) fd ((rowsX c k).view.read (Elt F) (xstg m ρ c)) Finset.univ : sProp 𝕄)
      ⊢ aChunk (xp c) k fullShare (xcommFull m ρ (xp c)) := by
  unfold aChunk
  refine Entails.of_eq (pointsTo_congr fun i hi => ?_)
  obtain ⟨x, rfl⟩ := View.exists_emb_of_mem_set _ hi
  rw [View.write_emb_of_mem _ _ (Finset.mem_univ x), View.read_apply, cast_cast, cast_eq]
  unfold xcommFull
  rw [aChunk_emb, rowsX_emb, xp_xp, rowIx_congr (yc_xp c) _ (yc_lt c)]

/-- What the y-transfer of chunk k from device c (a forward of chunk k of its first landing buffer) leaves in chunk k of
    the y-partner's second landing buffer is what the schedule names there: the first landing buffer of the y-partner's
    y-partner, which is the sender. -/
theorem landing_y (c : Dev nD) (k : Fin 32) (fd : Buf (Elt F) ((chunkOf bM k).view.loc ((yp c : Dev nD) : Thread nD τ))) :
    ((chunkOf bM k).view.loc ((yp c : Dev nD) : Thread nD τ) ↦[(chunkOf bM k).view.set]{fullShare}
        (chunkOf bM k).view.write (Elt F) fd ((chunkOf aM k).view.read (Elt F) (xcommFull m ρ c)) Finset.univ : sProp 𝕄)
      ⊢ bChunk (yp c) k fullShare (ycommFull m ρ (yp c)) := by
  unfold bChunk
  refine Entails.of_eq (pointsTo_congr fun i hi => ?_)
  obtain ⟨x, rfl⟩ := View.exists_emb_of_mem_set _ hi
  rw [View.write_emb_of_mem _ _ (Finset.mem_univ x), View.read_apply, cast_cast, cast_eq]
  unfold ycommFull xcommFull
  rw [aChunk_emb, bChunk_emb, rowIx_congr (congrArg yc (yp_yp c)) _ (yc_lt c), yp_yp]

/-! ## A share's two halves -/

/-- A points-to at the full share is the same at its left and at its right half. -/
theorem pts_halves (ℓ : Loc nD τ sig) (S : Finset (Idx ℓ)) (f : Buf (Elt F) ℓ) :
    (ℓ ↦[S]{fullShare} f : sProp 𝕄) ⊣⊢ iprop((ℓ ↦[S]{fullShare.left} f) ∗ (ℓ ↦[S]{fullShare.right} f)) :=
  pointsTo_share (PosShare.mem_left_op_right fullShare)

/-! ## A landing buffer is its 32 chunks -/

/-- Chunk k of the first landing buffer is the indices whose leading coordinate is k. -/
theorem mem_aChunk_set (k : Fin 32) (i : S32x32x512.Idx) : i ∈ (chunkOf aM k).view.set ↔ (i 0).val = k.val := by
  constructor
  · intro hi
    obtain ⟨x, rfl⟩ := View.exists_emb_of_mem_set _ hi
    rw [aChunk_emb]
  · intro h
    have e : (chunkOf aM k).view.emb (ix2 (⟨(i 1).val, (i 1).isLt⟩ : Fin 32) (⟨(i 2).val, (i 2).isLt⟩ : Fin 512)) = i := by
      rw [aChunk_emb]
      funext a
      refine Fin.ext ?_
      match a with
      | ⟨0, _⟩ => exact h.symm
      | ⟨1, _⟩ => rfl
      | ⟨2, _⟩ => rfl
    rw [← e]
    exact View.emb_mem_set _ _

/-- The same for the second landing buffer. -/
theorem mem_bChunk_set (k : Fin 32) (i : S32x32x512.Idx) : i ∈ (chunkOf bM k).view.set ↔ (i 0).val = k.val := by
  constructor
  · intro hi
    obtain ⟨x, rfl⟩ := View.exists_emb_of_mem_set _ hi
    rw [bChunk_emb]
  · intro h
    have e : (chunkOf bM k).view.emb (ix2 (⟨(i 1).val, (i 1).isLt⟩ : Fin 32) (⟨(i 2).val, (i 2).isLt⟩ : Fin 512)) = i := by
      rw [bChunk_emb]
      funext a
      refine Fin.ext ?_
      match a with
      | ⟨0, _⟩ => exact h.symm
      | ⟨1, _⟩ => rfl
      | ⟨2, _⟩ => rfl
    rw [← e]
    exact View.emb_mem_set _ _

/-- The first landing buffer, whole, is its 32 chunks: they are pairwise disjoint and cover it. -/
theorem aWhole_chunks (c : Dev nD) (f : Buf (Elt F) (aM.view.loc (c : Thread nD τ))) :
    (aWhole c f : sProp 𝕄) ⊣⊢ bigSep Finset.univ (fun k : Fin 32 => aChunk c k fullShare f) := by
  have hU : aM.view.set = Finset.univ.biUnion fun k : Fin 32 => (chunkOf aM k).view.set := by
    rw [View.set_whole]
    refine (Finset.eq_univ_iff_forall.mpr fun i => ?_).symm
    exact Finset.mem_biUnion.mpr ⟨⟨(i 0).val, (i 0).isLt⟩, Finset.mem_univ _, (mem_aChunk_set _ i).mpr rfl⟩
  refine BiEntails.of_eq ?_
  unfold aWhole aChunk
  rw [hU, pointsTo_biUnion _ _ fun k _ k' _ hne => Finset.disjoint_left.mpr fun i hi hi' =>
    hne (Fin.ext (((mem_aChunk_set k i).mp hi).symm.trans ((mem_aChunk_set k' i).mp hi')))]

/-- The second landing buffer, whole, is its 32 chunks. -/
theorem bWhole_chunks (c : Dev nD) (f : Buf (Elt F) (bM.view.loc (c : Thread nD τ))) :
    (bWhole c f : sProp 𝕄) ⊣⊢ bigSep Finset.univ (fun k : Fin 32 => bChunk c k fullShare f) := by
  have hU : bM.view.set = Finset.univ.biUnion fun k : Fin 32 => (chunkOf bM k).view.set := by
    rw [View.set_whole]
    refine (Finset.eq_univ_iff_forall.mpr fun i => ?_).symm
    exact Finset.mem_biUnion.mpr ⟨⟨(i 0).val, (i 0).isLt⟩, Finset.mem_univ _, (mem_bChunk_set _ i).mpr rfl⟩
  refine BiEntails.of_eq ?_
  unfold bWhole bChunk
  rw [hU, pointsTo_biUnion _ _ fun k _ k' _ hne => Finset.disjoint_left.mpr fun i hi hi' =>
    hne (Fin.ext (((mem_bChunk_set k i).mp hi).symm.trans ((mem_bChunk_set k' i).mp hi')))]

/-! ## The rows the x-transfers lend -/

/-- The rows the x-transfer of chunk k reads on device c lie in rows [1024 · y + 32 · k, 1024 · y + 32 · k + 32). -/
theorem mem_rowsX_set (c : Dev nD) (k : Fin 32) (i : S2048x512.Idx) (hi : i ∈ (rowsX c k).view.set) :
    1024 * yc c + 32 * k.val ≤ (i 0).val ∧ (i 0).val < 1024 * yc c + 32 * k.val + 32 := by
  obtain ⟨x, rfl⟩ := View.exists_emb_of_mem_set _ hi
  rw [rowsX_emb]
  have h0 := idx2_lt0 x
  show 1024 * yc c + 32 * k.val ≤ 1024 * yc c + 32 * k.val + (x 0).val
    ∧ 1024 * yc c + 32 * k.val + (x 0).val < 1024 * yc c + 32 * k.val + 32
  omega

/-- The staged block at the full share: the whole block at the right half share (it stays, for the loads), and the left
    half cut into the 32 row blocks the x-transfers lend and the rest. -/
theorem xrows_cut (c : Dev nD) (f : (cc0_stg0_0 : Ref sig .tc).ty.Contents (Elt F)) :
    (((c : Thread nD τ).loc cc0_stg0_0) ↦{fullShare} f : sProp 𝕄) ⊣⊢
      iprop((((c : Thread nD τ).loc cc0_stg0_0) ↦{fullShare.right} f)
        ∗ (bigSep Finset.univ fun k : Fin 32 =>
            ((rowsX c k).view.loc (c : Thread nD τ) ↦[(rowsX c k).view.set]{fullShare.left} f))
        ∗ (((c : Thread nD τ).loc cc0_stg0_0)
            ↦[Finset.univ \ (Finset.univ.biUnion fun k : Fin 32 => (rowsX c k).view.set)]{fullShare.left} f)) := by
  have hd : ∀ k ∈ (Finset.univ : Finset (Fin 32)), ∀ k' ∈ (Finset.univ : Finset (Fin 32)), k ≠ k' →
      Disjoint (rowsX c k).view.set (rowsX c k').view.set :=
    fun k _ k' _ hne => Finset.disjoint_left.mpr fun i hi hi' => hne (Fin.ext (by
      have h1 := mem_rowsX_set c k i hi
      have h2 := mem_rowsX_set c k' i hi'
      omega))
  have e1 := pts_halves (F := F) ((c : Thread nD τ).loc cc0_stg0_0) Finset.univ f
  have e2 := pointsTo_split_subset (nD := nD) (τ := τ) (sig := sig) (Val := Elt F) (Ix := Unit) (Name := ℕ) (U := UU) (Lvl := ℕ)
    (ℓ := (c : Thread nD τ).loc cc0_stg0_0) (q := fullShare.left) (f := f)
    (I := Finset.univ.biUnion fun k : Fin 32 => (rowsX c k).view.set) (S := Finset.univ) (Finset.subset_univ _)
  have e3 := pointsTo_biUnion (nD := nD) (τ := τ) (sig := sig) (Val := Elt F) (Ix := Unit) (Name := ℕ) (U := UU) (Lvl := ℕ)
    (ℓ := (c : Thread nD τ).loc cc0_stg0_0) (q := fullShare.left) (f := f) Finset.univ
    (fun k : Fin 32 => (rowsX c k).view.set) hd
  refine e1.trans (sep_comm.trans (sep_congr_right ?_))
  refine e2.trans (sep_congr_left ?_)
  exact BiEntails.of_eq (e3.trans rfl)

/-- info: 'Cert.KernelProof.landing_x' depends on axioms: [propext, Classical.choice, Quot.sound] -/
#guard_msgs in #print axioms landing_x
/-- info: 'Cert.KernelProof.landing_y' depends on axioms: [propext, Classical.choice, Quot.sound] -/
#guard_msgs in #print axioms landing_y
/-- info: 'Cert.KernelProof.xrows_cut' depends on axioms: [propext, Classical.choice, Quot.sound] -/
#guard_msgs in #print axioms xrows_cut

/-- The same landing read from the receiver's side: what the x-partner's x-transfer of chunk k leaves in chunk k of
    device c's first landing buffer is what the schedule names there; the sender reads its rows at its own y coordinate,
    which is the receiver's. -/
theorem landing_x_own (c : Dev nD) (k : Fin 32) (fd : Buf (Elt F) ((chunkOf aM k).view.loc (c : Thread nD τ))) :
    ((chunkOf aM k).view.loc (c : Thread nD τ) ↦[(chunkOf aM k).view.set]{fullShare}
        (chunkOf aM k).view.write (Elt F) fd ((rowsX (xp c) k).view.read (Elt F) (xstg m ρ (xp c))) Finset.univ : sProp 𝕄)
      ⊢ ((chunkOf aM k).view.loc (c : Thread nD τ) ↦[(chunkOf aM k).view.set]{fullShare} xcommFull m ρ c) := by
  refine Entails.of_eq (pointsTo_congr fun i hi => ?_)
  obtain ⟨x, rfl⟩ := View.exists_emb_of_mem_set _ hi
  rw [View.write_emb_of_mem _ _ (Finset.mem_univ x), View.read_apply, cast_cast, cast_eq]
  unfold xcommFull
  rw [aChunk_emb, rowsX_emb, rowIx_congr (yc_xp c) _ (yc_lt c)]

/-- info: 'Cert.KernelProof.landing_x_own' depends on axioms: [propext, Classical.choice, Quot.sound] -/
#guard_msgs in #print axioms landing_x_own

/-- The second landing read from the receiver's side: what the y-partner's forward of chunk k leaves in chunk k of
    device c's second landing buffer is what the schedule names there, chunk k of the y-partner's first landing buffer. -/
theorem landing_y_own (c : Dev nD) (k : Fin 32) (fd : Buf (Elt F) ((chunkOf bM k).view.loc (c : Thread nD τ))) :
    ((chunkOf bM k).view.loc (c : Thread nD τ) ↦[(chunkOf bM k).view.set]{fullShare}
        (chunkOf bM k).view.write (Elt F) fd ((chunkOf aM k).view.read (Elt F) (xcommFull m ρ (yp c))) Finset.univ : sProp 𝕄)
      ⊢ ((chunkOf bM k).view.loc (c : Thread nD τ) ↦[(chunkOf bM k).view.set]{fullShare} ycommFull m ρ c) := by
  refine Entails.of_eq (pointsTo_congr fun i hi => ?_)
  obtain ⟨x, rfl⟩ := View.exists_emb_of_mem_set _ hi
  rw [View.write_emb_of_mem _ _ (Finset.mem_univ x), View.read_apply, cast_cast, cast_eq]
  unfold ycommFull xcommFull
  rw [aChunk_emb, bChunk_emb]

/-- info: 'Cert.KernelProof.landing_y_own' depends on axioms: [propext, Classical.choice, Quot.sound] -/
#guard_msgs in #print axioms landing_y_own

end Cert.KernelProof

end
-- ==== Proof.Bits.Sends.lean ====
/-
  The two remote transfers of a chunk, as the rounds discipline takes them, at a symbolic chunk k. The x-transfer sends
  the 32 rows of the own block that chunk k covers into chunk k of the x-partner's first landing buffer; it pays the own
  x-send cell (handing back the lent half share of the rows once they are read) and the x-partner's x-receive cell
  (handing it the chunk, rewritten with those rows). The y-transfer forwards chunk k of the own first landing buffer into
  chunk k of the y-partner's second landing buffer; it pays the own y-send cell and the y-partner's y-receive cell.
-/
import proofs.«900707_g7700000000000708_dist_ar_v7x_xyz2x2x4_x_m2048_n512_f32_1_alg».proof.Proof.Bits.Proto

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- A chunk transfer's credit, as a number. -/
private theorem Nc_2048 : Nc = 2048 := by decide

omit [FloatOps F] in
private theorem rec_inv (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)
omit [FloatOps F] in
private theorem rec_reached (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- What the x-receive cell of the x-partner is handed: its chunk rewritten with the sender's rows (the x-partner's
    x-partner is the sender). -/
theorem payload_xr_xp (c : Dev nD) (k : Fin 32) :
    (sched (F := F) m ρ).payload (xrCell (xp c) k) 0 false
      = iprop(∃ fd : Buf (Elt F) ((chunkOf aM k).view.loc ((xp c : Dev nD) : Thread nD τ)),
          (chunkOf aM k).view.loc ((xp c : Dev nD) : Thread nD τ) ↦[(chunkOf aM k).view.set]{fullShare}
            (chunkOf aM k).view.write (Elt F) fd ((rowsX c k).view.read (Elt F) (xstg m ρ c)) Finset.univ) := by
  rw [payload_xfer]; unfold xferPay; rw [xp_xp]

omit [FloatOps F] in
/-- What the y-receive cell of the y-partner is handed: its chunk rewritten with the sender's landed chunk. -/
theorem payload_yr_yp (c : Dev nD) (k : Fin 32) :
    (sched (F := F) m ρ).payload (yrCell (yp c) k) 0 false
      = iprop(∃ fd : Buf (Elt F) ((chunkOf bM k).view.loc ((yp c : Dev nD) : Thread nD τ)),
          (chunkOf bM k).view.loc ((yp c : Dev nD) : Thread nD τ) ↦[(chunkOf bM k).view.set]{fullShare}
            (chunkOf bM k).view.write (Elt F) fd ((chunkOf aM k).view.read (Elt F) (xcommFull m ρ c)) Finset.univ) := by
  rw [payload_xfer]; unfold xferPay; rw [yp_yp]

/-- The x-transfer of chunk k from device c to its x-partner. -/
theorem wp_xsend (K : Dev nD × CIx → ℕ) (c : Dev nD) (k : Fin 32) (n : Dev nD) (hn : n = xp c)
    {hsc : ((chunkOf aM k) : Memref sig (Dev.tc n : Thread nD τ).2.kind .vmem S32x512 .f32).view.ref.isScScratch = false}
    {hsrc : (rowsX c k).view.WordExact} {hdst : (chunkOf aM k).view.WordExact}
    {hsem : DmaTarget.Typed .vmem (.dma (semAt cc0_scratch3 k)) (.remote (Dev.tc n : Thread nD τ) (chunkOf aM k) (.dma (semAt cc0_scratch2 k)) hsc)}
    {α : Type} {Q : α → sProp 𝕄} {kont : PUnit → Prog (TpuEff nD τ sig (Elt F) Λ₀ .tc) α}
    (fd : Buf (Elt F) ((chunkOf aM k).view.loc ((xp c : Dev nD) : Thread nD τ))) (O : CellTallies nD τ sig Unit) (W : Waits sig Unit) :
    iprop(records m ρ K
        ∗ ((rowsX c k).view.loc (c : Thread nD τ) ↦[(rowsX c k).view.set]{fullShare.left} xstg m ρ c)
        ∗ ((chunkOf aM k).view.loc ((xp c : Dev nD) : Thread nD τ) ↦[(chunkOf aM k).view.set]{fullShare} fd)
        ∗ owes (c : Thread nD τ) (O + tallyAt (xrCell (xp c) k) () 2048) W
        ∗ dutyTok ER (xsCell c k) 0 false ∗ dutyTok ER (xrCell (xp c) k) 0 false)
      ⊢ iprop(((cred (tallyAt (xsCell c k) () 2048) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowsX c k) (.remote (Dev.tc n : Thread nD τ) (chunkOf aM k) (.dma (semAt cc0_scratch2 k)) hsc) (.dma (semAt cc0_scratch3 k)) hsrc hdst hsem) kont) Q) := by
  subst hn
  refine BIBase.Entails.trans ?_ (Rounds.wp_send_pointsTo 𝒱₀ ER (sched m ρ) (c : Thread nD τ) none
    (κ₁ := K (c, some (0, k))) (κ₂ := K (xp c, some (1, k))) (r₁ := 0) (r₂ := 0) (d₁ := false) (d₂ := false)
    (q := fullShare.left) (fs := xstg m ρ c) (fd := fd)
    (show false ∈ (sched (F := F) m ρ).duties (kcell (c, some (0, k))) 0 by rw [duties_xfer]; exact Finset.mem_singleton_self _)
    (show false ∈ (sched (F := F) m ρ).duties (kcell (xp c, some (1, k))) 0 by rw [duties_xfer]; exact Finset.mem_singleton_self _)
    () () 2048 rfl
    ((amount_xfer m ρ c 0 k false).trans Nc_2048) ((amount_xfer m ρ (xp c) 1 k false).trans Nc_2048)
    O rfl (W := W)
    (show _ ⊢ (sched (F := F) m ρ).payload (kcell (c, some (0, k))) 0 false by rw [payload_xfer]; unfold xferPay xRows; exact .refl)
    (show _ ⊢ (sched (F := F) m ρ).payload (xrCell (xp c) k) 0 false by
      rw [payload_xr_xp]; iintro H; iexists fd; iexact H))
  unfold records
  iintro ⟨⟨#HI, #Hr⟩, Hsrc, Hdst, HO, Ht1, Ht2⟩
  isplitr; · iapply (rec_inv m ρ K (c, some (0, k))); iexact HI
  isplitr; · iapply (rec_inv m ρ K (xp c, some (1, k))); iexact HI
  isplitl [Hsrc]; · iexact Hsrc
  isplitl [Hdst]; · iexact Hdst
  isplitl [HO]; · iexact HO
  isplitl [Ht1]; · iexact Ht1
  isplitr; · iapply (rec_reached (F := F) (c, some (0, k))); iexact Hr
  isplitl [Ht2]; · iexact Ht2
  iapply (rec_reached (F := F) (xp c, some (1, k))); iexact Hr

/-- The y-transfer of chunk k from device c to its y-partner: the landed chunk of the first landing buffer forwarded. -/
theorem wp_ysend (K : Dev nD × CIx → ℕ) (c : Dev nD) (k : Fin 32) (n : Dev nD) (hn : n = yp c)
    {hsc : ((chunkOf bM k) : Memref sig (Dev.tc n : Thread nD τ).2.kind .vmem S32x512 .f32).view.ref.isScScratch = false}
    {hsrc : (chunkOf aM k).view.WordExact} {hdst : (chunkOf bM k).view.WordExact}
    {hsem : DmaTarget.Typed .vmem (.dma (semAt cc0_scratch5 k)) (.remote (Dev.tc n : Thread nD τ) (chunkOf bM k) (.dma (semAt cc0_scratch4 k)) hsc)}
    {α : Type} {Q : α → sProp 𝕄} {kont : PUnit → Prog (TpuEff nD τ sig (Elt F) Λ₀ .tc) α}
    (fd : Buf (Elt F) ((chunkOf bM k).view.loc ((yp c : Dev nD) : Thread nD τ))) (O : CellTallies nD τ sig Unit) (W : Waits sig Unit) :
    iprop(records m ρ K
        ∗ ((chunkOf aM k).view.loc (c : Thread nD τ) ↦[(chunkOf aM k).view.set]{fullShare.left} xcommFull m ρ c)
        ∗ ((chunkOf bM k).view.loc ((yp c : Dev nD) : Thread nD τ) ↦[(chunkOf bM k).view.set]{fullShare} fd)
        ∗ owes (c : Thread nD τ) (O + tallyAt (yrCell (yp c) k) () 2048) W
        ∗ dutyTok ER (ysCell c k) 0 false ∗ dutyTok ER (yrCell (yp c) k) 0 false)
      ⊢ iprop(((cred (tallyAt (ysCell c k) () 2048) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkOf aM k) (.remote (Dev.tc n : Thread nD τ) (chunkOf bM k) (.dma (semAt cc0_scratch4 k)) hsc) (.dma (semAt cc0_scratch5 k)) hsrc hdst hsem) kont) Q) := by
  subst hn
  refine BIBase.Entails.trans ?_ (Rounds.wp_send_pointsTo 𝒱₀ ER (sched m ρ) (c : Thread nD τ) none
    (κ₁ := K (c, some (2, k))) (κ₂ := K (yp c, some (3, k))) (r₁ := 0) (r₂ := 0) (d₁ := false) (d₂ := false)
    (q := fullShare.left) (fs := xcommFull m ρ c) (fd := fd)
    (show false ∈ (sched (F := F) m ρ).duties (kcell (c, some (2, k))) 0 by rw [duties_xfer]; exact Finset.mem_singleton_self _)
    (show false ∈ (sched (F := F) m ρ).duties (kcell (yp c, some (3, k))) 0 by rw [duties_xfer]; exact Finset.mem_singleton_self _)
    () () 2048 rfl
    ((amount_xfer m ρ c 2 k false).trans Nc_2048) ((amount_xfer m ρ (yp c) 3 k false).trans Nc_2048)
    O rfl (W := W)
    (show _ ⊢ (sched (F := F) m ρ).payload (kcell (c, some (2, k))) 0 false by rw [payload_xfer]; unfold xferPay aChunk; exact .refl)
    (show _ ⊢ (sched (F := F) m ρ).payload (yrCell (yp c) k) 0 false by
      rw [payload_yr_yp]; iintro H; iexists fd; iexact H))
  unfold records
  iintro ⟨⟨#HI, #Hr⟩, Hsrc, Hdst, HO, Ht1, Ht2⟩
  isplitr; · iapply (rec_inv m ρ K (c, some (2, k))); iexact HI
  isplitr; · iapply (rec_inv m ρ K (yp c, some (3, k))); iexact HI
  isplitl [Hsrc]; · iexact Hsrc
  isplitl [Hdst]; · iexact Hdst
  isplitl [HO]; · iexact HO
  isplitl [Ht1]; · iexact Ht1
  isplitr; · iapply (rec_reached (F := F) (c, some (2, k))); iexact Hr
  isplitl [Ht2]; · iexact Ht2
  iapply (rec_reached (F := F) (yp c, some (3, k))); iexact Hr

/-- info: 'Cert.KernelProof.wp_xsend' depends on axioms: [propext, Classical.choice, Quot.sound] -/
#guard_msgs in #print axioms wp_xsend
/-- info: 'Cert.KernelProof.wp_ysend' depends on axioms: [propext, Classical.choice, Quot.sound] -/
#guard_msgs in #print axioms wp_ysend

end Cert.KernelProof

end
-- ==== Proof.Bits.Closing.lean ====
/-
  The end of a device's run: a transfer cell past its one round is closed and its counter read at zero; the chunks of
  the two landing buffers are joined back into the whole buffers; the staged block's lent row blocks, the rest of its
  left half and its right half are joined back into the block at the full share.
-/
import proofs.«900707_g7700000000000708_dist_ar_v7x_xyz2x2x4_x_m2048_n512_f32_1_alg».proof.Proof.Bits.Shapes
import proofs.«900707_g7700000000000708_dist_ar_v7x_xyz2x2x4_x_m2048_n512_f32_1_alg».proof.Proof.Bits.Buffers

noncomputable section

namespace Cert.KernelProof

open Cert.Kernel Cert.Kernel.Gen Cert.Mesh Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A transfer cell has its one duty in round 0 and none after: its owner, at round 1 with nothing taken or consumed, closes
    it and keeps the counter, which stands at zero. -/
theorem close_xfer (K : Dev nD × CIx → ℕ) (c : Dev nD) (jk : Fin 4 × Fin 32) :
    iprop(cellInv ER (sched m ρ) (K (c, some jk)) (kcell (c, some jk)) ∗ atPos ER (kcell (c, some jk)) (0 + 1) ∅ 0)
      ⊢ |={Set.univ}=> (semVal (kcell (c, some jk)) 0 : sProp 𝕄) :=
  Rounds.cell_close ER (sched m ρ) (Set.mem_univ (K (c, some jk))) (fun h => h) (R := 0 + 1) (duties_later m ρ (kcell (c, some jk)))

/-- The first landing buffer's 32 chunks, each held as its two half shares, all landed: the buffer whole. -/
theorem a_rejoin (c : Dev nD) :
    (bigSepL fin32list% fun k : Fin 32 => iprop(aChunk c k fullShare.left (xcommFull m ρ c) ∗ aChunk c k fullShare.right (xcommFull m ρ c)) : sProp 𝕄)
      ⊢ iprop(∃ f, aWhole c f) := by
  rw [← bigSep_fin32]
  refine (bigSep_mono fun k _ => ?_).trans ((aWhole_chunks c (xcommFull m ρ c)).mpr.trans ?_)
  · unfold aChunk; exact (pts_halves _ _ _).mpr
  · iintro H; iexists (xcommFull m ρ c); iexact H

/-- The second landing buffer's 32 chunks, all landed: the buffer whole. -/
theorem b_rejoin (c : Dev nD) :
    (bigSepL fin32list% fun k : Fin 32 => bChunk c k fullShare (ycommFull m ρ c) : sProp 𝕄) ⊢ iprop(∃ f, bWhole c f) := by
  rw [← bigSep_fin32]
  refine (bWhole_chunks c (ycommFull m ρ c)).mpr.trans ?_
  iintro H; iexists (ycommFull m ρ c); iexact H

/-- The staged block's right half share, the 32 row blocks its left half lent to the x-transfers, and the rest of the left
    half: the block at the full share. -/
theorem x_rejoin (c : Dev nD) (f : (cc0_stg0_0 : Ref sig .tc).ty.Contents (Elt F)) :
    iprop((xM.view.loc (c : Thread nD τ) ↦[xM.view.set]{fullShare.right} f)
        ∗ (bigSepL fin32list% fun k : Fin 32 => ((rowsX c k).view.loc (c : Thread nD τ) ↦[(rowsX c k).view.set]{fullShare.left} f))
        ∗ (((c : Thread nD τ).loc cc0_stg0_0) ↦[Finset.univ \ (Finset.univ.biUnion fun k : Fin 32 => (rowsX c k).view.set)]{fullShare.left} f))
      ⊢ (((c : Thread nD τ).loc cc0_stg0_0) ↦{fullShare} f : sProp 𝕄) := by
  rw [View.set_whole, ← bigSep_fin32]
  exact (xrows_cut c f).mpr

/-- info: 'Cert.KernelProof.close_xfer' depends on axioms: [propext, Classical.choice, Quot.sound] -/
#guard_msgs in #print axioms close_xfer
/-- info: 'Cert.KernelProof.a_rejoin' depends on axioms: [propext, Classical.choice, Quot.sound] -/
#guard_msgs in #print axioms a_rejoin
/-- info: 'Cert.KernelProof.b_rejoin' depends on axioms: [propext, Classical.choice, Quot.sound] -/
#guard_msgs in #print axioms b_rejoin
/-- info: 'Cert.KernelProof.x_rejoin' depends on axioms: [propext, Classical.choice, Quot.sound] -/
#guard_msgs in #print axioms x_rejoin

omit [FloatOps F] in
private theorem table_inv (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)

omit [FloatOps F] in
/-- All 128 transfer cells of a device closed at once: each is past its one round with nothing taken or consumed; the
    invariants come from the table every device holds; the counters all stand at zero. -/
theorem close_all (K : Dev nD × CIx → ℕ) (c : Dev nD) :
    iprop(records m ρ K ∗ bigSepL fin32list% fun k : Fin 32 =>
        iprop(atPos ER (xsCell c k) (0 + 1) ∅ 0 ∗ atPos ER (xrCell c k) (0 + 1) ∅ 0 ∗ atPos ER (ysCell c k) (0 + 1) ∅ 0 ∗ atPos ER (yrCell c k) (0 + 1) ∅ 0))
      ⊢ |={Set.univ}=> (bigSep Finset.univ fun jk : Fin 4 × Fin 32 => semVal (kcell (c, some jk)) 0 : sProp 𝕄) := by
  rw [← xfer_chunks (fun jk : Fin 4 × Fin 32 => (atPos ER (kcell (c, some jk)) (0 + 1) ∅ 0 : sProp 𝕄))]
  refine (bigSep_with_persistent (R := records m ρ K)
    (Ψ := fun jk : Fin 4 × Fin 32 => iprop(|={Set.univ}=> (semVal (kcell (c, some jk)) 0 : sProp 𝕄))) fun jk _ => ?_).trans (bigSep_fupd _ _)
  unfold records
  iintro ⟨⟨#HI, -⟩, Hat⟩
  iapply (close_xfer m ρ K c jk)
  isplitr
  · iapply (table_inv m ρ K (c, some jk)); iexact HI
  · iexact Hat

/-- The second landing buffer's 32 chunks as the y-partner's forwards left them, whatever each held before: the buffer
    whole. -/
theorem b_rejoin' (c : Dev nD) (fy : (k : Fin 32) → Buf (Elt F) ((chunkOf bM k).view.loc (c : Thread nD τ))) :
    (bigSepL fin32list% fun k : Fin 32 => ((chunkOf bM k).view.loc (c : Thread nD τ) ↦[(chunkOf bM k).view.set]{fullShare}
        (chunkOf bM k).view.write (Elt F) (fy k) ((chunkOf aM k).view.read (Elt F) (xcommFull m ρ (yp c))) Finset.univ) : sProp 𝕄)
      ⊢ iprop(∃ f, bWhole c f) := by
  rw [← bigSep_fin32]
  refine (bigSep_mono (Ψ := fun k : Fin 32 => bChunk c k fullShare (ycommFull m ρ c)) fun k _ =>
    (landing_y_own m ρ c k (fy k)).trans (by unfold bChunk; exact .refl)).trans ?_
  refine (bWhole_chunks c (ycommFull m ρ c)).mpr.trans ?_
  iintro H; iexists (ycommFull m ρ c); iexact H

/-- info: 'Cert.KernelProof.close_all' depends on axioms: [propext, Classical.choice, Quot.sound] -/
#guard_msgs in #print axioms close_all
/-- info: 'Cert.KernelProof.b_rejoin'' depends on axioms: [propext, Classical.choice, Quot.sound] -/
#guard_msgs in #print axioms b_rejoin'

/-! ## The tail's pieces gathered chunk by chunk: each list is built from its last chunk down, one summand at a time -/

omit [FloatOps F] in
private theorem listL_cons {I : Type} (i : I) (l : List I) (Φ : I → sProp 𝕄) : bigSepL (i :: l) Φ = iprop(Φ i ∗ bigSepL l Φ) := by
  rw [bigSepL_cons]; rfl

omit [FloatOps F] in
/-- The empty list of summands holds outright. -/
theorem listL_nil {I : Type} (Φ : I → sProp 𝕄) : ⊢ (bigSepL [] Φ : sProp 𝕄) := by
  rw [bigSepL_nil]; iempintro

/-- A chunk's four positions, past the one round. -/
abbrev atL (c : Dev nD) : Fin 32 → sProp 𝕄 := fun k =>
  iprop(atPos ER (xsCell c k) (0 + 1) ∅ 0 ∗ atPos ER (xrCell c k) (0 + 1) ∅ 0 ∗ atPos ER (ysCell c k) (0 + 1) ∅ 0 ∗ atPos ER (yrCell c k) (0 + 1) ∅ 0)
/-- A chunk of the first landing buffer, landed, as its two half shares. -/
abbrev aL (c : Dev nD) : Fin 32 → sProp 𝕄 := fun k =>
  iprop(aChunk c k fullShare.left (xcommFull m ρ c) ∗ aChunk c k fullShare.right (xcommFull m ρ c))
/-- A chunk of the second landing buffer, landed. -/
abbrev bL (c : Dev nD) : Fin 32 → sProp 𝕄 := fun k => bChunk c k fullShare (ycommFull m ρ c)
/-- The row block of the staged block that a chunk's x-transfer was lent, back at the left half share. -/
abbrev xL (c : Dev nD) : Fin 32 → sProp 𝕄 := fun k =>
  ((rowsX c k).view.loc (c : Thread nD τ) ↦[(rowsX c k).view.set]{fullShare.left} xstg m ρ c)

omit [FloatOps F] in
private theorem aL_intro (c : Dev nD) (k : Fin 32) :
    iprop(((chunkOf aM k).view.loc (c : Thread nD τ) ↦[(chunkOf aM k).view.set]{fullShare.left} xcommFull m ρ c)
      ∗ ((chunkOf aM k).view.loc (c : Thread nD τ) ↦[(chunkOf aM k).view.set]{fullShare.right} xcommFull m ρ c)) ⊢ (aL m ρ c k : sProp 𝕄) := by
  show _ ⊢ iprop(aChunk c k fullShare.left (xcommFull m ρ c) ∗ aChunk c k fullShare.right (xcommFull m ρ c))
  unfold aChunk; exact .rfl
omit [FloatOps F] in
private theorem bL_intro (c : Dev nD) (k : Fin 32) :
    ((chunkOf bM k).view.loc (c : Thread nD τ) ↦[(chunkOf bM k).view.set]{fullShare} ycommFull m ρ c : sProp 𝕄) ⊢ bL m ρ c k := by
  show _ ⊢ bChunk c k fullShare (ycommFull m ρ c)
  unfold bChunk; exact .rfl

omit [FloatOps F] in
theorem at_cons (c : Dev nD) (k : Fin 32) (l : List (Fin 32)) :
    (atPos ER (xsCell c k) (0 + 1) ∅ 0 : sProp 𝕄) ⊢ iprop(atPos ER (xrCell c k) (0 + 1) ∅ 0 -∗ atPos ER (ysCell c k) (0 + 1) ∅ 0
      -∗ atPos ER (yrCell c k) (0 + 1) ∅ 0 -∗ bigSepL l (atL c) -∗ bigSepL (k :: l) (atL c)) := by
  iintro H1 H2 H3 H4 HL
  iapply (Entails.of_eq (listL_cons k l (atL (F := F) c)).symm)
  isplitr [HL]
  · isplitl [H1]; · iexact H1
    isplitl [H2]; · iexact H2
    isplitl [H3]; · iexact H3
    iexact H4
  · iexact HL

omit [FloatOps F] in
theorem a_cons (c : Dev nD) (k : Fin 32) (l : List (Fin 32)) :
    ((chunkOf aM k).view.loc (c : Thread nD τ) ↦[(chunkOf aM k).view.set]{fullShare.left} xcommFull m ρ c : sProp 𝕄)
      ⊢ iprop(((chunkOf aM k).view.loc (c : Thread nD τ) ↦[(chunkOf aM k).view.set]{fullShare.right} xcommFull m ρ c)
        -∗ bigSepL l (aL m ρ c) -∗ bigSepL (k :: l) (aL m ρ c)) := by
  iintro H1 H2 HL
  iapply (Entails.of_eq (listL_cons k l (aL m ρ c)).symm)
  isplitr [HL]
  · iapply (aL_intro m ρ c k)
    isplitl [H1]; · iexact H1
    iexact H2
  · iexact HL

/-- The chunk as the y-partner's forward left it, whatever it held before, is the chunk landed. -/
theorem b_cons (c : Dev nD) (k : Fin 32) (l : List (Fin 32)) (fd : Buf (Elt F) ((chunkOf bM k).view.loc (c : Thread nD τ))) :
    ((chunkOf bM k).view.loc (c : Thread nD τ) ↦[(chunkOf bM k).view.set]{fullShare}
        (chunkOf bM k).view.write (Elt F) fd ((chunkOf aM k).view.read (Elt F) (xcommFull m ρ (yp c))) Finset.univ : sProp 𝕄)
      ⊢ iprop(bigSepL l (bL m ρ c) -∗ bigSepL (k :: l) (bL m ρ c)) := by
  iintro H1 HL
  iapply (Entails.of_eq (listL_cons k l (bL m ρ c)).symm)
  isplitr [HL]
  · iapply ((landing_y_own m ρ c k fd).trans (bL_intro m ρ c k)); iexact H1
  · iexact HL

omit [FloatOps F] in
theorem x_cons (c : Dev nD) (k : Fin 32) (l : List (Fin 32)) :
    ((rowsX c k).view.loc (c : Thread nD τ) ↦[(rowsX c k).view.set]{fullShare.left} xstg m ρ c : sProp 𝕄)
      ⊢ iprop(bigSepL l (xL m ρ c) -∗ bigSepL (k :: l) (xL m ρ c)) := by
  iintro H1 HL
  iapply (Entails.of_eq (listL_cons k l (xL m ρ c)).symm)
  isplitr [HL]
  · iexact H1
  · iexact HL

/-- The whole tail at once: the table, the four lists, the staged block's right half and the rest of its left half give,
    after the 128 cells are closed, both landing buffers whole, the 128 counters at zero and the staged block at the full share. -/
theorem tail_all (K : Dev nD × CIx → ℕ) (c : Dev nD) :
    iprop(records m ρ K ∗ bigSepL fin32list% (atL c) ∗ bigSepL fin32list% (aL m ρ c) ∗ bigSepL fin32list% (bL m ρ c) ∗ bigSepL fin32list% (xL m ρ c)
        ∗ (xM.view.loc (c : Thread nD τ) ↦[xM.view.set]{fullShare.right} xstg m ρ c)
        ∗ (((c : Thread nD τ).loc cc0_stg0_0) ↦[Finset.univ \ (Finset.univ.biUnion fun k : Fin 32 => (rowsX c k).view.set)]{fullShare.left} xstg m ρ c))
      ⊢ |={Set.univ}=> iprop((∃ f, aWhole c f) ∗ (∃ f, bWhole c f) ∗ (bigSep Finset.univ fun jk : Fin 4 × Fin 32 => semVal (kcell (c, some jk)) 0)
          ∗ (((c : Thread nD τ).loc cc0_stg0_0) ↦{fullShare} xstg m ρ c)) := by
  iintro ⟨#Hrec, LA, La, Lb, Lx, Hxr, Hxrest⟩
  imod (close_all (F := F) m ρ K c) $$ [LA] with HZ
  · isplitr; · iexact Hrec
    iexact LA
  ihave HA := (a_rejoin (F := F) m ρ c) $$ La
  ihave HB := (b_rejoin (F := F) m ρ c) $$ Lb
  ihave HX := (x_rejoin (F := F) c (xstg m ρ c)) $$ [Hxr Lx Hxrest]
  · isplitl [Hxr]; · iexact Hxr
    isplitl [Lx]; · iexact Lx
    iexact Hxrest
  imodintro
  isplitl [HA]; · iexact HA
  isplitl [HB]; · iexact HB
  isplitl [HZ]; · iexact HZ
  iexact HX

/-- info: 'Cert.KernelProof.tail_all' depends on axioms: [propext, Classical.choice, Quot.sound] -/
#guard_msgs in #print axioms tail_all
/-- info: 'Cert.KernelProof.b_cons' depends on axioms: [propext, Classical.choice, Quot.sound] -/
#guard_msgs in #print axioms b_cons

end Cert.KernelProof

end
-- ==== Proof.Bits.OutValue.lean ====
/-
  The result, row block by row block. The body stores the result's staging buffer in 64 pieces of 32 rows: for chunk k,
  rows 1024 · y + 32 · k .. of the device's own half (its rows plus chunk k of the first landing buffer) and rows
  1024 · (1 - y) + 32 · k .. of the other half (its rows plus chunk k of the second landing buffer), y the device's y
  coordinate. Each piece is, index by index, the result the proof data names: the device's block plus the other block's
  rows. A store of 32 whole rows changes those rows and no others, so after all 64 the buffer is the result.
-/
import proofs.«900707_g7700000000000708_dist_ar_v7x_xyz2x2x4_x_m2048_n512_f32_1_alg».proof.Proof.Bits.Buffers
import proofs.«900707_g7700000000000708_dist_ar_v7x_xyz2x2x4_x_m2048_n512_f32_1_alg».proof.Proof.Gen.Kernel.Skeleton

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Rows done -/

/-- The rows of the result's staging buffer whose number satisfies `P` hold the result. -/
def RowsDone (c : Dev nD) (P : ℕ → Prop) (f : (cc0_stg1_0 : Ref sig .tc).ty.Contents (Elt F)) : Prop :=
  ∀ i : S2048x512.Idx, P (i 0).val → f i = outAt m ρ c i

theorem rowsDone_none (c : Dev nD) (f : (cc0_stg1_0 : Ref sig .tc).ty.Contents (Elt F)) :
    RowsDone m ρ c (fun _ => False) f := fun _ h => h.elim

theorem rowsDone_all (c : Dev nD) (P : ℕ → Prop) (f : (cc0_stg1_0 : Ref sig .tc).ty.Contents (Elt F))
    (hP : ∀ r, r < 2048 → P r) (h : RowsDone m ρ c P f) : f = outAt m ρ c :=
  funext fun i => h i (hP _ (idx2_lt0 i))

theorem RowsDone.mono {c : Dev nD} {P Q : ℕ → Prop} {f : (cc0_stg1_0 : Ref sig .tc).ty.Contents (Elt F)}
    (h : RowsDone m ρ c P f) (hQ : ∀ r, Q r → P r) : RowsDone m ρ c Q f := fun i hi => h i (hQ _ hi)

/-- A store of 32 whole rows at row `off 0`, each element of the payload the result at its place, adds those rows to
    the rows done: the rows stored take the payload, every other row keeps what it held. -/
theorem rowsDone_write (c : Dev nD) (P : ℕ → Prop) (f : (cc0_stg1_0 : Ref sig .tc).ty.Contents (Elt F)) (off : Fin 2 → ℕ)
    (h : ∀ a, off a + S32x512.size a ≤ S2048x512.size a) (w : Vec F S32x512 .f32) (hoff : off 1 = 0)
    (hf : RowsDone m ρ c P f)
    (hw : ∀ (y : S32x512.Idx) (i : S2048x512.Idx), (i 0).val = off 0 + (y 0).val → (i 1).val = (y 1).val →
      w y = outAt m ρ c i) :
    RowsDone m ρ c (fun r => P r ∨ (off 0 ≤ r ∧ r < off 0 + 32))
      ((oM.access (Rect.unit (s := S2048x512) off S32x512.size h) : View sig .tc _ _ _).write (Elt F) f w Finset.univ) := by
  intro i hi
  have hi0 := idx2_lt0 i
  have hi1 := idx2_lt1 i
  by_cases hr : off 0 ≤ (i 0).val ∧ (i 0).val < off 0 + 32
  · have e : (oM.access (Rect.unit (s := S2048x512) off S32x512.size h) : View sig .tc _ _ _).emb
        (ix2 (⟨(i 0).val - off 0, by omega⟩ : Fin 32) (⟨(i 1).val, hi1⟩ : Fin 512)) = i := by
      funext a
      refine Fin.ext ?_
      match a with
      | ⟨0, _⟩ => show off 0 + 1 * ((i 0).val - off 0) = (i 0).val; omega
      | ⟨1, _⟩ => show off 1 + 1 * (i 1).val = (i 1).val; omega
    rw [← e, View.write_emb_of_mem _ _ (Finset.mem_univ _), cast_eq, e]
    exact hw _ i (by show (i 0).val = off 0 + ((i 0).val - off 0); omega) rfl
  · have hn : i ∉ (oM.access (Rect.unit (s := S2048x512) off S32x512.size h) : View sig .tc _ _ _).setOn Finset.univ := by
      intro hm
      obtain ⟨y, rfl⟩ := View.exists_emb_of_mem_set _ hm
      have hy := idx2_lt0 y
      exact hr ⟨by show off 0 ≤ off 0 + 1 * (y 0).val; omega, by show off 0 + 1 * (y 0).val < off 0 + 32; omega⟩
    rw [View.write_of_not_mem _ _ _ hn]
    rcases hi with hP | hr'
    · exact hf i hP
    · exact absurd hr' hr

/-! ## What the loads read -/

/-- The load of 32 rows of the staged block at row `off 0`, cast to its own shape: at (r, j), the block at
    (off 0 + r, j). -/
theorem load_rows (g : (cc0_stg0_0 : Ref sig .tc).ty.Contents (Elt F)) (off : Fin 2 → ℕ)
    (h : ∀ a, off a + S32x512.size a ≤ S2048x512.size a) (hoff : off 1 = 0)
    (y : S32x512.Idx) (i : S2048x512.Idx) (h0 : (i 0).val = off 0 + (y 0).val) (h1 : (i 1).val = (y 1).val) :
    shapeCast S32x512 (xM.view.readAt (Elt F) (Rect.unit (s := S2048x512) off S32x512.size h).toLoadRect g)
      shapeCasts_S32x512_S32x512 y = g i := by
  refine (congrFun (shapeCast_self (s := S32x512)
    (xM.view.readAt (Elt F) (Rect.unit (s := S2048x512) off S32x512.size h).toLoadRect g) shapeCasts_S32x512_S32x512) y).trans ?_
  show g ((Rect.unit (s := S2048x512) off S32x512.size h).idx y) = g i
  refine congrArg g (funext fun a => Fin.ext ?_)
  match a with
  | ⟨0, _⟩ => show off 0 + 1 * (y 0).val = (i 0).val; omega
  | ⟨1, _⟩ => show off 1 + 1 * (y 1).val = (i 1).val; omega

/-- The load of chunk k of the first landing buffer, cast to [32, 512]: at (r, j), the buffer at (k, r, j). -/
theorem load_chunk_a (g : (cc0_scratch0 : Ref sig .tc).ty.Contents (Elt F)) (k : Fin 32) (y : S32x512.Idx) :
    shapeCast S32x512 (aM.view.readAt (Elt F) (Rect.unit (s := S32x32x512) ![k.val, 0, 0] S1x32x512.size (inbA k)).toLoadRect g)
      shapeCasts_S1x32x512_S32x512 y = g (ix3 k (⟨(y 0).val, idx2_lt0 y⟩ : Fin 32) (⟨(y 1).val, idx2_lt1 y⟩ : Fin 512)) := by
  obtain ⟨p, q, rfl⟩ : ∃ (p : Fin 32) (q : Fin 512), y = ix2 p q := ⟨y 0, y 1, eq_ix2 y⟩
  rw [shapeCast_1ab_ab_apply]
  show g ((Rect.unit (s := S32x32x512) ![k.val, 0, 0] S1x32x512.size (inbA k)).idx (ix3 (0 : Fin 1) p q)) = _
  refine congrArg g (funext fun a => Fin.ext ?_)
  match a with
  | ⟨0, _⟩ => show k.val + 1 * 0 = k.val; omega
  | ⟨1, _⟩ => show 0 + 1 * p.val = p.val; omega
  | ⟨2, _⟩ => show 0 + 1 * q.val = q.val; omega

/-- The same for the second landing buffer. -/
theorem load_chunk_b (g : (cc0_scratch1 : Ref sig .tc).ty.Contents (Elt F)) (k : Fin 32) (y : S32x512.Idx) :
    shapeCast S32x512 (bM.view.readAt (Elt F) (Rect.unit (s := S32x32x512) ![k.val, 0, 0] S1x32x512.size (inbA k)).toLoadRect g)
      shapeCasts_S1x32x512_S32x512 y = g (ix3 k (⟨(y 0).val, idx2_lt0 y⟩ : Fin 32) (⟨(y 1).val, idx2_lt1 y⟩ : Fin 512)) := by
  obtain ⟨p, q, rfl⟩ : ∃ (p : Fin 32) (q : Fin 512), y = ix2 p q := ⟨y 0, y 1, eq_ix2 y⟩
  rw [shapeCast_1ab_ab_apply]
  show g ((Rect.unit (s := S32x32x512) ![k.val, 0, 0] S1x32x512.size (inbA k)).idx (ix3 (0 : Fin 1) p q)) = _
  refine congrArg g (funext fun a => Fin.ext ?_)
  match a with
  | ⟨0, _⟩ => show k.val + 1 * 0 = k.val; omega
  | ⟨1, _⟩ => show 0 + 1 * p.val = p.val; omega
  | ⟨2, _⟩ => show 0 + 1 * q.val = q.val; omega

/-- A chunk of a landing buffer read through the chunk's own view: at (r, j), the buffer at (k, r, j). -/
theorem read_chunk_a (g : (cc0_scratch0 : Ref sig .tc).ty.Contents (Elt F)) (k : Fin 32) (y : S32x512.Idx) :
    (chunkOf aM k).view.read (Elt F) g y = g (ix3 k (⟨(y 0).val, idx2_lt0 y⟩ : Fin 32) (⟨(y 1).val, idx2_lt1 y⟩ : Fin 512)) := by
  rw [View.read_apply, cast_eq, aChunk_emb]
theorem read_chunk_b (g : (cc0_scratch1 : Ref sig .tc).ty.Contents (Elt F)) (k : Fin 32) (y : S32x512.Idx) :
    (chunkOf bM k).view.read (Elt F) g y = g (ix3 k (⟨(y 0).val, idx2_lt0 y⟩ : Fin 32) (⟨(y 1).val, idx2_lt1 y⟩ : Fin 512)) := by
  rw [View.read_apply, cast_eq, bChunk_emb]

/-! ## What landed is the other block's rows -/

/-- Chunk k of the first landing buffer, once landed, holds at (k, r, j) the other block's row 1024 · y + 32 · k + r:
    a row of the device's own half, which reaches it through the x-partner. -/
theorem xcomm_other (c : Dev nD) (k : Fin 32) (p : Fin 32) (q : Fin 512) (i : S2048x512.Idx)
    (h0 : (i 0).val = 1024 * yc c + 32 * k.val + p.val) (h1 : (i 1).val = q.val) :
    xcommFull m ρ c (ix3 k p q) = otherRows m ρ c i := by
  have hi : rowIx (yc c) (yc_lt c) (ix3 k p q) = i := by
    funext a
    refine Fin.ext ?_
    match a with
    | ⟨0, _⟩ => exact h0.symm
    | ⟨1, _⟩ => exact h1.symm
  unfold xcommFull otherRows
  rw [hi, if_pos (by have := k.isLt; have := p.isLt; omega)]

/-- Chunk k of the second landing buffer, once landed, holds at (k, r, j) the other block's row
    1024 · (1 - y) + 32 · k + r: a row of the other half, which reaches the device through the y-partner's x-partner. -/
theorem ycomm_other (c : Dev nD) (k : Fin 32) (p : Fin 32) (q : Fin 512) (i : S2048x512.Idx)
    (h0 : (i 0).val = 1024 * (1 - yc c) + 32 * k.val + p.val) (h1 : (i 1).val = q.val) :
    ycommFull m ρ c (ix3 k p q) = otherRows m ρ c i := by
  have hy := yc_lt c
  have hi : rowIx (yc (yp c)) (yc_lt (yp c)) (ix3 k p q) = i := by
    rw [rowIx_congr (yc_yp c) _ (by omega)]
    funext a
    refine Fin.ext ?_
    match a with
    | ⟨0, _⟩ => exact h0.symm
    | ⟨1, _⟩ => exact h1.symm
  unfold ycommFull otherRows
  rw [hi, if_neg (by have := k.isLt; have := p.isLt; omega)]

/-! ## The two payloads -/

/-- The payload stored on the rows of the device's own half for chunk k: its rows there plus chunk k of the first landing
    buffer, which is the result on those rows. -/
theorem pay_own (c : Dev nD) (k : Fin 32) (y : S32x512.Idx) (i : S2048x512.Idx)
    (h0 : (i 0).val = 1024 * yc c + 32 * k.val + (y 0).val) (h1 : (i 1).val = (y 1).val) :
    addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
      (shapeCast S32x512 (aM.view.readAt (Elt F) (Rect.unit (s := S32x32x512) ![k.val, 0, 0] S1x32x512.size (inbA k)).toLoadRect (xcommFull m ρ c)) shapeCasts_S1x32x512_S32x512) y
      = outAt m ρ c i := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  unfold outAt addf
  rw [load_rows (xstg m ρ c) _ _ e1 y i (by rw [e0]; exact h0) h1, load_chunk_a,
    xcomm_other m ρ c k ⟨(y 0).val, idx2_lt0 y⟩ ⟨(y 1).val, idx2_lt1 y⟩ i h0 h1]

/-- The payload stored on the rows of the other half for chunk k: its rows there plus chunk k of the second landing
    buffer, which is the result on those rows. -/
theorem pay_other (c : Dev nD) (k : Fin 32) (y : S32x512.Idx) (i : S2048x512.Idx)
    (h0 : (i 0).val = 1024 * (1 - yc c) + 32 * k.val + (y 0).val) (h1 : (i 1).val = (y 1).val) :
    addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
      (shapeCast S32x512 (bM.view.readAt (Elt F) (Rect.unit (s := S32x32x512) ![k.val, 0, 0] S1x32x512.size (inbA k)).toLoadRect (ycommFull m ρ c)) shapeCasts_S1x32x512_S32x512) y
      = outAt m ρ c i := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  unfold outAt addf
  rw [load_rows (xstg m ρ c) _ _ e1 y i (by rw [e0]; exact h0) h1, load_chunk_b,
    ycomm_other m ρ c k ⟨(y 0).val, idx2_lt0 y⟩ ⟨(y 1).val, idx2_lt1 y⟩ i h0 h1]

/-! ## The two stores -/

/-- The store for chunk k on the device's own half adds rows [1024 · y + 32 · k, + 32) to the rows done. -/
theorem rowsDone_own (c : Dev nD) (k : Fin 32) (P : ℕ → Prop) (f : (cc0_stg1_0 : Ref sig .tc).ty.Contents (Elt F))
    (hf : RowsDone m ρ c P f) :
    RowsDone m ρ c (fun r => P r ∨ (1024 * yc c + 32 * k.val ≤ r ∧ r < 1024 * yc c + 32 * k.val + 32))
      ((oM.access (Rect.unit (s := S2048x512) (k0_off2 c (BitVec.ofNat 32 (32 * k.val))) S32x512.size (k0_off2_inb c k)) : View sig .tc _ _ _).write (Elt F) f
        (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
          (shapeCast S32x512 (aM.view.readAt (Elt F) (Rect.unit (s := S32x32x512) ![k.val, 0, 0] S1x32x512.size (inbA k)).toLoadRect (xcommFull m ρ c)) shapeCasts_S1x32x512_S32x512))
        Finset.univ) := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  refine RowsDone.mono m ρ
    (rowsDone_write m ρ c P f _ _ _ e1 hf fun y i h0 h1 => pay_own m ρ c k y i (by rw [← e0]; exact h0) h1)
    fun r hr => ?_
  rw [e0]; exact hr

/-- The store for chunk k on the other half adds rows [1024 · (1 - y) + 32 · k, + 32) to the rows done. -/
theorem rowsDone_other (c : Dev nD) (k : Fin 32) (P : ℕ → Prop) (f : (cc0_stg1_0 : Ref sig .tc).ty.Contents (Elt F))
    (hf : RowsDone m ρ c P f) :
    RowsDone m ρ c (fun r => P r ∨ (1024 * (1 - yc c) + 32 * k.val ≤ r ∧ r < 1024 * (1 - yc c) + 32 * k.val + 32))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect (ycommFull m ρ c)) shapeCasts_S1x32x512_S32x512))
        Finset.univ) := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  refine RowsDone.mono m ρ
    (rowsDone_write m ρ c P f _ _ _ e1 hf fun y i h0 h1 => pay_other m ρ c k y i (by rw [← e0]; exact h0) h1)
    fun r hr => ?_
  rw [e0]; exact hr

/-- Once every chunk's two stores are done, every row is: a row below 2048 lies in one of the 64 blocks. -/
theorem rows_cover (c : Dev nD) (r : ℕ) (hr : r < 2048) :
    ∃ k : Fin 32, (1024 * yc c + 32 * k.val ≤ r ∧ r < 1024 * yc c + 32 * k.val + 32)
      ∨ (1024 * (1 - yc c) + 32 * k.val ≤ r ∧ r < 1024 * (1 - yc c) + 32 * k.val + 32) := by
  have hy := yc_lt c
  refine ⟨⟨(r % 1024) / 32, by omega⟩, ?_⟩
  show (1024 * yc c + 32 * ((r % 1024) / 32) ≤ r ∧ r < 1024 * yc c + 32 * ((r % 1024) / 32) + 32)
      ∨ (1024 * (1 - yc c) + 32 * ((r % 1024) / 32) ≤ r ∧ r < 1024 * (1 - yc c) + 32 * ((r % 1024) / 32) + 32)
  omega

/-! ## The printed payloads are that sum -/

/-- The first printed payload is the sum the lemmas above are about (the others unfold the same way). -/
theorem k0_pay1_eq (v : Vec F S32x512 .f32) (w : Vec F S1x32x512 .f32) :
    k0_pay1 v w = addf (shapeCast S32x512 v shapeCasts_S32x512_S32x512) (shapeCast S32x512 w shapeCasts_S1x32x512_S32x512) := rfl

/-- info: 'Cert.KernelProof.rowsDone_own' depends on axioms: [propext, Classical.choice, Quot.sound] -/
#guard_msgs in #print axioms rowsDone_own
/-- info: 'Cert.KernelProof.rowsDone_other' depends on axioms: [propext, Classical.choice, Quot.sound] -/
#guard_msgs in #print axioms rowsDone_other

/-! ## The stores, counted -/

/-- The first `n` row blocks of the device's own half. -/
def POwn (c : Dev nD) (n : ℕ) : ℕ → Prop := fun r => 1024 * yc c ≤ r ∧ r < 1024 * yc c + 32 * n
/-- The device's own half, and the first `n` row blocks of the other half. -/
def PBoth (c : Dev nD) (n : ℕ) : ℕ → Prop :=
  fun r => POwn c 32 r ∨ (1024 * (1 - yc c) ≤ r ∧ r < 1024 * (1 - yc c) + 32 * n)

/-- Before any store no row is asked for. -/
theorem rowsDone_start (c : Dev nD) (f : (cc0_stg1_0 : Ref sig .tc).ty.Contents (Elt F)) : RowsDone m ρ c (POwn c 0) f := by
  intro i hi
  exfalso
  have h : 1024 * yc c ≤ (i 0).val ∧ (i 0).val < 1024 * yc c + 32 * 0 := hi
  omega

/-- The store for chunk k on the device's own half takes the count from k to k + 1. -/
theorem rowsDone_own_step (c : Dev nD) (k : Fin 32) (f : (cc0_stg1_0 : Ref sig .tc).ty.Contents (Elt F))
    (hf : RowsDone m ρ c (POwn c k.val) f) :
    RowsDone m ρ c (POwn c (k.val + 1))
      ((oM.access (Rect.unit (s := S2048x512) (k0_off2 c (BitVec.ofNat 32 (32 * k.val))) S32x512.size (k0_off2_inb c k)) : View sig .tc _ _ _).write (Elt F) f
        (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512)
          (shapeCast S32x512 (aM.view.readAt (Elt F) (Rect.unit (s := S32x32x512) ![k.val, 0, 0] S1x32x512.size (inbA k)).toLoadRect (xcommFull m ρ c)) shapeCasts_S1x32x512_S32x512))
        Finset.univ) := by
  refine RowsDone.mono m ρ (rowsDone_own m ρ c k (POwn c k.val) f hf) fun r hr => ?_
  have h : 1024 * yc c ≤ r ∧ r < 1024 * yc c + 32 * (k.val + 1) := hr
  show (1024 * yc c ≤ r ∧ r < 1024 * yc c + 32 * k.val)
    ∨ (1024 * yc c + 32 * k.val ≤ r ∧ r < 1024 * yc c + 32 * k.val + 32)
  omega

/-- The own half done is the start of the count on the other half. -/
theorem rowsDone_turn (c : Dev nD) (f : (cc0_stg1_0 : Ref sig .tc).ty.Contents (Elt F))
    (hf : RowsDone m ρ c (POwn c 32) f) : RowsDone m ρ c (PBoth c 0) f := by
  refine RowsDone.mono m ρ hf fun r hr => ?_
  have h : (1024 * yc c ≤ r ∧ r < 1024 * yc c + 32 * 32)
      ∨ (1024 * (1 - yc c) ≤ r ∧ r < 1024 * (1 - yc c) + 32 * 0) := hr
  show 1024 * yc c ≤ r ∧ r < 1024 * yc c + 32 * 32
  omega

/-- The store for chunk k on the other half takes the count from k to k + 1. -/
theorem rowsDone_other_step (c : Dev nD) (k : Fin 32) (f : (cc0_stg1_0 : Ref sig .tc).ty.Contents (Elt F))
    (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect (ycommFull m ρ c)) shapeCasts_S1x32x512_S32x512))
        Finset.univ) := by
  refine RowsDone.mono m ρ (rowsDone_other m ρ c k (PBoth c k.val) f hf) fun r hr => ?_
  have h : (1024 * yc c ≤ r ∧ r < 1024 * yc c + 32 * 32)
      ∨ (1024 * (1 - yc c) ≤ r ∧ r < 1024 * (1 - yc c) + 32 * (k.val + 1)) := hr
  show ((1024 * yc c ≤ r ∧ r < 1024 * yc c + 32 * 32)
      ∨ (1024 * (1 - yc c) ≤ r ∧ r < 1024 * (1 - yc c) + 32 * k.val))
    ∨ (1024 * (1 - yc c) + 32 * k.val ≤ r ∧ r < 1024 * (1 - yc c) + 32 * k.val + 32)
  omega

/-- Both halves done: the buffer is the result. -/
theorem rowsDone_done (c : Dev nD) (f : (cc0_stg1_0 : Ref sig .tc).ty.Contents (Elt F))
    (hf : RowsDone m ρ c (PBoth c 32) f) : f = outAt m ρ c := by
  refine rowsDone_all m ρ c (PBoth c 32) f (fun r hr => ?_) hf
  have hy := yc_lt c
  show (1024 * yc c ≤ r ∧ r < 1024 * yc c + 32 * 32)
    ∨ (1024 * (1 - yc c) ≤ r ∧ r < 1024 * (1 - yc c) + 32 * 32)
  omega

/-- info: 'Cert.KernelProof.rowsDone_other_step' depends on axioms: [propext, Classical.choice, Quot.sound] -/
#guard_msgs in #print axioms rowsDone_other_step
/-- info: 'Cert.KernelProof.rowsDone_done' depends on axioms: [propext, Classical.choice, Quot.sound] -/
#guard_msgs in #print axioms rowsDone_done

/-! ## The same stores, the landed chunk given as any vector that is it index by index -/

/-- The payload of the other half with any second addend that is, index by index, chunk k of what the second landing
    buffer holds once landed. -/
theorem pay_other_vec (c : Dev nD) (k : Fin 32) (w2 : Vec F S32x512 .f32)
    (hw2 : ∀ y : S32x512.Idx, w2 y = ycommFull m ρ c (ix3 k (⟨(y 0).val, idx2_lt0 y⟩ : Fin 32) (⟨(y 1).val, idx2_lt1 y⟩ : Fin 512)))
    (y : S32x512.Idx) (i : S2048x512.Idx)
    (h0 : (i 0).val = 1024 * (1 - yc c) + 32 * k.val + (y 0).val) (h1 : (i 1).val = (y 1).val) :
    addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512) w2 y = outAt m ρ c i := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  unfold outAt addf
  rw [load_rows (xstg m ρ c) _ _ e1 y i (by rw [e0]; exact h0) h1, hw2,
    ycomm_other m ρ c k ⟨(y 0).val, idx2_lt0 y⟩ ⟨(y 1).val, idx2_lt1 y⟩ i h0 h1]

/-- The payload of the own half with any second addend that is, index by index, chunk k of what the first landing
    buffer holds once landed. -/
theorem pay_own_vec (c : Dev nD) (k : Fin 32) (w2 : Vec F S32x512 .f32)
    (hw2 : ∀ y : S32x512.Idx, w2 y = xcommFull m ρ c (ix3 k (⟨(y 0).val, idx2_lt0 y⟩ : Fin 32) (⟨(y 1).val, idx2_lt1 y⟩ : Fin 512)))
    (y : S32x512.Idx) (i : S2048x512.Idx)
    (h0 : (i 0).val = 1024 * yc c + 32 * k.val + (y 0).val) (h1 : (i 1).val = (y 1).val) :
    addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512) w2 y = outAt m ρ c i := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  unfold outAt addf
  rw [load_rows (xstg m ρ c) _ _ e1 y i (by rw [e0]; exact h0) h1, hw2,
    xcomm_other m ρ c k ⟨(y 0).val, idx2_lt0 y⟩ ⟨(y 1).val, idx2_lt1 y⟩ i h0 h1]

/-- The counted store step of the other half, for such a second addend. -/
theorem rowsDone_other_step_vec (c : Dev nD) (k : Fin 32) (w2 : Vec F S32x512 .f32)
    (hw2 : ∀ y : S32x512.Idx, w2 y = ycommFull m ρ c (ix3 k (⟨(y 0).val, idx2_lt0 y⟩ : Fin 32) (⟨(y 1).val, idx2_lt1 y⟩ : Fin 512)))
    (f : (cc0_stg1_0 : Ref sig .tc).ty.Contents (Elt F)) (hf : RowsDone m ρ c (PBoth c k.val) f) :
    RowsDone m ρ c (PBoth c (k.val + 1)) ((oM.access (Rect.unit (s := S2048x512) (k0_off3 c (BitVec.ofNat 32 (32 * k.val))) S32x512.size (k0_off3_inb c k)) : View sig .tc _ _ _).write (Elt F) f (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512) w2) Finset.univ) := by
  have hy := yc_lt c
  have e0 : (k0_off3 c (BitVec.ofNat 32 (32 * k.val))) 0 = 1024 * (1 - yc c) + 32 * k.val :=
    (congrFun (k0_off3_eq c k) 0).trans (by show (32 * k.val + 1024) - 1024 * yc c = 1024 * (1 - yc c) + 32 * k.val; omega)
  have e1 : (k0_off3 c (BitVec.ofNat 32 (32 * k.val))) 1 = 0 := congrFun (k0_off3_eq c k) 1
  refine RowsDone.mono m ρ
    (rowsDone_write m ρ c (PBoth c k.val) f _ _ _ e1 hf fun y i h0 h1 =>
      pay_other_vec m ρ c k w2 hw2 y i (by rw [← e0]; exact h0) h1)
    fun r hr => ?_
  have h : (1024 * yc c ≤ r ∧ r < 1024 * yc c + 32 * 32)
      ∨ (1024 * (1 - yc c) ≤ r ∧ r < 1024 * (1 - yc c) + 32 * (k.val + 1)) := hr
  rw [e0]
  show ((1024 * yc c ≤ r ∧ r < 1024 * yc c + 32 * 32)
      ∨ (1024 * (1 - yc c) ≤ r ∧ r < 1024 * (1 - yc c) + 32 * k.val))
    ∨ (1024 * (1 - yc c) + 32 * k.val ≤ r ∧ r < 1024 * (1 - yc c) + 32 * k.val + 32)
  omega

/-- The counted store step of the own half, for such a second addend. -/
theorem rowsDone_own_step_vec (c : Dev nD) (k : Fin 32) (w2 : Vec F S32x512 .f32)
    (hw2 : ∀ y : S32x512.Idx, w2 y = xcommFull m ρ c (ix3 k (⟨(y 0).val, idx2_lt0 y⟩ : Fin 32) (⟨(y 1).val, idx2_lt1 y⟩ : Fin 512)))
    (f : (cc0_stg1_0 : Ref sig .tc).ty.Contents (Elt F)) (hf : RowsDone m ρ c (POwn c k.val) f) :
    RowsDone m ρ c (POwn c (k.val + 1)) ((oM.access (Rect.unit (s := S2048x512) (k0_off2 c (BitVec.ofNat 32 (32 * k.val))) S32x512.size (k0_off2_inb c k)) : View sig .tc _ _ _).write (Elt F) f (addf (shapeCast S32x512 (xM.view.readAt (Elt F) (Rect.unit (s := S2048x512) (k0_off2 c (BitVec.ofNat 32 (32 * k.val))) S32x512.size (k0_off2_inb c k)).toLoadRect (xstg m ρ c)) shapeCasts_S32x512_S32x512) w2) Finset.univ) := by
  have e0 : (k0_off2 c (BitVec.ofNat 32 (32 * k.val))) 0 = 1024 * yc c + 32 * k.val := congrFun (k0_off2_eq c k) 0
  have e1 : (k0_off2 c (BitVec.ofNat 32 (32 * k.val))) 1 = 0 := congrFun (k0_off2_eq c k) 1
  refine RowsDone.mono m ρ
    (rowsDone_write m ρ c (POwn c k.val) f _ _ _ e1 hf fun y i h0 h1 =>
      pay_own_vec m ρ c k w2 hw2 y i (by rw [← e0]; exact h0) h1)
    fun r hr => ?_
  have h : 1024 * yc c ≤ r ∧ r < 1024 * yc c + 32 * (k.val + 1) := hr
  rw [e0]
  show (1024 * yc c ≤ r ∧ r < 1024 * yc c + 32 * k.val)
    ∨ (1024 * yc c + 32 * k.val ≤ r ∧ r < 1024 * yc c + 32 * k.val + 32)
  omega

/-! ## The second landing buffer still at its written contents -/

/-- Chunk k of the second landing buffer as the y-partner's forward wrote it holds, at (k, r, j), what the schedule
    names there: the forwarded chunk is chunk k of the y-partner's first landing buffer. -/
theorem written_b (c : Dev nD) (k : Fin 32) (fd : Buf (Elt F) ((chunkOf bM k).view.loc (c : Thread nD τ)))
    (p : Fin 32) (q : Fin 512) :
    ((chunkOf bM k).view.write (Elt F) fd ((chunkOf aM k).view.read (Elt F) (xcommFull m ρ (yp c))) Finset.univ) (ix3 k p q) = ycommFull m ρ c (ix3 k p q) := by
  have e : (chunkOf bM k).view.emb (ix2 p q) = ix3 k p q := bChunk_emb k (ix2 p q)
  rw [← e, View.write_emb_of_mem _ _ (Finset.mem_univ _), cast_eq, read_chunk_a, e]
  rfl

/-- The counted store step of the other half, the chunk loaded from the second landing buffer at its written contents. -/
theorem rowsDone_other_step' (c : Dev nD) (k : Fin 32) (fd : Buf (Elt F) ((chunkOf bM k).view.loc (c : Thread nD τ)))
    (f : (cc0_stg1_0 : Ref sig .tc).ty.Contents (Elt F)) (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          (shapeCast S32x512 (bM.view.readAt (Elt F) (Rect.unit (s := S32x32x512) ![k.val, 0, 0] S1x32x512.size (inbA k)).toLoadRect ((chunkOf bM k).view.write (Elt F) fd ((chunkOf aM k).view.read (Elt F) (xcommFull m ρ (yp c))) Finset.univ)) shapeCasts_S1x32x512_S32x512))
        Finset.univ) :=
  rowsDone_other_step_vec m ρ c k _ (fun y => (load_chunk_b _ k y).trans (written_b m ρ c k fd _ _)) f hf

/-- The same, the chunk read through the chunk's own view (a [32, 512] vector as it stands). -/
theorem rowsDone_other_step'' (c : Dev nD) (k : Fin 32) (fd : Buf (Elt F) ((chunkOf bM k).view.loc (c : Thread nD τ)))
    (f : (cc0_stg1_0 : Ref sig .tc).ty.Contents (Elt F)) (hf : RowsDone m ρ c (PBoth c k.val) f) :
    RowsDone m ρ c (PBoth c (k.val + 1))
      ((oM.access (Rect.unit (s := S2048x512) (k0_off3 c (BitVec.ofNat 32 (32 * k.val))) S32x512.size (k0_off3_inb c k)) : View sig .tc _ _ _).write (Elt F) f
        (addf (shapeCast S32x512 (xM.view.readAt (Elt F) (Rect.unit (s := S2048x512) (k0_off3 c (BitVec.ofNat 32 (32 * k.val))) S32x512.size (k0_off3_inb c k)).toLoadRect (xstg m ρ c)) shapeCasts_S32x512_S32x512)
          ((chunkOf bM k).view.read (Elt F) ((chunkOf bM k).view.write (Elt F) fd ((chunkOf aM k).view.read (Elt F) (xcommFull m ρ (yp c))) Finset.univ)))
        Finset.univ) :=
  rowsDone_other_step_vec m ρ c k _ (fun y => (read_chunk_b _ k y).trans (written_b m ρ c k fd _ _)) f hf

/-- info: 'Cert.KernelProof.rowsDone_other_step'' depends on axioms: [propext, Classical.choice, Quot.sound] -/
#guard_msgs in #print axioms rowsDone_other_step'
/-- info: 'Cert.KernelProof.rowsDone_other_step''' depends on axioms: [propext, Classical.choice, Quot.sound] -/
#guard_msgs in #print axioms rowsDone_other_step''

end Cert.KernelProof

end
-- ==== Proof.Bits.Body.lean ====
/-
  One device's body, run symbolically from the protocol's ghost state.
-/
import proofs.«900707_g7700000000000708_dist_ar_v7x_xyz2x2x4_x_m2048_n512_f32_1_alg».proof.Proof.Bits.Proto
import proofs.«900707_g7700000000000708_dist_ar_v7x_xyz2x2x4_x_m2048_n512_f32_1_alg».proof.Proof.Bits.BodyDefs
import proofs.«900707_g7700000000000708_dist_ar_v7x_xyz2x2x4_x_m2048_n512_f32_1_alg».proof.Proof.Chunks
import proofs.«900707_g7700000000000708_dist_ar_v7x_xyz2x2x4_x_m2048_n512_f32_1_alg».proof.Proof.Bits.Shapes
import proofs.«900707_g7700000000000708_dist_ar_v7x_xyz2x2x4_x_m2048_n512_f32_1_alg».proof.Proof.Bits.Ledger
import proofs.«900707_g7700000000000708_dist_ar_v7x_xyz2x2x4_x_m2048_n512_f32_1_alg».proof.Proof.Bits.Owed
import proofs.«900707_g7700000000000708_dist_ar_v7x_xyz2x2x4_x_m2048_n512_f32_1_alg».proof.Proof.Bits.Buffers
import proofs.«900707_g7700000000000708_dist_ar_v7x_xyz2x2x4_x_m2048_n512_f32_1_alg».proof.Proof.Bits.Sends
import proofs.«900707_g7700000000000708_dist_ar_v7x_xyz2x2x4_x_m2048_n512_f32_1_alg».proof.Proof.Bits.Closing
import proofs.«900707_g7700000000000708_dist_ar_v7x_xyz2x2x4_x_m2048_n512_f32_1_alg».proof.Proof.Bits.OutValue
import proofs.«900707_g7700000000000708_dist_ar_v7x_xyz2x2x4_x_m2048_n512_f32_1_alg».proof.Proof.Gen.Kernel.Skeleton
import proofs.«900707_g7700000000000708_dist_ar_v7x_xyz2x2x4_x_m2048_n512_f32_1_alg».proof.Proof.Gen.Kernel.Points

noncomputable section

namespace Cert.KernelProof

open Cert.Kernel Cert.Kernel.Gen Cert.Mesh Cert.Chunks
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

-- two different partners are never to be compared by unfolding their arithmetic, nor a printed device chain with a partner:
-- the chains are named partners by their equations alone
attribute [local irreducible] Cert.Mesh.xp Cert.Mesh.yp

open Lean Elab Command in
/-- Marks the 66 printed device chains irreducible in this module. -/
elab "irreducible_device_chains" : command => do
  for n in [1:67] do
    elabCommand (← `(attribute [local irreducible] $(mkIdent (Name.mkSimple s!"k0_dev{n}"))))

irreducible_device_chains

variable {F : FTy → Type} [FloatOps F]
local notation "𝕄" => MT nD τ sig Unit (Elt F) ℕ UU ℕ
variable (m : (ℓ : Loc nD τ sig) → Buf (Elt F) ℓ) (ρ : Dev nD → PrngReg)

/-! ## The schedule's tables as the run reads them: each payload spelt as the points-to it is -/

/-- A chunk's credit, as the number it is. -/
theorem Nc_eq : Nc = 2048 := by decide

section Tables
variable (c : Dev nD) (k : Fin 32)

omit [FloatOps F] in
theorem pay_bar_false_xp : (sched (F := F) m ρ).payload (barCell (xp c)) 0 false
    = iprop(∃ f, aM.view.loc (c : Thread nD τ) ↦[aM.view.set]{fullShare} f) := by
  rw [payload_bar]; unfold barPay aWhole; rw [if_neg Bool.false_ne_true, xp_xp]
omit [FloatOps F] in
theorem pay_bar_true_yp : (sched (F := F) m ρ).payload (barCell (yp c)) 0 true
    = iprop(∃ f, bM.view.loc (c : Thread nD τ) ↦[bM.view.set]{fullShare} f) := by
  rw [payload_bar]; unfold barPay bWhole; rw [if_pos rfl, yp_yp]
omit [FloatOps F] in
theorem pay_bar_false_own : (sched (F := F) m ρ).payload (barCell c) 0 false
    = iprop(∃ f, aM.view.loc (xp c : Thread nD τ) ↦[aM.view.set]{fullShare} f) := by
  rw [payload_bar]; unfold barPay aWhole; rw [if_neg Bool.false_ne_true]
omit [FloatOps F] in
theorem pay_bar_true_own : (sched (F := F) m ρ).payload (barCell c) 0 true
    = iprop(∃ f, bM.view.loc (yp c : Thread nD τ) ↦[bM.view.set]{fullShare} f) := by
  rw [payload_bar]; unfold barPay bWhole; rw [if_pos rfl]
omit [FloatOps F] in
theorem pay_xs : (sched (F := F) m ρ).payload (xsCell c k) 0 false
    = ((rowsX c k).view.loc (c : Thread nD τ) ↦[(rowsX c k).view.set]{half} xstg m ρ c) := by
  rw [payload_xfer]; rfl
omit [FloatOps F] in
theorem pay_xr : (sched (F := F) m ρ).payload (xrCell c k) 0 false
    = iprop(∃ fd : Buf (Elt F) ((chunkOf aM k).view.loc (c : Thread nD τ)),
        (chunkOf aM k).view.loc (c : Thread nD τ) ↦[(chunkOf aM k).view.set]{fullShare}
          (chunkOf aM k).view.write (Elt F) fd ((rowsX (xp c) k).view.read (Elt F) (xstg m ρ (xp c))) Finset.univ) := by
  rw [payload_xfer]; rfl
omit [FloatOps F] in
theorem pay_xr_xp : (sched (F := F) m ρ).payload (xrCell (xp c) k) 0 false
    = iprop(∃ fd : Buf (Elt F) ((chunkOf aM k).view.loc ((xp c : Dev nD) : Thread nD τ)),
        (chunkOf aM k).view.loc ((xp c : Dev nD) : Thread nD τ) ↦[(chunkOf aM k).view.set]{fullShare}
          (chunkOf aM k).view.write (Elt F) fd ((rowsX c k).view.read (Elt F) (xstg m ρ c)) Finset.univ) := by
  rw [payload_xfer]; unfold xferPay; rw [xp_xp]
omit [FloatOps F] in
theorem pay_ys : (sched (F := F) m ρ).payload (ysCell c k) 0 false
    = ((chunkOf aM k).view.loc (c : Thread nD τ) ↦[(chunkOf aM k).view.set]{half} xcommFull m ρ c) := by
  rw [payload_xfer]; rfl
omit [FloatOps F] in
theorem pay_yr : (sched (F := F) m ρ).payload (yrCell c k) 0 false
    = iprop(∃ fd : Buf (Elt F) ((chunkOf bM k).view.loc (c : Thread nD τ)),
        (chunkOf bM k).view.loc (c : Thread nD τ) ↦[(chunkOf bM k).view.set]{fullShare}
          (chunkOf bM k).view.write (Elt F) fd ((chunkOf aM k).view.read (Elt F) (xcommFull m ρ (yp c))) Finset.univ) := by
  rw [payload_xfer]; rfl
omit [FloatOps F] in
theorem pay_yr_yp : (sched (F := F) m ρ).payload (yrCell (yp c) k) 0 false
    = iprop(∃ fd : Buf (Elt F) ((chunkOf bM k).view.loc ((yp c : Dev nD) : Thread nD τ)),
        (chunkOf bM k).view.loc ((yp c : Dev nD) : Thread nD τ) ↦[(chunkOf bM k).view.set]{fullShare}
          (chunkOf bM k).view.write (Elt F) fd ((chunkOf aM k).view.read (Elt F) (xcommFull m ρ c)) Finset.univ) := by
  rw [payload_xfer]; unfold xferPay; rw [yp_yp]
omit [FloatOps F] in
theorem duties_xs : (sched (F := F) m ρ).duties (xsCell c k) 0 = {false} := duties_xfer m ρ c 0 k
omit [FloatOps F] in
theorem duties_xr : (sched (F := F) m ρ).duties (xrCell c k) 0 = {false} := duties_xfer m ρ c 1 k
omit [FloatOps F] in
theorem duties_ys : (sched (F := F) m ρ).duties (ysCell c k) 0 = {false} := duties_xfer m ρ c 2 k
omit [FloatOps F] in
theorem duties_yr : (sched (F := F) m ρ).duties (yrCell c k) 0 = {false} := duties_xfer m ρ c 3 k
omit [FloatOps F] in
theorem amount_xs (d : Bool) : (sched (F := F) m ρ).amount (xsCell c k) 0 d = 2048 := (amount_xfer m ρ c 0 k d).trans Nc_eq
omit [FloatOps F] in
theorem amount_xr (d : Bool) : (sched (F := F) m ρ).amount (xrCell c k) 0 d = 2048 := (amount_xfer m ρ c 1 k d).trans Nc_eq
omit [FloatOps F] in
theorem amount_ys (d : Bool) : (sched (F := F) m ρ).amount (ysCell c k) 0 d = 2048 := (amount_xfer m ρ c 2 k d).trans Nc_eq
omit [FloatOps F] in
theorem amount_yr (d : Bool) : (sched (F := F) m ρ).amount (yrCell c k) 0 d = 2048 := (amount_xfer m ρ c 3 k d).trans Nc_eq
omit [FloatOps F] in
theorem expect_xs : (sched (F := F) m ρ).expect (xsCell c k) 0 = 2048 := (expect_xfer m ρ c 0 k).trans Nc_eq
omit [FloatOps F] in
theorem expect_xr : (sched (F := F) m ρ).expect (xrCell c k) 0 = 2048 := (expect_xfer m ρ c 1 k).trans Nc_eq
omit [FloatOps F] in
theorem expect_ys : (sched (F := F) m ρ).expect (ysCell c k) 0 = 2048 := (expect_xfer m ρ c 2 k).trans Nc_eq
omit [FloatOps F] in
theorem expect_yr : (sched (F := F) m ρ).expect (yrCell c k) 0 = 2048 := (expect_xfer m ρ c 3 k).trans Nc_eq

end Tables

omit [FloatOps F] in
/-- The entry cell's two duties as a literal set: the run then hands each duty's payload back by itself. -/
theorem duties_bar_lit (c : Dev nD) : (sched (F := F) m ρ).duties (barCell c) 0 = {false, true} := by
  rw [duties_bar]; decide

omit [FloatOps F] in
/-- A whole buffer's points-to, through its whole view (the spelling the run reads a held buffer in). -/
theorem pts_whole (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [View.set_whole]

omit [FloatOps F] in
/-- A raw conjunction in the spelling the proof mode destructs. -/
theorem sep_iprop (A B : sProp 𝕄) : BI.sep A B = iprop(A ∗ B) := rfl

attribute [local sl_rounds high] pay_bar_false_xp pay_bar_true_yp duties_bar_lit pay_xr_xp pay_yr_yp
attribute [local sl_rounds] pay_bar_false_own pay_bar_true_own duties_bar amount_bar expect_bar
  pay_xs pay_xr pay_ys pay_yr duties_xs duties_xr duties_ys duties_yr amount_xs amount_xr amount_ys amount_yr
  expect_xs expect_xr expect_ys expect_yr

/-! ## Taking one cell's record out of the persistent table -/

omit [FloatOps F] in
theorem inv_at (K : Dev nD × CIx → ℕ) (ck : Dev nD × CIx) :
    (bigSep Finset.univ fun ck : Dev nD × CIx => (cellInv ER (sched m ρ) (K ck) (kcell ck) : sProp 𝕄)) ⊢ cellInv ER (sched m ρ) (K ck) (kcell ck) :=
  bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

omit [FloatOps F] in
/-- The head of a list's conjunction, in the spelling the proof mode destructs. -/
theorem bigSepL_cons' {I : Type} (i : I) (l : List I) (Φ : I → sProp 𝕄) : bigSepL (i :: l) Φ = iprop(Φ i ∗ bigSepL l Φ) := by
  rw [bigSepL_cons]; rfl

omit [FloatOps F] in
/-- A persistent fact yields any list of its consequences. -/
theorem bigSepL_of_persistent {I : Type} (R : sProp 𝕄) [BI.Persistent R] (Φ : I → sProp 𝕄) (h : ∀ i, R ⊢ Φ i) (l : List I) :
    R ⊢ bigSepL l Φ := by
  induction l with
  | nil => rw [bigSepL_nil]; iintro -; iempintro
  | cons i l ih =>
    rw [bigSepL_cons']
    iintro #H
    isplitr
    · iapply (h i); iexact H
    · iapply ih; iexact H

/-- The records one chunk's steps name: the device's own four cells, the partners' receive cells it pays into, and that the
    cells it pays have reached round 0. -/
def chunkRec (K : Dev nD × CIx → ℕ) (c : Dev nD) (k : Fin 32) : sProp 𝕄 :=
  iprop(cellInv ER (sched m ρ) (K (c, some (0, k))) (xsCell c k) ∗ cellInv ER (sched m ρ) (K (c, some (1, k))) (xrCell c k)
    ∗ cellInv ER (sched m ρ) (K (c, some (2, k))) (ysCell c k) ∗ cellInv ER (sched m ρ) (K (c, some (3, k))) (yrCell c k)
    ∗ cellInv ER (sched m ρ) (K (xp c, some (1, k))) (xrCell (xp c) k) ∗ cellInv ER (sched m ρ) (K (yp c, some (3, k))) (yrCell (yp c) k)
    ∗ reached ER (xsCell c k) 0 ∗ reached ER (ysCell c k) 0 ∗ reached ER (xrCell (xp c) k) 0 ∗ reached ER (yrCell (yp c) k) 0)

omit [FloatOps F] in
theorem records_open (K : Dev nD × CIx → ℕ) (c : Dev nD) :
    records m ρ K ⊢ iprop((cellInv ER (sched m ρ) (K (c, none)) (barCell c) ∗ cellInv ER (sched m ρ) (K (xp c, none)) (barCell (xp c))
        ∗ cellInv ER (sched m ρ) (K (yp c, none)) (barCell (yp c)) ∗ reached ER (barCell (xp c)) 0 ∗ reached ER (barCell (yp c)) 0)
      ∗ bigSepL fin32list% (chunkRec m ρ K c)) := by
  iintro #H
  isplitr
  · unfold records
    icases H with ⟨#HI, #HR⟩
    isplitr; · iapply (inv_at m ρ K (c, none)); iexact HI
    isplitr; · iapply (inv_at m ρ K (xp c, none)); iexact HI
    isplitr; · iapply (inv_at m ρ K (yp c, none)); iexact HI
    isplitr; · iapply (reached_at (F := F) (xp c, none)); iexact HR
    iapply (reached_at (F := F) (yp c, none)); iexact HR
  · iapply (bigSepL_of_persistent (records m ρ K) (chunkRec m ρ K c) (fun k => by
      unfold records chunkRec
      iintro ⟨#HI, #HR⟩
      isplitr; · iapply (inv_at m ρ K (c, some (0, k))); iexact HI
      isplitr; · iapply (inv_at m ρ K (c, some (1, k))); iexact HI
      isplitr; · iapply (inv_at m ρ K (c, some (2, k))); iexact HI
      isplitr; · iapply (inv_at m ρ K (c, some (3, k))); iexact HI
      isplitr; · iapply (inv_at m ρ K (xp c, some (1, k))); iexact HI
      isplitr; · iapply (inv_at m ρ K (yp c, some (3, k))); iexact HI
      isplitr; · iapply (reached_at (F := F) (c, some (0, k))); iexact HR
      isplitr; · iapply (reached_at (F := F) (c, some (2, k))); iexact HR
      isplitr; · iapply (reached_at (F := F) (xp c, some (1, k))); iexact HR
      iapply (reached_at (F := F) (yp c, some (3, k))); iexact HR) fin32list%)
    iexact H

/-! ## The body -/

/-! ## A row block's credit -/

/-- The credit of a block of 32 rows is 2048 wherever the block starts: it is the credit of the block at row 0. -/
theorem dmaCredit_rows (off : Fin 2 → ℕ) (h : ∀ a, off a + S32x512.size a ≤ S2048x512.size a)
    (hr : ∀ a, (Rect.unit (s := S2048x512) off S32x512.size h).stride a = 1) :
    ((Memref.whole cc0_stg0_0 : Memref sig .tc .vmem S2048x512 .f32).slice (Rect.unit (s := S2048x512) off S32x512.size h) hr).view.dmaCredit = 2048 :=
  (show _ = ((Memref.whole cc0_stg0_0 : Memref sig .tc .vmem S2048x512 .f32).slice
      (Rect.unit (s := S2048x512) (fun _ => 0) S32x512.size (by decide)) (fun _ => rfl)).view.dmaCredit from rfl).trans (by decide)

/-- The same through the view. -/
theorem dmaCredit_rows_view (off : Fin 2 → ℕ) (h : ∀ a, off a + (![32, 512] : Fin 2 → ℕ) a ≤ S2048x512.size a) :
    ((View.whole cc0_stg0_0 : View sig .tc _ _ _).slice (Rect.unit (s := S2048x512) off ![32, 512] h)).dmaCredit = 2048 :=
  dmaCredit_rows off h (fun _ => rfl)

/-! ## The levels' word at the numeral credit -/

theorem above_xr' (c : Dev nD) (k : Fin 32) : Above 1 (tallyAt (xrCell c k) () 2048) := Nc_eq ▸ above_xr c k
theorem above_yr1' (c : Dev nD) (k : Fin 32) : Above 1 (tallyAt (yrCell c k) () 2048) := Nc_eq ▸ above_yr1 c k
theorem above_yr2' (c : Dev nD) (k : Fin 32) : Above 2 (tallyAt (yrCell c k) () 2048) := Nc_eq ▸ above_yr2 c k

/-- Closes `Above n O` for a sum of receive credits. -/
syntax "above_num" : tactic
macro_rules
  | `(tactic| above_num) => `(tactic| first
      | (with_reducible refine above_add ?_ ?_) <;> above_num
      | with_reducible exact above_xr' _ _ | with_reducible exact above_yr1' _ _ | with_reducible exact above_yr2' _ _
      | exact above_zero _)

/-- A landing buffer held whole, cut into its 32 chunks (a list). -/
theorem a_cut (d : Dev nD) (f : Buf (Elt F) (aM.view.loc (d : Thread nD τ))) :
    (aM.view.loc (d : Thread nD τ) ↦[aM.view.set]{fullShare} f : sProp 𝕄)
      ⊢ bigSepL fin32list% fun k : Fin 32 => ((chunkOf aM k).view.loc (d : Thread nD τ) ↦[(chunkOf aM k).view.set]{fullShare} f) := by
  have h := (aWhole_chunks (F := F) d f).1
  unfold aWhole aChunk at h; rw [bigSep_fin32] at h; exact h
theorem b_cut (d : Dev nD) (f : Buf (Elt F) (bM.view.loc (d : Thread nD τ))) :
    (bM.view.loc (d : Thread nD τ) ↦[bM.view.set]{fullShare} f : sProp 𝕄)
      ⊢ bigSepL fin32list% fun k : Fin 32 => ((chunkOf bM k).view.loc (d : Thread nD τ) ↦[(chunkOf bM k).view.set]{fullShare} f) := by
  have h := (bWhole_chunks (F := F) d f).1
  unfold bWhole bChunk at h; rw [bigSep_fin32] at h; exact h

section Body
variable (K : Dev nD × CIx → ℕ)

set_option sl_exec.foldHeartbeats 2 in
set_option sl_exec.dischHeartbeats 100000 in
set_option maxHeartbeats 4000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  unfold bodyPre ghost linear payToks creds aWhole bWhole
  rw [bigSep_fin32, bigSep_fin32]
  iintro ⟨⟨⟨⟨#Hrec, Hat, HtBX, HtBY, Htok⟩, ⟨HcB, Hcr⟩, #Hlev, ⟨%fa, Ha⟩, ⟨%fb, Hb⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  -- the cells' records this device's steps name
  ihave Hro := (records_open m ρ K c) $$ []
  · iexact Hrec
  icases Hro with ⟨⟨#HIb, #HIbx, #HIby, #HRbx, #HRby⟩, Hrl⟩
  unfold chunkRec
  for_chunks "(ihave T := (Entails.of_eq (bigSepL_cons' _ _ _)) $$ Hrl; icases T with ⟨⟨#HIxsζ, #HIxrζ, #HIysζ, #HIyrζ, -, -, #HRxsζ, #HRysζ, -, -⟩, Hrl⟩)"
  -- the tokens and the launch credit, chunk by chunk
  for_chunks "(ihave T := (Entails.of_eq (bigSepL_cons' _ _ _)) $$ Htok; icases T with ⟨⟨Htxsζ, HtxrPζ, Htysζ, HtyrPζ⟩, Htok⟩)"
  for_chunks "(ihave T := (Entails.of_eq (bigSepL_cons' _ _ _)) $$ Hcr; icases T with ⟨⟨Hcxrζ, Hcyrζ⟩, Hcr⟩)"
  -- the positions in the own cells
  ihave T := (Entails.of_eq (atPos_chunks (F := F) c 0)) $$ Hat
  icases T with ⟨Hatb, Hatl⟩
  for_chunks "(ihave T := (Entails.of_eq (bigSepL_cons' _ _ _)) $$ Hatl; icases T with ⟨⟨Hatxsζ, Hatxrζ, Hatysζ, Hatyrζ⟩, Hatl⟩)"
  -- what the device owes, as the chain of its 66 summands
  unfold Dat.owesAt Pipeline.owesWithin
  icases Ho with ⟨%W, %hW, HO⟩
  rw [show (dats m ρ 0 c).owed t₀.castSucc = O₀ c from rfl]
  rw [O₀_rev]; unfold owedRev
  -- every chunk credit as the number it is; a leading zero, so that every payment leaves a sum and the last leaves 0
  rw [Nc_eq]
  rw [← zero_add (tallyAt (yrCell (yp c) 31) () 2048)]
  -- the levels' word for the waits that others pay
  have hmwb := mayWait_bar' (F := F) c
  have hmwx := mayWait_xr' (F := F) c
  -- the x staging buffer: the right half share stays whole for the loads; the left half is cut into the 32 lent row blocks and the rest
  ihave T := (xrows_cut (F := F) c (xstg m ρ c)).1 $$ Hx
  icases T with ⟨Hxr, Hxl, Hxrest⟩
  ihave Hxr := (Entails.of_eq (pts_whole (F := F) c cc0_stg0_0 fullShare.right (xstg m ρ c))) $$ Hxr
  ihave Hout := (Entails.of_eq (pts_whole (F := F) c cc0_stg1_0 fullShare g1)) $$ Hout
  ihave Hxl := (Entails.of_eq (bigSep_fin32 (F := F) _)) $$ Hxl
  for_chunks "(ihave T := (Entails.of_eq (bigSepL_cons' _ _ _)) $$ Hxl; icases T with ⟨Hxlζ, Hxl⟩)"
  sl_unfold [cc0_body]
  -- through the entry handshake (the run has no record of the partners' receive cells in its hands: it stops at a transfer)
  sl_exec (disch := first | simp only [sl_canon] | exact dmaCredit_rows_view _ _ | exact dmaCredit_rows _ _ _ | above_num)
  -- the two partners' landing buffers, each cut into its 32 chunks
  ihave T := (Entails.of_eq (sep_iprop (F := F) _ _)) $$ Hatb_pay1
  icases T with ⟨⟨%fpa, Hpa⟩, ⟨%fpb, Hpb⟩⟩
  ihave Hpa := (a_cut (F := F) (xp c) fpa) $$ Hpa
  ihave Hpb := (b_cut (F := F) (yp c) fpb) $$ Hpb
  for_chunks "(ihave T := (Entails.of_eq (bigSepL_cons' _ _ _)) $$ Hpa; icases T with ⟨Hpaζ, Hpa⟩)"
  for_chunks "(ihave T := (Entails.of_eq (bigSepL_cons' _ _ _)) $$ Hpb; icases T with ⟨Hpbζ, Hpb⟩)"
  -- the 32 transfers to the x-partner, each by the send rule, then on to the next
  for_chunks "(iapply (wp_xsend (F := F) m ρ K c ζ _ (by first | rfl | exact devξ_eq c) fpa _ _) $$ [Hxlζ Hpaζ HO Htxsζ HtxrPζ]; (· (isplitr; (· iexact Hrec); isplitl [Hxlζ]; (· iexact Hxlζ); isplitl [Hpaζ]; (· iexact Hpaζ); isplitl [HO]; (· iexact HO); isplitl [Htxsζ]; (· iexact Htxsζ); iexact HtxrPζ)); iintro ⟨Hcxsζ, HO⟩; ihave Hcxsζ := (Entails.of_eq (congrArg (fun n => (cred (tallyAt (xsCell c ζ) () n) : sProp 𝕄)) (dmaCredit_rows (k0_off1 c ψ#32) (k0_off1_inb c ζ) (fun _ => rfl)).symm)) $$ Hcxsζ; first | sl_exec (disch := first | simp only [sl_canon] | exact dmaCredit_rows_view _ _ | exact dmaCredit_rows _ _ _ | above_num) | skip)"
  -- the second loop: the landed chunk at what it holds, half its share lent to the forward, then loads and the store, then the next arrival
  for_chunks "(ihave T := (landing_x_own (F := F) m ρ c ζ _) $$ Hatxrζ_pay1; ihave T := (pts_halves (F := F) ((chunkOf aM ζ).view.loc (c : Thread nD τ)) (chunkOf aM ζ).view.set (xcommFull m ρ c)).1 $$ T; icases T with ⟨HaLζ, HaRζ⟩; iapply (wp_ysend (F := F) m ρ K c ζ _ (by first | rfl | exact devη_eq c) fpb _ _) $$ [HaLζ Hpbζ HO Htysζ HtyrPζ]; (· (isplitr; (· iexact Hrec); isplitl [HaLζ]; (· iexact HaLζ); isplitl [Hpbζ]; (· iexact Hpbζ); isplitl [HO]; (· iexact HO); isplitl [Htysζ]; (· iexact Htysζ); iexact HtyrPζ)); iintro ⟨Hcysζ, HO⟩; first | sl_exec (disch := first | simp only [sl_canon] | exact dmaCredit_rows_view _ _ | exact dmaCredit_rows _ _ _ | above_num) | skip)"
  -- the run is at the program's end. The pieces gathered into lists, last chunk first
  ihave LA := (listL_nil (F := F) (atL c))
  for_chunks_rev "(ihave LA := (at_cons (F := F) c (ζ : Fin 32) _) $$ Hatxsζ Hatxrζ Hatysζ Hatyrζ LA)"
  ihave La := (listL_nil (F := F) (aL m ρ c))
  for_chunks_rev "(ihave La := (a_cons (F := F) m ρ c (ζ : Fin 32) _) $$ Hatysζ_pay1 HaRζ La)"
  ihave Lb := (listL_nil (F := F) (bL m ρ c))
  for_chunks_rev "(ihave Lb := (b_cons (F := F) m ρ c (ζ : Fin 32) _ _) $$ Hatyrζ_pay1 Lb)"
  ihave Lx := (listL_nil (F := F) (xL m ρ c))
  for_chunks_rev "(ihave Lx := (x_cons (F := F) m ρ c (ζ : Fin 32) _) $$ Hatxsζ_pay1 Lx)"
  -- the 128 own cells close and the three buffers are whole again
  imod (tail_all (F := F) m ρ K c) $$ [LA La Lb Lx Hxr Hxrest] with ⟨HA, HB, HZ, HX⟩
  · isplitr; · iexact Hrec
    isplitl [LA]; · iexact LA
    isplitl [La]; · iexact La
    isplitl [Lb]; · iexact Lb
    isplitl [Lx]; · iexact Lx
    isplitl [Hxr]; · iexact Hxr
    iexact Hxrest
  first | sl_step | (rw [wp_ret]; imodintro)
  iapply Hk
  unfold bodyPost Φ₁ Dat.owesAt Pipeline.owesWithin
  rw [show (dats m ρ 0 c).owed t₀.succ = 0 from rfl]
  ihave Hout := (Entails.of_eq (pts_whole (F := F) c cc0_stg1_0 fullShare _).symm) $$ Hout
  isplitl [HA HB HZ]
  · isplitl [HA]; · iexact HA
    isplitl [HB]; · iexact HB
    iexact HZ
  isplitl [HO]
  · iexists _
    isplitr [HO]
    rotate_left
    · iexact HO
    · ipureintro; exact fun _ _ => Or.inl trivial
  isplitl [HX]
  · iexists _; isplitr; · (ipureintro; rfl)
    iexact HX
  -- the result: the 64 stores, read from the last back to the first, leave every row at its sum
  iexists _
  isplitr [Hout]
  rotate_left
  · iexact Hout
  · ipureintro
    refine rowsDone_done m ρ c _ ?_
    for_chunks_rev "(refine rowsDone_other_step' m ρ c (ζ : Fin 32) Hatyrζ_pay1_v _ ?_)"
    refine rowsDone_turn m ρ c _ ?_
    for_chunks_rev "(refine rowsDone_own_step m ρ c (ζ : Fin 32) _ ?_)"
    exact rowsDone_start m ρ c _

end Body

end Cert.KernelProof

end
-- ==== Proof.lean ====
/-
  The two-step all-reduce on the 2 × 2 × 4 mesh against the one-device sum of the two blocks.

  A device holds one of the two blocks of the input (2048 rows of 512), cut along the mesh's x axis. In 32 chunks of 32 rows it
  sends its y-th half of the rows to the device with the other x, adds what arrives from there to its own rows (that half of
  the result), forwards each arrived chunk to the device with the other y, and adds what arrives from there to the rows of the
  other half. Every result row is therefore the row of the own block plus the same row of the other block: the reference's
  x[0:2048] + x[2048:4096], up to the commutativity of + on the extended reals.

  The three frames are the runs of the three programs with the results dropped; the ideal pass rewrote nothing, so the
  idealization claim is trivial; the value claim is the kernel's run at the ideal instance, whose result on every device is the
  block sum (Claims), beside the reference's run (RefSide).
-/
import proofs.«900707_g7700000000000708_dist_ar_v7x_xyz2x2x4_x_m2048_n512_f32_1_alg».proof.Defs
import proofs.«900707_g7700000000000708_dist_ar_v7x_xyz2x2x4_x_m2048_n512_f32_1_alg».proof.Proof.Gen.Kernel
import proofs.«900707_g7700000000000708_dist_ar_v7x_xyz2x2x4_x_m2048_n512_f32_1_alg».proof.Proof.Gen.KernelIdeal
import proofs.«900707_g7700000000000708_dist_ar_v7x_xyz2x2x4_x_m2048_n512_f32_1_alg».proof.Proof.Gen.ReferenceIdeal
import proofs.«900707_g7700000000000708_dist_ar_v7x_xyz2x2x4_x_m2048_n512_f32_1_alg».proof.Proof.Gen.Pre_finite_inputs_Kernel
import proofs.«900707_g7700000000000708_dist_ar_v7x_xyz2x2x4_x_m2048_n512_f32_1_alg».proof.Proof.Gen.Pre_finite_inputs_ReferenceIdeal
import proofs.«900707_g7700000000000708_dist_ar_v7x_xyz2x2x4_x_m2048_n512_f32_1_alg».proof.Proof.Claims
import proofs.«900707_g7700000000000708_dist_ar_v7x_xyz2x2x4_x_m2048_n512_f32_1_alg».proof.Proof.Oblig
import proofs.«900707_g7700000000000708_dist_ar_v7x_xyz2x2x4_x_m2048_n512_f32_1_alg».proof.Proof.Body
import proofs.«900707_g7700000000000708_dist_ar_v7x_xyz2x2x4_x_m2048_n512_f32_1_alg».proof.Proof.Bits.Final
import proofs.«900707_g7700000000000708_dist_ar_v7x_xyz2x2x4_x_m2048_n512_f32_1_alg».proof.Proof.Bits.Oblig
import proofs.«900707_g7700000000000708_dist_ar_v7x_xyz2x2x4_x_m2048_n512_f32_1_alg».proof.Proof.Bits.Body

noncomputable section

namespace Cert.Proof

open Idealize.ShloMosaic Idealize.SL.Sem

/-- The word-level kernel runs to the end on every device and leaves its argument blocks as they were. -/
theorem frame_k : Cert.frame_Kernel := fun m ρ _ =>
  Cert.KernelProof.frame_of_body m ρ (Cert.KernelProof.body_obligation_of m ρ (Cert.KernelProof.sound_body m ρ))

/-- So does the kernel read at the ideal instance. -/
theorem frame_ki : Cert.frame_KernelIdeal :=
  Cert.KernelIdealProof.frame_ki_of_body fun m ρ => Cert.KernelIdealProof.body_obligation_of m ρ (Cert.KernelIdealProof.sound_body m ρ)

/-- At the ideal instance every device's result is the sum of the two blocks, which is what the reference computes. -/
theorem algebraic : Cert.algebraic_KernelIdeal_ReferenceIdeal :=
  Cert.KernelIdealProof.algebraic_of_body fun m ρ => Cert.KernelIdealProof.body_obligation_of m ρ (Cert.KernelIdealProof.sound_body m ρ)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefSide.frame_ri, trivial, algebraic⟩

end Cert.Proof

end
